-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S2097152x1 : S_.BroadcastsInDim S2097152x1 (![] : Fin 0 → Fin S2097152x1.rank)
  reducesTo_S2097152x1_S_d0_1 : S2097152x1.ReducesTo [0, 1] S_
  bcast_S_S2048383x3 : S_.BroadcastsInDim S2048383x3 (![] : Fin 0 → Fin S2048383x3.rank)
  reducesTo_S2048383x3_S_d0_1 : S2048383x3.ReducesTo [0, 1] S_
  bcast_S_S2097152 : S_.BroadcastsInDim S2097152 (![] : Fin 0 → Fin S2097152.rank)
  reducesTo_S2097152_S_d0 : S2097152.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S3x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S2097152 1) : IVec S_ 1 :=
  let main_c_5 : IVec S_ 1 := constantI S_ 1 1#1
  let main_v17 : IVec S_ 1 := (fun x v => Host.reduce IntOp.andi x v reducesTo_S2097152_S_d0 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2097152x3 .f32) (main_arg1 : FVec F S2097152x1 .f32) (main_arg2 : FVec F S2048383x3 .f32) (main_arg3 : FVec F S2097152 .f32) (main_arg4 : FVec F S3x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : IVec S32768 32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S2097152x1 .f32 := Host.absf main_arg1
  let main_cst_0 : FVec F S_ .f32 := constant S_ .f32 0x7F800000#32
  let main_v5 : FVec F S2097152x1 .f32 := broadcastInDim S2097152x1 ![] bcast_S_S2097152x1 main_cst_0
  let main_v6 : IVec S2097152x1 1 := cmpf .olt main_v4 main_v5
  let main_c_1 : IVec S_ 1 := constantI S_ 1 1#1
  let main_v7 : IVec S_ 1 := (fun x v => Host.reduce IntOp.andi x v reducesTo_S2097152x1_S_d0_1 h_S_) main_v6 main_c_1
  let main_v8 : IVec S_ 1 := andi main_v3 main_v7
  let main_v9 : FVec F S2048383x3 .f32 := Host.absf main_arg2
  let main_cst_2 : FVec F S_ .f32 := constant S_ .f32 0x7F800000#32
  let main_v10 : FVec F S2048383x3 .f32 := broadcastInDim S2048383x3 ![] bcast_S_S2048383x3 main_cst_2
  let main_v11 : IVec S2048383x3 1 := cmpf .olt main_v9 main_v10
  let main_c_3 : IVec S_ 1 := constantI S_ 1 1#1
  let main_v12 : IVec S_ 1 := (fun x v => Host.reduce IntOp.andi x v reducesTo_S2048383x3_S_d0_1 h_S_) main_v11 main_c_3
  let main_v13 : IVec S_ 1 := andi main_v8 main_v12
  let main_v14 : FVec F S2097152 .f32 := Host.absf main_arg3
  let main_cst_4 : FVec F S_ .f32 := constant S_ .f32 0x7F800000#32
  let main_v15 : FVec F S2097152 .f32 := broadcastInDim S2097152 ![] bcast_S_S2097152 main_cst_4
  let main_v16 : IVec S2097152 1 := cmpf .olt main_v14 main_v15
  fn_part1 (F := F) main_arg4 main_arg5 main_arg6 main_arg7 main_arg8 main_arg9 main_arg10 main_arg11 main_v13 main_v16
-- ==== Kernel.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S8x3 : Shape := ⟨2, ![8, 3]⟩
abbrev S_ : Shape := ⟨0, ![]⟩
abbrev S32768x1 : Shape := ⟨2, ![32768, 1]⟩
abbrev S32768x3 : Shape := ⟨2, ![32768, 3]⟩
abbrev S32768x1x3 : Shape := ⟨3, ![32768, 1, 3]⟩
abbrev S1x8x3 : Shape := ⟨3, ![1, 8, 3]⟩
abbrev S32768x8x3 : Shape := ⟨3, ![32768, 8, 3]⟩
abbrev S32768x8x1 : Shape := ⟨3, ![32768, 8, 1]⟩
abbrev S32768x8 : Shape := ⟨2, ![32768, 8]⟩
abbrev S262144 : Shape := ⟨1, ![262144]⟩
abbrev S262144x1 : Shape := ⟨2, ![262144, 1]⟩
abbrev S262144x3 : Shape := ⟨2, ![262144, 3]⟩
abbrev S557056x3 : Shape := ⟨2, ![557056, 3]⟩
abbrev S557056x1 : Shape := ⟨2, ![557056, 1]⟩
abbrev S4352x3 : Shape := ⟨2, ![4352, 3]⟩
abbrev S4352x1 : Shape := ⟨2, ![4352, 1]⟩
abbrev S4352x128 : Shape := ⟨2, ![4352, 128]⟩
abbrev S1x128 : Shape := ⟨2, ![1, 128]⟩
abbrev S1x1 : Shape := ⟨2, ![1, 1]⟩
abbrev S557056 : Shape := ⟨1, ![557056]⟩

abbrev nBuf : Space → Nat
  | .hbm => 309
  | .vmem => 12
  | .smem => 0
  | _ => 0

abbrev hbmTy0_0 (i : Nat) : BufTy := match i % 128 with
  | 0 => ⟨S2097152x3, .f32⟩
  | 1 => ⟨S2097152x1, .f32⟩
  | 2 => ⟨S2048383x3, .f32⟩
  | 3 => ⟨S2097152, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S32768, .i32⟩
  | 13 => ⟨S8x3, .i32⟩
  | 14 => ⟨S8x3, .i32⟩
  | 15 => ⟨S_, .i32⟩
  | 16 => ⟨S_, .i32⟩
  | 17 => ⟨S32768, .i32⟩
  | 18 => ⟨S32768, .i32⟩
  | 19 => ⟨S32768, .i32⟩
  | 20 => ⟨S_, .i32⟩
  | 21 => ⟨S32768, .i32⟩
  | 22 => ⟨S32768, .i1⟩
  | 23 => ⟨S32768, .i32⟩
  | 24 => ⟨S32768, .i32⟩
  | 25 => ⟨S_, .i32⟩
  | 26 => ⟨S32768, .i32⟩
  | 27 => ⟨S32768, .i1⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S32768, .i32⟩
  | 40 => ⟨S32768, .i32⟩
  | 41 => ⟨S_, .i32⟩
  | 42 => ⟨S32768, .i32⟩
  | 43 => ⟨S32768, .i1⟩
  | 44 => ⟨S_, .i32⟩
  | 45 => ⟨S32768, .i32⟩
  | 46 => ⟨S32768, .i1⟩
  | 47 => ⟨S_, .i32⟩
  | 48 => ⟨S_, .i1⟩
  | 49 => ⟨S32768, .i1⟩
  | 50 => ⟨S32768, .i1⟩
  | 51 => ⟨S32768, .i1⟩
  | 52 => ⟨S32768, .i32⟩
  | 53 => ⟨S32768, .i32⟩
  | 54 => ⟨S32768, .i32⟩
  | 55 => ⟨S_, .i32⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S32768, .i32⟩
  | 64 => ⟨S32768, .i32⟩
  | 65 => ⟨S_, .i32⟩
  | 66 => ⟨S32768, .i32⟩
  | 67 => ⟨S32768, .i1⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S32768, .i32⟩
  | 80 => ⟨S32768, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i1⟩
  | 87 => ⟨S_, .i32⟩
  | 88 => ⟨S_, .i1⟩
  | 89 => ⟨S32768, .i1⟩
  | 90 => ⟨S32768, .i1⟩
  | 91 => ⟨S32768, .i1⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i1⟩
  | 101 => ⟨S32768, .i1⟩
  | 102 => ⟨S_, .i32⟩
  | 103 => ⟨S32768, .i32⟩
  | 104 => ⟨S32768, .i1⟩
  | 105 => ⟨S32768, .i1⟩
  | 106 => ⟨S_, .i32⟩
  | 107 => ⟨S32768, .i32⟩
  | 108 => ⟨S32768, .i1⟩
  | 109 => ⟨S32768, .i1⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i1⟩
  | 117 => ⟨S32768, .i1⟩
  | 118 => ⟨S32768, .f32⟩
  | 119 => ⟨S32768x1, .i32⟩
  | 120 => ⟨S32768x1, .i32⟩
  | 121 => ⟨S32768x1, .i32⟩
  | 122 => ⟨S32768x3, .i32⟩
  | 123 => ⟨S32768x1x3, .i32⟩
  | 124 => ⟨S1x8x3, .i32⟩
  | 125 => ⟨S32768x8x3, .i32⟩
  | 126 => ⟨S32768x8x3, .i32⟩
  | 127 => ⟨S32768x8x3, .i32⟩
  | _ => ⟨S2097152x3, .f32⟩

abbrev hbmTy0_1 (i : Nat) : BufTy := match i % 128 with
  | 0 => ⟨S32768x1x3, .i32⟩
  | 1 => ⟨S1x8x3, .i32⟩
  | 2 => ⟨S32768x8x3, .i32⟩
  | 3 => ⟨S32768x8x3, .i32⟩
  | 4 => ⟨S32768x8x3, .i32⟩
  | 5 => ⟨S32768x8x1, .i32⟩
  | 6 => ⟨S32768x8, .i32⟩
  | 7 => ⟨S_, .i32⟩
  | 8 => ⟨S32768x8, .i32⟩
  | 9 => ⟨S32768x8, .i32⟩
  | 10 => ⟨S32768x8x1, .i32⟩
  | 11 => ⟨S32768x8, .i32⟩
  | 12 => ⟨S_, .i32⟩
  | 13 => ⟨S32768x8, .i32⟩
  | 14 => ⟨S32768x8, .i32⟩
  | 15 => ⟨S32768x8, .i32⟩
  | 16 => ⟨S32768x8x1, .i32⟩
  | 17 => ⟨S32768x8, .i32⟩
  | 18 => ⟨S32768x8, .i32⟩
  | 19 => ⟨S_, .i32⟩
  | 20 => ⟨S_, .i32⟩
  | 21 => ⟨S_, .i32⟩
  | 22 => ⟨S32768x8, .i32⟩
  | 23 => ⟨S32768x8, .i32⟩
  | 24 => ⟨S_, .i32⟩
  | 25 => ⟨S32768x8, .i32⟩
  | 26 => ⟨S32768x8, .i32⟩
  | 27 => ⟨S32768x8x1, .i32⟩
  | 28 => ⟨S32768x8, .i32⟩
  | 29 => ⟨S_, .i32⟩
  | 30 => ⟨S32768x8, .i32⟩
  | 31 => ⟨S32768x8, .i32⟩
  | 32 => ⟨S32768x8x1, .i32⟩
  | 33 => ⟨S32768x8, .i32⟩
  | 34 => ⟨S_, .i32⟩
  | 35 => ⟨S32768x8, .i32⟩
  | 36 => ⟨S32768x8, .i32⟩
  | 37 => ⟨S32768x8, .i32⟩
  | 38 => ⟨S32768x8x1, .i32⟩
  | 39 => ⟨S32768x8, .i32⟩
  | 40 => ⟨S32768x8, .i32⟩
  | 41 => ⟨S_, .i32⟩
  | 42 => ⟨S_, .i32⟩
  | 43 => ⟨S_, .i32⟩
  | 44 => ⟨S32768x8, .i32⟩
  | 45 => ⟨S32768x8, .i32⟩
  | 46 => ⟨S_, .i32⟩
  | 47 => ⟨S32768x8, .i32⟩
  | 48 => ⟨S32768x8, .i32⟩
  | 49 => ⟨S_, .i32⟩
  | 50 => ⟨S32768, .i32⟩
  | 51 => ⟨S32768, .i1⟩
  | 52 => ⟨S_, .i32⟩
  | 53 => ⟨S32768, .i32⟩
  | 54 => ⟨S32768, .i32⟩
  | 55 => ⟨S32768, .i32⟩
  | 56 => ⟨S32768x1, .i32⟩
  | 57 => ⟨S32768x3, .f32⟩
  | 58 => ⟨S262144, .i32⟩
  | 59 => ⟨S_, .i32⟩
  | 60 => ⟨S262144, .i32⟩
  | 61 => ⟨S262144, .i1⟩
  | 62 => ⟨S_, .i32⟩
  | 63 => ⟨S262144, .i32⟩
  | 64 => ⟨S262144, .i32⟩
  | 65 => ⟨S262144, .i32⟩
  | 66 => ⟨S262144x1, .i32⟩
  | 67 => ⟨S262144x3, .f32⟩
  | 68 => ⟨S262144, .i32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S262144x3, .f32⟩
  | 78 => ⟨S557056x3, .f32⟩
  | 79 => ⟨S557056x1, .f32⟩
  | 80 => ⟨S557056, .f32⟩
  | 81 => ⟨S32768, .f32⟩
  | 82 => ⟨S262144, .f32⟩
  | 83 => ⟨S32768x8, .f32⟩
  | 84 => ⟨S262144, .f32⟩
  | 85 => ⟨S32768x8, .f32⟩
  | 86 => ⟨S_, .i32⟩
  | 87 => ⟨S32768, .i32⟩
  | 88 => ⟨S32768, .i1⟩
  | 89 => ⟨S_, .i32⟩
  | 90 => ⟨S32768, .i32⟩
  | 91 => ⟨S32768, .i32⟩
  | 92 => ⟨S32768, .i32⟩
  | 93 => ⟨S32768x1, .i32⟩
  | 94 => ⟨S32768x1, .f32⟩
  | 95 => ⟨S32768, .f32⟩
  | 96 => ⟨S32768, .f32⟩
  | 97 => ⟨S32768, .f32⟩
  | 98 => ⟨S_, .f32⟩
  | 99 => ⟨S_, .f32⟩
  | 100 => ⟨S_, .f32⟩
  | 101 => ⟨S_, .f32⟩
  | 102 => ⟨S32768x1, .f32⟩
  | 103 => ⟨S32768, .f32⟩
  | 104 => ⟨S32768x1, .f32⟩
  | 105 => ⟨S32768, .f32⟩
  | 106 => ⟨S32768x1, .f32⟩
  | 107 => ⟨S32768, .f32⟩
  | 108 => ⟨S32768x1, .f32⟩
  | 109 => ⟨S32768, .f32⟩
  | 110 => ⟨S32768, .f32⟩
  | 111 => ⟨S32768, .f32⟩
  | 112 => ⟨S32768, .f32⟩
  | 113 => ⟨S32768, .f32⟩
  | 114 => ⟨S32768, .f32⟩
  | 115 => ⟨S32768, .f32⟩
  | 116 => ⟨S32768, .f32⟩
  | 117 => ⟨S_, .f32⟩
  | 118 => ⟨S32768, .f32⟩
  | 119 => ⟨S32768, .f32⟩
  | 120 => ⟨S32768, .f32⟩
  | 121 => ⟨S32768x1, .f32⟩
  | 122 => ⟨S32768, .f32⟩
  | 123 => ⟨S32768x1, .f32⟩
  | 124 => ⟨S32768, .f32⟩
  | 125 => ⟨S32768x1, .f32⟩
  | 126 => ⟨S32768, .f32⟩
  | 127 => ⟨S32768x1, .f32⟩
  | _ => ⟨S2097152x3, .f32⟩

abbrev hbmTy0_2 (i : Nat) : BufTy := match i % 128 with
  | 0 => ⟨S32768, .f32⟩
  | 1 => ⟨S32768, .f32⟩
  | 2 => ⟨S32768, .f32⟩
  | 3 => ⟨S32768, .f32⟩
  | 4 => ⟨S32768, .f32⟩
  | 5 => ⟨S32768, .f32⟩
  | 6 => ⟨S32768, .f32⟩
  | 7 => ⟨S32768, .f32⟩
  | 8 => ⟨S_, .f32⟩
  | 9 => ⟨S32768, .f32⟩
  | 10 => ⟨S32768, .f32⟩
  | 11 => ⟨S32768, .f32⟩
  | 12 => ⟨S32768, .f32⟩
  | 13 => ⟨S32768x1, .f32⟩
  | 14 => ⟨S32768, .f32⟩
  | 15 => ⟨S32768x1, .f32⟩
  | 16 => ⟨S32768, .f32⟩
  | 17 => ⟨S32768x1, .f32⟩
  | 18 => ⟨S32768, .f32⟩
  | 19 => ⟨S32768x1, .f32⟩
  | 20 => ⟨S32768, .f32⟩
  | 21 => ⟨S32768, .f32⟩
  | 22 => ⟨S32768, .f32⟩
  | 23 => ⟨S32768, .f32⟩
  | 24 => ⟨S32768, .f32⟩
  | 25 => ⟨S32768, .f32⟩
  | 26 => ⟨S32768, .f32⟩
  | 27 => ⟨S32768, .f32⟩
  | 28 => ⟨S_, .f32⟩
  | 29 => ⟨S32768, .f32⟩
  | 30 => ⟨S32768, .f32⟩
  | 31 => ⟨S32768, .f32⟩
  | 32 => ⟨S32768, .f32⟩
  | 33 => ⟨S_, .i32⟩
  | 34 => ⟨S32768, .i32⟩
  | 35 => ⟨S32768, .i1⟩
  | 36 => ⟨S_, .i32⟩
  | 37 => ⟨S32768, .i32⟩
  | 38 => ⟨S32768, .i32⟩
  | 39 => ⟨S32768, .i32⟩
  | 40 => ⟨S32768x1, .i32⟩
  | 41 => ⟨S32768, .f32⟩
  | 42 => ⟨S32768, .f32⟩
  | 43 => ⟨S32768, .f32⟩
  | 44 => ⟨S32768, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | .local _ .vmem, ⟨0, _⟩ => ⟨S4352x3, .f32⟩
  | .local _ .vmem, ⟨1, _⟩ => ⟨S4352x3, .f32⟩
  | .local _ .vmem, ⟨2, _⟩ => ⟨S3x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x1, .f32⟩
  | .local _ .vmem, ⟨9, _⟩ => ⟨S1, .f32⟩
  | .local _ .vmem, ⟨10, _⟩ => ⟨S4352x1, .f32⟩
  | .local _ .vmem, ⟨11, _⟩ => ⟨S4352x1, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v0 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v1 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v2 : Ref sig .tc := ⟨.hbm, 72, rfl⟩
abbrev main_c_4 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v3 : Ref sig .tc := ⟨.hbm, 94, rfl⟩
abbrev main_c_5 : Ref sig .tc := ⟨.hbm, 95, rfl⟩
abbrev main_v4 : Ref sig .tc := ⟨.hbm, 96, rfl⟩
abbrev main_v5 : Ref sig .tc := ⟨.hbm, 97, rfl⟩
abbrev main_c_6 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_c_7 : Ref sig .tc := ⟨.hbm, 102, rfl⟩
abbrev main_v9 : Ref sig .tc := ⟨.hbm, 103, rfl⟩
abbrev main_v10 : Ref sig .tc := ⟨.hbm, 104, rfl⟩
abbrev main_v11 : Ref sig .tc := ⟨.hbm, 105, rfl⟩
abbrev main_c_8 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_c_9 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_c_10 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_c_11 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_12 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_c_13 : Ref sig .tc := ⟨.hbm, 147, rfl⟩
abbrev main_c_14 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_c_15 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_c_16 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_c_17 : Ref sig .tc := ⟨.hbm, 169, rfl⟩
abbrev main_c_18 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v61 : Ref sig .tc := ⟨.hbm, 176, rfl⟩
abbrev main_c_19 : Ref sig .tc := ⟨.hbm, 177, rfl⟩
abbrev main_v62 : Ref sig .tc := ⟨.hbm, 178, rfl⟩
abbrev main_v63 : Ref sig .tc := ⟨.hbm, 179, rfl⟩
abbrev main_c_20 : Ref sig .tc := ⟨.hbm, 180, rfl⟩
abbrev main_v64 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_c_21 : Ref sig .tc := ⟨.hbm, 187, rfl⟩
abbrev main_v70 : Ref sig .tc := ⟨.hbm, 188, rfl⟩
abbrev main_v71 : Ref sig .tc := ⟨.hbm, 189, rfl⟩
abbrev main_c_22 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_c_23 : Ref sig .tc := ⟨.hbm, 197, rfl⟩
abbrev main_v78 : Ref sig .tc := ⟨.hbm, 198, rfl⟩
abbrev main_v79 : Ref sig .tc := ⟨.hbm, 199, rfl⟩
abbrev main_c_24 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_c_25 : Ref sig .tc := ⟨.hbm, 214, rfl⟩
abbrev main_v93 : Ref sig .tc := ⟨.hbm, 215, rfl⟩
abbrev main_v94 : Ref sig .tc := ⟨.hbm, 216, rfl⟩
abbrev main_c_26 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_cst : Ref sig .tc := ⟨.hbm, 226, rfl⟩
abbrev main_v103 : Ref sig .tc := ⟨.hbm, 227, rfl⟩
abbrev main_cst_27 : Ref sig .tc := ⟨.hbm, 228, rfl⟩
abbrev main_v104 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_v118 : Ref sig .tc := ⟨.hbm, 243, rfl⟩
abbrev main_v119 : Ref sig .tc := ⟨.hbm, 244, rfl⟩
abbrev main_cst_28 : Ref sig .tc := ⟨.hbm, 245, rfl⟩
abbrev main_v120 : Ref sig .tc := ⟨.hbm, 246, rfl⟩
abbrev main_v121 : Ref sig .tc := ⟨.hbm, 247, rfl⟩
abbrev main_v122 : Ref sig .tc := ⟨.hbm, 248, rfl⟩
abbrev main_v123 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_cst_29 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_v147 : Ref sig .tc := ⟨.hbm, 274, rfl⟩
abbrev main_v148 : Ref sig .tc := ⟨.hbm, 275, rfl⟩
abbrev main_v149 : Ref sig .tc := ⟨.hbm, 276, rfl⟩
abbrev main_v150 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_cst_30 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_v160 : Ref sig .tc := ⟨.hbm, 288, rfl⟩
abbrev main_c_31 : Ref sig .tc := ⟨.hbm, 289, rfl⟩
abbrev main_v161 : Ref sig .tc := ⟨.hbm, 290, rfl⟩
abbrev main_v162 : Ref sig .tc := ⟨.hbm, 291, rfl⟩
abbrev main_c_32 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_cst_33 : Ref sig .tc := ⟨.hbm, 301, rfl⟩
abbrev main_v171 : Ref sig .tc := ⟨.hbm, 302, rfl⟩
abbrev main_cst_34 : Ref sig .tc := ⟨.hbm, 303, rfl⟩
abbrev main_v172 : Ref sig .tc := ⟨.hbm, 304, rfl⟩
abbrev main_cst_35 : Ref sig .tc := ⟨.hbm, 305, rfl⟩
abbrev main_v173 : Ref sig .tc := ⟨.hbm, 306, rfl⟩
abbrev main_v174 : Ref sig .tc := ⟨.hbm, 307, rfl⟩
abbrev main_v175 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4352x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4352x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x1_S32768x3_d1 : Shape.Concatenates [S32768x1, S32768x1, S32768x1] S32768x3 1
  bcast_S32768x3_S32768x1x3_0_2 : S32768x3.BroadcastsInDim S32768x1x3 (![0, 2] : Fin 2 → Fin S32768x1x3.rank)
  bcast_S8x3_S1x8x3_1_2 : S8x3.BroadcastsInDim S1x8x3 (![1, 2] : Fin 2 → Fin S1x8x3.rank)
  bcast_S32768x1x3_S32768x8x3_0_1_2 : S32768x1x3.BroadcastsInDim S32768x8x3 (![0, 1, 2] : Fin 3 → Fin S32768x8x3.rank)
  bcast_S1x8x3_S32768x8x3_0_1_2 : S1x8x3.BroadcastsInDim S32768x8x3 (![0, 1, 2] : Fin 3 → Fin S32768x8x3.rank)
  slices_S32768x8x3_S32768x8x1_0_0_0 : S32768x8x3.Slices ![0, 0, 0] S32768x8x1
  shapeCasts_S32768x8x1_S32768x8 : S32768x8x1.ShapeCasts S32768x8
  bcast_S_S32768x8 : S_.BroadcastsInDim S32768x8 (![] : Fin 0 → Fin S32768x8.rank)
  slices_S32768x8x3_S32768x8x1_0_0_1 : S32768x8x3.Slices ![0, 0, 1] S32768x8x1
  slices_S32768x8x3_S32768x8x1_0_0_2 : S32768x8x3.Slices ![0, 0, 2] S32768x8x1
  shapeCasts_S32768x8_S262144 : S32768x8.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  concatenates_S32768x3_S262144x3_S262144x3_S557056x3_d0 : Shape.Concatenates [S32768x3, S262144x3, S262144x3] S557056x3 0
  inb_S4352x3_S4352x3_0_0 : ∀ a, (![0, 0] : Fin 2 → Nat) a + S4352x3.size a ≤ S4352x3.size a
  h_S4352x3 : 0 < S4352x3.numel
  shapeCasts_S4352x3_S4352x3 : S4352x3.ShapeCasts S4352x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S128_S128_0 : ∀ a, (![0] : Fin 1 → Nat) a + S128.size a ≤ S128.size a
  h_S128 : 0 < S128.numel
  shapeCasts_S128_S1x128 : S128.ShapeCasts S1x128
  broadcasts_S1x128_S4352x128 : S1x128.Broadcasts S4352x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4352x1 : S1x1.Broadcasts S4352x1
  inb_S4352x1_S4352x1_0_0 : ∀ a, (![0, 0] : Fin 2 → Nat) a + S4352x1.size a ≤ S4352x1.size a
  h_S4352x1 : 0 < S4352x1.numel
  shapeCasts_S557056x1_S557056 : S557056x1.ShapeCasts S557056
  slices_S557056_S32768_0 : S557056.Slices ![0] S32768
  slices_S557056_S262144_32768 : S557056.Slices ![32768] S262144
  shapeCasts_S262144_S32768x8 : S262144.ShapeCasts S32768x8
  slices_S557056_S262144_294912 : S557056.Slices ![294912] S262144
  shapeCasts_S32768x1_S32768 : S32768x1.ShapeCasts S32768
  reducesTo_S32768_S_d0 : S32768.ReducesTo [0] S_
  h_S_ : 0 < S_.numel
  slices_S32768x8_S32768x1_0_7 : S32768x8.Slices ![0, 7] S32768x1
  slices_S32768x8_S32768x1_0_0 : S32768x8.Slices ![0, 0] S32768x1
  slices_S32768x8_S32768x1_0_3 : S32768x8.Slices ![0, 3] S32768x1
  slices_S32768x8_S32768x1_0_4 : S32768x8.Slices ![0, 4] S32768x1
  slices_S32768x8_S32768x1_0_5 : S32768x8.Slices ![0, 5] S32768x1
  slices_S32768x8_S32768x1_0_2 : S32768x8.Slices ![0, 2] S32768x1
  gather_S2097152x3_S32768x1_S32768x3_1_0_n_n_0_1_13_wf : GatherDims.WF S2097152x3 S32768x1 S32768x3 [1] [0] [] [0] [] 1 ![1, 3]
  gather_S2048383x3_S262144x1_S262144x3_1_0_n_n_0_1_13_wf : GatherDims.WF S2048383x3 S262144x1 S262144x3 [1] [0] [] [0] [] 1 ![1, 3]
  gather_S2097152x3_S262144x1_S262144x3_1_0_n_n_0_1_13_wf : GatherDims.WF S2097152x3 S262144x1 S262144x3 [1] [0] [] [0] [] 1 ![1, 3]
  dot_S4352x3_S3x128_S4352x128_1_0_0_1_n_n_wf : DotDims.WF S4352x3 S3x128 S4352x128 [1] [0] [0] [1] [] []
  dot_S4352x128_S128x128_S4352x128_1_0_0_1_n_n_wf : DotDims.WF S4352x128 S128x128 S4352x128 [1] [0] [0] [1] [] []
  dot_S4352x128_S128x1_S4352x1_1_0_0_1_n_n_wf : DotDims.WF S4352x128 S128x1 S4352x1 [1] [0] [0] [1] [] []
  gather_S2097152x1_S32768x1_S32768x1_1_0_n_n_0_1_11_wf : GatherDims.WF S2097152x1 S32768x1 S32768x1 [1] [0] [] [0] [] 1 ![1, 1]
  gather_S2097152_S32768x1_S32768_n_0_n_n_0_1_1_wf : GatherDims.WF S2097152 S32768x1 S32768 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4352x3.size a ≤ S557056x3.size a
  hwx0_0 : ∀ i : grid0.Coords, EltTy.bits .f32 = 32 ∨ (Rect.block (s := S557056x3) S4352x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4352x1.size a ≤ S557056x1.size a
  hwx0_9 : ∀ i : grid0.Coords, EltTy.bits .f32 = 32 ∨ (Rect.block (s := S557056x1) S4352x1.size (cc0_transform_9 i) (hinb0_9 i)).WholeWords (EltTy.packing .f32)

variable [Facts₀]

def gather_S2097152x3_S32768x1_S32768x3_1_0_n_n_0_1_13 : GatherDims S2097152x3 S32768x1 S32768x3 where
  offsetDims := [1]
  collapsedSliceDims := [0]
  operandBatchingDims := []
  startIndicesBatchingDims := []
  startIndexMap := [0]
  indexVectorDim := 1
  sliceSizes := ![1, 3]
  wf := gather_S2097152x3_S32768x1_S32768x3_1_0_n_n_0_1_13_wf
def gather_S2048383x3_S262144x1_S262144x3_1_0_n_n_0_1_13 : GatherDims S2048383x3 S262144x1 S262144x3 where
  offsetDims := [1]
  collapsedSliceDims := [0]
  operandBatchingDims := []
  startIndicesBatchingDims := []
  startIndexMap := [0]
  indexVectorDim := 1
  sliceSizes := ![1, 3]
  wf := gather_S2048383x3_S262144x1_S262144x3_1_0_n_n_0_1_13_wf
def gather_S2097152x3_S262144x1_S262144x3_1_0_n_n_0_1_13 : GatherDims S2097152x3 S262144x1 S262144x3 where
  offsetDims := [1]
  collapsedSliceDims := [0]
  operandBatchingDims := []
  startIndicesBatchingDims := []
  startIndexMap := [0]
  indexVectorDim := 1
  sliceSizes := ![1, 3]
  wf := gather_S2097152x3_S262144x1_S262144x3_1_0_n_n_0_1_13_wf
def dot_S4352x3_S3x128_S4352x128_1_0_0_1_n_n : DotDims S4352x3 S3x128 S4352x128 where
  lhsContracting := [1]
  rhsContracting := [0]
  lhsNonContracting := [0]
  rhsNonContracting := [1]
  lhsBatch := []
  rhsBatch := []
  wf := dot_S4352x3_S3x128_S4352x128_1_0_0_1_n_n_wf
def dot_S4352x128_S128x128_S4352x128_1_0_0_1_n_n : DotDims S4352x128 S128x128 S4352x128 where
  lhsContracting := [1]
  rhsContracting := [0]
  lhsNonContracting := [0]
  rhsNonContracting := [1]
  lhsBatch := []
  rhsBatch := []
  wf := dot_S4352x128_S128x128_S4352x128_1_0_0_1_n_n_wf
def dot_S4352x128_S128x1_S4352x1_1_0_0_1_n_n : DotDims S4352x128 S128x1 S4352x1 where
  lhsContracting := [1]
  rhsContracting := [0]
  lhsNonContracting := [0]
  rhsNonContracting := [1]
  lhsBatch := []
  rhsBatch := []
  wf := dot_S4352x128_S128x1_S4352x1_1_0_0_1_n_n_wf
def gather_S2097152x1_S32768x1_S32768x1_1_0_n_n_0_1_11 : GatherDims S2097152x1 S32768x1 S32768x1 where
  offsetDims := [1]
  collapsedSliceDims := [0]
  operandBatchingDims := []
  startIndicesBatchingDims := []
  startIndexMap := [0]
  indexVectorDim := 1
  sliceSizes := ![1, 1]
  wf := gather_S2097152x1_S32768x1_S32768x1_1_0_n_n_0_1_11_wf
def gather_S2097152_S32768x1_S32768_n_0_n_n_0_1_1 : GatherDims S2097152 S32768x1 S32768 where
  offsetDims := []
  collapsedSliceDims := [0]
  operandBatchingDims := []
  startIndicesBatchingDims := []
  startIndexMap := [0]
  indexVectorDim := 1
  sliceSizes := ![1]
  wf := gather_S2097152_S32768x1_S32768_n_0_n_n_0_1_1_wf

abbrev win0_0 : Pipeline.Window sig grid0 :=
  Pipeline.Window.ofSpec (Memref.whole main_v85) S4352x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v86) S4352x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S8x3 : Shape := ⟨2, ![8, 3]⟩
abbrev S_ : Shape := ⟨0, ![]⟩
abbrev S32768x1 : Shape := ⟨2, ![32768, 1]⟩
abbrev S32768x3 : Shape := ⟨2, ![32768, 3]⟩
abbrev S32768x128 : Shape := ⟨2, ![32768, 128]⟩
abbrev S1x128 : Shape := ⟨2, ![1, 128]⟩
abbrev S1x1 : Shape := ⟨2, ![1, 1]⟩
abbrev S32768x1x3 : Shape := ⟨3, ![32768, 1, 3]⟩
abbrev S1x8x3 : Shape := ⟨3, ![1, 8, 3]⟩
abbrev S32768x8x3 : Shape := ⟨3, ![32768, 8, 3]⟩
abbrev S32768x8x1 : Shape := ⟨3, ![32768, 8, 1]⟩
abbrev S32768x8 : Shape := ⟨2, ![32768, 8]⟩
abbrev S262144x3 : Shape := ⟨2, ![262144, 3]⟩
abbrev S262144x128 : Shape := ⟨2, ![262144, 128]⟩
abbrev S262144x1 : Shape := ⟨2, ![262144, 1]⟩

abbrev nBuf : Space → Nat
  | .hbm => 361
  | .vmem => 0
  | .smem => 0
  | _ => 0

abbrev hbmTy0_0 (i : Nat) : BufTy := match i % 128 with
  | 0 => ⟨S2097152x3, .f32⟩
  | 1 => ⟨S2097152x1, .f32⟩
  | 2 => ⟨S2048383x3, .f32⟩
  | 3 => ⟨S2097152, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S32768, .i32⟩
  | 13 => ⟨S8x3, .i32⟩
  | 14 => ⟨S8x3, .i32⟩
  | 15 => ⟨S_, .i32⟩
  | 16 => ⟨S_, .i32⟩
  | 17 => ⟨S32768, .i32⟩
  | 18 => ⟨S32768, .i32⟩
  | 19 => ⟨S32768, .i32⟩
  | 20 => ⟨S_, .i32⟩
  | 21 => ⟨S32768, .i32⟩
  | 22 => ⟨S32768, .i1⟩
  | 23 => ⟨S32768, .i32⟩
  | 24 => ⟨S32768, .i32⟩
  | 25 => ⟨S_, .i32⟩
  | 26 => ⟨S32768, .i32⟩
  | 27 => ⟨S32768, .i1⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S32768, .i32⟩
  | 40 => ⟨S32768, .i32⟩
  | 41 => ⟨S_, .i32⟩
  | 42 => ⟨S32768, .i32⟩
  | 43 => ⟨S32768, .i1⟩
  | 44 => ⟨S_, .i32⟩
  | 45 => ⟨S32768, .i32⟩
  | 46 => ⟨S32768, .i1⟩
  | 47 => ⟨S_, .i32⟩
  | 48 => ⟨S_, .i1⟩
  | 49 => ⟨S32768, .i1⟩
  | 50 => ⟨S32768, .i1⟩
  | 51 => ⟨S32768, .i1⟩
  | 52 => ⟨S32768, .i32⟩
  | 53 => ⟨S32768, .i32⟩
  | 54 => ⟨S32768, .i32⟩
  | 55 => ⟨S_, .i32⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S32768, .i32⟩
  | 64 => ⟨S32768, .i32⟩
  | 65 => ⟨S_, .i32⟩
  | 66 => ⟨S32768, .i32⟩
  | 67 => ⟨S32768, .i1⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S32768, .i32⟩
  | 80 => ⟨S32768, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i1⟩
  | 87 => ⟨S_, .i32⟩
  | 88 => ⟨S_, .i1⟩
  | 89 => ⟨S32768, .i1⟩
  | 90 => ⟨S32768, .i1⟩
  | 91 => ⟨S32768, .i1⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i1⟩
  | 101 => ⟨S32768, .i1⟩
  | 102 => ⟨S_, .i32⟩
  | 103 => ⟨S32768, .i32⟩
  | 104 => ⟨S32768, .i1⟩
  | 105 => ⟨S32768, .i1⟩
  | 106 => ⟨S_, .i32⟩
  | 107 => ⟨S32768, .i32⟩
  | 108 => ⟨S32768, .i1⟩
  | 109 => ⟨S32768, .i1⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i1⟩
  | 117 => ⟨S32768, .i1⟩
  | 118 => ⟨S32768, .f32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768x3, .f32⟩
  | _ => ⟨S2097152x3, .f32⟩

abbrev hbmTy0_1 (i : Nat) : BufTy := match i % 128 with
  | 0 => ⟨S32768x128, .f32⟩
  | 1 => ⟨S1x128, .f32⟩
  | 2 => ⟨S32768x128, .f32⟩
  | 3 => ⟨S32768x128, .f32⟩
  | 4 => ⟨S32768x128, .f32⟩
  | 5 => ⟨S32768x128, .f32⟩
  | 6 => ⟨S1x128, .f32⟩
  | 7 => ⟨S32768x128, .f32⟩
  | 8 => ⟨S32768x128, .f32⟩
  | 9 => ⟨S32768x128, .f32⟩
  | 10 => ⟨S32768x128, .f32⟩
  | 11 => ⟨S1x128, .f32⟩
  | 12 => ⟨S32768x128, .f32⟩
  | 13 => ⟨S32768x128, .f32⟩
  | 14 => ⟨S32768x128, .f32⟩
  | 15 => ⟨S32768x1, .f32⟩
  | 16 => ⟨S1x1, .f32⟩
  | 17 => ⟨S32768x1, .f32⟩
  | 18 => ⟨S32768x1, .f32⟩
  | 19 => ⟨S32768, .f32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S32768x1, .f32⟩
  | 29 => ⟨S32768, .f32⟩
  | 30 => ⟨S32768, .f32⟩
  | 31 => ⟨S32768, .f32⟩
  | 32 => ⟨S_, .f32⟩
  | 33 => ⟨S_, .f32⟩
  | 34 => ⟨S_, .f32⟩
  | 35 => ⟨S_, .f32⟩
  | 36 => ⟨S32768x1, .i32⟩
  | 37 => ⟨S32768x1, .i32⟩
  | 38 => ⟨S32768x1, .i32⟩
  | 39 => ⟨S32768x3, .i32⟩
  | 40 => ⟨S32768x1x3, .i32⟩
  | 41 => ⟨S1x8x3, .i32⟩
  | 42 => ⟨S32768x8x3, .i32⟩
  | 43 => ⟨S32768x8x3, .i32⟩
  | 44 => ⟨S32768x8x3, .i32⟩
  | 45 => ⟨S32768x1x3, .i32⟩
  | 46 => ⟨S1x8x3, .i32⟩
  | 47 => ⟨S32768x8x3, .i32⟩
  | 48 => ⟨S32768x8x3, .i32⟩
  | 49 => ⟨S32768x8x3, .i32⟩
  | 50 => ⟨S32768x8x1, .i32⟩
  | 51 => ⟨S32768x8, .i32⟩
  | 52 => ⟨S_, .i32⟩
  | 53 => ⟨S32768x8, .i32⟩
  | 54 => ⟨S32768x8, .i32⟩
  | 55 => ⟨S32768x8x1, .i32⟩
  | 56 => ⟨S32768x8, .i32⟩
  | 57 => ⟨S_, .i32⟩
  | 58 => ⟨S32768x8, .i32⟩
  | 59 => ⟨S32768x8, .i32⟩
  | 60 => ⟨S32768x8, .i32⟩
  | 61 => ⟨S32768x8x1, .i32⟩
  | 62 => ⟨S32768x8, .i32⟩
  | 63 => ⟨S32768x8, .i32⟩
  | 64 => ⟨S_, .i32⟩
  | 65 => ⟨S_, .i32⟩
  | 66 => ⟨S_, .i32⟩
  | 67 => ⟨S32768x8, .i32⟩
  | 68 => ⟨S32768x8, .i32⟩
  | 69 => ⟨S_, .i32⟩
  | 70 => ⟨S32768x8, .i32⟩
  | 71 => ⟨S32768x8, .i32⟩
  | 72 => ⟨S32768x8x1, .i32⟩
  | 73 => ⟨S32768x8, .i32⟩
  | 74 => ⟨S_, .i32⟩
  | 75 => ⟨S32768x8, .i32⟩
  | 76 => ⟨S32768x8, .i32⟩
  | 77 => ⟨S32768x8x1, .i32⟩
  | 78 => ⟨S32768x8, .i32⟩
  | 79 => ⟨S_, .i32⟩
  | 80 => ⟨S32768x8, .i32⟩
  | 81 => ⟨S32768x8, .i32⟩
  | 82 => ⟨S32768x8, .i32⟩
  | 83 => ⟨S32768x8x1, .i32⟩
  | 84 => ⟨S32768x8, .i32⟩
  | 85 => ⟨S32768x8, .i32⟩
  | 86 => ⟨S_, .i32⟩
  | 87 => ⟨S_, .i32⟩
  | 88 => ⟨S_, .i32⟩
  | 89 => ⟨S32768x8, .i32⟩
  | 90 => ⟨S32768x8, .i32⟩
  | 91 => ⟨S_, .i32⟩
  | 92 => ⟨S32768x8, .i32⟩
  | 93 => ⟨S32768x8, .i32⟩
  | 94 => ⟨S_, .i32⟩
  | 95 => ⟨S32768x8, .i32⟩
  | 96 => ⟨S32768x8, .i1⟩
  | 97 => ⟨S_, .i32⟩
  | 98 => ⟨S32768x8, .i32⟩
  | 99 => ⟨S32768x8, .i32⟩
  | 100 => ⟨S32768x8, .i32⟩
  | 101 => ⟨S32768x8x1, .i32⟩
  | 102 => ⟨S32768x8x3, .f32⟩
  | 103 => ⟨S262144x3, .f32⟩
  | 104 => ⟨S262144x128, .f32⟩
  | 105 => ⟨S1x128, .f32⟩
  | 106 => ⟨S262144x128, .f32⟩
  | 107 => ⟨S262144x128, .f32⟩
  | 108 => ⟨S262144x128, .f32⟩
  | 109 => ⟨S262144x128, .f32⟩
  | 110 => ⟨S1x128, .f32⟩
  | 111 => ⟨S262144x128, .f32⟩
  | 112 => ⟨S262144x128, .f32⟩
  | 113 => ⟨S262144x128, .f32⟩
  | 114 => ⟨S262144x128, .f32⟩
  | 115 => ⟨S1x128, .f32⟩
  | 116 => ⟨S262144x128, .f32⟩
  | 117 => ⟨S262144x128, .f32⟩
  | 118 => ⟨S262144x128, .f32⟩
  | 119 => ⟨S262144x1, .f32⟩
  | 120 => ⟨S1x1, .f32⟩
  | 121 => ⟨S262144x1, .f32⟩
  | 122 => ⟨S262144x1, .f32⟩
  | 123 => ⟨S32768x8, .f32⟩
  | 124 => ⟨S_, .i32⟩
  | 125 => ⟨S32768x8, .i32⟩
  | 126 => ⟨S32768x8, .i1⟩
  | 127 => ⟨S_, .i32⟩
  | _ => ⟨S2097152x3, .f32⟩

abbrev hbmTy0_2 (i : Nat) : BufTy := match i % 128 with
  | 0 => ⟨S32768x8, .i32⟩
  | 1 => ⟨S32768x8, .i32⟩
  | 2 => ⟨S32768x8, .i32⟩
  | 3 => ⟨S32768x8x1, .i32⟩
  | 4 => ⟨S32768x8x3, .f32⟩
  | 5 => ⟨S262144x3, .f32⟩
  | 6 => ⟨S262144x128, .f32⟩
  | 7 => ⟨S1x128, .f32⟩
  | 8 => ⟨S262144x128, .f32⟩
  | 9 => ⟨S262144x128, .f32⟩
  | 10 => ⟨S262144x128, .f32⟩
  | 11 => ⟨S262144x128, .f32⟩
  | 12 => ⟨S1x128, .f32⟩
  | 13 => ⟨S262144x128, .f32⟩
  | 14 => ⟨S262144x128, .f32⟩
  | 15 => ⟨S262144x128, .f32⟩
  | 16 => ⟨S262144x128, .f32⟩
  | 17 => ⟨S1x128, .f32⟩
  | 18 => ⟨S262144x128, .f32⟩
  | 19 => ⟨S262144x128, .f32⟩
  | 20 => ⟨S262144x128, .f32⟩
  | 21 => ⟨S262144x1, .f32⟩
  | 22 => ⟨S1x1, .f32⟩
  | 23 => ⟨S262144x1, .f32⟩
  | 24 => ⟨S262144x1, .f32⟩
  | 25 => ⟨S32768x8, .f32⟩
  | 26 => ⟨S32768x1, .f32⟩
  | 27 => ⟨S32768, .f32⟩
  | 28 => ⟨S32768x1, .f32⟩
  | 29 => ⟨S32768, .f32⟩
  | 30 => ⟨S32768x1, .f32⟩
  | 31 => ⟨S32768, .f32⟩
  | 32 => ⟨S32768x1, .f32⟩
  | 33 => ⟨S32768, .f32⟩
  | 34 => ⟨S32768, .f32⟩
  | 35 => ⟨S32768, .f32⟩
  | 36 => ⟨S32768, .f32⟩
  | 37 => ⟨S32768, .f32⟩
  | 38 => ⟨S32768, .f32⟩
  | 39 => ⟨S32768, .f32⟩
  | 40 => ⟨S32768, .f32⟩
  | 41 => ⟨S_, .f32⟩
  | 42 => ⟨S32768, .f32⟩
  | 43 => ⟨S32768, .f32⟩
  | 44 => ⟨S32768, .f32⟩
  | 45 => ⟨S32768x1, .f32⟩
  | 46 => ⟨S32768, .f32⟩
  | 47 => ⟨S32768x1, .f32⟩
  | 48 => ⟨S32768, .f32⟩
  | 49 => ⟨S32768x1, .f32⟩
  | 50 => ⟨S32768, .f32⟩
  | 51 => ⟨S32768x1, .f32⟩
  | 52 => ⟨S32768, .f32⟩
  | 53 => ⟨S32768, .f32⟩
  | 54 => ⟨S32768, .f32⟩
  | 55 => ⟨S32768, .f32⟩
  | 56 => ⟨S32768, .f32⟩
  | 57 => ⟨S32768, .f32⟩
  | 58 => ⟨S32768, .f32⟩
  | 59 => ⟨S32768, .f32⟩
  | 60 => ⟨S_, .f32⟩
  | 61 => ⟨S32768, .f32⟩
  | 62 => ⟨S32768, .f32⟩
  | 63 => ⟨S32768, .f32⟩
  | 64 => ⟨S32768, .f32⟩
  | 65 => ⟨S32768x1, .f32⟩
  | 66 => ⟨S32768, .f32⟩
  | 67 => ⟨S32768x1, .f32⟩
  | 68 => ⟨S32768, .f32⟩
  | 69 => ⟨S32768x1, .f32⟩
  | 70 => ⟨S32768, .f32⟩
  | 71 => ⟨S32768x1, .f32⟩
  | 72 => ⟨S32768, .f32⟩
  | 73 => ⟨S32768, .f32⟩
  | 74 => ⟨S32768, .f32⟩
  | 75 => ⟨S32768, .f32⟩
  | 76 => ⟨S32768, .f32⟩
  | 77 => ⟨S32768, .f32⟩
  | 78 => ⟨S32768, .f32⟩
  | 79 => ⟨S32768, .f32⟩
  | 80 => ⟨S_, .f32⟩
  | 81 => ⟨S32768, .f32⟩
  | 82 => ⟨S32768, .f32⟩
  | 83 => ⟨S32768, .f32⟩
  | 84 => ⟨S32768, .f32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768, .f32⟩
  | 94 => ⟨S32768, .f32⟩
  | 95 => ⟨S32768, .f32⟩
  | 96 => ⟨S32768, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v0 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v1 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v2 : Ref sig .tc := ⟨.hbm, 72, rfl⟩
abbrev main_c_4 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v3 : Ref sig .tc := ⟨.hbm, 94, rfl⟩
abbrev main_c_5 : Ref sig .tc := ⟨.hbm, 95, rfl⟩
abbrev main_v4 : Ref sig .tc := ⟨.hbm, 96, rfl⟩
abbrev main_v5 : Ref sig .tc := ⟨.hbm, 97, rfl⟩
abbrev main_c_6 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_c_7 : Ref sig .tc := ⟨.hbm, 102, rfl⟩
abbrev main_v9 : Ref sig .tc := ⟨.hbm, 103, rfl⟩
abbrev main_v10 : Ref sig .tc := ⟨.hbm, 104, rfl⟩
abbrev main_v11 : Ref sig .tc := ⟨.hbm, 105, rfl⟩
abbrev main_c_8 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_c_9 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_c_10 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_c_11 : Ref sig .tc := ⟨.hbm, 119, rfl⟩
abbrev main_v22 : Ref sig .tc := ⟨.hbm, 120, rfl⟩
abbrev main_v23 : Ref sig .tc := ⟨.hbm, 121, rfl⟩
abbrev main_c_12 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_c_13 : Ref sig .tc := ⟨.hbm, 148, rfl⟩
abbrev main_v49 : Ref sig .tc := ⟨.hbm, 149, rfl⟩
abbrev main_v50 : Ref sig .tc := ⟨.hbm, 150, rfl⟩
abbrev main_c_14 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_cst : Ref sig .tc := ⟨.hbm, 160, rfl⟩
abbrev main_v59 : Ref sig .tc := ⟨.hbm, 161, rfl⟩
abbrev main_cst_15 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_c_16 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_c_17 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_c_18 : Ref sig .tc := ⟨.hbm, 192, rfl⟩
abbrev main_c_19 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_c_20 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_c_21 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_c_22 : Ref sig .tc := ⟨.hbm, 214, rfl⟩
abbrev main_c_23 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_v100 : Ref sig .tc := ⟨.hbm, 221, rfl⟩
abbrev main_c_24 : Ref sig .tc := ⟨.hbm, 222, rfl⟩
abbrev main_v101 : Ref sig .tc := ⟨.hbm, 223, rfl⟩
abbrev main_v102 : Ref sig .tc := ⟨.hbm, 224, rfl⟩
abbrev main_c_25 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_c_26 : Ref sig .tc := ⟨.hbm, 252, rfl⟩
abbrev main_v129 : Ref sig .tc := ⟨.hbm, 253, rfl⟩
abbrev main_v130 : Ref sig .tc := ⟨.hbm, 254, rfl⟩
abbrev main_c_27 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_cst_28 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_cst_29 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_cst_30 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_c_31 : Ref sig .tc := ⟨.hbm, 341, rfl⟩
abbrev main_v213 : Ref sig .tc := ⟨.hbm, 342, rfl⟩
abbrev main_v214 : Ref sig .tc := ⟨.hbm, 343, rfl⟩
abbrev main_c_32 : Ref sig .tc := ⟨.hbm, 344, rfl⟩
abbrev main_v215 : Ref sig .tc := ⟨.hbm, 345, rfl⟩
abbrev main_v216 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_cst_33 : Ref sig .tc := ⟨.hbm, 353, rfl⟩
abbrev main_v223 : Ref sig .tc := ⟨.hbm, 354, rfl⟩
abbrev main_cst_34 : Ref sig .tc := ⟨.hbm, 355, rfl⟩
abbrev main_v224 : Ref sig .tc := ⟨.hbm, 356, rfl⟩
abbrev main_cst_35 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768 : S32768x1.ShapeCasts S32768
  reducesTo_S32768_S_d0 : S32768.ReducesTo [0] S_
  h_S_ : 0 < S_.numel
  concatenates_S32768x1_S32768x1_S32768x1_S32768x3_d1 : Shape.Concatenates [S32768x1, S32768x1, S32768x1] S32768x3 1
  bcast_S32768x3_S32768x1x3_0_2 : S32768x3.BroadcastsInDim S32768x1x3 (![0, 2] : Fin 2 → Fin S32768x1x3.rank)
  bcast_S8x3_S1x8x3_1_2 : S8x3.BroadcastsInDim S1x8x3 (![1, 2] : Fin 2 → Fin S1x8x3.rank)
  bcast_S32768x1x3_S32768x8x3_0_1_2 : S32768x1x3.BroadcastsInDim S32768x8x3 (![0, 1, 2] : Fin 3 → Fin S32768x8x3.rank)
  bcast_S1x8x3_S32768x8x3_0_1_2 : S1x8x3.BroadcastsInDim S32768x8x3 (![0, 1, 2] : Fin 3 → Fin S32768x8x3.rank)
  slices_S32768x8x3_S32768x8x1_0_0_0 : S32768x8x3.Slices ![0, 0, 0] S32768x8x1
  shapeCasts_S32768x8x1_S32768x8 : S32768x8x1.ShapeCasts S32768x8
  bcast_S_S32768x8 : S_.BroadcastsInDim S32768x8 (![] : Fin 0 → Fin S32768x8.rank)
  slices_S32768x8x3_S32768x8x1_0_0_1 : S32768x8x3.Slices ![0, 0, 1] S32768x8x1
  slices_S32768x8x3_S32768x8x1_0_0_2 : S32768x8x3.Slices ![0, 0, 2] S32768x8x1
  bcast_S32768x8_S32768x8x1_0_1 : S32768x8.BroadcastsInDim S32768x8x1 (![0, 1] : Fin 2 → Fin S32768x8x1.rank)
  shapeCasts_S32768x8x3_S262144x3 : S32768x8x3.ShapeCasts S262144x3
  bcast_S1x128_S262144x128_0_1 : S1x128.BroadcastsInDim S262144x128 (![0, 1] : Fin 2 → Fin S262144x128.rank)
  bcast_S1x1_S262144x1_0_1 : S1x1.BroadcastsInDim S262144x1 (![0, 1] : Fin 2 → Fin S262144x1.rank)
  shapeCasts_S262144x1_S32768x8 : S262144x1.ShapeCasts S32768x8
  slices_S32768x8_S32768x1_0_7 : S32768x8.Slices ![0, 7] S32768x1
  slices_S32768x8_S32768x1_0_0 : S32768x8.Slices ![0, 0] S32768x1
  slices_S32768x8_S32768x1_0_3 : S32768x8.Slices ![0, 3] S32768x1
  slices_S32768x8_S32768x1_0_4 : S32768x8.Slices ![0, 4] S32768x1
  slices_S32768x8_S32768x1_0_5 : S32768x8.Slices ![0, 5] S32768x1
  slices_S32768x8_S32768x1_0_2 : S32768x8.Slices ![0, 2] S32768x1
  gather_S2097152x3_S32768x1_S32768x3_1_0_n_n_0_1_13_wf : GatherDims.WF S2097152x3 S32768x1 S32768x3 [1] [0] [] [0] [] 1 ![1, 3]
  dot_S32768x3_S3x128_S32768x128_1_0_0_1_n_n_wf : DotDims.WF S32768x3 S3x128 S32768x128 [1] [0] [0] [1] [] []
  dot_S32768x128_S128x128_S32768x128_1_0_0_1_n_n_wf : DotDims.WF S32768x128 S128x128 S32768x128 [1] [0] [0] [1] [] []
  dot_S32768x128_S128x1_S32768x1_1_0_0_1_n_n_wf : DotDims.WF S32768x128 S128x1 S32768x1 [1] [0] [0] [1] [] []
  gather_S2097152x1_S32768x1_S32768x1_1_0_n_n_0_1_11_wf : GatherDims.WF S2097152x1 S32768x1 S32768x1 [1] [0] [] [0] [] 1 ![1, 1]
  gather_S2048383x3_S32768x8x1_S32768x8x3_2_0_n_n_0_2_13_wf : GatherDims.WF S2048383x3 S32768x8x1 S32768x8x3 [2] [0] [] [0] [] 2 ![1, 3]
  dot_S262144x3_S3x128_S262144x128_1_0_0_1_n_n_wf : DotDims.WF S262144x3 S3x128 S262144x128 [1] [0] [0] [1] [] []
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []
  gather_S2097152x3_S32768x8x1_S32768x8x3_2_0_n_n_0_2_13_wf : GatherDims.WF S2097152x3 S32768x8x1 S32768x8x3 [2] [0] [] [0] [] 2 ![1, 3]
  gather_S2097152_S32768x1_S32768_n_0_n_n_0_1_1_wf : GatherDims.WF S2097152 S32768x1 S32768 [] [0] [] [0] [] 1 ![1]

variable [Facts₀]

def gather_S2097152x3_S32768x1_S32768x3_1_0_n_n_0_1_13 : GatherDims S2097152x3 S32768x1 S32768x3 where
  offsetDims := [1]
  collapsedSliceDims := [0]
  operandBatchingDims := []
  startIndicesBatchingDims := []
  startIndexMap := [0]
  indexVectorDim := 1
  sliceSizes := ![1, 3]
  wf := gather_S2097152x3_S32768x1_S32768x3_1_0_n_n_0_1_13_wf
def dot_S32768x3_S3x128_S32768x128_1_0_0_1_n_n : DotDims S32768x3 S3x128 S32768x128 where
  lhsContracting := [1]
  rhsContracting := [0]
  lhsNonContracting := [0]
  rhsNonContracting := [1]
  lhsBatch := []
  rhsBatch := []
  wf := dot_S32768x3_S3x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x128_S128x1_S32768x1_1_0_0_1_n_n : DotDims S32768x128 S128x1 S32768x1 where
  lhsContracting := [1]
  rhsContracting := [0]
  lhsNonContracting := [0]
  rhsNonContracting := [1]
  lhsBatch := []
  rhsBatch := []
  wf := dot_S32768x128_S128x1_S32768x1_1_0_0_1_n_n_wf
def gather_S2097152x1_S32768x1_S32768x1_1_0_n_n_0_1_11 : GatherDims S2097152x1 S32768x1 S32768x1 where
  offsetDims := [1]
  collapsedSliceDims := [0]
  operandBatchingDims := []
  startIndicesBatchingDims := []
  startIndexMap := [0]
  indexVectorDim := 1
  sliceSizes := ![1, 1]
  wf := gather_S2097152x1_S32768x1_S32768x1_1_0_n_n_0_1_11_wf
def gather_S2048383x3_S32768x8x1_S32768x8x3_2_0_n_n_0_2_13 : GatherDims S2048383x3 S32768x8x1 S32768x8x3 where
  offsetDims := [2]
  collapsedSliceDims := [0]
  operandBatchingDims := []
  startIndicesBatchingDims := []
  startIndexMap := [0]
  indexVectorDim := 2
  sliceSizes := ![1, 3]
  wf := gather_S2048383x3_S32768x8x1_S32768x8x3_2_0_n_n_0_2_13_wf
def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def gather_S2097152x3_S32768x8x1_S32768x8x3_2_0_n_n_0_2_13 : GatherDims S2097152x3 S32768x8x1 S32768x8x3 where
  offsetDims := [2]
  collapsedSliceDims := [0]
  operandBatchingDims := []
  startIndicesBatchingDims := []
  startIndexMap := [0]
  indexVectorDim := 2
  sliceSizes := ![1, 3]
  wf := gather_S2097152x3_S32768x8x1_S32768x8x3_2_0_n_n_0_2_13_wf
def gather_S2097152_S32768x1_S32768_n_0_n_n_0_1_1 : GatherDims S2097152 S32768x1 S32768 where
  offsetDims := []
  collapsedSliceDims := [0]
  operandBatchingDims := []
  startIndicesBatchingDims := []
  startIndexMap := [0]
  indexVectorDim := 1
  sliceSizes := ![1]
  wf := gather_S2097152_S32768x1_S32768_n_0_n_n_0_1_1_wf

class Facts : Prop extends Facts₀ where

variable [Facts]
-- ==== Proof.KernelFrame.lean ====
import proofs.«182125_j62079457296719_1_alg».proof.Proof.Gen.Kernel
import proofs.«182125_j62079457296719_1_alg».proof.Proof.Gen.Kernel.Launch
import proofs.«182125_j62079457296719_1_alg».proof.Proof.Gen.Kernel.Skeleton
import proofs.«182125_j62079457296719_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of `@main`: the thirteen stretches of host operations before the one region, the region
    (a 4-layer perceptron over 128 blocks of 4352 rows), and the 101 host operations after it run to
    the end without fault, and the thirteen argument arrays end as they were launched. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write

Every host operation of `@main` writes exactly one buffer, its own result: a TensorCore reference whose
index within its memory space grows with the program text. The thirteen arguments sit at indices 0 … 12, the
operations before the region write indices from 13 on, the region's operand and result arrays sit at 206 and
207, and the operations after the region write indices from 208 on. -/

/-- The operation writes exactly one buffer: a TensorCore reference whose index in its space is at least `lo`. -/
def WritesFrom (lo : ℕ) (op : HloOp τ sig (Elt F)) : Prop :=
  ∃ y : Ref sig .tc, op.writes = {Proc.devRef .tc y} ∧ lo ≤ y.idx.val

/-- Such an operation writes no reference of a smaller index. -/
theorem WritesFrom.not_mem {lo : ℕ} {op : HloOp τ sig (Elt F)} (h : WritesFrom lo op) {r : Ref sig .tc} (hr : r.idx.val < lo) :
    Proc.devRef .tc r ∉ op.writes := by
  obtain ⟨y, hy, hlo⟩ := h
  rw [hy, Finset.mem_singleton]
  intro e
  have hry : r = y := Proc.devRef_injective _ e
  subst hry
  omega

theorem hostOps0_from : (hostOps0 : List (HloOp τ sig (Elt F))).Forall (WritesFrom 13) :=
  ⟨⟨_, rfl, by decide⟩, ⟨_, rfl, by decide⟩, ⟨_, rfl, by decide⟩⟩
theorem hostOps0_fresh : (hostOps0 : List (HloOp τ sig (Elt F))).Forall fun op => op.fresh = ∅ :=
  ⟨rfl, rfl, rfl⟩

theorem hostOps0_1_from : (hostOps0_1 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl⟩

theorem hostOps0_2_from : (hostOps0_2 : List (HloOp τ sig (Elt F))).Forall (WritesFrom 13) :=
  ⟨_, rfl, by decide⟩
theorem hostOps0_2_fresh : (hostOps0_2 : List (HloOp τ sig (Elt F))).Forall fun op => op.fresh = ∅ :=
  rfl

theorem hostOps0_3_from : (hostOps0_3 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem hostOps0_4_from : (hostOps0_4 : List (HloOp τ sig (Elt F))).Forall (WritesFrom 13) :=
  ⟨_, rfl, by decide⟩
theorem hostOps0_4_fresh : (hostOps0_4 : List (HloOp τ sig (Elt F))).Forall fun op => op.fresh = ∅ :=
  rfl

theorem hostOps0_5_from : (hostOps0_5 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_5_fresh : (hostOps0_5 : List (HloOp τ sig (Elt F))).Forall fun op => op.fresh = ∅ :=
  ⟨rfl, rfl, rfl, rfl, rfl, rfl, rfl, rfl, rfl, rfl, rfl, rfl, rfl, rfl, rfl, rfl, rfl⟩

theorem hostOps0_6_from : (hostOps0_6 : List (HloOp τ sig (Elt F))).Forall (WritesFrom 13) :=
  ⟨_, rfl, by decide⟩
theorem hostOps0_6_fresh : (hostOps0_6 : List (HloOp τ sig (Elt F))).Forall fun op => op.fresh = ∅ :=
  rfl

theorem hostOps0_7_from : (hostOps0_7 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_7_fresh : (hostOps0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem hostOps0_8_from : (hostOps0_8 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem hostOps0_9_from : (hostOps0_9 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩⟩
theorem hostOps0_9_fresh : (hostOps0_9 : List (HloOp τ sig (Elt F))).Forall fun op => op.fresh = ∅ :=
  ⟨rfl, rfl, rfl, rfl, rfl, rfl⟩

theorem hostOps0_10_from : (hostOps0_10 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_10_fresh : (hostOps0_10 : List (HloOp τ sig (Elt F))).Forall fun op => op.fresh = ∅ :=
  ⟨rfl, rfl, rfl, rfl, rfl, rfl, rfl, rfl, rfl, rfl, rfl, rfl, rfl, rfl, rfl, rfl⟩

theorem hostOps0_11_from : (hostOps0_11 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩⟩
theorem hostOps0_11_fresh : (hostOps0_11 : List (HloOp τ sig (Elt F))).Forall fun op => op.fresh = ∅ :=
  ⟨rfl, rfl, rfl, rfl, rfl, rfl⟩

theorem hostOps0_12_from : (hostOps0_12 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_12_fresh : (hostOps0_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem hostOps1_from : (hostOps1 : List (HloOp τ sig (Elt F))).Forall (WritesFrom 208) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every array of the pipeline sits below the indices the operations after the region write. -/
theorem arr_lt : ∀ w : Fin 10, (Pipeline.arrRef spec0 w).idx.val < 208 := by decide

/-! ## @main around the region -/

/-- Core `c`'s buffer contents when the region is entered: the launch contents run through the thirteen
    stretches of host operations before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same, read at a TensorCore reference. -/
abbrev V (c : Dev nD) (b : Ref sig .tc) : Buf (Elt F) ((c : Thread nD τ).loc b) := V0 m c (Proc.devRef .tc b)

/-- The stretches before the region, as one list of lists. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

theorem prefix_fresh : (prefixOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩

/-- Every operation before the region writes an index from 13 on. -/
theorem prefix_from : ∀ op ∈ List.flatten (prefixOps (F := F)), WritesFrom 13 op := by
  have h : (prefixOps (F := F)).Forall fun ops => ops.Forall (WritesFrom 13) :=
    ⟨hostOps0_from, hostOps0_1_from, hostOps0_2_from, hostOps0_3_from, hostOps0_4_from, hostOps0_5_from, hostOps0_6_from, hostOps0_7_from, hostOps0_8_from, hostOps0_9_from, hostOps0_10_from, hostOps0_11_from, hostOps0_12_from⟩
  intro op hop
  obtain ⟨ops, hops, hin⟩ := List.mem_flatten.mp hop
  exact List.forall_iff_forall_mem.mp (List.forall_iff_forall_mem.mp h ops hops) op hin

/-- Every operation after the region writes an index from 208 on. -/
theorem tail_from : ∀ op ∈ List.flatten [(hostOps1 : List (HloOp τ sig (Elt F)))], WritesFrom 208 op := by
  intro op hop
  obtain ⟨ops, hops, hin⟩ := List.mem_flatten.mp hop
  obtain rfl := List.mem_singleton.mp hops
  exact List.forall_iff_forall_mem.mp hostOps1_from op hin

/-- A reference of index below 13 enters the region as launched. -/
theorem entry_keeps (c : Dev nD) (r : Ref sig .tc) (hr : r.idx.val < 13) : V m c r = m ((c : Thread nD τ).loc r) :=
  StableHlo.after_of_forall_not_mem (b := Proc.devRef .tc r) _ _ fun op hop => (prefix_from op hop).not_mem hr

/-- A reference of index below 208 passes the operations after the region untouched. -/
theorem tail_keeps (W : Valuation τ sig (Elt F)) (r : Ref sig .tc) (hr : r.idx.val < 208) :
    StableHlo.after (List.flatten [(hostOps1 : List (HloOp τ sig (Elt F)))]) W (Proc.devRef .tc r) = W (Proc.devRef .tc r) :=
  StableHlo.after_of_forall_not_mem (b := Proc.devRef .tc r) _ _ fun op hop => (tail_from op hop).not_mem hr

/-- @main is the prefix stretches, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The tail touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op (List.forall_iff_forall_mem.mp hostOps1_sub op hop)
/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact List.forall_iff_forall_mem.mp hostOps1_fresh op hop
/-- It writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact (List.forall_iff_forall_mem.mp hostOps1_from op hop).not_mem (arr_lt w)

/-! ## The argument arrays at the region's entry -/

theorem V_main_arg0 (c : Dev nD) : V m c main_arg0 = m ((c : Thread nD τ).loc main_arg0) :=
  entry_keeps m c main_arg0 (by decide)

theorem V_main_arg1 (c : Dev nD) : V m c main_arg1 = m ((c : Thread nD τ).loc main_arg1) :=
  entry_keeps m c main_arg1 (by decide)

theorem V_main_arg2 (c : Dev nD) : V m c main_arg2 = m ((c : Thread nD τ).loc main_arg2) :=
  entry_keeps m c main_arg2 (by decide)

theorem V_main_arg3 (c : Dev nD) : V m c main_arg3 = m ((c : Thread nD τ).loc main_arg3) :=
  entry_keeps m c main_arg3 (by decide)

theorem V_main_arg4 (c : Dev nD) : V m c main_arg4 = m ((c : Thread nD τ).loc main_arg4) :=
  entry_keeps m c main_arg4 (by decide)

theorem V_main_arg5 (c : Dev nD) : V m c main_arg5 = m ((c : Thread nD τ).loc main_arg5) :=
  entry_keeps m c main_arg5 (by decide)

theorem V_main_arg6 (c : Dev nD) : V m c main_arg6 = m ((c : Thread nD τ).loc main_arg6) :=
  entry_keeps m c main_arg6 (by decide)

theorem V_main_arg7 (c : Dev nD) : V m c main_arg7 = m ((c : Thread nD τ).loc main_arg7) :=
  entry_keeps m c main_arg7 (by decide)

theorem V_main_arg8 (c : Dev nD) : V m c main_arg8 = m ((c : Thread nD τ).loc main_arg8) :=
  entry_keeps m c main_arg8 (by decide)

theorem V_main_arg9 (c : Dev nD) : V m c main_arg9 = m ((c : Thread nD τ).loc main_arg9) :=
  entry_keeps m c main_arg9 (by decide)

theorem V_main_arg10 (c : Dev nD) : V m c main_arg10 = m ((c : Thread nD τ).loc main_arg10) :=
  entry_keeps m c main_arg10 (by decide)

theorem V_main_arg11 (c : Dev nD) : V m c main_arg11 = m ((c : Thread nD τ).loc main_arg11) :=
  entry_keeps m c main_arg11 (by decide)

theorem V_main_arg12 (c : Dev nD) : V m c main_arg12 = m ((c : Thread nD τ).loc main_arg12) :=
  entry_keeps m c main_arg12 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rOut : Rect S4352x1 := Rect.unit (s := S4352x1) ![0, 0] S4352x1.size inb_S4352x1_S4352x1_0_0
abbrev rIn0 : Rect S4352x3 := Rect.unit (s := S4352x3) ![0, 0] S4352x3.size inb_S4352x3_S4352x3_0_0
abbrev rIn1 : Rect S3x128 := Rect.unit (s := S3x128) ![0, 0] S3x128.size inb_S3x128_S3x128_0_0
abbrev rIn2 : Rect S128 := Rect.unit (s := S128) ![0] S128.size inb_S128_S128_0
abbrev rIn3 : Rect S128x128 := Rect.unit (s := S128x128) ![0, 0] S128x128.size inb_S128x128_S128x128_0_0
abbrev rIn4 : Rect S128 := Rect.unit (s := S128) ![0] S128.size inb_S128_S128_0
abbrev rIn5 : Rect S128x128 := Rect.unit (s := S128x128) ![0, 0] S128x128.size inb_S128x128_S128x128_0_0
abbrev rIn6 : Rect S128 := Rect.unit (s := S128) ![0] S128.size inb_S128_S128_0
abbrev rIn7 : Rect S128x1 := Rect.unit (s := S128x1) ![0, 0] S128x1.size inb_S128x1_S128x1_0_0
abbrev rIn8 : Rect S1 := Rect.unit (s := S1) ![0] S1.size inb_S1_S1_0

/-- The output window's staging buffer after the body, from the nine input blocks: the one store, whole. -/
def outBlk (x0 : Vec F S4352x3 .f32) (x1 : Vec F S3x128 .f32) (x2 : Vec F S128 .f32) (x3 : Vec F S128x128 .f32) (x4 : Vec F S128 .f32) (x5 : Vec F S128x128 .f32) (x6 : Vec F S128 .f32) (x7 : Vec F S128x1 .f32) (x8 : Vec F S1 .f32) : Vec F S4352x1 .f32 :=
  View.canon [⟨rOut, k0_pay1 (View.ld x0 rIn0) (View.ld x1 rIn1) (View.ld x2 rIn2) (View.ld x3 rIn3) (View.ld x4 rIn4) (View.ld x5 rIn5) (View.ld x6 rIn6) (View.ld x7 rIn7) (View.ld x8 rIn8)⟩]

/-- The store covers the buffer. -/
theorem cover_out (p0 : Vec F S4352x1 .f32) (y : S4352x1.Idx) :
    ∃ pc ∈ ([⟨rOut, p0⟩] : List (View.Piece (Elt F) S4352x1 .f32)), y ∈ pc.1.set :=
  View.cover_of_tiled [⟨rOut, p0⟩] S4352x1.size (by rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlk (iblk m c 0 t) (iblk m c 1 t) (iblk m c 2 t) (iblk m c 3 t) (iblk m c 4 t) (iblk m c 5 t) (iblk m c 6 t) (iblk m c 7 t) (iblk m c 8 t) := by dsimp only [dats]

/-! ## The argument arrays at the end -/

theorem W_main_arg0 (c : Dev nD) : Pipeline.afterTail₀ cfgs (dats m) 0 (V0 m) [hostOps1] c main_arg0 = m ((c : Thread nD τ).loc main_arg0) := by
  unfold Pipeline.afterTail₀
  rw [tail_keeps _ main_arg0 (by decide),
    Pipeline.withArrays_of_ne _ c (V0 m c) _ main_arg0 (by exact (by decide : ∀ w, Pipeline.arrRef spec0 w ≠ main_arg0))]
  exact V_main_arg0 m c

theorem W_main_arg1 (c : Dev nD) : Pipeline.afterTail₀ cfgs (dats m) 0 (V0 m) [hostOps1] c main_arg1 = m ((c : Thread nD τ).loc main_arg1) := by
  unfold Pipeline.afterTail₀
  rw [tail_keeps _ main_arg1 (by decide),
    Pipeline.withArrays_of_ne _ c (V0 m c) _ main_arg1 (by exact (by decide : ∀ w, Pipeline.arrRef spec0 w ≠ main_arg1))]
  exact V_main_arg1 m c

theorem W_main_arg2 (c : Dev nD) : Pipeline.afterTail₀ cfgs (dats m) 0 (V0 m) [hostOps1] c main_arg2 = m ((c : Thread nD τ).loc main_arg2) := by
  unfold Pipeline.afterTail₀
  rw [tail_keeps _ main_arg2 (by decide),
    Pipeline.withArrays_of_ne _ c (V0 m c) _ main_arg2 (by exact (by decide : ∀ w, Pipeline.arrRef spec0 w ≠ main_arg2))]
  exact V_main_arg2 m c

theorem W_main_arg3 (c : Dev nD) : Pipeline.afterTail₀ cfgs (dats m) 0 (V0 m) [hostOps1] c main_arg3 = m ((c : Thread nD τ).loc main_arg3) := by
  unfold Pipeline.afterTail₀
  rw [tail_keeps _ main_arg3 (by decide),
    Pipeline.withArrays_of_ne _ c (V0 m c) _ main_arg3 (by exact (by decide : ∀ w, Pipeline.arrRef spec0 w ≠ main_arg3))]
  exact V_main_arg3 m c

theorem W_main_arg4 (c : Dev nD) : Pipeline.afterTail₀ cfgs (dats m) 0 (V0 m) [hostOps1] c main_arg4 = m ((c : Thread nD τ).loc main_arg4) := by
  unfold Pipeline.afterTail₀
  rw [tail_keeps _ main_arg4 (by decide)]
  exact (Pipeline.withArrays_arr (cfgs 0).spec launch0.win.arr_inj c (V0 m c) (fun w => (dats m 0 c).arrAt w (cfgs 0).N) (1 : Fin 10)).trans
    (((dats m 0 c).arrAt_in 1 rfl _).trans ((A_eq m c 1).trans (V_main_arg4 m c)))

theorem W_main_arg5 (c : Dev nD) : Pipeline.afterTail₀ cfgs (dats m) 0 (V0 m) [hostOps1] c main_arg5 = m ((c : Thread nD τ).loc main_arg5) := by
  unfold Pipeline.afterTail₀
  rw [tail_keeps _ main_arg5 (by decide)]
  exact (Pipeline.withArrays_arr (cfgs 0).spec launch0.win.arr_inj c (V0 m c) (fun w => (dats m 0 c).arrAt w (cfgs 0).N) (2 : Fin 10)).trans
    (((dats m 0 c).arrAt_in 2 rfl _).trans ((A_eq m c 2).trans (V_main_arg5 m c)))

theorem W_main_arg6 (c : Dev nD) : Pipeline.afterTail₀ cfgs (dats m) 0 (V0 m) [hostOps1] c main_arg6 = m ((c : Thread nD τ).loc main_arg6) := by
  unfold Pipeline.afterTail₀
  rw [tail_keeps _ main_arg6 (by decide)]
  exact (Pipeline.withArrays_arr (cfgs 0).spec launch0.win.arr_inj c (V0 m c) (fun w => (dats m 0 c).arrAt w (cfgs 0).N) (3 : Fin 10)).trans
    (((dats m 0 c).arrAt_in 3 rfl _).trans ((A_eq m c 3).trans (V_main_arg6 m c)))

theorem W_main_arg7 (c : Dev nD) : Pipeline.afterTail₀ cfgs (dats m) 0 (V0 m) [hostOps1] c main_arg7 = m ((c : Thread nD τ).loc main_arg7) := by
  unfold Pipeline.afterTail₀
  rw [tail_keeps _ main_arg7 (by decide)]
  exact (Pipeline.withArrays_arr (cfgs 0).spec launch0.win.arr_inj c (V0 m c) (fun w => (dats m 0 c).arrAt w (cfgs 0).N) (4 : Fin 10)).trans
    (((dats m 0 c).arrAt_in 4 rfl _).trans ((A_eq m c 4).trans (V_main_arg7 m c)))

theorem W_main_arg8 (c : Dev nD) : Pipeline.afterTail₀ cfgs (dats m) 0 (V0 m) [hostOps1] c main_arg8 = m ((c : Thread nD τ).loc main_arg8) := by
  unfold Pipeline.afterTail₀
  rw [tail_keeps _ main_arg8 (by decide)]
  exact (Pipeline.withArrays_arr (cfgs 0).spec launch0.win.arr_inj c (V0 m c) (fun w => (dats m 0 c).arrAt w (cfgs 0).N) (5 : Fin 10)).trans
    (((dats m 0 c).arrAt_in 5 rfl _).trans ((A_eq m c 5).trans (V_main_arg8 m c)))

theorem W_main_arg9 (c : Dev nD) : Pipeline.afterTail₀ cfgs (dats m) 0 (V0 m) [hostOps1] c main_arg9 = m ((c : Thread nD τ).loc main_arg9) := by
  unfold Pipeline.afterTail₀
  rw [tail_keeps _ main_arg9 (by decide)]
  exact (Pipeline.withArrays_arr (cfgs 0).spec launch0.win.arr_inj c (V0 m c) (fun w => (dats m 0 c).arrAt w (cfgs 0).N) (6 : Fin 10)).trans
    (((dats m 0 c).arrAt_in 6 rfl _).trans ((A_eq m c 6).trans (V_main_arg9 m c)))

theorem W_main_arg10 (c : Dev nD) : Pipeline.afterTail₀ cfgs (dats m) 0 (V0 m) [hostOps1] c main_arg10 = m ((c : Thread nD τ).loc main_arg10) := by
  unfold Pipeline.afterTail₀
  rw [tail_keeps _ main_arg10 (by decide)]
  exact (Pipeline.withArrays_arr (cfgs 0).spec launch0.win.arr_inj c (V0 m c) (fun w => (dats m 0 c).arrAt w (cfgs 0).N) (7 : Fin 10)).trans
    (((dats m 0 c).arrAt_in 7 rfl _).trans ((A_eq m c 7).trans (V_main_arg10 m c)))

theorem W_main_arg11 (c : Dev nD) : Pipeline.afterTail₀ cfgs (dats m) 0 (V0 m) [hostOps1] c main_arg11 = m ((c : Thread nD τ).loc main_arg11) := by
  unfold Pipeline.afterTail₀
  rw [tail_keeps _ main_arg11 (by decide)]
  exact (Pipeline.withArrays_arr (cfgs 0).spec launch0.win.arr_inj c (V0 m c) (fun w => (dats m 0 c).arrAt w (cfgs 0).N) (8 : Fin 10)).trans
    (((dats m 0 c).arrAt_in 8 rfl _).trans ((A_eq m c 8).trans (V_main_arg11 m c)))

theorem W_main_arg12 (c : Dev nD) : Pipeline.afterTail₀ cfgs (dats m) 0 (V0 m) [hostOps1] c main_arg12 = m ((c : Thread nD τ).loc main_arg12) := by
  unfold Pipeline.afterTail₀
  rw [tail_keeps _ main_arg12 (by decide),
    Pipeline.withArrays_of_ne _ c (V0 m c) _ main_arg12 (by exact (by decide : ∀ w, Pipeline.arrRef spec0 w ≠ main_arg12))]
  exact V_main_arg12 m c

/-! ## What the body finds in the input windows' buffers

Each input window's current staging buffer holds the window's block at every point, fetched there or not: the
first window moves with the grid and is fetched at every point, the eight weight windows have a constant block
index and are fetched at the first point only; the body leaves each in place. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)

theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)

theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)

theorem before0_8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs — the nine inputs' at read contents `x0 … x8`, the output's at anything —
    runs to the continuation holding the inputs' as they were and the output's at `outBlk` of the inputs'. The body
    also loads the output buffer before storing it whole: the load needs the buffer held, at whatever contents. -/
theorem sound_kernel (c : Dev nD) (E : Set ℕ) (i : grid0.Coords) (a0 : Memref sig .tc .vmem S4352x3 .f32) (h0 : a0.IsWhole) (a1 : Memref sig .tc .vmem S3x128 .f32) (h1 : a1.IsWhole) (a2 : Memref sig .tc .vmem S128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S128x1 .f32) (h7 : a7.IsWhole) (a8 : Memref sig .tc .vmem S1 .f32) (h8 : a8.IsWhole) (a9 : Memref sig .tc .vmem S4352x1 .f32) (h9 : a9.IsWhole)
    (x0 : Vec F S4352x3 .f32) (x1 : Vec F S3x128 .f32) (x2 : Vec F S128 .f32) (x3 : Vec F S128x128 .f32) (x4 : Vec F S128 .f32) (x5 : Vec F S128x128 .f32) (x6 : Vec F S128 .f32) (x7 : Vec F S128x1 .f32) (x8 : Vec F S1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (outBlk x0 x1 x2 x3 x4 x5 x6 x7 x8)) -∗ K ⟨⟩))
      ⊢ wp frame (wpE (defs₀ (F := F)) Variants.none c none) E (cc0__mlp_kernel i a0 h0 a1 h1 a2 h2 a3 h3 a4 h4 a5 h5 a6 h6 a7 h7 a8 h8 a9 h9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m c),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).1 1).trans (((dats m 0 c).arrAt_in 1 rfl _).trans ((A_eq m c 1).trans (V_main_arg4 m c))),
    ((h c).1 2).trans (((dats m 0 c).arrAt_in 2 rfl _).trans ((A_eq m c 2).trans (V_main_arg5 m c))),
    ((h c).1 3).trans (((dats m 0 c).arrAt_in 3 rfl _).trans ((A_eq m c 3).trans (V_main_arg6 m c))),
    ((h c).1 4).trans (((dats m 0 c).arrAt_in 4 rfl _).trans ((A_eq m c 4).trans (V_main_arg7 m c))),
    ((h c).1 5).trans (((dats m 0 c).arrAt_in 5 rfl _).trans ((A_eq m c 5).trans (V_main_arg8 m c))),
    ((h c).1 6).trans (((dats m 0 c).arrAt_in 6 rfl _).trans ((A_eq m c 6).trans (V_main_arg9 m c))),
    ((h c).1 7).trans (((dats m 0 c).arrAt_in 7 rfl _).trans ((A_eq m c 7).trans (V_main_arg10 m c))),
    ((h c).1 8).trans (((dats m 0 c).arrAt_in 8 rfl _).trans ((A_eq m c 8).trans (V_main_arg11 m c))),
    ((h c).2 main_arg12 (Pipeline.mem_restRefs_of main_arg12 (by decide) (by decide))).trans (W_main_arg12 m c)⟩) (run_main m ρ)

end Cert.Kernel.Fr

end
-- ==== Proof.KernelIdealFrame.lean ====
import proofs.«182125_j62079457296719_1_alg».proof.Proof.Gen.KernelIdeal
import proofs.«182125_j62079457296719_1_alg».proof.Proof.Gen.KernelIdeal.Launch
import proofs.«182125_j62079457296719_1_alg».proof.Proof.Gen.KernelIdeal.Skeleton
import proofs.«182125_j62079457296719_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of `@main`: the thirteen stretches of host operations before the one region, the region
    (a 4-layer perceptron over 128 blocks of 4352 rows), and the 101 host operations after it run to
    the end without fault, and the thirteen argument arrays end as they were launched. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write

Every host operation of `@main` writes exactly one buffer, its own result: a TensorCore reference whose
index within its memory space grows with the program text. The thirteen arguments sit at indices 0 … 12, the
operations before the region write indices from 13 on, the region's operand and result arrays sit at 206 and
207, and the operations after the region write indices from 208 on. -/

/-- The operation writes exactly one buffer: a TensorCore reference whose index in its space is at least `lo`. -/
def WritesFrom (lo : ℕ) (op : HloOp τ sig (Elt F)) : Prop :=
  ∃ y : Ref sig .tc, op.writes = {Proc.devRef .tc y} ∧ lo ≤ y.idx.val

/-- Such an operation writes no reference of a smaller index. -/
theorem WritesFrom.not_mem {lo : ℕ} {op : HloOp τ sig (Elt F)} (h : WritesFrom lo op) {r : Ref sig .tc} (hr : r.idx.val < lo) :
    Proc.devRef .tc r ∉ op.writes := by
  obtain ⟨y, hy, hlo⟩ := h
  rw [hy, Finset.mem_singleton]
  intro e
  have hry : r = y := Proc.devRef_injective _ e
  subst hry
  omega

theorem hostOps0_from : (hostOps0 : List (HloOp τ sig (Elt F))).Forall (WritesFrom 13) :=
  ⟨⟨_, rfl, by decide⟩, ⟨_, rfl, by decide⟩, ⟨_, rfl, by decide⟩⟩
theorem hostOps0_fresh : (hostOps0 : List (HloOp τ sig (Elt F))).Forall fun op => op.fresh = ∅ :=
  ⟨rfl, rfl, rfl⟩

theorem hostOps0_1_from : (hostOps0_1 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl⟩

theorem hostOps0_2_from : (hostOps0_2 : List (HloOp τ sig (Elt F))).Forall (WritesFrom 13) :=
  ⟨_, rfl, by decide⟩
theorem hostOps0_2_fresh : (hostOps0_2 : List (HloOp τ sig (Elt F))).Forall fun op => op.fresh = ∅ :=
  rfl

theorem hostOps0_3_from : (hostOps0_3 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem hostOps0_4_from : (hostOps0_4 : List (HloOp τ sig (Elt F))).Forall (WritesFrom 13) :=
  ⟨_, rfl, by decide⟩
theorem hostOps0_4_fresh : (hostOps0_4 : List (HloOp τ sig (Elt F))).Forall fun op => op.fresh = ∅ :=
  rfl

theorem hostOps0_5_from : (hostOps0_5 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_5_fresh : (hostOps0_5 : List (HloOp τ sig (Elt F))).Forall fun op => op.fresh = ∅ :=
  ⟨rfl, rfl, rfl, rfl, rfl, rfl, rfl, rfl, rfl, rfl, rfl, rfl, rfl, rfl, rfl, rfl, rfl⟩

theorem hostOps0_6_from : (hostOps0_6 : List (HloOp τ sig (Elt F))).Forall (WritesFrom 13) :=
  ⟨_, rfl, by decide⟩
theorem hostOps0_6_fresh : (hostOps0_6 : List (HloOp τ sig (Elt F))).Forall fun op => op.fresh = ∅ :=
  rfl

theorem hostOps0_7_from : (hostOps0_7 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_7_fresh : (hostOps0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem hostOps0_8_from : (hostOps0_8 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem hostOps0_9_from : (hostOps0_9 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩⟩
theorem hostOps0_9_fresh : (hostOps0_9 : List (HloOp τ sig (Elt F))).Forall fun op => op.fresh = ∅ :=
  ⟨rfl, rfl, rfl, rfl, rfl, rfl⟩

theorem hostOps0_10_from : (hostOps0_10 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_10_fresh : (hostOps0_10 : List (HloOp τ sig (Elt F))).Forall fun op => op.fresh = ∅ :=
  ⟨rfl, rfl, rfl, rfl, rfl, rfl, rfl, rfl, rfl, rfl, rfl, rfl, rfl, rfl, rfl, rfl⟩

theorem hostOps0_11_from : (hostOps0_11 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩⟩
theorem hostOps0_11_fresh : (hostOps0_11 : List (HloOp τ sig (Elt F))).Forall fun op => op.fresh = ∅ :=
  ⟨rfl, rfl, rfl, rfl, rfl, rfl⟩

theorem hostOps0_12_from : (hostOps0_12 : List (HloOp τ sig (Elt F))).Forall (WritesFrom 13) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_12_fresh : (hostOps0_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem hostOps1_from : (hostOps1 : List (HloOp τ sig (Elt F))).Forall (WritesFrom 208) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every array of the pipeline sits below the indices the operations after the region write. -/
theorem arr_lt : ∀ w : Fin 10, (Pipeline.arrRef spec0 w).idx.val < 208 := by decide

/-! ## @main around the region -/

/-- Core `c`'s buffer contents when the region is entered: the launch contents run through the thirteen
    stretches of host operations before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same, read at a TensorCore reference. -/
abbrev V (c : Dev nD) (b : Ref sig .tc) : Buf (Elt F) ((c : Thread nD τ).loc b) := V0 m c (Proc.devRef .tc b)

/-- The stretches before the region, as one list of lists. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

theorem prefix_fresh : (prefixOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩

/-- Every operation before the region writes an index from 13 on. -/
theorem prefix_from : ∀ op ∈ List.flatten (prefixOps (F := F)), WritesFrom 13 op := by
  have h : (prefixOps (F := F)).Forall fun ops => ops.Forall (WritesFrom 13) :=
    ⟨hostOps0_from, hostOps0_1_from, hostOps0_2_from, hostOps0_3_from, hostOps0_4_from, hostOps0_5_from, hostOps0_6_from, hostOps0_7_from, hostOps0_8_from, hostOps0_9_from, hostOps0_10_from, hostOps0_11_from, hostOps0_12_from⟩
  intro op hop
  obtain ⟨ops, hops, hin⟩ := List.mem_flatten.mp hop
  exact List.forall_iff_forall_mem.mp (List.forall_iff_forall_mem.mp h ops hops) op hin

/-- Every operation after the region writes an index from 208 on. -/
theorem tail_from : ∀ op ∈ List.flatten [(hostOps1 : List (HloOp τ sig (Elt F)))], WritesFrom 208 op := by
  intro op hop
  obtain ⟨ops, hops, hin⟩ := List.mem_flatten.mp hop
  obtain rfl := List.mem_singleton.mp hops
  exact List.forall_iff_forall_mem.mp hostOps1_from op hin

/-- A reference of index below 13 enters the region as launched. -/
theorem entry_keeps (c : Dev nD) (r : Ref sig .tc) (hr : r.idx.val < 13) : V m c r = m ((c : Thread nD τ).loc r) :=
  StableHlo.after_of_forall_not_mem (b := Proc.devRef .tc r) _ _ fun op hop => (prefix_from op hop).not_mem hr

/-- A reference of index below 208 passes the operations after the region untouched. -/
theorem tail_keeps (W : Valuation τ sig (Elt F)) (r : Ref sig .tc) (hr : r.idx.val < 208) :
    StableHlo.after (List.flatten [(hostOps1 : List (HloOp τ sig (Elt F)))]) W (Proc.devRef .tc r) = W (Proc.devRef .tc r) :=
  StableHlo.after_of_forall_not_mem (b := Proc.devRef .tc r) _ _ fun op hop => (tail_from op hop).not_mem hr

/-- @main is the prefix stretches, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The tail touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op (List.forall_iff_forall_mem.mp hostOps1_sub op hop)
/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact List.forall_iff_forall_mem.mp hostOps1_fresh op hop
/-- It writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact (List.forall_iff_forall_mem.mp hostOps1_from op hop).not_mem (arr_lt w)

/-! ## The argument arrays at the region's entry -/

theorem V_main_arg0 (c : Dev nD) : V m c main_arg0 = m ((c : Thread nD τ).loc main_arg0) :=
  entry_keeps m c main_arg0 (by decide)

theorem V_main_arg1 (c : Dev nD) : V m c main_arg1 = m ((c : Thread nD τ).loc main_arg1) :=
  entry_keeps m c main_arg1 (by decide)

theorem V_main_arg2 (c : Dev nD) : V m c main_arg2 = m ((c : Thread nD τ).loc main_arg2) :=
  entry_keeps m c main_arg2 (by decide)

theorem V_main_arg3 (c : Dev nD) : V m c main_arg3 = m ((c : Thread nD τ).loc main_arg3) :=
  entry_keeps m c main_arg3 (by decide)

theorem V_main_arg4 (c : Dev nD) : V m c main_arg4 = m ((c : Thread nD τ).loc main_arg4) :=
  entry_keeps m c main_arg4 (by decide)

theorem V_main_arg5 (c : Dev nD) : V m c main_arg5 = m ((c : Thread nD τ).loc main_arg5) :=
  entry_keeps m c main_arg5 (by decide)

theorem V_main_arg6 (c : Dev nD) : V m c main_arg6 = m ((c : Thread nD τ).loc main_arg6) :=
  entry_keeps m c main_arg6 (by decide)

theorem V_main_arg7 (c : Dev nD) : V m c main_arg7 = m ((c : Thread nD τ).loc main_arg7) :=
  entry_keeps m c main_arg7 (by decide)

theorem V_main_arg8 (c : Dev nD) : V m c main_arg8 = m ((c : Thread nD τ).loc main_arg8) :=
  entry_keeps m c main_arg8 (by decide)

theorem V_main_arg9 (c : Dev nD) : V m c main_arg9 = m ((c : Thread nD τ).loc main_arg9) :=
  entry_keeps m c main_arg9 (by decide)

theorem V_main_arg10 (c : Dev nD) : V m c main_arg10 = m ((c : Thread nD τ).loc main_arg10) :=
  entry_keeps m c main_arg10 (by decide)

theorem V_main_arg11 (c : Dev nD) : V m c main_arg11 = m ((c : Thread nD τ).loc main_arg11) :=
  entry_keeps m c main_arg11 (by decide)

theorem V_main_arg12 (c : Dev nD) : V m c main_arg12 = m ((c : Thread nD τ).loc main_arg12) :=
  entry_keeps m c main_arg12 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rOut : Rect S4352x1 := Rect.unit (s := S4352x1) ![0, 0] S4352x1.size inb_S4352x1_S4352x1_0_0
abbrev rIn0 : Rect S4352x3 := Rect.unit (s := S4352x3) ![0, 0] S4352x3.size inb_S4352x3_S4352x3_0_0
abbrev rIn1 : Rect S3x128 := Rect.unit (s := S3x128) ![0, 0] S3x128.size inb_S3x128_S3x128_0_0
abbrev rIn2 : Rect S128 := Rect.unit (s := S128) ![0] S128.size inb_S128_S128_0
abbrev rIn3 : Rect S128x128 := Rect.unit (s := S128x128) ![0, 0] S128x128.size inb_S128x128_S128x128_0_0
abbrev rIn4 : Rect S128 := Rect.unit (s := S128) ![0] S128.size inb_S128_S128_0
abbrev rIn5 : Rect S128x128 := Rect.unit (s := S128x128) ![0, 0] S128x128.size inb_S128x128_S128x128_0_0
abbrev rIn6 : Rect S128 := Rect.unit (s := S128) ![0] S128.size inb_S128_S128_0
abbrev rIn7 : Rect S128x1 := Rect.unit (s := S128x1) ![0, 0] S128x1.size inb_S128x1_S128x1_0_0
abbrev rIn8 : Rect S1 := Rect.unit (s := S1) ![0] S1.size inb_S1_S1_0

/-- The output window's staging buffer after the body, from the nine input blocks: the one store, whole. -/
def outBlk (x0 : Vec F S4352x3 .f32) (x1 : Vec F S3x128 .f32) (x2 : Vec F S128 .f32) (x3 : Vec F S128x128 .f32) (x4 : Vec F S128 .f32) (x5 : Vec F S128x128 .f32) (x6 : Vec F S128 .f32) (x7 : Vec F S128x1 .f32) (x8 : Vec F S1 .f32) : Vec F S4352x1 .f32 :=
  View.canon [⟨rOut, k0_pay1 (View.ld x0 rIn0) (View.ld x1 rIn1) (View.ld x2 rIn2) (View.ld x3 rIn3) (View.ld x4 rIn4) (View.ld x5 rIn5) (View.ld x6 rIn6) (View.ld x7 rIn7) (View.ld x8 rIn8)⟩]

/-- The store covers the buffer. -/
theorem cover_out (p0 : Vec F S4352x1 .f32) (y : S4352x1.Idx) :
    ∃ pc ∈ ([⟨rOut, p0⟩] : List (View.Piece (Elt F) S4352x1 .f32)), y ∈ pc.1.set :=
  View.cover_of_tiled [⟨rOut, p0⟩] S4352x1.size (by rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlk (iblk m c 0 t) (iblk m c 1 t) (iblk m c 2 t) (iblk m c 3 t) (iblk m c 4 t) (iblk m c 5 t) (iblk m c 6 t) (iblk m c 7 t) (iblk m c 8 t) := by dsimp only [dats]

/-! ## The argument arrays at the end -/

theorem W_main_arg0 (c : Dev nD) : Pipeline.afterTail₀ cfgs (dats m) 0 (V0 m) [hostOps1] c main_arg0 = m ((c : Thread nD τ).loc main_arg0) := by
  unfold Pipeline.afterTail₀
  rw [tail_keeps _ main_arg0 (by decide),
    Pipeline.withArrays_of_ne _ c (V0 m c) _ main_arg0 (by exact (by decide : ∀ w, Pipeline.arrRef spec0 w ≠ main_arg0))]
  exact V_main_arg0 m c

theorem W_main_arg1 (c : Dev nD) : Pipeline.afterTail₀ cfgs (dats m) 0 (V0 m) [hostOps1] c main_arg1 = m ((c : Thread nD τ).loc main_arg1) := by
  unfold Pipeline.afterTail₀
  rw [tail_keeps _ main_arg1 (by decide),
    Pipeline.withArrays_of_ne _ c (V0 m c) _ main_arg1 (by exact (by decide : ∀ w, Pipeline.arrRef spec0 w ≠ main_arg1))]
  exact V_main_arg1 m c

theorem W_main_arg2 (c : Dev nD) : Pipeline.afterTail₀ cfgs (dats m) 0 (V0 m) [hostOps1] c main_arg2 = m ((c : Thread nD τ).loc main_arg2) := by
  unfold Pipeline.afterTail₀
  rw [tail_keeps _ main_arg2 (by decide),
    Pipeline.withArrays_of_ne _ c (V0 m c) _ main_arg2 (by exact (by decide : ∀ w, Pipeline.arrRef spec0 w ≠ main_arg2))]
  exact V_main_arg2 m c

theorem W_main_arg3 (c : Dev nD) : Pipeline.afterTail₀ cfgs (dats m) 0 (V0 m) [hostOps1] c main_arg3 = m ((c : Thread nD τ).loc main_arg3) := by
  unfold Pipeline.afterTail₀
  rw [tail_keeps _ main_arg3 (by decide),
    Pipeline.withArrays_of_ne _ c (V0 m c) _ main_arg3 (by exact (by decide : ∀ w, Pipeline.arrRef spec0 w ≠ main_arg3))]
  exact V_main_arg3 m c

theorem W_main_arg4 (c : Dev nD) : Pipeline.afterTail₀ cfgs (dats m) 0 (V0 m) [hostOps1] c main_arg4 = m ((c : Thread nD τ).loc main_arg4) := by
  unfold Pipeline.afterTail₀
  rw [tail_keeps _ main_arg4 (by decide)]
  exact (Pipeline.withArrays_arr (cfgs 0).spec launch0.win.arr_inj c (V0 m c) (fun w => (dats m 0 c).arrAt w (cfgs 0).N) (1 : Fin 10)).trans
    (((dats m 0 c).arrAt_in 1 rfl _).trans ((A_eq m c 1).trans (V_main_arg4 m c)))

theorem W_main_arg5 (c : Dev nD) : Pipeline.afterTail₀ cfgs (dats m) 0 (V0 m) [hostOps1] c main_arg5 = m ((c : Thread nD τ).loc main_arg5) := by
  unfold Pipeline.afterTail₀
  rw [tail_keeps _ main_arg5 (by decide)]
  exact (Pipeline.withArrays_arr (cfgs 0).spec launch0.win.arr_inj c (V0 m c) (fun w => (dats m 0 c).arrAt w (cfgs 0).N) (2 : Fin 10)).trans
    (((dats m 0 c).arrAt_in 2 rfl _).trans ((A_eq m c 2).trans (V_main_arg5 m c)))

theorem W_main_arg6 (c : Dev nD) : Pipeline.afterTail₀ cfgs (dats m) 0 (V0 m) [hostOps1] c main_arg6 = m ((c : Thread nD τ).loc main_arg6) := by
  unfold Pipeline.afterTail₀
  rw [tail_keeps _ main_arg6 (by decide)]
  exact (Pipeline.withArrays_arr (cfgs 0).spec launch0.win.arr_inj c (V0 m c) (fun w => (dats m 0 c).arrAt w (cfgs 0).N) (3 : Fin 10)).trans
    (((dats m 0 c).arrAt_in 3 rfl _).trans ((A_eq m c 3).trans (V_main_arg6 m c)))

theorem W_main_arg7 (c : Dev nD) : Pipeline.afterTail₀ cfgs (dats m) 0 (V0 m) [hostOps1] c main_arg7 = m ((c : Thread nD τ).loc main_arg7) := by
  unfold Pipeline.afterTail₀
  rw [tail_keeps _ main_arg7 (by decide)]
  exact (Pipeline.withArrays_arr (cfgs 0).spec launch0.win.arr_inj c (V0 m c) (fun w => (dats m 0 c).arrAt w (cfgs 0).N) (4 : Fin 10)).trans
    (((dats m 0 c).arrAt_in 4 rfl _).trans ((A_eq m c 4).trans (V_main_arg7 m c)))

theorem W_main_arg8 (c : Dev nD) : Pipeline.afterTail₀ cfgs (dats m) 0 (V0 m) [hostOps1] c main_arg8 = m ((c : Thread nD τ).loc main_arg8) := by
  unfold Pipeline.afterTail₀
  rw [tail_keeps _ main_arg8 (by decide)]
  exact (Pipeline.withArrays_arr (cfgs 0).spec launch0.win.arr_inj c (V0 m c) (fun w => (dats m 0 c).arrAt w (cfgs 0).N) (5 : Fin 10)).trans
    (((dats m 0 c).arrAt_in 5 rfl _).trans ((A_eq m c 5).trans (V_main_arg8 m c)))

theorem W_main_arg9 (c : Dev nD) : Pipeline.afterTail₀ cfgs (dats m) 0 (V0 m) [hostOps1] c main_arg9 = m ((c : Thread nD τ).loc main_arg9) := by
  unfold Pipeline.afterTail₀
  rw [tail_keeps _ main_arg9 (by decide)]
  exact (Pipeline.withArrays_arr (cfgs 0).spec launch0.win.arr_inj c (V0 m c) (fun w => (dats m 0 c).arrAt w (cfgs 0).N) (6 : Fin 10)).trans
    (((dats m 0 c).arrAt_in 6 rfl _).trans ((A_eq m c 6).trans (V_main_arg9 m c)))

theorem W_main_arg10 (c : Dev nD) : Pipeline.afterTail₀ cfgs (dats m) 0 (V0 m) [hostOps1] c main_arg10 = m ((c : Thread nD τ).loc main_arg10) := by
  unfold Pipeline.afterTail₀
  rw [tail_keeps _ main_arg10 (by decide)]
  exact (Pipeline.withArrays_arr (cfgs 0).spec launch0.win.arr_inj c (V0 m c) (fun w => (dats m 0 c).arrAt w (cfgs 0).N) (7 : Fin 10)).trans
    (((dats m 0 c).arrAt_in 7 rfl _).trans ((A_eq m c 7).trans (V_main_arg10 m c)))

theorem W_main_arg11 (c : Dev nD) : Pipeline.afterTail₀ cfgs (dats m) 0 (V0 m) [hostOps1] c main_arg11 = m ((c : Thread nD τ).loc main_arg11) := by
  unfold Pipeline.afterTail₀
  rw [tail_keeps _ main_arg11 (by decide)]
  exact (Pipeline.withArrays_arr (cfgs 0).spec launch0.win.arr_inj c (V0 m c) (fun w => (dats m 0 c).arrAt w (cfgs 0).N) (8 : Fin 10)).trans
    (((dats m 0 c).arrAt_in 8 rfl _).trans ((A_eq m c 8).trans (V_main_arg11 m c)))

theorem W_main_arg12 (c : Dev nD) : Pipeline.afterTail₀ cfgs (dats m) 0 (V0 m) [hostOps1] c main_arg12 = m ((c : Thread nD τ).loc main_arg12) := by
  unfold Pipeline.afterTail₀
  rw [tail_keeps _ main_arg12 (by decide),
    Pipeline.withArrays_of_ne _ c (V0 m c) _ main_arg12 (by exact (by decide : ∀ w, Pipeline.arrRef spec0 w ≠ main_arg12))]
  exact V_main_arg12 m c

/-! ## What the body finds in the input windows' buffers

Each input window's current staging buffer holds the window's block at every point, fetched there or not: the
first window moves with the grid and is fetched at every point, the eight weight windows have a constant block
index and are fetched at the first point only; the body leaves each in place. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)

theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)

theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)

theorem before0_8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs — the nine inputs' at read contents `x0 … x8`, the output's at anything —
    runs to the continuation holding the inputs' as they were and the output's at `outBlk` of the inputs'. The body
    also loads the output buffer before storing it whole: the load needs the buffer held, at whatever contents. -/
theorem sound_kernel (c : Dev nD) (E : Set ℕ) (i : grid0.Coords) (a0 : Memref sig .tc .vmem S4352x3 .f32) (h0 : a0.IsWhole) (a1 : Memref sig .tc .vmem S3x128 .f32) (h1 : a1.IsWhole) (a2 : Memref sig .tc .vmem S128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S128x1 .f32) (h7 : a7.IsWhole) (a8 : Memref sig .tc .vmem S1 .f32) (h8 : a8.IsWhole) (a9 : Memref sig .tc .vmem S4352x1 .f32) (h9 : a9.IsWhole)
    (x0 : Vec F S4352x3 .f32) (x1 : Vec F S3x128 .f32) (x2 : Vec F S128 .f32) (x3 : Vec F S128x128 .f32) (x4 : Vec F S128 .f32) (x5 : Vec F S128x128 .f32) (x6 : Vec F S128 .f32) (x7 : Vec F S128x1 .f32) (x8 : Vec F S1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (outBlk x0 x1 x2 x3 x4 x5 x6 x7 x8)) -∗ K ⟨⟩))
      ⊢ wp frame (wpE (defs₀ (F := F)) Variants.none c none) E (cc0__mlp_kernel i a0 h0 a1 h1 a2 h2 a3 h3 a4 h4 a5 h5 a6 h6 a7 h7 a8 h8 a9 h9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m c),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).1 1).trans (((dats m 0 c).arrAt_in 1 rfl _).trans ((A_eq m c 1).trans (V_main_arg4 m c))),
    ((h c).1 2).trans (((dats m 0 c).arrAt_in 2 rfl _).trans ((A_eq m c 2).trans (V_main_arg5 m c))),
    ((h c).1 3).trans (((dats m 0 c).arrAt_in 3 rfl _).trans ((A_eq m c 3).trans (V_main_arg6 m c))),
    ((h c).1 4).trans (((dats m 0 c).arrAt_in 4 rfl _).trans ((A_eq m c 4).trans (V_main_arg7 m c))),
    ((h c).1 5).trans (((dats m 0 c).arrAt_in 5 rfl _).trans ((A_eq m c 5).trans (V_main_arg8 m c))),
    ((h c).1 6).trans (((dats m 0 c).arrAt_in 6 rfl _).trans ((A_eq m c 6).trans (V_main_arg9 m c))),
    ((h c).1 7).trans (((dats m 0 c).arrAt_in 7 rfl _).trans ((A_eq m c 7).trans (V_main_arg10 m c))),
    ((h c).1 8).trans (((dats m 0 c).arrAt_in 8 rfl _).trans ((A_eq m c 8).trans (V_main_arg11 m c))),
    ((h c).2 main_arg12 (Pipeline.mem_restRefs_of main_arg12 (by decide) (by decide))).trans (W_main_arg12 m c)⟩) (run_main m ρ)

end Cert.KernelIdeal.Fr

end
-- ==== Proof.KernelTail.lean ====
import proofs.«182125_j62079457296719_1_alg».proof.Proof.Gen.KernelIdeal.Launch
import Idealize.ShloMosaic.Lib.StableHlo.Run

/-! The scalar the program returns, as a function of the network's outputs.

With `pred i` the network at the centre row `i`, `ps i j` and `pn i j` the network at the eight staggered and the eight
full-mesh neighbours of centre `i`, the result is
  mean_i |pred i - f i|  +  (Σ_i mask i · (lapl i - lap i)²) / max (Σ_i mask i, 1),
where `lap i` is the sum over the three diagonal pairs of corners of
  |a + b - c - d| / ((a + b + c + d) · 3/2),   a, b the two full-mesh corners, c, d the two staggered ones,
`f` and `lapl` are the tables' entries at the centre index (a negative index counted from the end of the table).
These are the operations that follow the network's call, written as one function of their inputs. -/

noncomputable section

namespace Cert.KernelIdeal.KTail

open Cert.KernelIdeal Cert.KernelIdeal.Gen Idealize.ShloMosaic Idealize.ShloMosaic.TcCoe Idealize.SL.Sem Idealize.ShloMosaic.StableHlo

variable {F : FTy → Type} [FloatOps F]

/-- Contents of an f32 / i32 tensor of shape `S`. -/
abbrev F32 (F : FTy → Type) [FloatOps F] (S : Shape) := (⟨S, .f32⟩ : BufTy).Contents (Elt F)
abbrev I32 (F : FTy → Type) [FloatOps F] (S : Shape) := (⟨S, .i32⟩ : BufTy).Contents (Elt F)

/-- The centre indices as a gather's index column: an index below zero has the table's length 2097152 added. -/
def wrapIdx (a : I32 F S32768) : I32 F S32768x1 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 2097152#32))) a)

/-- The network's outputs, one per gathered row, as a vector. -/
def flat (o : F32 F S557056x1) : F32 F S557056 := fun i => shapeCast S557056 o shapeCasts_S557056x1_S557056 i
/-- Rows 0 … 32767: the centres. -/
def predOf (o : F32 F S557056x1) : F32 F S32768 := extractStridedSlice S32768 ![0] (flat o) slices_S557056_S32768_0
/-- Rows 32768 … 294911, eight per centre: the staggered neighbours. -/
def psOf (o : F32 F S557056x1) : F32 F S32768x8 :=
  fun i => shapeCast S32768x8 (extractStridedSlice S262144 ![32768] (flat o) slices_S557056_S262144_32768) shapeCasts_S262144_S32768x8 i
/-- Rows 294912 … 557055, eight per centre: the full-mesh neighbours. -/
def pnOf (o : F32 F S557056x1) : F32 F S32768x8 :=
  fun i => shapeCast S32768x8 (extractStridedSlice S262144 ![294912] (flat o) slices_S557056_S262144_294912) shapeCasts_S262144_S32768x8 i

/-- The data table's entry at each centre. -/
def fcOf (x1 : F32 F S2097152x1) (a : I32 F S32768) : F32 F S32768 :=
  fun i => shapeCast S32768 (Host.gather gather_S2097152x1_S32768x1_S32768x1_1_0_n_n_0_1_11 x1 (wrapIdx a)) shapeCasts_S32768x1_S32768 i
/-- The Laplacian table's entry at each centre. -/
def laplOf (x3 : F32 F S2097152) (a : I32 F S32768) : F32 F S32768 :=
  Host.gather gather_S2097152_S32768x1_S32768_n_0_n_n_0_1_1 x3 (wrapIdx a)

/-- The data-fit term: the mean over the 32768 centres of |pred - f|. -/
def lossE (pred fc : F32 F S32768) : F32 F S_ :=
  Host.divf (Host.reduceAdd (Host.absf (subf pred fc)) (constant S_ .f32 0x00000000#32) reducesTo_S32768_S_d0 h_S_)
    (constant S_ .f32 0x47000000#32)

/-- Corner `k` of the eight, over all centres. -/
def col (k : Nat) (h : S32768x8.Slices ![0, k] S32768x1) (p : F32 F S32768x8) : F32 F S32768 :=
  fun i => shapeCast S32768 (extractStridedSlice S32768x1 ![0, k] p h) shapeCasts_S32768x1_S32768 i

/-- One diagonal pair's term: |a + b - c - d| / ((a + b + c + d) · 3/2). -/
def term (a b c d : F32 F S32768) : F32 F S32768 :=
  Host.divf (Host.absf (subf (subf (addf a b) c) d))
    (mulf (addf (addf (addf a b) c) d) (broadcastInDim S32768 ![] bcast_S_S32768 (constant S_ .f32 0x3FC00000#32)))

/-- The predicted Laplacian: the three diagonal pairs (7,0), (3,4), (5,2). -/
def lapPred (ps pn : F32 F S32768x8) : F32 F S32768 :=
  addf (addf
    (term (col 7 slices_S32768x8_S32768x1_0_7 pn) (col 0 slices_S32768x8_S32768x1_0_0 pn) (col 7 slices_S32768x8_S32768x1_0_7 ps) (col 0 slices_S32768x8_S32768x1_0_0 ps))
    (term (col 3 slices_S32768x8_S32768x1_0_3 pn) (col 4 slices_S32768x8_S32768x1_0_4 pn) (col 3 slices_S32768x8_S32768x1_0_3 ps) (col 4 slices_S32768x8_S32768x1_0_4 ps)))
    (term (col 5 slices_S32768x8_S32768x1_0_5 pn) (col 2 slices_S32768x8_S32768x1_0_2 pn) (col 5 slices_S32768x8_S32768x1_0_5 ps) (col 2 slices_S32768x8_S32768x1_0_2 ps))

/-- The model term: the masked mean of (lapl - lap)², the divisor at least one. -/
def lossM (lapl lap mask : F32 F S32768) : F32 F S_ :=
  Host.divf (Host.reduceAdd (mulf mask (mulf (subf lapl lap) (subf lapl lap))) (constant S_ .f32 0x00000000#32) reducesTo_S32768_S_d0 h_S_)
    (maximumf (Host.reduceAdd mask (constant S_ .f32 0x00000000#32) reducesTo_S32768_S_d0 h_S_) (constant S_ .f32 0x3F800000#32))

/-- The returned scalar from the three groups of outputs, the mask, the two tables and the centre indices. -/
def total (pred : F32 F S32768) (ps pn : F32 F S32768x8) (mask : F32 F S32768) (x1 : F32 F S2097152x1) (x3 : F32 F S2097152)
    (a : I32 F S32768) : F32 F S_ :=
  addf (lossE pred (fcOf x1 a)) (lossM (laplOf x3 a) (lapPred ps pn) mask)

set_option maxHeartbeats 8000000 in
/-- The operations after the network's call compute `total` of the output array's three parts. -/
theorem tail_result (W : Valuation τ sig (Elt F)) :
    after (hostOps1 (F := F)) W (Proc.devRef .tc main_v175)
      = total (predOf (W (Proc.devRef .tc main_v86))) (psOf (W (Proc.devRef .tc main_v86))) (pnOf (W (Proc.devRef .tc main_v86)))
          (W (Proc.devRef .tc main_v21)) (W (Proc.devRef .tc main_arg1)) (W (Proc.devRef .tc main_arg3)) (W (Proc.devRef .tc main_arg12)) := by
  after_results_simp
  rfl

end Cert.KernelIdeal.KTail

end
-- ==== Proof.KernelPlumb.lean ====
import proofs.«182125_j62079457296719_1_alg».proof.KernelIdeal
import proofs.«182125_j62079457296719_1_alg».proof.Proof.Gen.KernelIdeal

/-! The index arrangements of the kernel program's main function, as pure functions of the arrays they
    read: the three row gathers (a wrapped index, then a gather of whole rows), the stacking of their
    results along the rows, and the three slices of the network's output column. -/

noncomputable section

namespace Cert.KernelIdeal.KFn

open Cert.KernelIdeal
open Idealize.ShloMosaic
open Cert.KernelIdeal.Facts₀ Cert.KernelIdeal.Facts

variable {F : FTy → Type} [FloatOps F]

/-- Rows a[i] of the table x, a negative index counted from the end (a[i] + 2097152), the start
    clamped by the gather. -/
def wrapGather0 (x : FVec F S2097152x3 .f32) (a : IVec S32768 32) : FVec F S32768x3 .f32 :=
  Host.gather gather_S2097152x3_S32768x1_S32768x3_1_0_n_n_0_1_13 x
    (broadcastInDim S32768x1 ![0] bcast_S32768_S32768x1_0
      (select
        (cmpi .slt a (broadcastInDim S32768 ![] bcast_S_S32768 (constantI S_ 32 0#32)))
        (addi a (broadcastInDim S32768 ![] bcast_S_S32768 (constantI S_ 32 2097152#32)))
        a))

/-- Rows s[i, j] of the table x (2048383 rows), the 32768 × 8 indices flattened first: result row
    8 i + j. -/
def flatGather2 (x : FVec F S2048383x3 .f32) (s : IVec S32768x8 32) : FVec F S262144x3 .f32 :=
  Host.gather gather_S2048383x3_S262144x1_S262144x3_1_0_n_n_0_1_13 x
    (broadcastInDim S262144x1 ![0] bcast_S262144_S262144x1_0
      (select
        (cmpi .slt (shapeCast S262144 s shapeCasts_S32768x8_S262144)
          (broadcastInDim S262144 ![] bcast_S_S262144 (constantI S_ 32 0#32)))
        (addi (shapeCast S262144 s shapeCasts_S32768x8_S262144)
          (broadcastInDim S262144 ![] bcast_S_S262144 (constantI S_ 32 2048383#32)))
        (shapeCast S262144 s shapeCasts_S32768x8_S262144)))

/-- Rows s[i, j] of the table x (2097152 rows), the indices flattened first: result row 8 i + j. -/
def flatGather0 (x : FVec F S2097152x3 .f32) (s : IVec S32768x8 32) : FVec F S262144x3 .f32 :=
  Host.gather gather_S2097152x3_S262144x1_S262144x3_1_0_n_n_0_1_13 x
    (broadcastInDim S262144x1 ![0] bcast_S262144_S262144x1_0
      (select
        (cmpi .slt (shapeCast S262144 s shapeCasts_S32768x8_S262144)
          (broadcastInDim S262144 ![] bcast_S_S262144 (constantI S_ 32 0#32)))
        (addi (shapeCast S262144 s shapeCasts_S32768x8_S262144)
          (broadcastInDim S262144 ![] bcast_S_S262144 (constantI S_ 32 2097152#32)))
        (shapeCast S262144 s shapeCasts_S32768x8_S262144)))

/-- The three gathered blocks stacked along the rows: p (32768 rows), then q, then r (262144 each). -/
def rows (p : FVec F S32768x3 .f32) (q r : FVec F S262144x3 .f32) : FVec F S557056x3 .f32 :=
  concatenate S557056x3 0 [⟨S32768x3, p⟩, ⟨S262144x3, q⟩, ⟨S262144x3, r⟩]
    concatenates_S32768x3_S262144x3_S262144x3_S557056x3_d0

/-- The first 32768 entries of the output column. -/
def predOf (o : FVec F S557056x1 .f32) : FVec F S32768 .f32 :=
  extractStridedSlice S32768 ![0] (shapeCast S557056 o shapeCasts_S557056x1_S557056) slices_S557056_S32768_0

/-- Entries 32768 … 294911 of the output column, as 32768 rows of 8. -/
def psOf (o : FVec F S557056x1 .f32) : FVec F S32768x8 .f32 :=
  shapeCast S32768x8
    (extractStridedSlice S262144 ![32768] (shapeCast S557056 o shapeCasts_S557056x1_S557056) slices_S557056_S262144_32768)
    shapeCasts_S262144_S32768x8

/-- Entries 294912 … 557055 of the output column, as 32768 rows of 8. -/
def pnOf (o : FVec F S557056x1 .f32) : FVec F S32768x8 .f32 :=
  shapeCast S32768x8
    (extractStridedSlice S262144 ![294912] (shapeCast S557056 o shapeCasts_S557056x1_S557056) slices_S557056_S262144_294912)
    shapeCasts_S262144_S32768x8

end Cert.KernelIdeal.KFn

end
-- ==== Proof.KernelValue.lean ====
import proofs.«182125_j62079457296719_1_alg».proof.Proof.KernelIdealFrame
import proofs.«182125_j62079457296719_1_alg».proof.Proof.KernelTail
import proofs.«182125_j62079457296719_1_alg».proof.Proof.KernelPlumb

/-! What the kernel program returns, in terms of the network's output array.

The program gathers 557056 rows (the 32768 centres, their 8 staggered and their 8 full-mesh neighbours), runs the
network on all of them in one call, and computes the loss from the call's output array `outArr`. Here: the rows
are the three gathers laid one after the other, and the returned scalar is `KTail.total` of the output array's
three parts, the interior mask and the two tables at the centre indices; the thirteen arguments end unchanged. -/

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The network's output array after the call: one value per gathered row. -/
abbrev outArr (c : Dev nD) := (Fr.dats m 0 c).arrAt 9 cfg0.N

/-- The buffers' contents before the last stretch of host operations ahead of the call (the three gathers and their
    concatenation): everything the index arithmetic computed. -/
abbrev Wi (c : Dev nD) : Valuation τ sig (Elt F) :=
  after (List.flatten [hostOps0, hostOps0_1, hostOps0_2, hostOps0_3, hostOps0_4, hostOps0_5, hostOps0_6, hostOps0_7, hostOps0_8,
    hostOps0_9, hostOps0_10, hostOps0_11]) (fun b => m (c, b))

theorem V0_split (c : Dev nD) : Fr.V0 m c = after hostOps0_12 (Wi m c) := by
  simp only [Fr.V0, Wi, List.flatten_cons, List.flatten_nil, List.append_nil, StableHlo.after_append]

set_option maxHeartbeats 4000000 in
/-- The last stretch lays the centres' rows, the staggered neighbours' rows and the full-mesh neighbours' rows one
    after the other. -/
theorem rows_stretch (W : Valuation τ sig (Elt F)) :
    after (hostOps0_12 (F := F)) W (Proc.devRef .tc main_v85)
      = KFn.rows (KFn.wrapGather0 (W (Proc.devRef .tc main_arg0)) (W (Proc.devRef .tc main_arg12)))
          (KFn.flatGather2 (W (Proc.devRef .tc main_arg2)) (W (Proc.devRef .tc main_v48)))
          (KFn.flatGather0 (W (Proc.devRef .tc main_arg0)) (W (Proc.devRef .tc main_v61))) := by
  after_results_simp
  rfl

set_option maxHeartbeats 4000000 in
theorem keep_v48 (W : Valuation τ sig (Elt F)) : after (hostOps0_12 (F := F)) W (Proc.devRef .tc main_v48) = W (Proc.devRef .tc main_v48) := by
  after_results_simp
set_option maxHeartbeats 4000000 in
theorem keep_v61 (W : Valuation τ sig (Elt F)) : after (hostOps0_12 (F := F)) W (Proc.devRef .tc main_v61) = W (Proc.devRef .tc main_v61) := by
  after_results_simp
set_option maxHeartbeats 4000000 in
theorem keep_arg0 (W : Valuation τ sig (Elt F)) : after (hostOps0_12 (F := F)) W (Proc.devRef .tc main_arg0) = W (Proc.devRef .tc main_arg0) := by
  after_results_simp
set_option maxHeartbeats 4000000 in
theorem keep_arg2 (W : Valuation τ sig (Elt F)) : after (hostOps0_12 (F := F)) W (Proc.devRef .tc main_arg2) = W (Proc.devRef .tc main_arg2) := by
  after_results_simp
set_option maxHeartbeats 4000000 in
theorem keep_arg12 (W : Valuation τ sig (Elt F)) : after (hostOps0_12 (F := F)) W (Proc.devRef .tc main_arg12) = W (Proc.devRef .tc main_arg12) := by
  after_results_simp

/-- The rows the network is run on, from the tables and the two clipped index arrays as the call finds them. -/
theorem rows_eq (c : Dev nD) :
    Fr.V m c main_v85
      = KFn.rows (KFn.wrapGather0 (m ((c : Thread nD τ).loc main_arg0)) (m ((c : Thread nD τ).loc main_arg12)))
          (KFn.flatGather2 (m ((c : Thread nD τ).loc main_arg2)) (Fr.V m c main_v48))
          (KFn.flatGather0 (m ((c : Thread nD τ).loc main_arg0)) (Fr.V m c main_v61)) := by
  have e48 : Fr.V m c main_v48 = Wi m c (Proc.devRef .tc main_v48) := by
    show Fr.V0 m c (Proc.devRef .tc main_v48) = _
    rw [V0_split, keep_v48]
  have e61 : Fr.V m c main_v61 = Wi m c (Proc.devRef .tc main_v61) := by
    show Fr.V0 m c (Proc.devRef .tc main_v61) = _
    rw [V0_split, keep_v61]
  have e0 : m ((c : Thread nD τ).loc main_arg0) = Wi m c (Proc.devRef .tc main_arg0) := by
    rw [← Fr.V_main_arg0 m c]
    show Fr.V0 m c (Proc.devRef .tc main_arg0) = _
    rw [V0_split, keep_arg0]
  have e2 : m ((c : Thread nD τ).loc main_arg2) = Wi m c (Proc.devRef .tc main_arg2) := by
    rw [← Fr.V_main_arg2 m c]
    show Fr.V0 m c (Proc.devRef .tc main_arg2) = _
    rw [V0_split, keep_arg2]
  have e12 : m ((c : Thread nD τ).loc main_arg12) = Wi m c (Proc.devRef .tc main_arg12) := by
    rw [← Fr.V_main_arg12 m c]
    show Fr.V0 m c (Proc.devRef .tc main_arg12) = _
    rw [V0_split, keep_arg12]
  rw [e48, e61, e0, e2, e12]
  show Fr.V0 m c (Proc.devRef .tc main_v85) = _
  rw [V0_split, rows_stretch]

/-- The returned scalar after the run: the loss of the output array's three parts. -/
theorem result_eq (c : Dev nD) :
    Pipeline.afterTail₀ cfgs (Fr.dats m) 0 (Fr.V0 m) [hostOps1] c main_v175
      = KTail.total (KTail.predOf (outArr m c)) (KTail.psOf (outArr m c)) (KTail.pnOf (outArr m c)) (Fr.V m c main_v21)
          (m ((c : Thread nD τ).loc main_arg1)) (m ((c : Thread nD τ).loc main_arg3)) (m ((c : Thread nD τ).loc main_arg12)) := by
  unfold Pipeline.afterTail₀
  simp only [List.flatten_cons, List.flatten_nil, List.append_nil]
  refine (KTail.tail_result _).trans ?_
  rw [Pipeline.withArrays_arr spec0 launch0.win.arr_inj c _ _ 9,
    Pipeline.withArrays_of_ne _ c (Fr.V0 m c) _ main_v21 (by exact (by decide : ∀ w, Pipeline.arrRef spec0 w ≠ main_v21)),
    Pipeline.withArrays_of_ne _ c (Fr.V0 m c) _ main_arg1 (by exact (by decide : ∀ w, Pipeline.arrRef spec0 w ≠ main_arg1)),
    Pipeline.withArrays_of_ne _ c (Fr.V0 m c) _ main_arg3 (by exact (by decide : ∀ w, Pipeline.arrRef spec0 w ≠ main_arg3)),
    Pipeline.withArrays_of_ne _ c (Fr.V0 m c) _ main_arg12 (by exact (by decide : ∀ w, Pipeline.arrRef spec0 w ≠ main_arg12))]
  rw [← Fr.V_main_arg1 m c, ← Fr.V_main_arg3 m c, ← Fr.V_main_arg12 m c]

/-- Every weakly fair execution of the kernel program ends with the returned scalar at `KTail.total` of the output
    array's parts and with its thirteen arguments as launched. -/
theorem kernel_run : θ_run defs (onTc (τ := τ) (main (F := F))) ⟨m, fun _ => 0, ρ⟩ (fun r => ∀ c : Dev nD,
      r.2.mem ((c.tc : Thread nD τ).loc main_v175)
        = KTail.total (KTail.predOf (outArr m c)) (KTail.psOf (outArr m c)) (KTail.pnOf (outArr m c)) (Fr.V m c main_v21)
            (m ((c : Thread nD τ).loc main_arg1)) (m ((c : Thread nD τ).loc main_arg3)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v175 (Pipeline.mem_restRefs_of main_v175 (by decide) (by decide))).trans (result_eq m c),
    ((h c).2 main_arg0 (Pipeline.mem_restRefs_of main_arg0 (by decide) (by decide))).trans (Fr.W_main_arg0 m c),
    ((h c).2 main_arg1 (Pipeline.mem_restRefs_of main_arg1 (by decide) (by decide))).trans (Fr.W_main_arg1 m c),
    ((h c).2 main_arg2 (Pipeline.mem_restRefs_of main_arg2 (by decide) (by decide))).trans (Fr.W_main_arg2 m c),
    ((h c).2 main_arg3 (Pipeline.mem_restRefs_of main_arg3 (by decide) (by decide))).trans (Fr.W_main_arg3 m c),
    ((h c).1 1).trans (((Fr.dats m 0 c).arrAt_in 1 rfl _).trans ((Fr.A_eq m c 1).trans (Fr.V_main_arg4 m c))),
    ((h c).1 2).trans (((Fr.dats m 0 c).arrAt_in 2 rfl _).trans ((Fr.A_eq m c 2).trans (Fr.V_main_arg5 m c))),
    ((h c).1 3).trans (((Fr.dats m 0 c).arrAt_in 3 rfl _).trans ((Fr.A_eq m c 3).trans (Fr.V_main_arg6 m c))),
    ((h c).1 4).trans (((Fr.dats m 0 c).arrAt_in 4 rfl _).trans ((Fr.A_eq m c 4).trans (Fr.V_main_arg7 m c))),
    ((h c).1 5).trans (((Fr.dats m 0 c).arrAt_in 5 rfl _).trans ((Fr.A_eq m c 5).trans (Fr.V_main_arg8 m c))),
    ((h c).1 6).trans (((Fr.dats m 0 c).arrAt_in 6 rfl _).trans ((Fr.A_eq m c 6).trans (Fr.V_main_arg9 m c))),
    ((h c).1 7).trans (((Fr.dats m 0 c).arrAt_in 7 rfl _).trans ((Fr.A_eq m c 7).trans (Fr.V_main_arg10 m c))),
    ((h c).1 8).trans (((Fr.dats m 0 c).arrAt_in 8 rfl _).trans ((Fr.A_eq m c 8).trans (Fr.V_main_arg11 m c))),
    ((h c).2 main_arg12 (Pipeline.mem_restRefs_of main_arg12 (by decide) (by decide))).trans (Fr.W_main_arg12 m c)⟩) (Fr.run_main m ρ)

end Cert.KernelIdeal.KVal

end
-- ==== Proof.ReferenceOps.lean ====
/-
  The reference program's @main as a list of its host operations, in program order: each call of a module-local
  function is the callee's operations over that call's record (the callee's arguments and values replaced by the
  call's buffers), so the list is the flat program the chip runs. The list is cut into fourteen stretches
  (`seg1a`, `seg1b`, `seg2` … `seg13`), `refOps` is their concatenation (nested to the right), and
  `wrK` lists what stretch K writes. A second cutting of the same operations (`itemW_K`, `winW`) follows the
  program's own windows and opens and closes an item at every call: it is what `main` unfolds against.
  Then: `main = seq refOps`; every operation touches TensorCore references only, determines what it writes, and
  writes a reference of the list `refWrites`.
-/
import proofs.«182125_j62079457296719_1_alg».proof.ReferenceIdeal
import proofs.«182125_j62079457296719_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 1 … 82 of 348 (82): from the one writing main_c through the one writing main_v3. -/
abbrev seg1a : List (HloOp τ sig (Elt F)) :=
  [ StableHlo.nullary main_c (fun i => lit0 (S8x3.rowMajor i)),
    StableHlo.nullary main_c_0 (fun i => lit1 (S8x3.rowMajor i)),
    StableHlo.nullary main_c_1 (constantI S_ 32 16384#32),
    StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32768, .i32⟩) (broadcastInDim S32768 ![] bcast_S_S32768),
    StableHlo.TRef.binary (.of main_arg12 : StableHlo.TRef sig ⟨S32768, .i32⟩) (.of main_call0_v1 : StableHlo.TRef sig ⟨S32768, .i32⟩) (.of main_call0_v2 : StableHlo.TRef sig ⟨S32768, .i32⟩) Host.divsi,
    StableHlo.TRef.unary (.of main_arg12 : StableHlo.TRef sig ⟨S32768, .i32⟩) (.of main_call0_v3 : StableHlo.TRef sig ⟨S32768, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S32768, .i32⟩) (broadcastInDim S32768 ![] bcast_S_S32768),
    StableHlo.TRef.binary (.of main_call0_v3 : StableHlo.TRef sig ⟨S32768, .i32⟩) (.of main_call0_v5 : StableHlo.TRef sig ⟨S32768, .i32⟩) (.of main_call0_v6 : StableHlo.TRef sig ⟨S32768, .i1⟩) (cmpi .ne),
    StableHlo.TRef.unary (.of main_call0_v0 : StableHlo.TRef sig ⟨S_, .i32⟩) (.of main_call0_v7 : StableHlo.TRef sig ⟨S32768, .i32⟩) (broadcastInDim S32768 ![] bcast_S_S32768),
    StableHlo.TRef.binary (.of main_arg12 : StableHlo.TRef sig ⟨S32768, .i32⟩) (.of main_call0_v7 : StableHlo.TRef sig ⟨S32768, .i32⟩) (.of main_call0_v8 : StableHlo.TRef sig ⟨S32768, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S32768, .i32⟩) (broadcastInDim S32768 ![] bcast_S_S32768),
    StableHlo.TRef.binary (.of main_call0_v8 : StableHlo.TRef sig ⟨S32768, .i32⟩) (.of main_call0_v9 : StableHlo.TRef sig ⟨S32768, .i32⟩) (.of main_call0_v10 : StableHlo.TRef sig ⟨S32768, .i1⟩) (cmpi .ne),
    StableHlo.TRef.binary (.of main_call0_v6 : StableHlo.TRef sig ⟨S32768, .i1⟩) (.of main_call0_v10 : StableHlo.TRef sig ⟨S32768, .i1⟩) (.of main_call0_v11 : StableHlo.TRef sig ⟨S32768, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S32768, .i32⟩) (broadcastInDim S32768 ![] bcast_S_S32768),
    StableHlo.TRef.binary (.of main_call0_v2 : StableHlo.TRef sig ⟨S32768, .i32⟩) (.of main_call0_v12 : StableHlo.TRef sig ⟨S32768, .i32⟩) (.of main_call0_v13 : StableHlo.TRef sig ⟨S32768, .i32⟩) subi,
    StableHlo.TRef.ternary (.of main_call0_v11 : StableHlo.TRef sig ⟨S32768, .i1⟩) (.of main_call0_v13 : StableHlo.TRef sig ⟨S32768, .i32⟩) (.of main_call0_v2 : StableHlo.TRef sig ⟨S32768, .i32⟩) (.of main_v0 : StableHlo.TRef sig ⟨S32768, .i32⟩) select,
    StableHlo.nullary main_c_2 (constantI S_ 32 16384#32),
    StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S32768, .i32⟩) (broadcastInDim S32768 ![] bcast_S_S32768),
    StableHlo.TRef.binary (.of main_arg12 : StableHlo.TRef sig ⟨S32768, .i32⟩) (.of main_call1_v3 : StableHlo.TRef sig ⟨S32768, .i32⟩) (.of main_call1_v4 : StableHlo.TRef sig ⟨S32768, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S32768, .i32⟩) (broadcastInDim S32768 ![] bcast_S_S32768),
    StableHlo.TRef.binary (.of main_call1_v4 : StableHlo.TRef sig ⟨S32768, .i32⟩) (.of main_call1_v5 : StableHlo.TRef sig ⟨S32768, .i32⟩) (.of main_call1_v6 : StableHlo.TRef sig ⟨S32768, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S32768, .i32⟩) (broadcastInDim S32768 ![] bcast_S_S32768),
    StableHlo.TRef.binary (.of main_call1_v4 : StableHlo.TRef sig ⟨S32768, .i32⟩) (.of main_call1_v7 : StableHlo.TRef sig ⟨S32768, .i32⟩) (.of main_call1_v8 : StableHlo.TRef sig ⟨S32768, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S32768, .i1⟩) (broadcastInDim S32768 ![] bcast_S_S32768),
    StableHlo.TRef.binary (.of main_call1_v8 : StableHlo.TRef sig ⟨S32768, .i1⟩) (.of main_call1_v10 : StableHlo.TRef sig ⟨S32768, .i1⟩) (.of main_call1_v11 : StableHlo.TRef sig ⟨S32768, .i1⟩) (cmpi .ne),
    StableHlo.TRef.binary (.of main_call1_v11 : StableHlo.TRef sig ⟨S32768, .i1⟩) (.of main_call1_v6 : StableHlo.TRef sig ⟨S32768, .i1⟩) (.of main_call1_v12 : StableHlo.TRef sig ⟨S32768, .i1⟩) andi,
    StableHlo.TRef.unary (.of main_call1_v2 : StableHlo.TRef sig ⟨S_, .i32⟩) (.of main_call1_v13 : StableHlo.TRef sig ⟨S32768, .i32⟩) (broadcastInDim S32768 ![] bcast_S_S32768),
    StableHlo.TRef.binary (.of main_call1_v4 : StableHlo.TRef sig ⟨S32768, .i32⟩) (.of main_call1_v13 : StableHlo.TRef sig ⟨S32768, .i32⟩) (.of main_call1_v14 : StableHlo.TRef sig ⟨S32768, .i32⟩) addi,
    StableHlo.TRef.ternary (.of main_call1_v12 : StableHlo.TRef sig ⟨S32768, .i1⟩) (.of main_call1_v14 : StableHlo.TRef sig ⟨S32768, .i32⟩) (.of main_call1_v4 : StableHlo.TRef sig ⟨S32768, .i32⟩) (.of main_v1 : StableHlo.TRef sig ⟨S32768, .i32⟩) select,
    StableHlo.nullary main_c_3 (constantI S_ 32 128#32),
    StableHlo.TRef.unary (.of main_c_3 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.binary (.of main_v1 : StableHlo.TRef sig ⟨S32768, .i32⟩) (.of main_call2_v1 : StableHlo.TRef sig ⟨S32768, .i32⟩) (.of main_call2_v2 : StableHlo.TRef sig ⟨S32768, .i32⟩) Host.divsi,
    StableHlo.TRef.unary (.of main_v1 : StableHlo.TRef sig ⟨S32768, .i32⟩) (.of main_call2_v3 : StableHlo.TRef sig ⟨S32768, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S32768, .i32⟩) (broadcastInDim S32768 ![] bcast_S_S32768),
    StableHlo.TRef.binary (.of main_call2_v3 : StableHlo.TRef sig ⟨S32768, .i32⟩) (.of main_call2_v5 : StableHlo.TRef sig ⟨S32768, .i32⟩) (.of main_call2_v6 : StableHlo.TRef sig ⟨S32768, .i1⟩) (cmpi .ne),
    StableHlo.TRef.unary (.of main_call2_v0 : StableHlo.TRef sig ⟨S_, .i32⟩) (.of main_call2_v7 : StableHlo.TRef sig ⟨S32768, .i32⟩) (broadcastInDim S32768 ![] bcast_S_S32768),
    StableHlo.TRef.binary (.of main_v1 : StableHlo.TRef sig ⟨S32768, .i32⟩) (.of main_call2_v7 : StableHlo.TRef sig ⟨S32768, .i32⟩) (.of main_call2_v8 : StableHlo.TRef sig ⟨S32768, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S32768, .i32⟩) (broadcastInDim S32768 ![] bcast_S_S32768),
    StableHlo.TRef.binary (.of main_call2_v8 : StableHlo.TRef sig ⟨S32768, .i32⟩) (.of main_call2_v9 : StableHlo.TRef sig ⟨S32768, .i32⟩) (.of main_call2_v10 : StableHlo.TRef sig ⟨S32768, .i1⟩) (cmpi .ne),
    StableHlo.TRef.binary (.of main_call2_v6 : StableHlo.TRef sig ⟨S32768, .i1⟩) (.of main_call2_v10 : StableHlo.TRef sig ⟨S32768, .i1⟩) (.of main_call2_v11 : StableHlo.TRef sig ⟨S32768, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S32768, .i32⟩) (broadcastInDim S32768 ![] bcast_S_S32768),
    StableHlo.TRef.binary (.of main_call2_v2 : StableHlo.TRef sig ⟨S32768, .i32⟩) (.of main_call2_v12 : StableHlo.TRef sig ⟨S32768, .i32⟩) (.of main_call2_v13 : StableHlo.TRef sig ⟨S32768, .i32⟩) subi,
    StableHlo.TRef.ternary (.of main_call2_v11 : StableHlo.TRef sig ⟨S32768, .i1⟩) (.of main_call2_v13 : StableHlo.TRef sig ⟨S32768, .i32⟩) (.of main_call2_v2 : StableHlo.TRef sig ⟨S32768, .i32⟩) (.of main_v2 : StableHlo.TRef sig ⟨S32768, .i32⟩) select,
    StableHlo.nullary main_c_4 (constantI S_ 32 128#32),
    StableHlo.TRef.unary (.of main_c_4 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S32768, .i32⟩) (broadcastInDim S32768 ![] bcast_S_S32768),
    StableHlo.TRef.binary (.of main_arg12 : StableHlo.TRef sig ⟨S32768, .i32⟩) (.of main_call3_v3 : StableHlo.TRef sig ⟨S32768, .i32⟩) (.of main_call3_v4 : StableHlo.TRef sig ⟨S32768, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S32768, .i32⟩) (broadcastInDim S32768 ![] bcast_S_S32768),
    StableHlo.TRef.binary (.of main_call3_v4 : StableHlo.TRef sig ⟨S32768, .i32⟩) (.of main_call3_v5 : StableHlo.TRef sig ⟨S32768, .i32⟩) (.of main_call3_v6 : StableHlo.TRef sig ⟨S32768, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S32768, .i32⟩) (broadcastInDim S32768 ![] bcast_S_S32768),
    StableHlo.TRef.binary (.of main_call3_v4 : StableHlo.TRef sig ⟨S32768, .i32⟩) (.of main_call3_v7 : StableHlo.TRef sig ⟨S32768, .i32⟩) (.of main_call3_v8 : StableHlo.TRef sig ⟨S32768, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S32768, .i1⟩) (broadcastInDim S32768 ![] bcast_S_S32768),
    StableHlo.TRef.binary (.of main_call3_v8 : StableHlo.TRef sig ⟨S32768, .i1⟩) (.of main_call3_v10 : StableHlo.TRef sig ⟨S32768, .i1⟩) (.of main_call3_v11 : StableHlo.TRef sig ⟨S32768, .i1⟩) (cmpi .ne),
    StableHlo.TRef.binary (.of main_call3_v11 : StableHlo.TRef sig ⟨S32768, .i1⟩) (.of main_call3_v6 : StableHlo.TRef sig ⟨S32768, .i1⟩) (.of main_call3_v12 : StableHlo.TRef sig ⟨S32768, .i1⟩) andi,
    StableHlo.TRef.unary (.of main_call3_v2 : StableHlo.TRef sig ⟨S_, .i32⟩) (.of main_call3_v13 : StableHlo.TRef sig ⟨S32768, .i32⟩) (broadcastInDim S32768 ![] bcast_S_S32768),
    StableHlo.TRef.binary (.of main_call3_v4 : StableHlo.TRef sig ⟨S32768, .i32⟩) (.of main_call3_v13 : StableHlo.TRef sig ⟨S32768, .i32⟩) (.of main_call3_v14 : StableHlo.TRef sig ⟨S32768, .i32⟩) addi,
    StableHlo.TRef.ternary (.of main_call3_v12 : StableHlo.TRef sig ⟨S32768, .i1⟩) (.of main_call3_v14 : StableHlo.TRef sig ⟨S32768, .i32⟩) (.of main_call3_v4 : StableHlo.TRef sig ⟨S32768, .i32⟩) (.of main_v3 : StableHlo.TRef sig ⟨S32768, .i32⟩) select ]
/-- What they write, in order. -/
abbrev wr1a : List (Ref sig .tc) :=
  [main_c, main_c_0, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0, main_c_2, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v1, main_c_3, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v2, main_c_4, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v3]

/-- Operations 83 … 106 of 348 (24): from the one writing main_c_5 through the one writing main_v21. -/
abbrev seg1b : List (HloOp τ sig (Elt F)) :=
  [ StableHlo.nullary main_c_5 (constantI S_ 32 1#32),
    StableHlo.unary main_c_5 main_v4 (broadcastInDim S32768 ![] bcast_S_S32768 : (⟨S_, .i32⟩ : BufTy).Contents (Elt F) → (⟨S32768, .i32⟩ : BufTy).Contents (Elt F)),
    StableHlo.binary main_v0 main_v4 main_v5 (cmpi .sge : (⟨S32768, .i32⟩ : BufTy).Contents (Elt F) → (⟨S32768, .i32⟩ : BufTy).Contents (Elt F) → (⟨S32768, .i1⟩ : BufTy).Contents (Elt F)),
    StableHlo.nullary main_c_6 (constantI S_ 32 127#32),
    StableHlo.unary main_c_6 main_v6 (broadcastInDim S32768 ![] bcast_S_S32768 : (⟨S_, .i32⟩ : BufTy).Contents (Elt F) → (⟨S32768, .i32⟩ : BufTy).Contents (Elt F)),
    StableHlo.binary main_v0 main_v6 main_v7 (cmpi .slt : (⟨S32768, .i32⟩ : BufTy).Contents (Elt F) → (⟨S32768, .i32⟩ : BufTy).Contents (Elt F) → (⟨S32768, .i1⟩ : BufTy).Contents (Elt F)),
    StableHlo.binary main_v5 main_v7 main_v8 (andi : (⟨S32768, .i1⟩ : BufTy).Contents (Elt F) → (⟨S32768, .i1⟩ : BufTy).Contents (Elt F) → (⟨S32768, .i1⟩ : BufTy).Contents (Elt F)),
    StableHlo.nullary main_c_7 (constantI S_ 32 1#32),
    StableHlo.unary main_c_7 main_v9 (broadcastInDim S32768 ![] bcast_S_S32768 : (⟨S_, .i32⟩ : BufTy).Contents (Elt F) → (⟨S32768, .i32⟩ : BufTy).Contents (Elt F)),
    StableHlo.binary main_v2 main_v9 main_v10 (cmpi .sge : (⟨S32768, .i32⟩ : BufTy).Contents (Elt F) → (⟨S32768, .i32⟩ : BufTy).Contents (Elt F) → (⟨S32768, .i1⟩ : BufTy).Contents (Elt F)),
    StableHlo.binary main_v8 main_v10 main_v11 (andi : (⟨S32768, .i1⟩ : BufTy).Contents (Elt F) → (⟨S32768, .i1⟩ : BufTy).Contents (Elt F) → (⟨S32768, .i1⟩ : BufTy).Contents (Elt F)),
    StableHlo.nullary main_c_8 (constantI S_ 32 127#32),
    StableHlo.unary main_c_8 main_v12 (broadcastInDim S32768 ![] bcast_S_S32768 : (⟨S_, .i32⟩ : BufTy).Contents (Elt F) → (⟨S32768, .i32⟩ : BufTy).Contents (Elt F)),
    StableHlo.binary main_v2 main_v12 main_v13 (cmpi .slt : (⟨S32768, .i32⟩ : BufTy).Contents (Elt F) → (⟨S32768, .i32⟩ : BufTy).Contents (Elt F) → (⟨S32768, .i1⟩ : BufTy).Contents (Elt F)),
    StableHlo.binary main_v11 main_v13 main_v14 (andi : (⟨S32768, .i1⟩ : BufTy).Contents (Elt F) → (⟨S32768, .i1⟩ : BufTy).Contents (Elt F) → (⟨S32768, .i1⟩ : BufTy).Contents (Elt F)),
    StableHlo.nullary main_c_9 (constantI S_ 32 1#32),
    StableHlo.unary main_c_9 main_v15 (broadcastInDim S32768 ![] bcast_S_S32768 : (⟨S_, .i32⟩ : BufTy).Contents (Elt F) → (⟨S32768, .i32⟩ : BufTy).Contents (Elt F)),
    StableHlo.binary main_v3 main_v15 main_v16 (cmpi .sge : (⟨S32768, .i32⟩ : BufTy).Contents (Elt F) → (⟨S32768, .i32⟩ : BufTy).Contents (Elt F) → (⟨S32768, .i1⟩ : BufTy).Contents (Elt F)),
    StableHlo.binary main_v14 main_v16 main_v17 (andi : (⟨S32768, .i1⟩ : BufTy).Contents (Elt F) → (⟨S32768, .i1⟩ : BufTy).Contents (Elt F) → (⟨S32768, .i1⟩ : BufTy).Contents (Elt F)),
    StableHlo.nullary main_c_10 (constantI S_ 32 127#32),
    StableHlo.unary main_c_10 main_v18 (broadcastInDim S32768 ![] bcast_S_S32768 : (⟨S_, .i32⟩ : BufTy).Contents (Elt F) → (⟨S32768, .i32⟩ : BufTy).Contents (Elt F)),
    StableHlo.binary main_v3 main_v18 main_v19 (cmpi .slt : (⟨S32768, .i32⟩ : BufTy).Contents (Elt F) → (⟨S32768, .i32⟩ : BufTy).Contents (Elt F) → (⟨S32768, .i1⟩ : BufTy).Contents (Elt F)),
    StableHlo.binary main_v17 main_v19 main_v20 (andi : (⟨S32768, .i1⟩ : BufTy).Contents (Elt F) → (⟨S32768, .i1⟩ : BufTy).Contents (Elt F) → (⟨S32768, .i1⟩ : BufTy).Contents (Elt F)),
    StableHlo.unary main_v20 main_v21 (uitofp .f32 : (⟨S32768, .i1⟩ : BufTy).Contents (Elt F) → (⟨S32768, .f32⟩ : BufTy).Contents (Elt F)) ]
/-- What they write, in order. -/
abbrev wr1b : List (Ref sig .tc) :=
  [main_c_5, main_v4, main_v5, main_c_6, main_v6, main_v7, main_v8, main_c_7, main_v9, main_v10, main_v11, main_c_8, main_v12, main_v13, main_v14, main_c_9, main_v15, main_v16, main_v17, main_c_10, main_v18, main_v19, main_v20, main_v21]

/-- Operations 107 … 115 of 348 (9): from the one writing main_c_11 through the one writing main_v28. -/
abbrev seg2 : List (HloOp τ sig (Elt F)) :=
  [ StableHlo.nullary main_c_11 (constantI S_ 32 0#32),
    StableHlo.unary main_c_11 main_v22 (broadcastInDim S32768 ![] bcast_S_S32768 : (⟨S_, .i32⟩ : BufTy).Contents (Elt F) → (⟨S32768, .i32⟩ : BufTy).Contents (Elt F)),
    StableHlo.binary main_arg12 main_v22 main_v23 (cmpi .slt : (⟨S32768, .i32⟩ : BufTy).Contents (Elt F) → (⟨S32768, .i32⟩ : BufTy).Contents (Elt F) → (⟨S32768, .i1⟩ : BufTy).Contents (Elt F)),
    StableHlo.nullary main_c_12 (constantI S_ 32 2097152#32),
    StableHlo.unary main_c_12 main_v24 (broadcastInDim S32768 ![] bcast_S_S32768 : (⟨S_, .i32⟩ : BufTy).Contents (Elt F) → (⟨S32768, .i32⟩ : BufTy).Contents (Elt F)),
    StableHlo.binary main_arg12 main_v24 main_v25 (addi : (⟨S32768, .i32⟩ : BufTy).Contents (Elt F) → (⟨S32768, .i32⟩ : BufTy).Contents (Elt F) → (⟨S32768, .i32⟩ : BufTy).Contents (Elt F)),
    StableHlo.ternary main_v23 main_v25 main_arg12 main_v26 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v26 main_v27 (broadcastInDim S32768x1 ![0] bcast_S32768_S32768x1_0 : (⟨S32768, .i32⟩ : BufTy).Contents (Elt F) → (⟨S32768x1, .i32⟩ : BufTy).Contents (Elt F)),
    StableHlo.binary main_arg0 main_v27 main_v28 ((fun x i => Host.gather gather_S2097152x3_S32768x1_S32768x3_1_0_n_n_0_1_13 x i) : (⟨S2097152x3, .f32⟩ : BufTy).Contents (Elt F) → (⟨S32768x1, .i32⟩ : BufTy).Contents (Elt F) → (⟨S32768x3, .f32⟩ : BufTy).Contents (Elt F)) ]
/-- What they write, in order. -/
abbrev wr2 : List (Ref sig .tc) :=
  [main_c_11, main_v22, main_v23, main_c_12, main_v24, main_v25, main_v26, main_v27, main_v28]

/-- Operations 116 … 135 of 348 (20): from the one writing main_v29 through the one writing main_v48. -/
abbrev seg3 : List (HloOp τ sig (Elt F)) :=
  [ StableHlo.binary main_v28 main_arg4 main_v29 ((fun l r => Host.dotGeneral dot_S32768x3_S3x128_S32768x128_1_0_0_1_n_n none l r) : (⟨S32768x3, .f32⟩ : BufTy).Contents (Elt F) → (⟨S3x128, .f32⟩ : BufTy).Contents (Elt F) → (⟨S32768x128, .f32⟩ : BufTy).Contents (Elt F)),
    StableHlo.unary main_arg5 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S32768x128 ![0, 1] bcast_S1x128_S32768x128_0_1 : (⟨S1x128, .f32⟩ : BufTy).Contents (Elt F) → (⟨S32768x128, .f32⟩ : BufTy).Contents (Elt F)),
    StableHlo.binary main_v29 main_v31 main_v32 (addf : (⟨S32768x128, .f32⟩ : BufTy).Contents (Elt F) → (⟨S32768x128, .f32⟩ : BufTy).Contents (Elt F) → (⟨S32768x128, .f32⟩ : BufTy).Contents (Elt F)),
    StableHlo.unary main_v32 main_v33 (Host.tanh : (⟨S32768x128, .f32⟩ : BufTy).Contents (Elt F) → (⟨S32768x128, .f32⟩ : BufTy).Contents (Elt F)),
    StableHlo.binary main_v33 main_arg6 main_v34 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.unary main_arg7 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S32768x128 ![0, 1] bcast_S1x128_S32768x128_0_1 : (⟨S1x128, .f32⟩ : BufTy).Contents (Elt F) → (⟨S32768x128, .f32⟩ : BufTy).Contents (Elt F)),
    StableHlo.binary main_v34 main_v36 main_v37 (addf : (⟨S32768x128, .f32⟩ : BufTy).Contents (Elt F) → (⟨S32768x128, .f32⟩ : BufTy).Contents (Elt F) → (⟨S32768x128, .f32⟩ : BufTy).Contents (Elt F)),
    StableHlo.unary main_v37 main_v38 (Host.tanh : (⟨S32768x128, .f32⟩ : BufTy).Contents (Elt F) → (⟨S32768x128, .f32⟩ : BufTy).Contents (Elt F)),
    StableHlo.binary main_v38 main_arg8 main_v39 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.unary main_arg9 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S32768x128 ![0, 1] bcast_S1x128_S32768x128_0_1 : (⟨S1x128, .f32⟩ : BufTy).Contents (Elt F) → (⟨S32768x128, .f32⟩ : BufTy).Contents (Elt F)),
    StableHlo.binary main_v39 main_v41 main_v42 (addf : (⟨S32768x128, .f32⟩ : BufTy).Contents (Elt F) → (⟨S32768x128, .f32⟩ : BufTy).Contents (Elt F) → (⟨S32768x128, .f32⟩ : BufTy).Contents (Elt F)),
    StableHlo.unary main_v42 main_v43 (Host.tanh : (⟨S32768x128, .f32⟩ : BufTy).Contents (Elt F) → (⟨S32768x128, .f32⟩ : BufTy).Contents (Elt F)),
    StableHlo.binary main_v43 main_arg10 main_v44 ((fun l r => Host.dotGeneral dot_S32768x128_S128x1_S32768x1_1_0_0_1_n_n none l r) : (⟨S32768x128, .f32⟩ : BufTy).Contents (Elt F) → (⟨S128x1, .f32⟩ : BufTy).Contents (Elt F) → (⟨S32768x1, .f32⟩ : BufTy).Contents (Elt F)),
    StableHlo.unary main_arg11 main_v45 (broadcastInDim S1x1 ![1] bcast_S1_S1x1_1 : (⟨S1, .f32⟩ : BufTy).Contents (Elt F) → (⟨S1x1, .f32⟩ : BufTy).Contents (Elt F)),
    StableHlo.unary main_v45 main_v46 (broadcastInDim S32768x1 ![0, 1] bcast_S1x1_S32768x1_0_1 : (⟨S1x1, .f32⟩ : BufTy).Contents (Elt F) → (⟨S32768x1, .f32⟩ : BufTy).Contents (Elt F)),
    StableHlo.binary main_v44 main_v46 main_v47 (addf : (⟨S32768x1, .f32⟩ : BufTy).Contents (Elt F) → (⟨S32768x1, .f32⟩ : BufTy).Contents (Elt F) → (⟨S32768x1, .f32⟩ : BufTy).Contents (Elt F)),
    StableHlo.reshape main_v47 main_v48 rfl shapeCasts_S32768x1_S32768 ]
/-- What they write, in order. -/
abbrev wr3 : List (Ref sig .tc) :=
  [main_v29, main_v30, main_v31, main_v32, main_v33, main_v34, main_v35, main_v36, main_v37, main_v38, main_v39, main_v40, main_v41, main_v42, main_v43, main_v44, main_v45, main_v46, main_v47, main_v48]

/-- Operations 136 … 145 of 348 (10): from the one writing main_c_13 through the one writing main_v56. -/
abbrev seg4 : List (HloOp τ sig (Elt F)) :=
  [ StableHlo.nullary main_c_13 (constantI S_ 32 0#32),
    StableHlo.unary main_c_13 main_v49 (broadcastInDim S32768 ![] bcast_S_S32768 : (⟨S_, .i32⟩ : BufTy).Contents (Elt F) → (⟨S32768, .i32⟩ : BufTy).Contents (Elt F)),
    StableHlo.binary main_arg12 main_v49 main_v50 (cmpi .slt : (⟨S32768, .i32⟩ : BufTy).Contents (Elt F) → (⟨S32768, .i32⟩ : BufTy).Contents (Elt F) → (⟨S32768, .i1⟩ : BufTy).Contents (Elt F)),
    StableHlo.nullary main_c_14 (constantI S_ 32 2097152#32),
    StableHlo.unary main_c_14 main_v51 (broadcastInDim S32768 ![] bcast_S_S32768 : (⟨S_, .i32⟩ : BufTy).Contents (Elt F) → (⟨S32768, .i32⟩ : BufTy).Contents (Elt F)),
    StableHlo.binary main_arg12 main_v51 main_v52 (addi : (⟨S32768, .i32⟩ : BufTy).Contents (Elt F) → (⟨S32768, .i32⟩ : BufTy).Contents (Elt F) → (⟨S32768, .i32⟩ : BufTy).Contents (Elt F)),
    StableHlo.ternary main_v50 main_v52 main_arg12 main_v53 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v53 main_v54 (broadcastInDim S32768x1 ![0] bcast_S32768_S32768x1_0 : (⟨S32768, .i32⟩ : BufTy).Contents (Elt F) → (⟨S32768x1, .i32⟩ : BufTy).Contents (Elt F)),
    StableHlo.binary main_arg1 main_v54 main_v55 ((fun x i => Host.gather gather_S2097152x1_S32768x1_S32768x1_1_0_n_n_0_1_11 x i) : (⟨S2097152x1, .f32⟩ : BufTy).Contents (Elt F) → (⟨S32768x1, .i32⟩ : BufTy).Contents (Elt F) → (⟨S32768x1, .f32⟩ : BufTy).Contents (Elt F)),
    StableHlo.reshape main_v55 main_v56 rfl shapeCasts_S32768x1_S32768 ]
/-- What they write, in order. -/
abbrev wr4 : List (Ref sig .tc) :=
  [main_c_13, main_v49, main_v50, main_c_14, main_v51, main_v52, main_v53, main_v54, main_v55, main_v56]

/-- Operations 146 … 151 of 348 (6): from the one writing main_v57 through the one writing main_v60. -/
abbrev seg5 : List (HloOp τ sig (Elt F)) :=
  [ StableHlo.binary main_v48 main_v56 main_v57 (subf : (⟨S32768, .f32⟩ : BufTy).Contents (Elt F) → (⟨S32768, .f32⟩ : BufTy).Contents (Elt F) → (⟨S32768, .f32⟩ : BufTy).Contents (Elt F)),
    StableHlo.unary main_v57 main_v58 (Host.absf : (⟨S32768, .f32⟩ : BufTy).Contents (Elt F) → (⟨S32768, .f32⟩ : BufTy).Contents (Elt F)),
    StableHlo.nullary main_cst (constant S_ .f32 0x00000000#32),
    StableHlo.binary main_v58 main_cst main_v59 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_15 (constant S_ .f32 0x47000000#32),
    StableHlo.binary main_v59 main_cst_15 main_v60 (Host.divf : (⟨S_, .f32⟩ : BufTy).Contents (Elt F) → (⟨S_, .f32⟩ : BufTy).Contents (Elt F) → (⟨S_, .f32⟩ : BufTy).Contents (Elt F)) ]
/-- What they write, in order. -/
abbrev wr5 : List (Ref sig .tc) :=
  [main_v57, main_v58, main_cst, main_v59, main_cst_15, main_v60]

/-- Operations 152 … 209 of 348 (58): from the one writing main_v61 through the one writing main_v100. -/
abbrev seg6 : List (HloOp τ sig (Elt F)) :=
  [ StableHlo.unary main_v0 main_v61 (broadcastInDim S32768x1 ![0] bcast_S32768_S32768x1_0 : (⟨S32768, .i32⟩ : BufTy).Contents (Elt F) → (⟨S32768x1, .i32⟩ : BufTy).Contents (Elt F)),
    StableHlo.unary main_v2 main_v62 (broadcastInDim S32768x1 ![0] bcast_S32768_S32768x1_0 : (⟨S32768, .i32⟩ : BufTy).Contents (Elt F) → (⟨S32768x1, .i32⟩ : BufTy).Contents (Elt F)),
    StableHlo.unary main_v3 main_v63 (broadcastInDim S32768x1 ![0] bcast_S32768_S32768x1_0 : (⟨S32768, .i32⟩ : BufTy).Contents (Elt F) → (⟨S32768x1, .i32⟩ : BufTy).Contents (Elt F)),
    StableHlo.nary ![main_v61, main_v62, main_v63] main_v64 (fun u => concatenate S32768x3 1 [⟨S32768x1, u 0⟩, ⟨S32768x1, u 1⟩, ⟨S32768x1, u 2⟩] concatenates_S32768x1_S32768x1_S32768x1_S32768x3_d1),
    StableHlo.unary main_v64 main_v65 (broadcastInDim S32768x1x3 ![0, 2] bcast_S32768x3_S32768x1x3_0_2 : (⟨S32768x3, .i32⟩ : BufTy).Contents (Elt F) → (⟨S32768x1x3, .i32⟩ : BufTy).Contents (Elt F)),
    StableHlo.unary main_c main_v66 (broadcastInDim S1x8x3 ![1, 2] bcast_S8x3_S1x8x3_1_2 : (⟨S8x3, .i32⟩ : BufTy).Contents (Elt F) → (⟨S1x8x3, .i32⟩ : BufTy).Contents (Elt F)),
    StableHlo.unary main_v65 main_v67 (broadcastInDim S32768x8x3 ![0, 1, 2] bcast_S32768x1x3_S32768x8x3_0_1_2 : (⟨S32768x1x3, .i32⟩ : BufTy).Contents (Elt F) → (⟨S32768x8x3, .i32⟩ : BufTy).Contents (Elt F)),
    StableHlo.unary main_v66 main_v68 (broadcastInDim S32768x8x3 ![0, 1, 2] bcast_S1x8x3_S32768x8x3_0_1_2 : (⟨S1x8x3, .i32⟩ : BufTy).Contents (Elt F) → (⟨S32768x8x3, .i32⟩ : BufTy).Contents (Elt F)),
    StableHlo.binary main_v67 main_v68 main_v69 (addi : (⟨S32768x8x3, .i32⟩ : BufTy).Contents (Elt F) → (⟨S32768x8x3, .i32⟩ : BufTy).Contents (Elt F) → (⟨S32768x8x3, .i32⟩ : BufTy).Contents (Elt F)),
    StableHlo.unary main_v64 main_v70 (broadcastInDim S32768x1x3 ![0, 2] bcast_S32768x3_S32768x1x3_0_2 : (⟨S32768x3, .i32⟩ : BufTy).Contents (Elt F) → (⟨S32768x1x3, .i32⟩ : BufTy).Contents (Elt F)),
    StableHlo.unary main_c_0 main_v71 (broadcastInDim S1x8x3 ![1, 2] bcast_S8x3_S1x8x3_1_2 : (⟨S8x3, .i32⟩ : BufTy).Contents (Elt F) → (⟨S1x8x3, .i32⟩ : BufTy).Contents (Elt F)),
    StableHlo.unary main_v70 main_v72 (broadcastInDim S32768x8x3 ![0, 1, 2] bcast_S32768x1x3_S32768x8x3_0_1_2 : (⟨S32768x1x3, .i32⟩ : BufTy).Contents (Elt F) → (⟨S32768x8x3, .i32⟩ : BufTy).Contents (Elt F)),
    StableHlo.unary main_v71 main_v73 (broadcastInDim S32768x8x3 ![0, 1, 2] bcast_S1x8x3_S32768x8x3_0_1_2 : (⟨S1x8x3, .i32⟩ : BufTy).Contents (Elt F) → (⟨S32768x8x3, .i32⟩ : BufTy).Contents (Elt F)),
    StableHlo.binary main_v72 main_v73 main_v74 (addi : (⟨S32768x8x3, .i32⟩ : BufTy).Contents (Elt F) → (⟨S32768x8x3, .i32⟩ : BufTy).Contents (Elt F) → (⟨S32768x8x3, .i32⟩ : BufTy).Contents (Elt F)),
    StableHlo.unary main_v69 main_v75 ((extractStridedSlice S32768x8x1 ![0, 0, 0] · slices_S32768x8x3_S32768x8x1_0_0_0) : (⟨S32768x8x3, .i32⟩ : BufTy).Contents (Elt F) → (⟨S32768x8x1, .i32⟩ : BufTy).Contents (Elt F)),
    StableHlo.reshape main_v75 main_v76 rfl shapeCasts_S32768x8x1_S32768x8,
    StableHlo.nullary main_c_16 (constantI S_ 32 16129#32),
    StableHlo.unary main_c_16 main_v77 (broadcastInDim S32768x8 ![] bcast_S_S32768x8 : (⟨S_, .i32⟩ : BufTy).Contents (Elt F) → (⟨S32768x8, .i32⟩ : BufTy).Contents (Elt F)),
    StableHlo.binary main_v76 main_v77 main_v78 (muli : (⟨S32768x8, .i32⟩ : BufTy).Contents (Elt F) → (⟨S32768x8, .i32⟩ : BufTy).Contents (Elt F) → (⟨S32768x8, .i32⟩ : BufTy).Contents (Elt F)),
    StableHlo.unary main_v69 main_v79 ((extractStridedSlice S32768x8x1 ![0, 0, 1] · slices_S32768x8x3_S32768x8x1_0_0_1) : (⟨S32768x8x3, .i32⟩ : BufTy).Contents (Elt F) → (⟨S32768x8x1, .i32⟩ : BufTy).Contents (Elt F)),
    StableHlo.reshape main_v79 main_v80 rfl shapeCasts_S32768x8x1_S32768x8,
    StableHlo.nullary main_c_17 (constantI S_ 32 127#32),
    StableHlo.unary main_c_17 main_v81 (broadcastInDim S32768x8 ![] bcast_S_S32768x8 : (⟨S_, .i32⟩ : BufTy).Contents (Elt F) → (⟨S32768x8, .i32⟩ : BufTy).Contents (Elt F)),
    StableHlo.binary main_v80 main_v81 main_v82 (muli : (⟨S32768x8, .i32⟩ : BufTy).Contents (Elt F) → (⟨S32768x8, .i32⟩ : BufTy).Contents (Elt F) → (⟨S32768x8, .i32⟩ : BufTy).Contents (Elt F)),
    StableHlo.binary main_v78 main_v82 main_v83 (addi : (⟨S32768x8, .i32⟩ : BufTy).Contents (Elt F) → (⟨S32768x8, .i32⟩ : BufTy).Contents (Elt F) → (⟨S32768x8, .i32⟩ : BufTy).Contents (Elt F)),
    StableHlo.unary main_v69 main_v84 ((extractStridedSlice S32768x8x1 ![0, 0, 2] · slices_S32768x8x3_S32768x8x1_0_0_2) : (⟨S32768x8x3, .i32⟩ : BufTy).Contents (Elt F) → (⟨S32768x8x1, .i32⟩ : BufTy).Contents (Elt F)),
    StableHlo.reshape main_v84 main_v85 rfl shapeCasts_S32768x8x1_S32768x8,
    StableHlo.binary main_v83 main_v85 main_v86 (addi : (⟨S32768x8, .i32⟩ : BufTy).Contents (Elt F) → (⟨S32768x8, .i32⟩ : BufTy).Contents (Elt F) → (⟨S32768x8, .i32⟩ : BufTy).Contents (Elt F)),
    StableHlo.nullary main_c_18 (constantI S_ 32 0#32),
    StableHlo.nullary main_c_19 (constantI S_ 32 2048382#32),
    StableHlo.TRef.unary (.of main_c_18 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S32768x8, .i32⟩) (broadcastInDim S32768x8 ![] bcast_S_S32768x8),
    StableHlo.TRef.binary (.of main_call4_v1 : StableHlo.TRef sig ⟨S32768x8, .i32⟩) (.of main_v86 : StableHlo.TRef sig ⟨S32768x8, .i32⟩) (.of main_call4_v2 : StableHlo.TRef sig ⟨S32768x8, .i32⟩) maxsi,
    StableHlo.TRef.unary (.of main_c_19 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S32768x8, .i32⟩) (broadcastInDim S32768x8 ![] bcast_S_S32768x8),
    StableHlo.TRef.binary (.of main_call4_v4 : StableHlo.TRef sig ⟨S32768x8, .i32⟩) (.of main_call4_v2 : StableHlo.TRef sig ⟨S32768x8, .i32⟩) (.of main_v87 : StableHlo.TRef sig ⟨S32768x8, .i32⟩) minsi,
    StableHlo.unary main_v74 main_v88 ((extractStridedSlice S32768x8x1 ![0, 0, 0] · slices_S32768x8x3_S32768x8x1_0_0_0) : (⟨S32768x8x3, .i32⟩ : BufTy).Contents (Elt F) → (⟨S32768x8x1, .i32⟩ : BufTy).Contents (Elt F)),
    StableHlo.reshape main_v88 main_v89 rfl shapeCasts_S32768x8x1_S32768x8,
    StableHlo.nullary main_c_20 (constantI S_ 32 16129#32),
    StableHlo.unary main_c_20 main_v90 (broadcastInDim S32768x8 ![] bcast_S_S32768x8 : (⟨S_, .i32⟩ : BufTy).Contents (Elt F) → (⟨S32768x8, .i32⟩ : BufTy).Contents (Elt F)),
    StableHlo.binary main_v89 main_v90 main_v91 (muli : (⟨S32768x8, .i32⟩ : BufTy).Contents (Elt F) → (⟨S32768x8, .i32⟩ : BufTy).Contents (Elt F) → (⟨S32768x8, .i32⟩ : BufTy).Contents (Elt F)),
    StableHlo.unary main_v74 main_v92 ((extractStridedSlice S32768x8x1 ![0, 0, 1] · slices_S32768x8x3_S32768x8x1_0_0_1) : (⟨S32768x8x3, .i32⟩ : BufTy).Contents (Elt F) → (⟨S32768x8x1, .i32⟩ : BufTy).Contents (Elt F)),
    StableHlo.reshape main_v92 main_v93 rfl shapeCasts_S32768x8x1_S32768x8,
    StableHlo.nullary main_c_21 (constantI S_ 32 127#32),
    StableHlo.unary main_c_21 main_v94 (broadcastInDim S32768x8 ![] bcast_S_S32768x8 : (⟨S_, .i32⟩ : BufTy).Contents (Elt F) → (⟨S32768x8, .i32⟩ : BufTy).Contents (Elt F)),
    StableHlo.binary main_v93 main_v94 main_v95 (muli : (⟨S32768x8, .i32⟩ : BufTy).Contents (Elt F) → (⟨S32768x8, .i32⟩ : BufTy).Contents (Elt F) → (⟨S32768x8, .i32⟩ : BufTy).Contents (Elt F)),
    StableHlo.binary main_v91 main_v95 main_v96 (addi : (⟨S32768x8, .i32⟩ : BufTy).Contents (Elt F) → (⟨S32768x8, .i32⟩ : BufTy).Contents (Elt F) → (⟨S32768x8, .i32⟩ : BufTy).Contents (Elt F)),
    StableHlo.unary main_v74 main_v97 ((extractStridedSlice S32768x8x1 ![0, 0, 2] · slices_S32768x8x3_S32768x8x1_0_0_2) : (⟨S32768x8x3, .i32⟩ : BufTy).Contents (Elt F) → (⟨S32768x8x1, .i32⟩ : BufTy).Contents (Elt F)),
    StableHlo.reshape main_v97 main_v98 rfl shapeCasts_S32768x8x1_S32768x8,
    StableHlo.binary main_v96 main_v98 main_v99 (addi : (⟨S32768x8, .i32⟩ : BufTy).Contents (Elt F) → (⟨S32768x8, .i32⟩ : BufTy).Contents (Elt F) → (⟨S32768x8, .i32⟩ : BufTy).Contents (Elt F)),
    StableHlo.nullary main_c_22 (constantI S_ 32 0#32),
    StableHlo.nullary main_c_23 (constantI S_ 32 2097151#32),
    StableHlo.TRef.unary (.of main_c_22 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S32768x8, .i32⟩) (broadcastInDim S32768x8 ![] bcast_S_S32768x8),
    StableHlo.TRef.binary (.of main_call5_v1 : StableHlo.TRef sig ⟨S32768x8, .i32⟩) (.of main_v99 : StableHlo.TRef sig ⟨S32768x8, .i32⟩) (.of main_call5_v2 : StableHlo.TRef sig ⟨S32768x8, .i32⟩) maxsi,
    StableHlo.TRef.unary (.of main_c_23 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S32768x8, .i32⟩) (broadcastInDim S32768x8 ![] bcast_S_S32768x8),
    StableHlo.TRef.binary (.of main_call5_v4 : StableHlo.TRef sig ⟨S32768x8, .i32⟩) (.of main_call5_v2 : StableHlo.TRef sig ⟨S32768x8, .i32⟩) (.of main_v100 : StableHlo.TRef sig ⟨S32768x8, .i32⟩) minsi ]
/-- What they write, in order. -/
abbrev wr6 : List (Ref sig .tc) :=
  [main_v61, main_v62, main_v63, main_v64, main_v65, main_v66, main_v67, main_v68, main_v69, main_v70, main_v71, main_v72, main_v73, main_v74, main_v75, main_v76, main_c_16, main_v77, main_v78, main_v79, main_v80, main_c_17, main_v81, main_v82, main_v83, main_v84, main_v85, main_v86, main_c_18, main_c_19, main_call4_v0, main_call4_v1, main_call4_v2, main_call4_v3, main_call4_v4, main_v87, main_v88, main_v89, main_c_20, main_v90, main_v91, main_v92, main_v93, main_c_21, main_v94, main_v95, main_v96, main_v97, main_v98, main_v99, main_c_22, main_c_23, main_call5_v0, main_call5_v1, main_call5_v2, main_call5_v3, main_call5_v4, main_v100]

/-- Operations 210 … 219 of 348 (10): from the one writing main_c_24 through the one writing main_v108. -/
abbrev seg7 : List (HloOp τ sig (Elt F)) :=
  [ StableHlo.nullary main_c_24 (constantI S_ 32 0#32),
    StableHlo.unary main_c_24 main_v101 (broadcastInDim S32768x8 ![] bcast_S_S32768x8 : (⟨S_, .i32⟩ : BufTy).Contents (Elt F) → (⟨S32768x8, .i32⟩ : BufTy).Contents (Elt F)),
    StableHlo.binary main_v87 main_v101 main_v102 (cmpi .slt : (⟨S32768x8, .i32⟩ : BufTy).Contents (Elt F) → (⟨S32768x8, .i32⟩ : BufTy).Contents (Elt F) → (⟨S32768x8, .i1⟩ : BufTy).Contents (Elt F)),
    StableHlo.nullary main_c_25 (constantI S_ 32 2048383#32),
    StableHlo.unary main_c_25 main_v103 (broadcastInDim S32768x8 ![] bcast_S_S32768x8 : (⟨S_, .i32⟩ : BufTy).Contents (Elt F) → (⟨S32768x8, .i32⟩ : BufTy).Contents (Elt F)),
    StableHlo.binary main_v87 main_v103 main_v104 (addi : (⟨S32768x8, .i32⟩ : BufTy).Contents (Elt F) → (⟨S32768x8, .i32⟩ : BufTy).Contents (Elt F) → (⟨S32768x8, .i32⟩ : BufTy).Contents (Elt F)),
    StableHlo.ternary main_v102 main_v104 main_v87 main_v105 (select : (⟨S32768x8, .i1⟩ : BufTy).Contents (Elt F) → (⟨S32768x8, .i32⟩ : BufTy).Contents (Elt F) → (⟨S32768x8, .i32⟩ : BufTy).Contents (Elt F) → (⟨S32768x8, .i32⟩ : BufTy).Contents (Elt F)),
    StableHlo.unary main_v105 main_v106 (broadcastInDim S32768x8x1 ![0, 1] bcast_S32768x8_S32768x8x1_0_1 : (⟨S32768x8, .i32⟩ : BufTy).Contents (Elt F) → (⟨S32768x8x1, .i32⟩ : BufTy).Contents (Elt F)),
    StableHlo.binary main_arg2 main_v106 main_v107 ((fun x i => Host.gather gather_S2048383x3_S32768x8x1_S32768x8x3_2_0_n_n_0_2_13 x i) : (⟨S2048383x3, .f32⟩ : BufTy).Contents (Elt F) → (⟨S32768x8x1, .i32⟩ : BufTy).Contents (Elt F) → (⟨S32768x8x3, .f32⟩ : BufTy).Contents (Elt F)),
    StableHlo.reshape main_v107 main_v108 rfl shapeCasts_S32768x8x3_S262144x3 ]
/-- What they write, in order. -/
abbrev wr7 : List (Ref sig .tc) :=
  [main_c_24, main_v101, main_v102, main_c_25, main_v103, main_v104, main_v105, main_v106, main_v107, main_v108]

/-- Operations 220 … 239 of 348 (20): from the one writing main_v109 through the one writing main_v128. -/
abbrev seg8 : List (HloOp τ sig (Elt F)) :=
  [ StableHlo.binary main_v108 main_arg4 main_v109 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    StableHlo.unary main_arg5 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S262144x128 ![0, 1] bcast_S1x128_S262144x128_0_1 : (⟨S1x128, .f32⟩ : BufTy).Contents (Elt F) → (⟨S262144x128, .f32⟩ : BufTy).Contents (Elt F)),
    StableHlo.binary main_v109 main_v111 main_v112 (addf : (⟨S262144x128, .f32⟩ : BufTy).Contents (Elt F) → (⟨S262144x128, .f32⟩ : BufTy).Contents (Elt F) → (⟨S262144x128, .f32⟩ : BufTy).Contents (Elt F)),
    StableHlo.unary main_v112 main_v113 (Host.tanh : (⟨S262144x128, .f32⟩ : BufTy).Contents (Elt F) → (⟨S262144x128, .f32⟩ : BufTy).Contents (Elt F)),
    StableHlo.binary main_v113 main_arg6 main_v114 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg7 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S262144x128 ![0, 1] bcast_S1x128_S262144x128_0_1 : (⟨S1x128, .f32⟩ : BufTy).Contents (Elt F) → (⟨S262144x128, .f32⟩ : BufTy).Contents (Elt F)),
    StableHlo.binary main_v114 main_v116 main_v117 (addf : (⟨S262144x128, .f32⟩ : BufTy).Contents (Elt F) → (⟨S262144x128, .f32⟩ : BufTy).Contents (Elt F) → (⟨S262144x128, .f32⟩ : BufTy).Contents (Elt F)),
    StableHlo.unary main_v117 main_v118 (Host.tanh : (⟨S262144x128, .f32⟩ : BufTy).Contents (Elt F) → (⟨S262144x128, .f32⟩ : BufTy).Contents (Elt F)),
    StableHlo.binary main_v118 main_arg8 main_v119 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg9 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S262144x128 ![0, 1] bcast_S1x128_S262144x128_0_1 : (⟨S1x128, .f32⟩ : BufTy).Contents (Elt F) → (⟨S262144x128, .f32⟩ : BufTy).Contents (Elt F)),
    StableHlo.binary main_v119 main_v121 main_v122 (addf : (⟨S262144x128, .f32⟩ : BufTy).Contents (Elt F) → (⟨S262144x128, .f32⟩ : BufTy).Contents (Elt F) → (⟨S262144x128, .f32⟩ : BufTy).Contents (Elt F)),
    StableHlo.unary main_v122 main_v123 (Host.tanh : (⟨S262144x128, .f32⟩ : BufTy).Contents (Elt F) → (⟨S262144x128, .f32⟩ : BufTy).Contents (Elt F)),
    StableHlo.binary main_v123 main_arg10 main_v124 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    StableHlo.unary main_arg11 main_v125 (broadcastInDim S1x1 ![1] bcast_S1_S1x1_1 : (⟨S1, .f32⟩ : BufTy).Contents (Elt F) → (⟨S1x1, .f32⟩ : BufTy).Contents (Elt F)),
    StableHlo.unary main_v125 main_v126 (broadcastInDim S262144x1 ![0, 1] bcast_S1x1_S262144x1_0_1 : (⟨S1x1, .f32⟩ : BufTy).Contents (Elt F) → (⟨S262144x1, .f32⟩ : BufTy).Contents (Elt F)),
    StableHlo.binary main_v124 main_v126 main_v127 (addf : (⟨S262144x1, .f32⟩ : BufTy).Contents (Elt F) → (⟨S262144x1, .f32⟩ : BufTy).Contents (Elt F) → (⟨S262144x1, .f32⟩ : BufTy).Contents (Elt F)),
    StableHlo.reshape main_v127 main_v128 rfl shapeCasts_S262144x1_S32768x8 ]
/-- What they write, in order. -/
abbrev wr8 : List (Ref sig .tc) :=
  [main_v109, main_v110, main_v111, main_v112, main_v113, main_v114, main_v115, main_v116, main_v117, main_v118, main_v119, main_v120, main_v121, main_v122, main_v123, main_v124, main_v125, main_v126, main_v127, main_v128]

/-- Operations 240 … 249 of 348 (10): from the one writing main_c_26 through the one writing main_v136. -/
abbrev seg9 : List (HloOp τ sig (Elt F)) :=
  [ StableHlo.nullary main_c_26 (constantI S_ 32 0#32),
    StableHlo.unary main_c_26 main_v129 (broadcastInDim S32768x8 ![] bcast_S_S32768x8 : (⟨S_, .i32⟩ : BufTy).Contents (Elt F) → (⟨S32768x8, .i32⟩ : BufTy).Contents (Elt F)),
    StableHlo.binary main_v100 main_v129 main_v130 (cmpi .slt : (⟨S32768x8, .i32⟩ : BufTy).Contents (Elt F) → (⟨S32768x8, .i32⟩ : BufTy).Contents (Elt F) → (⟨S32768x8, .i1⟩ : BufTy).Contents (Elt F)),
    StableHlo.nullary main_c_27 (constantI S_ 32 2097152#32),
    StableHlo.unary main_c_27 main_v131 (broadcastInDim S32768x8 ![] bcast_S_S32768x8 : (⟨S_, .i32⟩ : BufTy).Contents (Elt F) → (⟨S32768x8, .i32⟩ : BufTy).Contents (Elt F)),
    StableHlo.binary main_v100 main_v131 main_v132 (addi : (⟨S32768x8, .i32⟩ : BufTy).Contents (Elt F) → (⟨S32768x8, .i32⟩ : BufTy).Contents (Elt F) → (⟨S32768x8, .i32⟩ : BufTy).Contents (Elt F)),
    StableHlo.ternary main_v130 main_v132 main_v100 main_v133 (select : (⟨S32768x8, .i1⟩ : BufTy).Contents (Elt F) → (⟨S32768x8, .i32⟩ : BufTy).Contents (Elt F) → (⟨S32768x8, .i32⟩ : BufTy).Contents (Elt F) → (⟨S32768x8, .i32⟩ : BufTy).Contents (Elt F)),
    StableHlo.unary main_v133 main_v134 (broadcastInDim S32768x8x1 ![0, 1] bcast_S32768x8_S32768x8x1_0_1 : (⟨S32768x8, .i32⟩ : BufTy).Contents (Elt F) → (⟨S32768x8x1, .i32⟩ : BufTy).Contents (Elt F)),
    StableHlo.binary main_arg0 main_v134 main_v135 ((fun x i => Host.gather gather_S2097152x3_S32768x8x1_S32768x8x3_2_0_n_n_0_2_13 x i) : (⟨S2097152x3, .f32⟩ : BufTy).Contents (Elt F) → (⟨S32768x8x1, .i32⟩ : BufTy).Contents (Elt F) → (⟨S32768x8x3, .f32⟩ : BufTy).Contents (Elt F)),
    StableHlo.reshape main_v135 main_v136 rfl shapeCasts_S32768x8x3_S262144x3 ]
/-- What they write, in order. -/
abbrev wr9 : List (Ref sig .tc) :=
  [main_c_26, main_v129, main_v130, main_c_27, main_v131, main_v132, main_v133, main_v134, main_v135, main_v136]

/-- Operations 250 … 269 of 348 (20): from the one writing main_v137 through the one writing main_v156. -/
abbrev seg10 : List (HloOp τ sig (Elt F)) :=
  [ StableHlo.binary main_v136 main_arg4 main_v137 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    StableHlo.unary main_arg5 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S262144x128 ![0, 1] bcast_S1x128_S262144x128_0_1 : (⟨S1x128, .f32⟩ : BufTy).Contents (Elt F) → (⟨S262144x128, .f32⟩ : BufTy).Contents (Elt F)),
    StableHlo.binary main_v137 main_v139 main_v140 (addf : (⟨S262144x128, .f32⟩ : BufTy).Contents (Elt F) → (⟨S262144x128, .f32⟩ : BufTy).Contents (Elt F) → (⟨S262144x128, .f32⟩ : BufTy).Contents (Elt F)),
    StableHlo.unary main_v140 main_v141 (Host.tanh : (⟨S262144x128, .f32⟩ : BufTy).Contents (Elt F) → (⟨S262144x128, .f32⟩ : BufTy).Contents (Elt F)),
    StableHlo.binary main_v141 main_arg6 main_v142 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg7 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S262144x128 ![0, 1] bcast_S1x128_S262144x128_0_1 : (⟨S1x128, .f32⟩ : BufTy).Contents (Elt F) → (⟨S262144x128, .f32⟩ : BufTy).Contents (Elt F)),
    StableHlo.binary main_v142 main_v144 main_v145 (addf : (⟨S262144x128, .f32⟩ : BufTy).Contents (Elt F) → (⟨S262144x128, .f32⟩ : BufTy).Contents (Elt F) → (⟨S262144x128, .f32⟩ : BufTy).Contents (Elt F)),
    StableHlo.unary main_v145 main_v146 (Host.tanh : (⟨S262144x128, .f32⟩ : BufTy).Contents (Elt F) → (⟨S262144x128, .f32⟩ : BufTy).Contents (Elt F)),
    StableHlo.binary main_v146 main_arg8 main_v147 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg9 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S262144x128 ![0, 1] bcast_S1x128_S262144x128_0_1 : (⟨S1x128, .f32⟩ : BufTy).Contents (Elt F) → (⟨S262144x128, .f32⟩ : BufTy).Contents (Elt F)),
    StableHlo.binary main_v147 main_v149 main_v150 (addf : (⟨S262144x128, .f32⟩ : BufTy).Contents (Elt F) → (⟨S262144x128, .f32⟩ : BufTy).Contents (Elt F) → (⟨S262144x128, .f32⟩ : BufTy).Contents (Elt F)),
    StableHlo.unary main_v150 main_v151 (Host.tanh : (⟨S262144x128, .f32⟩ : BufTy).Contents (Elt F) → (⟨S262144x128, .f32⟩ : BufTy).Contents (Elt F)),
    StableHlo.binary main_v151 main_arg10 main_v152 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    StableHlo.unary main_arg11 main_v153 (broadcastInDim S1x1 ![1] bcast_S1_S1x1_1 : (⟨S1, .f32⟩ : BufTy).Contents (Elt F) → (⟨S1x1, .f32⟩ : BufTy).Contents (Elt F)),
    StableHlo.unary main_v153 main_v154 (broadcastInDim S262144x1 ![0, 1] bcast_S1x1_S262144x1_0_1 : (⟨S1x1, .f32⟩ : BufTy).Contents (Elt F) → (⟨S262144x1, .f32⟩ : BufTy).Contents (Elt F)),
    StableHlo.binary main_v152 main_v154 main_v155 (addf : (⟨S262144x1, .f32⟩ : BufTy).Contents (Elt F) → (⟨S262144x1, .f32⟩ : BufTy).Contents (Elt F) → (⟨S262144x1, .f32⟩ : BufTy).Contents (Elt F)),
    StableHlo.reshape main_v155 main_v156 rfl shapeCasts_S262144x1_S32768x8 ]
/-- What they write, in order. -/
abbrev wr10 : List (Ref sig .tc) :=
  [main_v137, main_v138, main_v139, main_v140, main_v141, main_v142, main_v143, main_v144, main_v145, main_v146, main_v147, main_v148, main_v149, main_v150, main_v151, main_v152, main_v153, main_v154, main_v155, main_v156]

/-- Operations 270 … 328 of 348 (59): from the one writing main_v157 through the one writing main_v212. -/
abbrev seg11 : List (HloOp τ sig (Elt F)) :=
  [ StableHlo.unary main_v156 main_v157 ((extractStridedSlice S32768x1 ![0, 7] · slices_S32768x8_S32768x1_0_7) : (⟨S32768x8, .f32⟩ : BufTy).Contents (Elt F) → (⟨S32768x1, .f32⟩ : BufTy).Contents (Elt F)),
    StableHlo.reshape main_v157 main_v158 rfl shapeCasts_S32768x1_S32768,
    StableHlo.unary main_v156 main_v159 ((extractStridedSlice S32768x1 ![0, 0] · slices_S32768x8_S32768x1_0_0) : (⟨S32768x8, .f32⟩ : BufTy).Contents (Elt F) → (⟨S32768x1, .f32⟩ : BufTy).Contents (Elt F)),
    StableHlo.reshape main_v159 main_v160 rfl shapeCasts_S32768x1_S32768,
    StableHlo.unary main_v128 main_v161 ((extractStridedSlice S32768x1 ![0, 7] · slices_S32768x8_S32768x1_0_7) : (⟨S32768x8, .f32⟩ : BufTy).Contents (Elt F) → (⟨S32768x1, .f32⟩ : BufTy).Contents (Elt F)),
    StableHlo.reshape main_v161 main_v162 rfl shapeCasts_S32768x1_S32768,
    StableHlo.unary main_v128 main_v163 ((extractStridedSlice S32768x1 ![0, 0] · slices_S32768x8_S32768x1_0_0) : (⟨S32768x8, .f32⟩ : BufTy).Contents (Elt F) → (⟨S32768x1, .f32⟩ : BufTy).Contents (Elt F)),
    StableHlo.reshape main_v163 main_v164 rfl shapeCasts_S32768x1_S32768,
    StableHlo.binary main_v158 main_v160 main_v165 (addf : (⟨S32768, .f32⟩ : BufTy).Contents (Elt F) → (⟨S32768, .f32⟩ : BufTy).Contents (Elt F) → (⟨S32768, .f32⟩ : BufTy).Contents (Elt F)),
    StableHlo.binary main_v165 main_v162 main_v166 (subf : (⟨S32768, .f32⟩ : BufTy).Contents (Elt F) → (⟨S32768, .f32⟩ : BufTy).Contents (Elt F) → (⟨S32768, .f32⟩ : BufTy).Contents (Elt F)),
    StableHlo.binary main_v166 main_v164 main_v167 (subf : (⟨S32768, .f32⟩ : BufTy).Contents (Elt F) → (⟨S32768, .f32⟩ : BufTy).Contents (Elt F) → (⟨S32768, .f32⟩ : BufTy).Contents (Elt F)),
    StableHlo.unary main_v167 main_v168 (Host.absf : (⟨S32768, .f32⟩ : BufTy).Contents (Elt F) → (⟨S32768, .f32⟩ : BufTy).Contents (Elt F)),
    StableHlo.binary main_v158 main_v160 main_v169 (addf : (⟨S32768, .f32⟩ : BufTy).Contents (Elt F) → (⟨S32768, .f32⟩ : BufTy).Contents (Elt F) → (⟨S32768, .f32⟩ : BufTy).Contents (Elt F)),
    StableHlo.binary main_v169 main_v162 main_v170 (addf : (⟨S32768, .f32⟩ : BufTy).Contents (Elt F) → (⟨S32768, .f32⟩ : BufTy).Contents (Elt F) → (⟨S32768, .f32⟩ : BufTy).Contents (Elt F)),
    StableHlo.binary main_v170 main_v164 main_v171 (addf : (⟨S32768, .f32⟩ : BufTy).Contents (Elt F) → (⟨S32768, .f32⟩ : BufTy).Contents (Elt F) → (⟨S32768, .f32⟩ : BufTy).Contents (Elt F)),
    StableHlo.nullary main_cst_28 (constant S_ .f32 0x3FC00000#32),
    StableHlo.unary main_cst_28 main_v172 (broadcastInDim S32768 ![] bcast_S_S32768 : (⟨S_, .f32⟩ : BufTy).Contents (Elt F) → (⟨S32768, .f32⟩ : BufTy).Contents (Elt F)),
    StableHlo.binary main_v171 main_v172 main_v173 (mulf : (⟨S32768, .f32⟩ : BufTy).Contents (Elt F) → (⟨S32768, .f32⟩ : BufTy).Contents (Elt F) → (⟨S32768, .f32⟩ : BufTy).Contents (Elt F)),
    StableHlo.binary main_v168 main_v173 main_v174 (Host.divf : (⟨S32768, .f32⟩ : BufTy).Contents (Elt F) → (⟨S32768, .f32⟩ : BufTy).Contents (Elt F) → (⟨S32768, .f32⟩ : BufTy).Contents (Elt F)),
    StableHlo.unary main_v156 main_v175 ((extractStridedSlice S32768x1 ![0, 3] · slices_S32768x8_S32768x1_0_3) : (⟨S32768x8, .f32⟩ : BufTy).Contents (Elt F) → (⟨S32768x1, .f32⟩ : BufTy).Contents (Elt F)),
    StableHlo.reshape main_v175 main_v176 rfl shapeCasts_S32768x1_S32768,
    StableHlo.unary main_v156 main_v177 ((extractStridedSlice S32768x1 ![0, 4] · slices_S32768x8_S32768x1_0_4) : (⟨S32768x8, .f32⟩ : BufTy).Contents (Elt F) → (⟨S32768x1, .f32⟩ : BufTy).Contents (Elt F)),
    StableHlo.reshape main_v177 main_v178 rfl shapeCasts_S32768x1_S32768,
    StableHlo.unary main_v128 main_v179 ((extractStridedSlice S32768x1 ![0, 3] · slices_S32768x8_S32768x1_0_3) : (⟨S32768x8, .f32⟩ : BufTy).Contents (Elt F) → (⟨S32768x1, .f32⟩ : BufTy).Contents (Elt F)),
    StableHlo.reshape main_v179 main_v180 rfl shapeCasts_S32768x1_S32768,
    StableHlo.unary main_v128 main_v181 ((extractStridedSlice S32768x1 ![0, 4] · slices_S32768x8_S32768x1_0_4) : (⟨S32768x8, .f32⟩ : BufTy).Contents (Elt F) → (⟨S32768x1, .f32⟩ : BufTy).Contents (Elt F)),
    StableHlo.reshape main_v181 main_v182 rfl shapeCasts_S32768x1_S32768,
    StableHlo.binary main_v176 main_v178 main_v183 (addf : (⟨S32768, .f32⟩ : BufTy).Contents (Elt F) → (⟨S32768, .f32⟩ : BufTy).Contents (Elt F) → (⟨S32768, .f32⟩ : BufTy).Contents (Elt F)),
    StableHlo.binary main_v183 main_v180 main_v184 (subf : (⟨S32768, .f32⟩ : BufTy).Contents (Elt F) → (⟨S32768, .f32⟩ : BufTy).Contents (Elt F) → (⟨S32768, .f32⟩ : BufTy).Contents (Elt F)),
    StableHlo.binary main_v184 main_v182 main_v185 (subf : (⟨S32768, .f32⟩ : BufTy).Contents (Elt F) → (⟨S32768, .f32⟩ : BufTy).Contents (Elt F) → (⟨S32768, .f32⟩ : BufTy).Contents (Elt F)),
    StableHlo.unary main_v185 main_v186 (Host.absf : (⟨S32768, .f32⟩ : BufTy).Contents (Elt F) → (⟨S32768, .f32⟩ : BufTy).Contents (Elt F)),
    StableHlo.binary main_v176 main_v178 main_v187 (addf : (⟨S32768, .f32⟩ : BufTy).Contents (Elt F) → (⟨S32768, .f32⟩ : BufTy).Contents (Elt F) → (⟨S32768, .f32⟩ : BufTy).Contents (Elt F)),
    StableHlo.binary main_v187 main_v180 main_v188 (addf : (⟨S32768, .f32⟩ : BufTy).Contents (Elt F) → (⟨S32768, .f32⟩ : BufTy).Contents (Elt F) → (⟨S32768, .f32⟩ : BufTy).Contents (Elt F)),
    StableHlo.binary main_v188 main_v182 main_v189 (addf : (⟨S32768, .f32⟩ : BufTy).Contents (Elt F) → (⟨S32768, .f32⟩ : BufTy).Contents (Elt F) → (⟨S32768, .f32⟩ : BufTy).Contents (Elt F)),
    StableHlo.nullary main_cst_29 (constant S_ .f32 0x3FC00000#32),
    StableHlo.unary main_cst_29 main_v190 (broadcastInDim S32768 ![] bcast_S_S32768 : (⟨S_, .f32⟩ : BufTy).Contents (Elt F) → (⟨S32768, .f32⟩ : BufTy).Contents (Elt F)),
    StableHlo.binary main_v189 main_v190 main_v191 (mulf : (⟨S32768, .f32⟩ : BufTy).Contents (Elt F) → (⟨S32768, .f32⟩ : BufTy).Contents (Elt F) → (⟨S32768, .f32⟩ : BufTy).Contents (Elt F)),
    StableHlo.binary main_v186 main_v191 main_v192 (Host.divf : (⟨S32768, .f32⟩ : BufTy).Contents (Elt F) → (⟨S32768, .f32⟩ : BufTy).Contents (Elt F) → (⟨S32768, .f32⟩ : BufTy).Contents (Elt F)),
    StableHlo.binary main_v174 main_v192 main_v193 (addf : (⟨S32768, .f32⟩ : BufTy).Contents (Elt F) → (⟨S32768, .f32⟩ : BufTy).Contents (Elt F) → (⟨S32768, .f32⟩ : BufTy).Contents (Elt F)),
    StableHlo.unary main_v156 main_v194 ((extractStridedSlice S32768x1 ![0, 5] · slices_S32768x8_S32768x1_0_5) : (⟨S32768x8, .f32⟩ : BufTy).Contents (Elt F) → (⟨S32768x1, .f32⟩ : BufTy).Contents (Elt F)),
    StableHlo.reshape main_v194 main_v195 rfl shapeCasts_S32768x1_S32768,
    StableHlo.unary main_v156 main_v196 ((extractStridedSlice S32768x1 ![0, 2] · slices_S32768x8_S32768x1_0_2) : (⟨S32768x8, .f32⟩ : BufTy).Contents (Elt F) → (⟨S32768x1, .f32⟩ : BufTy).Contents (Elt F)),
    StableHlo.reshape main_v196 main_v197 rfl shapeCasts_S32768x1_S32768,
    StableHlo.unary main_v128 main_v198 ((extractStridedSlice S32768x1 ![0, 5] · slices_S32768x8_S32768x1_0_5) : (⟨S32768x8, .f32⟩ : BufTy).Contents (Elt F) → (⟨S32768x1, .f32⟩ : BufTy).Contents (Elt F)),
    StableHlo.reshape main_v198 main_v199 rfl shapeCasts_S32768x1_S32768,
    StableHlo.unary main_v128 main_v200 ((extractStridedSlice S32768x1 ![0, 2] · slices_S32768x8_S32768x1_0_2) : (⟨S32768x8, .f32⟩ : BufTy).Contents (Elt F) → (⟨S32768x1, .f32⟩ : BufTy).Contents (Elt F)),
    StableHlo.reshape main_v200 main_v201 rfl shapeCasts_S32768x1_S32768,
    StableHlo.binary main_v195 main_v197 main_v202 (addf : (⟨S32768, .f32⟩ : BufTy).Contents (Elt F) → (⟨S32768, .f32⟩ : BufTy).Contents (Elt F) → (⟨S32768, .f32⟩ : BufTy).Contents (Elt F)),
    StableHlo.binary main_v202 main_v199 main_v203 (subf : (⟨S32768, .f32⟩ : BufTy).Contents (Elt F) → (⟨S32768, .f32⟩ : BufTy).Contents (Elt F) → (⟨S32768, .f32⟩ : BufTy).Contents (Elt F)),
    StableHlo.binary main_v203 main_v201 main_v204 (subf : (⟨S32768, .f32⟩ : BufTy).Contents (Elt F) → (⟨S32768, .f32⟩ : BufTy).Contents (Elt F) → (⟨S32768, .f32⟩ : BufTy).Contents (Elt F)),
    StableHlo.unary main_v204 main_v205 (Host.absf : (⟨S32768, .f32⟩ : BufTy).Contents (Elt F) → (⟨S32768, .f32⟩ : BufTy).Contents (Elt F)),
    StableHlo.binary main_v195 main_v197 main_v206 (addf : (⟨S32768, .f32⟩ : BufTy).Contents (Elt F) → (⟨S32768, .f32⟩ : BufTy).Contents (Elt F) → (⟨S32768, .f32⟩ : BufTy).Contents (Elt F)),
    StableHlo.binary main_v206 main_v199 main_v207 (addf : (⟨S32768, .f32⟩ : BufTy).Contents (Elt F) → (⟨S32768, .f32⟩ : BufTy).Contents (Elt F) → (⟨S32768, .f32⟩ : BufTy).Contents (Elt F)),
    StableHlo.binary main_v207 main_v201 main_v208 (addf : (⟨S32768, .f32⟩ : BufTy).Contents (Elt F) → (⟨S32768, .f32⟩ : BufTy).Contents (Elt F) → (⟨S32768, .f32⟩ : BufTy).Contents (Elt F)),
    StableHlo.nullary main_cst_30 (constant S_ .f32 0x3FC00000#32),
    StableHlo.unary main_cst_30 main_v209 (broadcastInDim S32768 ![] bcast_S_S32768 : (⟨S_, .f32⟩ : BufTy).Contents (Elt F) → (⟨S32768, .f32⟩ : BufTy).Contents (Elt F)),
    StableHlo.binary main_v208 main_v209 main_v210 (mulf : (⟨S32768, .f32⟩ : BufTy).Contents (Elt F) → (⟨S32768, .f32⟩ : BufTy).Contents (Elt F) → (⟨S32768, .f32⟩ : BufTy).Contents (Elt F)),
    StableHlo.binary main_v205 main_v210 main_v211 (Host.divf : (⟨S32768, .f32⟩ : BufTy).Contents (Elt F) → (⟨S32768, .f32⟩ : BufTy).Contents (Elt F) → (⟨S32768, .f32⟩ : BufTy).Contents (Elt F)),
    StableHlo.binary main_v193 main_v211 main_v212 (addf : (⟨S32768, .f32⟩ : BufTy).Contents (Elt F) → (⟨S32768, .f32⟩ : BufTy).Contents (Elt F) → (⟨S32768, .f32⟩ : BufTy).Contents (Elt F)) ]
/-- What they write, in order. -/
abbrev wr11 : List (Ref sig .tc) :=
  [main_v157, main_v158, main_v159, main_v160, main_v161, main_v162, main_v163, main_v164, main_v165, main_v166, main_v167, main_v168, main_v169, main_v170, main_v171, main_cst_28, main_v172, main_v173, main_v174, main_v175, main_v176, main_v177, main_v178, main_v179, main_v180, main_v181, main_v182, main_v183, main_v184, main_v185, main_v186, main_v187, main_v188, main_v189, main_cst_29, main_v190, main_v191, main_v192, main_v193, main_v194, main_v195, main_v196, main_v197, main_v198, main_v199, main_v200, main_v201, main_v202, main_v203, main_v204, main_v205, main_v206, main_v207, main_v208, main_cst_30, main_v209, main_v210, main_v211, main_v212]

/-- Operations 329 … 337 of 348 (9): from the one writing main_c_31 through the one writing main_v219. -/
abbrev seg12 : List (HloOp τ sig (Elt F)) :=
  [ StableHlo.nullary main_c_31 (constantI S_ 32 0#32),
    StableHlo.unary main_c_31 main_v213 (broadcastInDim S32768 ![] bcast_S_S32768 : (⟨S_, .i32⟩ : BufTy).Contents (Elt F) → (⟨S32768, .i32⟩ : BufTy).Contents (Elt F)),
    StableHlo.binary main_arg12 main_v213 main_v214 (cmpi .slt : (⟨S32768, .i32⟩ : BufTy).Contents (Elt F) → (⟨S32768, .i32⟩ : BufTy).Contents (Elt F) → (⟨S32768, .i1⟩ : BufTy).Contents (Elt F)),
    StableHlo.nullary main_c_32 (constantI S_ 32 2097152#32),
    StableHlo.unary main_c_32 main_v215 (broadcastInDim S32768 ![] bcast_S_S32768 : (⟨S_, .i32⟩ : BufTy).Contents (Elt F) → (⟨S32768, .i32⟩ : BufTy).Contents (Elt F)),
    StableHlo.binary main_arg12 main_v215 main_v216 (addi : (⟨S32768, .i32⟩ : BufTy).Contents (Elt F) → (⟨S32768, .i32⟩ : BufTy).Contents (Elt F) → (⟨S32768, .i32⟩ : BufTy).Contents (Elt F)),
    StableHlo.ternary main_v214 main_v216 main_arg12 main_v217 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v217 main_v218 (broadcastInDim S32768x1 ![0] bcast_S32768_S32768x1_0 : (⟨S32768, .i32⟩ : BufTy).Contents (Elt F) → (⟨S32768x1, .i32⟩ : BufTy).Contents (Elt F)),
    StableHlo.binary main_arg3 main_v218 main_v219 ((fun x i => Host.gather gather_S2097152_S32768x1_S32768_n_0_n_n_0_1_1 x i) : (⟨S2097152, .f32⟩ : BufTy).Contents (Elt F) → (⟨S32768x1, .i32⟩ : BufTy).Contents (Elt F) → (⟨S32768, .f32⟩ : BufTy).Contents (Elt F)) ]
/-- What they write, in order. -/
abbrev wr12 : List (Ref sig .tc) :=
  [main_c_31, main_v213, main_v214, main_c_32, main_v215, main_v216, main_v217, main_v218, main_v219]

/-- Operations 338 … 348 of 348 (11): from the one writing main_v220 through the one writing main_v227. -/
abbrev seg13 : List (HloOp τ sig (Elt F)) :=
  [ StableHlo.binary main_v219 main_v212 main_v220 (subf : (⟨S32768, .f32⟩ : BufTy).Contents (Elt F) → (⟨S32768, .f32⟩ : BufTy).Contents (Elt F) → (⟨S32768, .f32⟩ : BufTy).Contents (Elt F)),
    StableHlo.binary main_v220 main_v220 main_v221 (mulf : (⟨S32768, .f32⟩ : BufTy).Contents (Elt F) → (⟨S32768, .f32⟩ : BufTy).Contents (Elt F) → (⟨S32768, .f32⟩ : BufTy).Contents (Elt F)),
    StableHlo.binary main_v21 main_v221 main_v222 (mulf : (⟨S32768, .f32⟩ : BufTy).Contents (Elt F) → (⟨S32768, .f32⟩ : BufTy).Contents (Elt F) → (⟨S32768, .f32⟩ : BufTy).Contents (Elt F)),
    StableHlo.nullary main_cst_33 (constant S_ .f32 0x00000000#32),
    StableHlo.binary main_v222 main_cst_33 main_v223 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_34 (constant S_ .f32 0x00000000#32),
    StableHlo.binary main_v21 main_cst_34 main_v224 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_35 (constant S_ .f32 0x3F800000#32),
    StableHlo.binary main_v224 main_cst_35 main_v225 (maximumf : (⟨S_, .f32⟩ : BufTy).Contents (Elt F) → (⟨S_, .f32⟩ : BufTy).Contents (Elt F) → (⟨S_, .f32⟩ : BufTy).Contents (Elt F)),
    StableHlo.binary main_v223 main_v225 main_v226 (Host.divf : (⟨S_, .f32⟩ : BufTy).Contents (Elt F) → (⟨S_, .f32⟩ : BufTy).Contents (Elt F) → (⟨S_, .f32⟩ : BufTy).Contents (Elt F)),
    StableHlo.binary main_v60 main_v226 main_v227 (addf : (⟨S_, .f32⟩ : BufTy).Contents (Elt F) → (⟨S_, .f32⟩ : BufTy).Contents (Elt F) → (⟨S_, .f32⟩ : BufTy).Contents (Elt F)) ]
/-- What they write, in order. -/
abbrev wr13 : List (Ref sig .tc) :=
  [main_v220, main_v221, main_v222, main_cst_33, main_v223, main_cst_34, main_v224, main_cst_35, main_v225, main_v226, main_v227]

/-- All 348 operations of @main in program order, the fourteen stretches appended to the right. -/
abbrev refOps : List (HloOp τ sig (Elt F)) :=
  seg1a ++ (seg1b ++ (seg2 ++ (seg3 ++ (seg4 ++ (seg5 ++ (seg6 ++ (seg7 ++ (seg8 ++ (seg9 ++ (seg10 ++ (seg11 ++ (seg12 ++ (seg13)))))))))))))

/-- Window 0, item 0: 3 operation(s). -/
abbrev item0_0 : List (HloOp τ sig (Elt F)) :=
  [ StableHlo.nullary main_c (fun i => lit0 (S8x3.rowMajor i)),
    StableHlo.nullary main_c_0 (fun i => lit1 (S8x3.rowMajor i)),
    StableHlo.nullary main_c_1 (constantI S_ 32 16384#32) ]
/-- Window 0, item 1: 17 operation(s) of one call. -/
abbrev item0_1 : List (HloOp τ sig (Elt F)) :=
  [ StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32768, .i32⟩) (broadcastInDim S32768 ![] bcast_S_S32768),
    StableHlo.TRef.binary (.of main_arg12 : StableHlo.TRef sig ⟨S32768, .i32⟩) (.of main_call0_v1 : StableHlo.TRef sig ⟨S32768, .i32⟩) (.of main_call0_v2 : StableHlo.TRef sig ⟨S32768, .i32⟩) Host.divsi,
    StableHlo.TRef.unary (.of main_arg12 : StableHlo.TRef sig ⟨S32768, .i32⟩) (.of main_call0_v3 : StableHlo.TRef sig ⟨S32768, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S32768, .i32⟩) (broadcastInDim S32768 ![] bcast_S_S32768),
    StableHlo.TRef.binary (.of main_call0_v3 : StableHlo.TRef sig ⟨S32768, .i32⟩) (.of main_call0_v5 : StableHlo.TRef sig ⟨S32768, .i32⟩) (.of main_call0_v6 : StableHlo.TRef sig ⟨S32768, .i1⟩) (cmpi .ne),
    StableHlo.TRef.unary (.of main_call0_v0 : StableHlo.TRef sig ⟨S_, .i32⟩) (.of main_call0_v7 : StableHlo.TRef sig ⟨S32768, .i32⟩) (broadcastInDim S32768 ![] bcast_S_S32768),
    StableHlo.TRef.binary (.of main_arg12 : StableHlo.TRef sig ⟨S32768, .i32⟩) (.of main_call0_v7 : StableHlo.TRef sig ⟨S32768, .i32⟩) (.of main_call0_v8 : StableHlo.TRef sig ⟨S32768, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S32768, .i32⟩) (broadcastInDim S32768 ![] bcast_S_S32768),
    StableHlo.TRef.binary (.of main_call0_v8 : StableHlo.TRef sig ⟨S32768, .i32⟩) (.of main_call0_v9 : StableHlo.TRef sig ⟨S32768, .i32⟩) (.of main_call0_v10 : StableHlo.TRef sig ⟨S32768, .i1⟩) (cmpi .ne),
    StableHlo.TRef.binary (.of main_call0_v6 : StableHlo.TRef sig ⟨S32768, .i1⟩) (.of main_call0_v10 : StableHlo.TRef sig ⟨S32768, .i1⟩) (.of main_call0_v11 : StableHlo.TRef sig ⟨S32768, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S32768, .i32⟩) (broadcastInDim S32768 ![] bcast_S_S32768),
    StableHlo.TRef.binary (.of main_call0_v2 : StableHlo.TRef sig ⟨S32768, .i32⟩) (.of main_call0_v12 : StableHlo.TRef sig ⟨S32768, .i32⟩) (.of main_call0_v13 : StableHlo.TRef sig ⟨S32768, .i32⟩) subi,
    StableHlo.TRef.ternary (.of main_call0_v11 : StableHlo.TRef sig ⟨S32768, .i1⟩) (.of main_call0_v13 : StableHlo.TRef sig ⟨S32768, .i32⟩) (.of main_call0_v2 : StableHlo.TRef sig ⟨S32768, .i32⟩) (.of main_v0 : StableHlo.TRef sig ⟨S32768, .i32⟩) select ]
/-- Window 0, item 2: 1 operation(s). -/
abbrev item0_2 : List (HloOp τ sig (Elt F)) :=
  [ StableHlo.nullary main_c_2 (constantI S_ 32 16384#32) ]
/-- Window 0, item 3: 21 operation(s) of one call. -/
abbrev item0_3 : List (HloOp τ sig (Elt F)) :=
  [ StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S32768, .i32⟩) (broadcastInDim S32768 ![] bcast_S_S32768),
    StableHlo.TRef.binary (.of main_arg12 : StableHlo.TRef sig ⟨S32768, .i32⟩) (.of main_call1_v3 : StableHlo.TRef sig ⟨S32768, .i32⟩) (.of main_call1_v4 : StableHlo.TRef sig ⟨S32768, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S32768, .i32⟩) (broadcastInDim S32768 ![] bcast_S_S32768),
    StableHlo.TRef.binary (.of main_call1_v4 : StableHlo.TRef sig ⟨S32768, .i32⟩) (.of main_call1_v5 : StableHlo.TRef sig ⟨S32768, .i32⟩) (.of main_call1_v6 : StableHlo.TRef sig ⟨S32768, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S32768, .i32⟩) (broadcastInDim S32768 ![] bcast_S_S32768),
    StableHlo.TRef.binary (.of main_call1_v4 : StableHlo.TRef sig ⟨S32768, .i32⟩) (.of main_call1_v7 : StableHlo.TRef sig ⟨S32768, .i32⟩) (.of main_call1_v8 : StableHlo.TRef sig ⟨S32768, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S32768, .i1⟩) (broadcastInDim S32768 ![] bcast_S_S32768),
    StableHlo.TRef.binary (.of main_call1_v8 : StableHlo.TRef sig ⟨S32768, .i1⟩) (.of main_call1_v10 : StableHlo.TRef sig ⟨S32768, .i1⟩) (.of main_call1_v11 : StableHlo.TRef sig ⟨S32768, .i1⟩) (cmpi .ne),
    StableHlo.TRef.binary (.of main_call1_v11 : StableHlo.TRef sig ⟨S32768, .i1⟩) (.of main_call1_v6 : StableHlo.TRef sig ⟨S32768, .i1⟩) (.of main_call1_v12 : StableHlo.TRef sig ⟨S32768, .i1⟩) andi,
    StableHlo.TRef.unary (.of main_call1_v2 : StableHlo.TRef sig ⟨S_, .i32⟩) (.of main_call1_v13 : StableHlo.TRef sig ⟨S32768, .i32⟩) (broadcastInDim S32768 ![] bcast_S_S32768),
    StableHlo.TRef.binary (.of main_call1_v4 : StableHlo.TRef sig ⟨S32768, .i32⟩) (.of main_call1_v13 : StableHlo.TRef sig ⟨S32768, .i32⟩) (.of main_call1_v14 : StableHlo.TRef sig ⟨S32768, .i32⟩) addi,
    StableHlo.TRef.ternary (.of main_call1_v12 : StableHlo.TRef sig ⟨S32768, .i1⟩) (.of main_call1_v14 : StableHlo.TRef sig ⟨S32768, .i32⟩) (.of main_call1_v4 : StableHlo.TRef sig ⟨S32768, .i32⟩) (.of main_v1 : StableHlo.TRef sig ⟨S32768, .i32⟩) select ]
/-- Window 0, item 4: 1 operation(s). -/
abbrev item0_4 : List (HloOp τ sig (Elt F)) :=
  [ StableHlo.nullary main_c_3 (constantI S_ 32 128#32) ]
/-- Window 0, item 5: 17 operation(s) of one call. -/
abbrev item0_5 : List (HloOp τ sig (Elt F)) :=
  [ StableHlo.TRef.unary (.of main_c_3 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.binary (.of main_v1 : StableHlo.TRef sig ⟨S32768, .i32⟩) (.of main_call2_v1 : StableHlo.TRef sig ⟨S32768, .i32⟩) (.of main_call2_v2 : StableHlo.TRef sig ⟨S32768, .i32⟩) Host.divsi,
    StableHlo.TRef.unary (.of main_v1 : StableHlo.TRef sig ⟨S32768, .i32⟩) (.of main_call2_v3 : StableHlo.TRef sig ⟨S32768, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S32768, .i32⟩) (broadcastInDim S32768 ![] bcast_S_S32768),
    StableHlo.TRef.binary (.of main_call2_v3 : StableHlo.TRef sig ⟨S32768, .i32⟩) (.of main_call2_v5 : StableHlo.TRef sig ⟨S32768, .i32⟩) (.of main_call2_v6 : StableHlo.TRef sig ⟨S32768, .i1⟩) (cmpi .ne),
    StableHlo.TRef.unary (.of main_call2_v0 : StableHlo.TRef sig ⟨S_, .i32⟩) (.of main_call2_v7 : StableHlo.TRef sig ⟨S32768, .i32⟩) (broadcastInDim S32768 ![] bcast_S_S32768),
    StableHlo.TRef.binary (.of main_v1 : StableHlo.TRef sig ⟨S32768, .i32⟩) (.of main_call2_v7 : StableHlo.TRef sig ⟨S32768, .i32⟩) (.of main_call2_v8 : StableHlo.TRef sig ⟨S32768, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S32768, .i32⟩) (broadcastInDim S32768 ![] bcast_S_S32768),
    StableHlo.TRef.binary (.of main_call2_v8 : StableHlo.TRef sig ⟨S32768, .i32⟩) (.of main_call2_v9 : StableHlo.TRef sig ⟨S32768, .i32⟩) (.of main_call2_v10 : StableHlo.TRef sig ⟨S32768, .i1⟩) (cmpi .ne),
    StableHlo.TRef.binary (.of main_call2_v6 : StableHlo.TRef sig ⟨S32768, .i1⟩) (.of main_call2_v10 : StableHlo.TRef sig ⟨S32768, .i1⟩) (.of main_call2_v11 : StableHlo.TRef sig ⟨S32768, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S32768, .i32⟩) (broadcastInDim S32768 ![] bcast_S_S32768),
    StableHlo.TRef.binary (.of main_call2_v2 : StableHlo.TRef sig ⟨S32768, .i32⟩) (.of main_call2_v12 : StableHlo.TRef sig ⟨S32768, .i32⟩) (.of main_call2_v13 : StableHlo.TRef sig ⟨S32768, .i32⟩) subi,
    StableHlo.TRef.ternary (.of main_call2_v11 : StableHlo.TRef sig ⟨S32768, .i1⟩) (.of main_call2_v13 : StableHlo.TRef sig ⟨S32768, .i32⟩) (.of main_call2_v2 : StableHlo.TRef sig ⟨S32768, .i32⟩) (.of main_v2 : StableHlo.TRef sig ⟨S32768, .i32⟩) select ]
/-- Window 0, item 6: 1 operation(s). -/
abbrev item0_6 : List (HloOp τ sig (Elt F)) :=
  [ StableHlo.nullary main_c_4 (constantI S_ 32 128#32) ]
/-- Window 0, item 7: 21 operation(s) of one call. -/
abbrev item0_7 : List (HloOp τ sig (Elt F)) :=
  [ StableHlo.TRef.unary (.of main_c_4 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S32768, .i32⟩) (broadcastInDim S32768 ![] bcast_S_S32768),
    StableHlo.TRef.binary (.of main_arg12 : StableHlo.TRef sig ⟨S32768, .i32⟩) (.of main_call3_v3 : StableHlo.TRef sig ⟨S32768, .i32⟩) (.of main_call3_v4 : StableHlo.TRef sig ⟨S32768, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S32768, .i32⟩) (broadcastInDim S32768 ![] bcast_S_S32768),
    StableHlo.TRef.binary (.of main_call3_v4 : StableHlo.TRef sig ⟨S32768, .i32⟩) (.of main_call3_v5 : StableHlo.TRef sig ⟨S32768, .i32⟩) (.of main_call3_v6 : StableHlo.TRef sig ⟨S32768, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S32768, .i32⟩) (broadcastInDim S32768 ![] bcast_S_S32768),
    StableHlo.TRef.binary (.of main_call3_v4 : StableHlo.TRef sig ⟨S32768, .i32⟩) (.of main_call3_v7 : StableHlo.TRef sig ⟨S32768, .i32⟩) (.of main_call3_v8 : StableHlo.TRef sig ⟨S32768, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S32768, .i1⟩) (broadcastInDim S32768 ![] bcast_S_S32768),
    StableHlo.TRef.binary (.of main_call3_v8 : StableHlo.TRef sig ⟨S32768, .i1⟩) (.of main_call3_v10 : StableHlo.TRef sig ⟨S32768, .i1⟩) (.of main_call3_v11 : StableHlo.TRef sig ⟨S32768, .i1⟩) (cmpi .ne),
    StableHlo.TRef.binary (.of main_call3_v11 : StableHlo.TRef sig ⟨S32768, .i1⟩) (.of main_call3_v6 : StableHlo.TRef sig ⟨S32768, .i1⟩) (.of main_call3_v12 : StableHlo.TRef sig ⟨S32768, .i1⟩) andi,
    StableHlo.TRef.unary (.of main_call3_v2 : StableHlo.TRef sig ⟨S_, .i32⟩) (.of main_call3_v13 : StableHlo.TRef sig ⟨S32768, .i32⟩) (broadcastInDim S32768 ![] bcast_S_S32768),
    StableHlo.TRef.binary (.of main_call3_v4 : StableHlo.TRef sig ⟨S32768, .i32⟩) (.of main_call3_v13 : StableHlo.TRef sig ⟨S32768, .i32⟩) (.of main_call3_v14 : StableHlo.TRef sig ⟨S32768, .i32⟩) addi,
    StableHlo.TRef.ternary (.of main_call3_v12 : StableHlo.TRef sig ⟨S32768, .i1⟩) (.of main_call3_v14 : StableHlo.TRef sig ⟨S32768, .i32⟩) (.of main_call3_v4 : StableHlo.TRef sig ⟨S32768, .i32⟩) (.of main_v3 : StableHlo.TRef sig ⟨S32768, .i32⟩) select ]
/-- Window 0, item 8: 50 operation(s). -/
abbrev item0_8 : List (HloOp τ sig (Elt F)) :=
  [ StableHlo.nullary main_c_5 (constantI S_ 32 1#32),
    StableHlo.unary main_c_5 main_v4 (broadcastInDim S32768 ![] bcast_S_S32768 : (⟨S_, .i32⟩ : BufTy).Contents (Elt F) → (⟨S32768, .i32⟩ : BufTy).Contents (Elt F)),
    StableHlo.binary main_v0 main_v4 main_v5 (cmpi .sge : (⟨S32768, .i32⟩ : BufTy).Contents (Elt F) → (⟨S32768, .i32⟩ : BufTy).Contents (Elt F) → (⟨S32768, .i1⟩ : BufTy).Contents (Elt F)),
    StableHlo.nullary main_c_6 (constantI S_ 32 127#32),
    StableHlo.unary main_c_6 main_v6 (broadcastInDim S32768 ![] bcast_S_S32768 : (⟨S_, .i32⟩ : BufTy).Contents (Elt F) → (⟨S32768, .i32⟩ : BufTy).Contents (Elt F)),
    StableHlo.binary main_v0 main_v6 main_v7 (cmpi .slt : (⟨S32768, .i32⟩ : BufTy).Contents (Elt F) → (⟨S32768, .i32⟩ : BufTy).Contents (Elt F) → (⟨S32768, .i1⟩ : BufTy).Contents (Elt F)),
    StableHlo.binary main_v5 main_v7 main_v8 (andi : (⟨S32768, .i1⟩ : BufTy).Contents (Elt F) → (⟨S32768, .i1⟩ : BufTy).Contents (Elt F) → (⟨S32768, .i1⟩ : BufTy).Contents (Elt F)),
    StableHlo.nullary main_c_7 (constantI S_ 32 1#32),
    StableHlo.unary main_c_7 main_v9 (broadcastInDim S32768 ![] bcast_S_S32768 : (⟨S_, .i32⟩ : BufTy).Contents (Elt F) → (⟨S32768, .i32⟩ : BufTy).Contents (Elt F)),
    StableHlo.binary main_v2 main_v9 main_v10 (cmpi .sge : (⟨S32768, .i32⟩ : BufTy).Contents (Elt F) → (⟨S32768, .i32⟩ : BufTy).Contents (Elt F) → (⟨S32768, .i1⟩ : BufTy).Contents (Elt F)),
    StableHlo.binary main_v8 main_v10 main_v11 (andi : (⟨S32768, .i1⟩ : BufTy).Contents (Elt F) → (⟨S32768, .i1⟩ : BufTy).Contents (Elt F) → (⟨S32768, .i1⟩ : BufTy).Contents (Elt F)),
    StableHlo.nullary main_c_8 (constantI S_ 32 127#32),
    StableHlo.unary main_c_8 main_v12 (broadcastInDim S32768 ![] bcast_S_S32768 : (⟨S_, .i32⟩ : BufTy).Contents (Elt F) → (⟨S32768, .i32⟩ : BufTy).Contents (Elt F)),
    StableHlo.binary main_v2 main_v12 main_v13 (cmpi .slt : (⟨S32768, .i32⟩ : BufTy).Contents (Elt F) → (⟨S32768, .i32⟩ : BufTy).Contents (Elt F) → (⟨S32768, .i1⟩ : BufTy).Contents (Elt F)),
    StableHlo.binary main_v11 main_v13 main_v14 (andi : (⟨S32768, .i1⟩ : BufTy).Contents (Elt F) → (⟨S32768, .i1⟩ : BufTy).Contents (Elt F) → (⟨S32768, .i1⟩ : BufTy).Contents (Elt F)),
    StableHlo.nullary main_c_9 (constantI S_ 32 1#32),
    StableHlo.unary main_c_9 main_v15 (broadcastInDim S32768 ![] bcast_S_S32768 : (⟨S_, .i32⟩ : BufTy).Contents (Elt F) → (⟨S32768, .i32⟩ : BufTy).Contents (Elt F)),
    StableHlo.binary main_v3 main_v15 main_v16 (cmpi .sge : (⟨S32768, .i32⟩ : BufTy).Contents (Elt F) → (⟨S32768, .i32⟩ : BufTy).Contents (Elt F) → (⟨S32768, .i1⟩ : BufTy).Contents (Elt F)),
    StableHlo.binary main_v14 main_v16 main_v17 (andi : (⟨S32768, .i1⟩ : BufTy).Contents (Elt F) → (⟨S32768, .i1⟩ : BufTy).Contents (Elt F) → (⟨S32768, .i1⟩ : BufTy).Contents (Elt F)),
    StableHlo.nullary main_c_10 (constantI S_ 32 127#32),
    StableHlo.unary main_c_10 main_v18 (broadcastInDim S32768 ![] bcast_S_S32768 : (⟨S_, .i32⟩ : BufTy).Contents (Elt F) → (⟨S32768, .i32⟩ : BufTy).Contents (Elt F)),
    StableHlo.binary main_v3 main_v18 main_v19 (cmpi .slt : (⟨S32768, .i32⟩ : BufTy).Contents (Elt F) → (⟨S32768, .i32⟩ : BufTy).Contents (Elt F) → (⟨S32768, .i1⟩ : BufTy).Contents (Elt F)),
    StableHlo.binary main_v17 main_v19 main_v20 (andi : (⟨S32768, .i1⟩ : BufTy).Contents (Elt F) → (⟨S32768, .i1⟩ : BufTy).Contents (Elt F) → (⟨S32768, .i1⟩ : BufTy).Contents (Elt F)),
    StableHlo.unary main_v20 main_v21 (uitofp .f32 : (⟨S32768, .i1⟩ : BufTy).Contents (Elt F) → (⟨S32768, .f32⟩ : BufTy).Contents (Elt F)),
    StableHlo.nullary main_c_11 (constantI S_ 32 0#32),
    StableHlo.unary main_c_11 main_v22 (broadcastInDim S32768 ![] bcast_S_S32768 : (⟨S_, .i32⟩ : BufTy).Contents (Elt F) → (⟨S32768, .i32⟩ : BufTy).Contents (Elt F)),
    StableHlo.binary main_arg12 main_v22 main_v23 (cmpi .slt : (⟨S32768, .i32⟩ : BufTy).Contents (Elt F) → (⟨S32768, .i32⟩ : BufTy).Contents (Elt F) → (⟨S32768, .i1⟩ : BufTy).Contents (Elt F)),
    StableHlo.nullary main_c_12 (constantI S_ 32 2097152#32),
    StableHlo.unary main_c_12 main_v24 (broadcastInDim S32768 ![] bcast_S_S32768 : (⟨S_, .i32⟩ : BufTy).Contents (Elt F) → (⟨S32768, .i32⟩ : BufTy).Contents (Elt F)),
    StableHlo.binary main_arg12 main_v24 main_v25 (addi : (⟨S32768, .i32⟩ : BufTy).Contents (Elt F) → (⟨S32768, .i32⟩ : BufTy).Contents (Elt F) → (⟨S32768, .i32⟩ : BufTy).Contents (Elt F)),
    StableHlo.ternary main_v23 main_v25 main_arg12 main_v26 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v26 main_v27 (broadcastInDim S32768x1 ![0] bcast_S32768_S32768x1_0 : (⟨S32768, .i32⟩ : BufTy).Contents (Elt F) → (⟨S32768x1, .i32⟩ : BufTy).Contents (Elt F)),
    StableHlo.binary main_arg0 main_v27 main_v28 ((fun x i => Host.gather gather_S2097152x3_S32768x1_S32768x3_1_0_n_n_0_1_13 x i) : (⟨S2097152x3, .f32⟩ : BufTy).Contents (Elt F) → (⟨S32768x1, .i32⟩ : BufTy).Contents (Elt F) → (⟨S32768x3, .f32⟩ : BufTy).Contents (Elt F)),
    StableHlo.binary main_v28 main_arg4 main_v29 ((fun l r => Host.dotGeneral dot_S32768x3_S3x128_S32768x128_1_0_0_1_n_n none l r) : (⟨S32768x3, .f32⟩ : BufTy).Contents (Elt F) → (⟨S3x128, .f32⟩ : BufTy).Contents (Elt F) → (⟨S32768x128, .f32⟩ : BufTy).Contents (Elt F)),
    StableHlo.unary main_arg5 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S32768x128 ![0, 1] bcast_S1x128_S32768x128_0_1 : (⟨S1x128, .f32⟩ : BufTy).Contents (Elt F) → (⟨S32768x128, .f32⟩ : BufTy).Contents (Elt F)),
    StableHlo.binary main_v29 main_v31 main_v32 (addf : (⟨S32768x128, .f32⟩ : BufTy).Contents (Elt F) → (⟨S32768x128, .f32⟩ : BufTy).Contents (Elt F) → (⟨S32768x128, .f32⟩ : BufTy).Contents (Elt F)),
    StableHlo.unary main_v32 main_v33 (Host.tanh : (⟨S32768x128, .f32⟩ : BufTy).Contents (Elt F) → (⟨S32768x128, .f32⟩ : BufTy).Contents (Elt F)),
    StableHlo.binary main_v33 main_arg6 main_v34 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.unary main_arg7 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S32768x128 ![0, 1] bcast_S1x128_S32768x128_0_1 : (⟨S1x128, .f32⟩ : BufTy).Contents (Elt F) → (⟨S32768x128, .f32⟩ : BufTy).Contents (Elt F)),
    StableHlo.binary main_v34 main_v36 main_v37 (addf : (⟨S32768x128, .f32⟩ : BufTy).Contents (Elt F) → (⟨S32768x128, .f32⟩ : BufTy).Contents (Elt F) → (⟨S32768x128, .f32⟩ : BufTy).Contents (Elt F)),
    StableHlo.unary main_v37 main_v38 (Host.tanh : (⟨S32768x128, .f32⟩ : BufTy).Contents (Elt F) → (⟨S32768x128, .f32⟩ : BufTy).Contents (Elt F)),
    StableHlo.binary main_v38 main_arg8 main_v39 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.unary main_arg9 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S32768x128 ![0, 1] bcast_S1x128_S32768x128_0_1 : (⟨S1x128, .f32⟩ : BufTy).Contents (Elt F) → (⟨S32768x128, .f32⟩ : BufTy).Contents (Elt F)),
    StableHlo.binary main_v39 main_v41 main_v42 (addf : (⟨S32768x128, .f32⟩ : BufTy).Contents (Elt F) → (⟨S32768x128, .f32⟩ : BufTy).Contents (Elt F) → (⟨S32768x128, .f32⟩ : BufTy).Contents (Elt F)),
    StableHlo.unary main_v42 main_v43 (Host.tanh : (⟨S32768x128, .f32⟩ : BufTy).Contents (Elt F) → (⟨S32768x128, .f32⟩ : BufTy).Contents (Elt F)),
    StableHlo.binary main_v43 main_arg10 main_v44 ((fun l r => Host.dotGeneral dot_S32768x128_S128x1_S32768x1_1_0_0_1_n_n none l r) : (⟨S32768x128, .f32⟩ : BufTy).Contents (Elt F) → (⟨S128x1, .f32⟩ : BufTy).Contents (Elt F) → (⟨S32768x1, .f32⟩ : BufTy).Contents (Elt F)),
    StableHlo.unary main_arg11 main_v45 (broadcastInDim S1x1 ![1] bcast_S1_S1x1_1 : (⟨S1, .f32⟩ : BufTy).Contents (Elt F) → (⟨S1x1, .f32⟩ : BufTy).Contents (Elt F)) ]
/-- Window 0's operations: its items appended to the right. -/
abbrev win0 : List (HloOp τ sig (Elt F)) :=
  item0_0 ++ (item0_1 ++ (item0_2 ++ (item0_3 ++ (item0_4 ++ (item0_5 ++ (item0_6 ++ (item0_7 ++ (item0_8))))))))

/-- Window 1, item 0: 49 operation(s). -/
abbrev item1_0 : List (HloOp τ sig (Elt F)) :=
  [ StableHlo.unary main_v45 main_v46 (broadcastInDim S32768x1 ![0, 1] bcast_S1x1_S32768x1_0_1 : (⟨S1x1, .f32⟩ : BufTy).Contents (Elt F) → (⟨S32768x1, .f32⟩ : BufTy).Contents (Elt F)),
    StableHlo.binary main_v44 main_v46 main_v47 (addf : (⟨S32768x1, .f32⟩ : BufTy).Contents (Elt F) → (⟨S32768x1, .f32⟩ : BufTy).Contents (Elt F) → (⟨S32768x1, .f32⟩ : BufTy).Contents (Elt F)),
    StableHlo.reshape main_v47 main_v48 rfl shapeCasts_S32768x1_S32768,
    StableHlo.nullary main_c_13 (constantI S_ 32 0#32),
    StableHlo.unary main_c_13 main_v49 (broadcastInDim S32768 ![] bcast_S_S32768 : (⟨S_, .i32⟩ : BufTy).Contents (Elt F) → (⟨S32768, .i32⟩ : BufTy).Contents (Elt F)),
    StableHlo.binary main_arg12 main_v49 main_v50 (cmpi .slt : (⟨S32768, .i32⟩ : BufTy).Contents (Elt F) → (⟨S32768, .i32⟩ : BufTy).Contents (Elt F) → (⟨S32768, .i1⟩ : BufTy).Contents (Elt F)),
    StableHlo.nullary main_c_14 (constantI S_ 32 2097152#32),
    StableHlo.unary main_c_14 main_v51 (broadcastInDim S32768 ![] bcast_S_S32768 : (⟨S_, .i32⟩ : BufTy).Contents (Elt F) → (⟨S32768, .i32⟩ : BufTy).Contents (Elt F)),
    StableHlo.binary main_arg12 main_v51 main_v52 (addi : (⟨S32768, .i32⟩ : BufTy).Contents (Elt F) → (⟨S32768, .i32⟩ : BufTy).Contents (Elt F) → (⟨S32768, .i32⟩ : BufTy).Contents (Elt F)),
    StableHlo.ternary main_v50 main_v52 main_arg12 main_v53 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v53 main_v54 (broadcastInDim S32768x1 ![0] bcast_S32768_S32768x1_0 : (⟨S32768, .i32⟩ : BufTy).Contents (Elt F) → (⟨S32768x1, .i32⟩ : BufTy).Contents (Elt F)),
    StableHlo.binary main_arg1 main_v54 main_v55 ((fun x i => Host.gather gather_S2097152x1_S32768x1_S32768x1_1_0_n_n_0_1_11 x i) : (⟨S2097152x1, .f32⟩ : BufTy).Contents (Elt F) → (⟨S32768x1, .i32⟩ : BufTy).Contents (Elt F) → (⟨S32768x1, .f32⟩ : BufTy).Contents (Elt F)),
    StableHlo.reshape main_v55 main_v56 rfl shapeCasts_S32768x1_S32768,
    StableHlo.binary main_v48 main_v56 main_v57 (subf : (⟨S32768, .f32⟩ : BufTy).Contents (Elt F) → (⟨S32768, .f32⟩ : BufTy).Contents (Elt F) → (⟨S32768, .f32⟩ : BufTy).Contents (Elt F)),
    StableHlo.unary main_v57 main_v58 (Host.absf : (⟨S32768, .f32⟩ : BufTy).Contents (Elt F) → (⟨S32768, .f32⟩ : BufTy).Contents (Elt F)),
    StableHlo.nullary main_cst (constant S_ .f32 0x00000000#32),
    StableHlo.binary main_v58 main_cst main_v59 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_15 (constant S_ .f32 0x47000000#32),
    StableHlo.binary main_v59 main_cst_15 main_v60 (Host.divf : (⟨S_, .f32⟩ : BufTy).Contents (Elt F) → (⟨S_, .f32⟩ : BufTy).Contents (Elt F) → (⟨S_, .f32⟩ : BufTy).Contents (Elt F)),
    StableHlo.unary main_v0 main_v61 (broadcastInDim S32768x1 ![0] bcast_S32768_S32768x1_0 : (⟨S32768, .i32⟩ : BufTy).Contents (Elt F) → (⟨S32768x1, .i32⟩ : BufTy).Contents (Elt F)),
    StableHlo.unary main_v2 main_v62 (broadcastInDim S32768x1 ![0] bcast_S32768_S32768x1_0 : (⟨S32768, .i32⟩ : BufTy).Contents (Elt F) → (⟨S32768x1, .i32⟩ : BufTy).Contents (Elt F)),
    StableHlo.unary main_v3 main_v63 (broadcastInDim S32768x1 ![0] bcast_S32768_S32768x1_0 : (⟨S32768, .i32⟩ : BufTy).Contents (Elt F) → (⟨S32768x1, .i32⟩ : BufTy).Contents (Elt F)),
    StableHlo.nary ![main_v61, main_v62, main_v63] main_v64 (fun u => concatenate S32768x3 1 [⟨S32768x1, u 0⟩, ⟨S32768x1, u 1⟩, ⟨S32768x1, u 2⟩] concatenates_S32768x1_S32768x1_S32768x1_S32768x3_d1),
    StableHlo.unary main_v64 main_v65 (broadcastInDim S32768x1x3 ![0, 2] bcast_S32768x3_S32768x1x3_0_2 : (⟨S32768x3, .i32⟩ : BufTy).Contents (Elt F) → (⟨S32768x1x3, .i32⟩ : BufTy).Contents (Elt F)),
    StableHlo.unary main_c main_v66 (broadcastInDim S1x8x3 ![1, 2] bcast_S8x3_S1x8x3_1_2 : (⟨S8x3, .i32⟩ : BufTy).Contents (Elt F) → (⟨S1x8x3, .i32⟩ : BufTy).Contents (Elt F)),
    StableHlo.unary main_v65 main_v67 (broadcastInDim S32768x8x3 ![0, 1, 2] bcast_S32768x1x3_S32768x8x3_0_1_2 : (⟨S32768x1x3, .i32⟩ : BufTy).Contents (Elt F) → (⟨S32768x8x3, .i32⟩ : BufTy).Contents (Elt F)),
    StableHlo.unary main_v66 main_v68 (broadcastInDim S32768x8x3 ![0, 1, 2] bcast_S1x8x3_S32768x8x3_0_1_2 : (⟨S1x8x3, .i32⟩ : BufTy).Contents (Elt F) → (⟨S32768x8x3, .i32⟩ : BufTy).Contents (Elt F)),
    StableHlo.binary main_v67 main_v68 main_v69 (addi : (⟨S32768x8x3, .i32⟩ : BufTy).Contents (Elt F) → (⟨S32768x8x3, .i32⟩ : BufTy).Contents (Elt F) → (⟨S32768x8x3, .i32⟩ : BufTy).Contents (Elt F)),
    StableHlo.unary main_v64 main_v70 (broadcastInDim S32768x1x3 ![0, 2] bcast_S32768x3_S32768x1x3_0_2 : (⟨S32768x3, .i32⟩ : BufTy).Contents (Elt F) → (⟨S32768x1x3, .i32⟩ : BufTy).Contents (Elt F)),
    StableHlo.unary main_c_0 main_v71 (broadcastInDim S1x8x3 ![1, 2] bcast_S8x3_S1x8x3_1_2 : (⟨S8x3, .i32⟩ : BufTy).Contents (Elt F) → (⟨S1x8x3, .i32⟩ : BufTy).Contents (Elt F)),
    StableHlo.unary main_v70 main_v72 (broadcastInDim S32768x8x3 ![0, 1, 2] bcast_S32768x1x3_S32768x8x3_0_1_2 : (⟨S32768x1x3, .i32⟩ : BufTy).Contents (Elt F) → (⟨S32768x8x3, .i32⟩ : BufTy).Contents (Elt F)),
    StableHlo.unary main_v71 main_v73 (broadcastInDim S32768x8x3 ![0, 1, 2] bcast_S1x8x3_S32768x8x3_0_1_2 : (⟨S1x8x3, .i32⟩ : BufTy).Contents (Elt F) → (⟨S32768x8x3, .i32⟩ : BufTy).Contents (Elt F)),
    StableHlo.binary main_v72 main_v73 main_v74 (addi : (⟨S32768x8x3, .i32⟩ : BufTy).Contents (Elt F) → (⟨S32768x8x3, .i32⟩ : BufTy).Contents (Elt F) → (⟨S32768x8x3, .i32⟩ : BufTy).Contents (Elt F)),
    StableHlo.unary main_v69 main_v75 ((extractStridedSlice S32768x8x1 ![0, 0, 0] · slices_S32768x8x3_S32768x8x1_0_0_0) : (⟨S32768x8x3, .i32⟩ : BufTy).Contents (Elt F) → (⟨S32768x8x1, .i32⟩ : BufTy).Contents (Elt F)),
    StableHlo.reshape main_v75 main_v76 rfl shapeCasts_S32768x8x1_S32768x8,
    StableHlo.nullary main_c_16 (constantI S_ 32 16129#32),
    StableHlo.unary main_c_16 main_v77 (broadcastInDim S32768x8 ![] bcast_S_S32768x8 : (⟨S_, .i32⟩ : BufTy).Contents (Elt F) → (⟨S32768x8, .i32⟩ : BufTy).Contents (Elt F)),
    StableHlo.binary main_v76 main_v77 main_v78 (muli : (⟨S32768x8, .i32⟩ : BufTy).Contents (Elt F) → (⟨S32768x8, .i32⟩ : BufTy).Contents (Elt F) → (⟨S32768x8, .i32⟩ : BufTy).Contents (Elt F)),
    StableHlo.unary main_v69 main_v79 ((extractStridedSlice S32768x8x1 ![0, 0, 1] · slices_S32768x8x3_S32768x8x1_0_0_1) : (⟨S32768x8x3, .i32⟩ : BufTy).Contents (Elt F) → (⟨S32768x8x1, .i32⟩ : BufTy).Contents (Elt F)),
    StableHlo.reshape main_v79 main_v80 rfl shapeCasts_S32768x8x1_S32768x8,
    StableHlo.nullary main_c_17 (constantI S_ 32 127#32),
    StableHlo.unary main_c_17 main_v81 (broadcastInDim S32768x8 ![] bcast_S_S32768x8 : (⟨S_, .i32⟩ : BufTy).Contents (Elt F) → (⟨S32768x8, .i32⟩ : BufTy).Contents (Elt F)),
    StableHlo.binary main_v80 main_v81 main_v82 (muli : (⟨S32768x8, .i32⟩ : BufTy).Contents (Elt F) → (⟨S32768x8, .i32⟩ : BufTy).Contents (Elt F) → (⟨S32768x8, .i32⟩ : BufTy).Contents (Elt F)),
    StableHlo.binary main_v78 main_v82 main_v83 (addi : (⟨S32768x8, .i32⟩ : BufTy).Contents (Elt F) → (⟨S32768x8, .i32⟩ : BufTy).Contents (Elt F) → (⟨S32768x8, .i32⟩ : BufTy).Contents (Elt F)),
    StableHlo.unary main_v69 main_v84 ((extractStridedSlice S32768x8x1 ![0, 0, 2] · slices_S32768x8x3_S32768x8x1_0_0_2) : (⟨S32768x8x3, .i32⟩ : BufTy).Contents (Elt F) → (⟨S32768x8x1, .i32⟩ : BufTy).Contents (Elt F)),
    StableHlo.reshape main_v84 main_v85 rfl shapeCasts_S32768x8x1_S32768x8,
    StableHlo.binary main_v83 main_v85 main_v86 (addi : (⟨S32768x8, .i32⟩ : BufTy).Contents (Elt F) → (⟨S32768x8, .i32⟩ : BufTy).Contents (Elt F) → (⟨S32768x8, .i32⟩ : BufTy).Contents (Elt F)),
    StableHlo.nullary main_c_18 (constantI S_ 32 0#32),
    StableHlo.nullary main_c_19 (constantI S_ 32 2048382#32) ]
/-- Window 1, item 1: 6 operation(s) of one call. -/
abbrev item1_1 : List (HloOp τ sig (Elt F)) :=
  [ StableHlo.TRef.unary (.of main_c_18 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S32768x8, .i32⟩) (broadcastInDim S32768x8 ![] bcast_S_S32768x8),
    StableHlo.TRef.binary (.of main_call4_v1 : StableHlo.TRef sig ⟨S32768x8, .i32⟩) (.of main_v86 : StableHlo.TRef sig ⟨S32768x8, .i32⟩) (.of main_call4_v2 : StableHlo.TRef sig ⟨S32768x8, .i32⟩) maxsi,
    StableHlo.TRef.unary (.of main_c_19 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S32768x8, .i32⟩) (broadcastInDim S32768x8 ![] bcast_S_S32768x8),
    StableHlo.TRef.binary (.of main_call4_v4 : StableHlo.TRef sig ⟨S32768x8, .i32⟩) (.of main_call4_v2 : StableHlo.TRef sig ⟨S32768x8, .i32⟩) (.of main_v87 : StableHlo.TRef sig ⟨S32768x8, .i32⟩) minsi ]
/-- Window 1, item 2: 10 operation(s). -/
abbrev item1_2 : List (HloOp τ sig (Elt F)) :=
  [ StableHlo.unary main_v74 main_v88 ((extractStridedSlice S32768x8x1 ![0, 0, 0] · slices_S32768x8x3_S32768x8x1_0_0_0) : (⟨S32768x8x3, .i32⟩ : BufTy).Contents (Elt F) → (⟨S32768x8x1, .i32⟩ : BufTy).Contents (Elt F)),
    StableHlo.reshape main_v88 main_v89 rfl shapeCasts_S32768x8x1_S32768x8,
    StableHlo.nullary main_c_20 (constantI S_ 32 16129#32),
    StableHlo.unary main_c_20 main_v90 (broadcastInDim S32768x8 ![] bcast_S_S32768x8 : (⟨S_, .i32⟩ : BufTy).Contents (Elt F) → (⟨S32768x8, .i32⟩ : BufTy).Contents (Elt F)),
    StableHlo.binary main_v89 main_v90 main_v91 (muli : (⟨S32768x8, .i32⟩ : BufTy).Contents (Elt F) → (⟨S32768x8, .i32⟩ : BufTy).Contents (Elt F) → (⟨S32768x8, .i32⟩ : BufTy).Contents (Elt F)),
    StableHlo.unary main_v74 main_v92 ((extractStridedSlice S32768x8x1 ![0, 0, 1] · slices_S32768x8x3_S32768x8x1_0_0_1) : (⟨S32768x8x3, .i32⟩ : BufTy).Contents (Elt F) → (⟨S32768x8x1, .i32⟩ : BufTy).Contents (Elt F)),
    StableHlo.reshape main_v92 main_v93 rfl shapeCasts_S32768x8x1_S32768x8,
    StableHlo.nullary main_c_21 (constantI S_ 32 127#32),
    StableHlo.unary main_c_21 main_v94 (broadcastInDim S32768x8 ![] bcast_S_S32768x8 : (⟨S_, .i32⟩ : BufTy).Contents (Elt F) → (⟨S32768x8, .i32⟩ : BufTy).Contents (Elt F)),
    StableHlo.binary main_v93 main_v94 main_v95 (muli : (⟨S32768x8, .i32⟩ : BufTy).Contents (Elt F) → (⟨S32768x8, .i32⟩ : BufTy).Contents (Elt F) → (⟨S32768x8, .i32⟩ : BufTy).Contents (Elt F)) ]
/-- Window 1's operations: its items appended to the right. -/
abbrev win1 : List (HloOp τ sig (Elt F)) :=
  item1_0 ++ (item1_1 ++ (item1_2))

/-- Window 2, item 0: 6 operation(s). -/
abbrev item2_0 : List (HloOp τ sig (Elt F)) :=
  [ StableHlo.binary main_v91 main_v95 main_v96 (addi : (⟨S32768x8, .i32⟩ : BufTy).Contents (Elt F) → (⟨S32768x8, .i32⟩ : BufTy).Contents (Elt F) → (⟨S32768x8, .i32⟩ : BufTy).Contents (Elt F)),
    StableHlo.unary main_v74 main_v97 ((extractStridedSlice S32768x8x1 ![0, 0, 2] · slices_S32768x8x3_S32768x8x1_0_0_2) : (⟨S32768x8x3, .i32⟩ : BufTy).Contents (Elt F) → (⟨S32768x8x1, .i32⟩ : BufTy).Contents (Elt F)),
    StableHlo.reshape main_v97 main_v98 rfl shapeCasts_S32768x8x1_S32768x8,
    StableHlo.binary main_v96 main_v98 main_v99 (addi : (⟨S32768x8, .i32⟩ : BufTy).Contents (Elt F) → (⟨S32768x8, .i32⟩ : BufTy).Contents (Elt F) → (⟨S32768x8, .i32⟩ : BufTy).Contents (Elt F)),
    StableHlo.nullary main_c_22 (constantI S_ 32 0#32),
    StableHlo.nullary main_c_23 (constantI S_ 32 2097151#32) ]
/-- Window 2, item 1: 6 operation(s) of one call. -/
abbrev item2_1 : List (HloOp τ sig (Elt F)) :=
  [ StableHlo.TRef.unary (.of main_c_22 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S32768x8, .i32⟩) (broadcastInDim S32768x8 ![] bcast_S_S32768x8),
    StableHlo.TRef.binary (.of main_call5_v1 : StableHlo.TRef sig ⟨S32768x8, .i32⟩) (.of main_v99 : StableHlo.TRef sig ⟨S32768x8, .i32⟩) (.of main_call5_v2 : StableHlo.TRef sig ⟨S32768x8, .i32⟩) maxsi,
    StableHlo.TRef.unary (.of main_c_23 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S32768x8, .i32⟩) (broadcastInDim S32768x8 ![] bcast_S_S32768x8),
    StableHlo.TRef.binary (.of main_call5_v4 : StableHlo.TRef sig ⟨S32768x8, .i32⟩) (.of main_call5_v2 : StableHlo.TRef sig ⟨S32768x8, .i32⟩) (.of main_v100 : StableHlo.TRef sig ⟨S32768x8, .i32⟩) minsi ]
/-- Window 2, item 2: 53 operation(s). -/
abbrev item2_2 : List (HloOp τ sig (Elt F)) :=
  [ StableHlo.nullary main_c_24 (constantI S_ 32 0#32),
    StableHlo.unary main_c_24 main_v101 (broadcastInDim S32768x8 ![] bcast_S_S32768x8 : (⟨S_, .i32⟩ : BufTy).Contents (Elt F) → (⟨S32768x8, .i32⟩ : BufTy).Contents (Elt F)),
    StableHlo.binary main_v87 main_v101 main_v102 (cmpi .slt : (⟨S32768x8, .i32⟩ : BufTy).Contents (Elt F) → (⟨S32768x8, .i32⟩ : BufTy).Contents (Elt F) → (⟨S32768x8, .i1⟩ : BufTy).Contents (Elt F)),
    StableHlo.nullary main_c_25 (constantI S_ 32 2048383#32),
    StableHlo.unary main_c_25 main_v103 (broadcastInDim S32768x8 ![] bcast_S_S32768x8 : (⟨S_, .i32⟩ : BufTy).Contents (Elt F) → (⟨S32768x8, .i32⟩ : BufTy).Contents (Elt F)),
    StableHlo.binary main_v87 main_v103 main_v104 (addi : (⟨S32768x8, .i32⟩ : BufTy).Contents (Elt F) → (⟨S32768x8, .i32⟩ : BufTy).Contents (Elt F) → (⟨S32768x8, .i32⟩ : BufTy).Contents (Elt F)),
    StableHlo.ternary main_v102 main_v104 main_v87 main_v105 (select : (⟨S32768x8, .i1⟩ : BufTy).Contents (Elt F) → (⟨S32768x8, .i32⟩ : BufTy).Contents (Elt F) → (⟨S32768x8, .i32⟩ : BufTy).Contents (Elt F) → (⟨S32768x8, .i32⟩ : BufTy).Contents (Elt F)),
    StableHlo.unary main_v105 main_v106 (broadcastInDim S32768x8x1 ![0, 1] bcast_S32768x8_S32768x8x1_0_1 : (⟨S32768x8, .i32⟩ : BufTy).Contents (Elt F) → (⟨S32768x8x1, .i32⟩ : BufTy).Contents (Elt F)),
    StableHlo.binary main_arg2 main_v106 main_v107 ((fun x i => Host.gather gather_S2048383x3_S32768x8x1_S32768x8x3_2_0_n_n_0_2_13 x i) : (⟨S2048383x3, .f32⟩ : BufTy).Contents (Elt F) → (⟨S32768x8x1, .i32⟩ : BufTy).Contents (Elt F) → (⟨S32768x8x3, .f32⟩ : BufTy).Contents (Elt F)),
    StableHlo.reshape main_v107 main_v108 rfl shapeCasts_S32768x8x3_S262144x3,
    StableHlo.binary main_v108 main_arg4 main_v109 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    StableHlo.unary main_arg5 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S262144x128 ![0, 1] bcast_S1x128_S262144x128_0_1 : (⟨S1x128, .f32⟩ : BufTy).Contents (Elt F) → (⟨S262144x128, .f32⟩ : BufTy).Contents (Elt F)),
    StableHlo.binary main_v109 main_v111 main_v112 (addf : (⟨S262144x128, .f32⟩ : BufTy).Contents (Elt F) → (⟨S262144x128, .f32⟩ : BufTy).Contents (Elt F) → (⟨S262144x128, .f32⟩ : BufTy).Contents (Elt F)),
    StableHlo.unary main_v112 main_v113 (Host.tanh : (⟨S262144x128, .f32⟩ : BufTy).Contents (Elt F) → (⟨S262144x128, .f32⟩ : BufTy).Contents (Elt F)),
    StableHlo.binary main_v113 main_arg6 main_v114 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg7 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S262144x128 ![0, 1] bcast_S1x128_S262144x128_0_1 : (⟨S1x128, .f32⟩ : BufTy).Contents (Elt F) → (⟨S262144x128, .f32⟩ : BufTy).Contents (Elt F)),
    StableHlo.binary main_v114 main_v116 main_v117 (addf : (⟨S262144x128, .f32⟩ : BufTy).Contents (Elt F) → (⟨S262144x128, .f32⟩ : BufTy).Contents (Elt F) → (⟨S262144x128, .f32⟩ : BufTy).Contents (Elt F)),
    StableHlo.unary main_v117 main_v118 (Host.tanh : (⟨S262144x128, .f32⟩ : BufTy).Contents (Elt F) → (⟨S262144x128, .f32⟩ : BufTy).Contents (Elt F)),
    StableHlo.binary main_v118 main_arg8 main_v119 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg9 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S262144x128 ![0, 1] bcast_S1x128_S262144x128_0_1 : (⟨S1x128, .f32⟩ : BufTy).Contents (Elt F) → (⟨S262144x128, .f32⟩ : BufTy).Contents (Elt F)),
    StableHlo.binary main_v119 main_v121 main_v122 (addf : (⟨S262144x128, .f32⟩ : BufTy).Contents (Elt F) → (⟨S262144x128, .f32⟩ : BufTy).Contents (Elt F) → (⟨S262144x128, .f32⟩ : BufTy).Contents (Elt F)),
    StableHlo.unary main_v122 main_v123 (Host.tanh : (⟨S262144x128, .f32⟩ : BufTy).Contents (Elt F) → (⟨S262144x128, .f32⟩ : BufTy).Contents (Elt F)),
    StableHlo.binary main_v123 main_arg10 main_v124 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    StableHlo.unary main_arg11 main_v125 (broadcastInDim S1x1 ![1] bcast_S1_S1x1_1 : (⟨S1, .f32⟩ : BufTy).Contents (Elt F) → (⟨S1x1, .f32⟩ : BufTy).Contents (Elt F)),
    StableHlo.unary main_v125 main_v126 (broadcastInDim S262144x1 ![0, 1] bcast_S1x1_S262144x1_0_1 : (⟨S1x1, .f32⟩ : BufTy).Contents (Elt F) → (⟨S262144x1, .f32⟩ : BufTy).Contents (Elt F)),
    StableHlo.binary main_v124 main_v126 main_v127 (addf : (⟨S262144x1, .f32⟩ : BufTy).Contents (Elt F) → (⟨S262144x1, .f32⟩ : BufTy).Contents (Elt F) → (⟨S262144x1, .f32⟩ : BufTy).Contents (Elt F)),
    StableHlo.reshape main_v127 main_v128 rfl shapeCasts_S262144x1_S32768x8,
    StableHlo.nullary main_c_26 (constantI S_ 32 0#32),
    StableHlo.unary main_c_26 main_v129 (broadcastInDim S32768x8 ![] bcast_S_S32768x8 : (⟨S_, .i32⟩ : BufTy).Contents (Elt F) → (⟨S32768x8, .i32⟩ : BufTy).Contents (Elt F)),
    StableHlo.binary main_v100 main_v129 main_v130 (cmpi .slt : (⟨S32768x8, .i32⟩ : BufTy).Contents (Elt F) → (⟨S32768x8, .i32⟩ : BufTy).Contents (Elt F) → (⟨S32768x8, .i1⟩ : BufTy).Contents (Elt F)),
    StableHlo.nullary main_c_27 (constantI S_ 32 2097152#32),
    StableHlo.unary main_c_27 main_v131 (broadcastInDim S32768x8 ![] bcast_S_S32768x8 : (⟨S_, .i32⟩ : BufTy).Contents (Elt F) → (⟨S32768x8, .i32⟩ : BufTy).Contents (Elt F)),
    StableHlo.binary main_v100 main_v131 main_v132 (addi : (⟨S32768x8, .i32⟩ : BufTy).Contents (Elt F) → (⟨S32768x8, .i32⟩ : BufTy).Contents (Elt F) → (⟨S32768x8, .i32⟩ : BufTy).Contents (Elt F)),
    StableHlo.ternary main_v130 main_v132 main_v100 main_v133 (select : (⟨S32768x8, .i1⟩ : BufTy).Contents (Elt F) → (⟨S32768x8, .i32⟩ : BufTy).Contents (Elt F) → (⟨S32768x8, .i32⟩ : BufTy).Contents (Elt F) → (⟨S32768x8, .i32⟩ : BufTy).Contents (Elt F)),
    StableHlo.unary main_v133 main_v134 (broadcastInDim S32768x8x1 ![0, 1] bcast_S32768x8_S32768x8x1_0_1 : (⟨S32768x8, .i32⟩ : BufTy).Contents (Elt F) → (⟨S32768x8x1, .i32⟩ : BufTy).Contents (Elt F)),
    StableHlo.binary main_arg0 main_v134 main_v135 ((fun x i => Host.gather gather_S2097152x3_S32768x8x1_S32768x8x3_2_0_n_n_0_2_13 x i) : (⟨S2097152x3, .f32⟩ : BufTy).Contents (Elt F) → (⟨S32768x8x1, .i32⟩ : BufTy).Contents (Elt F) → (⟨S32768x8x3, .f32⟩ : BufTy).Contents (Elt F)),
    StableHlo.reshape main_v135 main_v136 rfl shapeCasts_S32768x8x3_S262144x3,
    StableHlo.binary main_v136 main_arg4 main_v137 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    StableHlo.unary main_arg5 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S262144x128 ![0, 1] bcast_S1x128_S262144x128_0_1 : (⟨S1x128, .f32⟩ : BufTy).Contents (Elt F) → (⟨S262144x128, .f32⟩ : BufTy).Contents (Elt F)),
    StableHlo.binary main_v137 main_v139 main_v140 (addf : (⟨S262144x128, .f32⟩ : BufTy).Contents (Elt F) → (⟨S262144x128, .f32⟩ : BufTy).Contents (Elt F) → (⟨S262144x128, .f32⟩ : BufTy).Contents (Elt F)),
    StableHlo.unary main_v140 main_v141 (Host.tanh : (⟨S262144x128, .f32⟩ : BufTy).Contents (Elt F) → (⟨S262144x128, .f32⟩ : BufTy).Contents (Elt F)),
    StableHlo.binary main_v141 main_arg6 main_v142 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg7 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S262144x128 ![0, 1] bcast_S1x128_S262144x128_0_1 : (⟨S1x128, .f32⟩ : BufTy).Contents (Elt F) → (⟨S262144x128, .f32⟩ : BufTy).Contents (Elt F)),
    StableHlo.binary main_v142 main_v144 main_v145 (addf : (⟨S262144x128, .f32⟩ : BufTy).Contents (Elt F) → (⟨S262144x128, .f32⟩ : BufTy).Contents (Elt F) → (⟨S262144x128, .f32⟩ : BufTy).Contents (Elt F)),
    StableHlo.unary main_v145 main_v146 (Host.tanh : (⟨S262144x128, .f32⟩ : BufTy).Contents (Elt F) → (⟨S262144x128, .f32⟩ : BufTy).Contents (Elt F)),
    StableHlo.binary main_v146 main_arg8 main_v147 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg9 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S262144x128 ![0, 1] bcast_S1x128_S262144x128_0_1 : (⟨S1x128, .f32⟩ : BufTy).Contents (Elt F) → (⟨S262144x128, .f32⟩ : BufTy).Contents (Elt F)) ]
/-- Window 2's operations: its items appended to the right. -/
abbrev win2 : List (HloOp τ sig (Elt F)) :=
  item2_0 ++ (item2_1 ++ (item2_2))

/-- Window 3, item 0: 60 operation(s). -/
abbrev item3_0 : List (HloOp τ sig (Elt F)) :=
  [ StableHlo.binary main_v147 main_v149 main_v150 (addf : (⟨S262144x128, .f32⟩ : BufTy).Contents (Elt F) → (⟨S262144x128, .f32⟩ : BufTy).Contents (Elt F) → (⟨S262144x128, .f32⟩ : BufTy).Contents (Elt F)),
    StableHlo.unary main_v150 main_v151 (Host.tanh : (⟨S262144x128, .f32⟩ : BufTy).Contents (Elt F) → (⟨S262144x128, .f32⟩ : BufTy).Contents (Elt F)),
    StableHlo.binary main_v151 main_arg10 main_v152 ((fun l r => Host.dotGeneral dot_S262144x128_S128x1_S262144x1_1_0_0_1_n_n none l r) : (⟨S262144x128, .f32⟩ : BufTy).Contents (Elt F) → (⟨S128x1, .f32⟩ : BufTy).Contents (Elt F) → (⟨S262144x1, .f32⟩ : BufTy).Contents (Elt F)),
    StableHlo.unary main_arg11 main_v153 (broadcastInDim S1x1 ![1] bcast_S1_S1x1_1 : (⟨S1, .f32⟩ : BufTy).Contents (Elt F) → (⟨S1x1, .f32⟩ : BufTy).Contents (Elt F)),
    StableHlo.unary main_v153 main_v154 (broadcastInDim S262144x1 ![0, 1] bcast_S1x1_S262144x1_0_1 : (⟨S1x1, .f32⟩ : BufTy).Contents (Elt F) → (⟨S262144x1, .f32⟩ : BufTy).Contents (Elt F)),
    StableHlo.binary main_v152 main_v154 main_v155 (addf : (⟨S262144x1, .f32⟩ : BufTy).Contents (Elt F) → (⟨S262144x1, .f32⟩ : BufTy).Contents (Elt F) → (⟨S262144x1, .f32⟩ : BufTy).Contents (Elt F)),
    StableHlo.reshape main_v155 main_v156 rfl shapeCasts_S262144x1_S32768x8,
    StableHlo.unary main_v156 main_v157 ((extractStridedSlice S32768x1 ![0, 7] · slices_S32768x8_S32768x1_0_7) : (⟨S32768x8, .f32⟩ : BufTy).Contents (Elt F) → (⟨S32768x1, .f32⟩ : BufTy).Contents (Elt F)),
    StableHlo.reshape main_v157 main_v158 rfl shapeCasts_S32768x1_S32768,
    StableHlo.unary main_v156 main_v159 ((extractStridedSlice S32768x1 ![0, 0] · slices_S32768x8_S32768x1_0_0) : (⟨S32768x8, .f32⟩ : BufTy).Contents (Elt F) → (⟨S32768x1, .f32⟩ : BufTy).Contents (Elt F)),
    StableHlo.reshape main_v159 main_v160 rfl shapeCasts_S32768x1_S32768,
    StableHlo.unary main_v128 main_v161 ((extractStridedSlice S32768x1 ![0, 7] · slices_S32768x8_S32768x1_0_7) : (⟨S32768x8, .f32⟩ : BufTy).Contents (Elt F) → (⟨S32768x1, .f32⟩ : BufTy).Contents (Elt F)),
    StableHlo.reshape main_v161 main_v162 rfl shapeCasts_S32768x1_S32768,
    StableHlo.unary main_v128 main_v163 ((extractStridedSlice S32768x1 ![0, 0] · slices_S32768x8_S32768x1_0_0) : (⟨S32768x8, .f32⟩ : BufTy).Contents (Elt F) → (⟨S32768x1, .f32⟩ : BufTy).Contents (Elt F)),
    StableHlo.reshape main_v163 main_v164 rfl shapeCasts_S32768x1_S32768,
    StableHlo.binary main_v158 main_v160 main_v165 (addf : (⟨S32768, .f32⟩ : BufTy).Contents (Elt F) → (⟨S32768, .f32⟩ : BufTy).Contents (Elt F) → (⟨S32768, .f32⟩ : BufTy).Contents (Elt F)),
    StableHlo.binary main_v165 main_v162 main_v166 (subf : (⟨S32768, .f32⟩ : BufTy).Contents (Elt F) → (⟨S32768, .f32⟩ : BufTy).Contents (Elt F) → (⟨S32768, .f32⟩ : BufTy).Contents (Elt F)),
    StableHlo.binary main_v166 main_v164 main_v167 (subf : (⟨S32768, .f32⟩ : BufTy).Contents (Elt F) → (⟨S32768, .f32⟩ : BufTy).Contents (Elt F) → (⟨S32768, .f32⟩ : BufTy).Contents (Elt F)),
    StableHlo.unary main_v167 main_v168 (Host.absf : (⟨S32768, .f32⟩ : BufTy).Contents (Elt F) → (⟨S32768, .f32⟩ : BufTy).Contents (Elt F)),
    StableHlo.binary main_v158 main_v160 main_v169 (addf : (⟨S32768, .f32⟩ : BufTy).Contents (Elt F) → (⟨S32768, .f32⟩ : BufTy).Contents (Elt F) → (⟨S32768, .f32⟩ : BufTy).Contents (Elt F)),
    StableHlo.binary main_v169 main_v162 main_v170 (addf : (⟨S32768, .f32⟩ : BufTy).Contents (Elt F) → (⟨S32768, .f32⟩ : BufTy).Contents (Elt F) → (⟨S32768, .f32⟩ : BufTy).Contents (Elt F)),
    StableHlo.binary main_v170 main_v164 main_v171 (addf : (⟨S32768, .f32⟩ : BufTy).Contents (Elt F) → (⟨S32768, .f32⟩ : BufTy).Contents (Elt F) → (⟨S32768, .f32⟩ : BufTy).Contents (Elt F)),
    StableHlo.nullary main_cst_28 (constant S_ .f32 0x3FC00000#32),
    StableHlo.unary main_cst_28 main_v172 (broadcastInDim S32768 ![] bcast_S_S32768 : (⟨S_, .f32⟩ : BufTy).Contents (Elt F) → (⟨S32768, .f32⟩ : BufTy).Contents (Elt F)),
    StableHlo.binary main_v171 main_v172 main_v173 (mulf : (⟨S32768, .f32⟩ : BufTy).Contents (Elt F) → (⟨S32768, .f32⟩ : BufTy).Contents (Elt F) → (⟨S32768, .f32⟩ : BufTy).Contents (Elt F)),
    StableHlo.binary main_v168 main_v173 main_v174 (Host.divf : (⟨S32768, .f32⟩ : BufTy).Contents (Elt F) → (⟨S32768, .f32⟩ : BufTy).Contents (Elt F) → (⟨S32768, .f32⟩ : BufTy).Contents (Elt F)),
    StableHlo.unary main_v156 main_v175 ((extractStridedSlice S32768x1 ![0, 3] · slices_S32768x8_S32768x1_0_3) : (⟨S32768x8, .f32⟩ : BufTy).Contents (Elt F) → (⟨S32768x1, .f32⟩ : BufTy).Contents (Elt F)),
    StableHlo.reshape main_v175 main_v176 rfl shapeCasts_S32768x1_S32768,
    StableHlo.unary main_v156 main_v177 ((extractStridedSlice S32768x1 ![0, 4] · slices_S32768x8_S32768x1_0_4) : (⟨S32768x8, .f32⟩ : BufTy).Contents (Elt F) → (⟨S32768x1, .f32⟩ : BufTy).Contents (Elt F)),
    StableHlo.reshape main_v177 main_v178 rfl shapeCasts_S32768x1_S32768,
    StableHlo.unary main_v128 main_v179 ((extractStridedSlice S32768x1 ![0, 3] · slices_S32768x8_S32768x1_0_3) : (⟨S32768x8, .f32⟩ : BufTy).Contents (Elt F) → (⟨S32768x1, .f32⟩ : BufTy).Contents (Elt F)),
    StableHlo.reshape main_v179 main_v180 rfl shapeCasts_S32768x1_S32768,
    StableHlo.unary main_v128 main_v181 ((extractStridedSlice S32768x1 ![0, 4] · slices_S32768x8_S32768x1_0_4) : (⟨S32768x8, .f32⟩ : BufTy).Contents (Elt F) → (⟨S32768x1, .f32⟩ : BufTy).Contents (Elt F)),
    StableHlo.reshape main_v181 main_v182 rfl shapeCasts_S32768x1_S32768,
    StableHlo.binary main_v176 main_v178 main_v183 (addf : (⟨S32768, .f32⟩ : BufTy).Contents (Elt F) → (⟨S32768, .f32⟩ : BufTy).Contents (Elt F) → (⟨S32768, .f32⟩ : BufTy).Contents (Elt F)),
    StableHlo.binary main_v183 main_v180 main_v184 (subf : (⟨S32768, .f32⟩ : BufTy).Contents (Elt F) → (⟨S32768, .f32⟩ : BufTy).Contents (Elt F) → (⟨S32768, .f32⟩ : BufTy).Contents (Elt F)),
    StableHlo.binary main_v184 main_v182 main_v185 (subf : (⟨S32768, .f32⟩ : BufTy).Contents (Elt F) → (⟨S32768, .f32⟩ : BufTy).Contents (Elt F) → (⟨S32768, .f32⟩ : BufTy).Contents (Elt F)),
    StableHlo.unary main_v185 main_v186 (Host.absf : (⟨S32768, .f32⟩ : BufTy).Contents (Elt F) → (⟨S32768, .f32⟩ : BufTy).Contents (Elt F)),
    StableHlo.binary main_v176 main_v178 main_v187 (addf : (⟨S32768, .f32⟩ : BufTy).Contents (Elt F) → (⟨S32768, .f32⟩ : BufTy).Contents (Elt F) → (⟨S32768, .f32⟩ : BufTy).Contents (Elt F)),
    StableHlo.binary main_v187 main_v180 main_v188 (addf : (⟨S32768, .f32⟩ : BufTy).Contents (Elt F) → (⟨S32768, .f32⟩ : BufTy).Contents (Elt F) → (⟨S32768, .f32⟩ : BufTy).Contents (Elt F)),
    StableHlo.binary main_v188 main_v182 main_v189 (addf : (⟨S32768, .f32⟩ : BufTy).Contents (Elt F) → (⟨S32768, .f32⟩ : BufTy).Contents (Elt F) → (⟨S32768, .f32⟩ : BufTy).Contents (Elt F)),
    StableHlo.nullary main_cst_29 (constant S_ .f32 0x3FC00000#32),
    StableHlo.unary main_cst_29 main_v190 (broadcastInDim S32768 ![] bcast_S_S32768 : (⟨S_, .f32⟩ : BufTy).Contents (Elt F) → (⟨S32768, .f32⟩ : BufTy).Contents (Elt F)),
    StableHlo.binary main_v189 main_v190 main_v191 (mulf : (⟨S32768, .f32⟩ : BufTy).Contents (Elt F) → (⟨S32768, .f32⟩ : BufTy).Contents (Elt F) → (⟨S32768, .f32⟩ : BufTy).Contents (Elt F)),
    StableHlo.binary main_v186 main_v191 main_v192 (Host.divf : (⟨S32768, .f32⟩ : BufTy).Contents (Elt F) → (⟨S32768, .f32⟩ : BufTy).Contents (Elt F) → (⟨S32768, .f32⟩ : BufTy).Contents (Elt F)),
    StableHlo.binary main_v174 main_v192 main_v193 (addf : (⟨S32768, .f32⟩ : BufTy).Contents (Elt F) → (⟨S32768, .f32⟩ : BufTy).Contents (Elt F) → (⟨S32768, .f32⟩ : BufTy).Contents (Elt F)),
    StableHlo.unary main_v156 main_v194 ((extractStridedSlice S32768x1 ![0, 5] · slices_S32768x8_S32768x1_0_5) : (⟨S32768x8, .f32⟩ : BufTy).Contents (Elt F) → (⟨S32768x1, .f32⟩ : BufTy).Contents (Elt F)),
    StableHlo.reshape main_v194 main_v195 rfl shapeCasts_S32768x1_S32768,
    StableHlo.unary main_v156 main_v196 ((extractStridedSlice S32768x1 ![0, 2] · slices_S32768x8_S32768x1_0_2) : (⟨S32768x8, .f32⟩ : BufTy).Contents (Elt F) → (⟨S32768x1, .f32⟩ : BufTy).Contents (Elt F)),
    StableHlo.reshape main_v196 main_v197 rfl shapeCasts_S32768x1_S32768,
    StableHlo.unary main_v128 main_v198 ((extractStridedSlice S32768x1 ![0, 5] · slices_S32768x8_S32768x1_0_5) : (⟨S32768x8, .f32⟩ : BufTy).Contents (Elt F) → (⟨S32768x1, .f32⟩ : BufTy).Contents (Elt F)),
    StableHlo.reshape main_v198 main_v199 rfl shapeCasts_S32768x1_S32768,
    StableHlo.unary main_v128 main_v200 ((extractStridedSlice S32768x1 ![0, 2] · slices_S32768x8_S32768x1_0_2) : (⟨S32768x8, .f32⟩ : BufTy).Contents (Elt F) → (⟨S32768x1, .f32⟩ : BufTy).Contents (Elt F)),
    StableHlo.reshape main_v200 main_v201 rfl shapeCasts_S32768x1_S32768,
    StableHlo.binary main_v195 main_v197 main_v202 (addf : (⟨S32768, .f32⟩ : BufTy).Contents (Elt F) → (⟨S32768, .f32⟩ : BufTy).Contents (Elt F) → (⟨S32768, .f32⟩ : BufTy).Contents (Elt F)),
    StableHlo.binary main_v202 main_v199 main_v203 (subf : (⟨S32768, .f32⟩ : BufTy).Contents (Elt F) → (⟨S32768, .f32⟩ : BufTy).Contents (Elt F) → (⟨S32768, .f32⟩ : BufTy).Contents (Elt F)),
    StableHlo.binary main_v203 main_v201 main_v204 (subf : (⟨S32768, .f32⟩ : BufTy).Contents (Elt F) → (⟨S32768, .f32⟩ : BufTy).Contents (Elt F) → (⟨S32768, .f32⟩ : BufTy).Contents (Elt F)),
    StableHlo.unary main_v204 main_v205 (Host.absf : (⟨S32768, .f32⟩ : BufTy).Contents (Elt F) → (⟨S32768, .f32⟩ : BufTy).Contents (Elt F)),
    StableHlo.binary main_v195 main_v197 main_v206 (addf : (⟨S32768, .f32⟩ : BufTy).Contents (Elt F) → (⟨S32768, .f32⟩ : BufTy).Contents (Elt F) → (⟨S32768, .f32⟩ : BufTy).Contents (Elt F)),
    StableHlo.binary main_v206 main_v199 main_v207 (addf : (⟨S32768, .f32⟩ : BufTy).Contents (Elt F) → (⟨S32768, .f32⟩ : BufTy).Contents (Elt F) → (⟨S32768, .f32⟩ : BufTy).Contents (Elt F)) ]
/-- Window 3's operations: its items appended to the right. -/
abbrev win3 : List (HloOp τ sig (Elt F)) :=
  item3_0

/-- Window 4, item 0: 26 operation(s). -/
abbrev item4_0 : List (HloOp τ sig (Elt F)) :=
  [ StableHlo.binary main_v207 main_v201 main_v208 (addf : (⟨S32768, .f32⟩ : BufTy).Contents (Elt F) → (⟨S32768, .f32⟩ : BufTy).Contents (Elt F) → (⟨S32768, .f32⟩ : BufTy).Contents (Elt F)),
    StableHlo.nullary main_cst_30 (constant S_ .f32 0x3FC00000#32),
    StableHlo.unary main_cst_30 main_v209 (broadcastInDim S32768 ![] bcast_S_S32768 : (⟨S_, .f32⟩ : BufTy).Contents (Elt F) → (⟨S32768, .f32⟩ : BufTy).Contents (Elt F)),
    StableHlo.binary main_v208 main_v209 main_v210 (mulf : (⟨S32768, .f32⟩ : BufTy).Contents (Elt F) → (⟨S32768, .f32⟩ : BufTy).Contents (Elt F) → (⟨S32768, .f32⟩ : BufTy).Contents (Elt F)),
    StableHlo.binary main_v205 main_v210 main_v211 (Host.divf : (⟨S32768, .f32⟩ : BufTy).Contents (Elt F) → (⟨S32768, .f32⟩ : BufTy).Contents (Elt F) → (⟨S32768, .f32⟩ : BufTy).Contents (Elt F)),
    StableHlo.binary main_v193 main_v211 main_v212 (addf : (⟨S32768, .f32⟩ : BufTy).Contents (Elt F) → (⟨S32768, .f32⟩ : BufTy).Contents (Elt F) → (⟨S32768, .f32⟩ : BufTy).Contents (Elt F)),
    StableHlo.nullary main_c_31 (constantI S_ 32 0#32),
    StableHlo.unary main_c_31 main_v213 (broadcastInDim S32768 ![] bcast_S_S32768 : (⟨S_, .i32⟩ : BufTy).Contents (Elt F) → (⟨S32768, .i32⟩ : BufTy).Contents (Elt F)),
    StableHlo.binary main_arg12 main_v213 main_v214 (cmpi .slt : (⟨S32768, .i32⟩ : BufTy).Contents (Elt F) → (⟨S32768, .i32⟩ : BufTy).Contents (Elt F) → (⟨S32768, .i1⟩ : BufTy).Contents (Elt F)),
    StableHlo.nullary main_c_32 (constantI S_ 32 2097152#32),
    StableHlo.unary main_c_32 main_v215 (broadcastInDim S32768 ![] bcast_S_S32768 : (⟨S_, .i32⟩ : BufTy).Contents (Elt F) → (⟨S32768, .i32⟩ : BufTy).Contents (Elt F)),
    StableHlo.binary main_arg12 main_v215 main_v216 (addi : (⟨S32768, .i32⟩ : BufTy).Contents (Elt F) → (⟨S32768, .i32⟩ : BufTy).Contents (Elt F) → (⟨S32768, .i32⟩ : BufTy).Contents (Elt F)),
    StableHlo.ternary main_v214 main_v216 main_arg12 main_v217 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v217 main_v218 (broadcastInDim S32768x1 ![0] bcast_S32768_S32768x1_0 : (⟨S32768, .i32⟩ : BufTy).Contents (Elt F) → (⟨S32768x1, .i32⟩ : BufTy).Contents (Elt F)),
    StableHlo.binary main_arg3 main_v218 main_v219 ((fun x i => Host.gather gather_S2097152_S32768x1_S32768_n_0_n_n_0_1_1 x i) : (⟨S2097152, .f32⟩ : BufTy).Contents (Elt F) → (⟨S32768x1, .i32⟩ : BufTy).Contents (Elt F) → (⟨S32768, .f32⟩ : BufTy).Contents (Elt F)),
    StableHlo.binary main_v219 main_v212 main_v220 (subf : (⟨S32768, .f32⟩ : BufTy).Contents (Elt F) → (⟨S32768, .f32⟩ : BufTy).Contents (Elt F) → (⟨S32768, .f32⟩ : BufTy).Contents (Elt F)),
    StableHlo.binary main_v220 main_v220 main_v221 (mulf : (⟨S32768, .f32⟩ : BufTy).Contents (Elt F) → (⟨S32768, .f32⟩ : BufTy).Contents (Elt F) → (⟨S32768, .f32⟩ : BufTy).Contents (Elt F)),
    StableHlo.binary main_v21 main_v221 main_v222 (mulf : (⟨S32768, .f32⟩ : BufTy).Contents (Elt F) → (⟨S32768, .f32⟩ : BufTy).Contents (Elt F) → (⟨S32768, .f32⟩ : BufTy).Contents (Elt F)),
    StableHlo.nullary main_cst_33 (constant S_ .f32 0x00000000#32),
    StableHlo.binary main_v222 main_cst_33 main_v223 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_34 (constant S_ .f32 0x00000000#32),
    StableHlo.binary main_v21 main_cst_34 main_v224 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_35 (constant S_ .f32 0x3F800000#32),
    StableHlo.binary main_v224 main_cst_35 main_v225 (maximumf : (⟨S_, .f32⟩ : BufTy).Contents (Elt F) → (⟨S_, .f32⟩ : BufTy).Contents (Elt F) → (⟨S_, .f32⟩ : BufTy).Contents (Elt F)),
    StableHlo.binary main_v223 main_v225 main_v226 (Host.divf : (⟨S_, .f32⟩ : BufTy).Contents (Elt F) → (⟨S_, .f32⟩ : BufTy).Contents (Elt F) → (⟨S_, .f32⟩ : BufTy).Contents (Elt F)),
    StableHlo.binary main_v60 main_v226 main_v227 (addf : (⟨S_, .f32⟩ : BufTy).Contents (Elt F) → (⟨S_, .f32⟩ : BufTy).Contents (Elt F) → (⟨S_, .f32⟩ : BufTy).Contents (Elt F)) ]
/-- Window 4's operations: its items appended to the right. -/
abbrev win4 : List (HloOp τ sig (Elt F)) :=
  item4_0

/-! ## @main is the line of its operations

Each window of @main unfolds to its items run in order (an item per call, so that a callee's body unfolds whole on
one side of an item's edge); items run in order are the line of their concatenation (`seq_append`); and the five
windows' lists, appended, are the fourteen stretches' — the same operations cut differently. -/

/-- A line, then a program that is the line of `l₂`: the line of `l₁ ++ l₂`. -/
theorem seq_append_of {nD : Nat} {τ : Topo} {sig : RefSig} {Val : EltTy → Type} {Λ : Labels}
    (l₁ l₂ : List (HloOp τ sig Val)) {k : Prog (TpuEff nD τ sig Val Λ .tc) PUnit} (h : seq l₂ = k) :
    (seq (l₁ ++ l₂) : Prog (TpuEff nD τ sig Val Λ .tc) PUnit) = seq l₁ >>= fun _ => k := by
  rw [seq_append, h]

theorem part0_eq (c : Dev nD) : main_part0 (F := F) c = seq win0 := by
  have h : main_part0 (F := F) c
      = (seq item0_0 >>= fun _ => seq item0_1 >>= fun _ => seq item0_2 >>= fun _ => seq item0_3 >>= fun _ =>
          seq item0_4 >>= fun _ => seq item0_5 >>= fun _ => seq item0_6 >>= fun _ => seq item0_7 >>= fun _ =>
          seq item0_8) := by
    chain_rfl
  exact h.trans (seq_append_of _ _ (seq_append_of _ _ (seq_append_of _ _ (seq_append_of _ _ (seq_append_of _ _
    (seq_append_of _ _ (seq_append_of _ _ (seq_append _ _)))))))).symm

theorem part1_eq (c : Dev nD) : main_part1 (F := F) c = seq win1 := by
  have h : main_part1 (F := F) c = (seq item1_0 >>= fun _ => seq item1_1 >>= fun _ => seq item1_2) := by
    chain_rfl
  exact h.trans (seq_append_of _ _ (seq_append _ _)).symm

theorem part2_eq (c : Dev nD) : main_part2 (F := F) c = seq win2 := by
  have h : main_part2 (F := F) c = (seq item2_0 >>= fun _ => seq item2_1 >>= fun _ => seq item2_2) := by
    chain_rfl
  exact h.trans (seq_append_of _ _ (seq_append _ _)).symm

theorem part3_eq (c : Dev nD) : main_part3 (F := F) c = seq win3 := by
  chain_rfl

theorem part4_eq (c : Dev nD) : main_part4 (F := F) c = seq win4 := by
  chain_rfl

/-- The two cuttings list the same operations. -/
theorem refOps_eq_wins : (refOps (F := F)) = win0 ++ (win1 ++ (win2 ++ (win3 ++ win4))) := by
  chain_rfl

/-- @main is the straight line of its operations. -/
theorem main_eq (c : Dev nD) : main (F := F) c = seq refOps := by
  have h : main (F := F) c = (main_part0 (F := F) c >>= fun _ => main_part1 (F := F) c >>= fun _ =>
      main_part2 (F := F) c >>= fun _ => main_part3 (F := F) c >>= fun _ => main_part4 (F := F) c) := rfl
  rw [h, part0_eq, part1_eq, part2_eq, part3_eq, part4_eq, refOps_eq_wins]
  exact (seq_append_of _ _ (seq_append_of _ _ (seq_append_of _ _ (seq_append _ _)))).symm

/-! ## What the operations touch, determine and write

Per stretch, over the literal list: each builder's own lemma, one `simp only` pass; the stretches joined by
`List.forall_append`. -/

section Builders
variable {τ : Topo} {sig : RefSig} {Val : EltTy → Type} (x a b c y : Ref sig .tc)

theorem nullary_fresh (v : y.ty.Contents Val) (hy) : (nullary (τ := τ) y v hy).fresh = ∅ := rfl
theorem unary_fresh (f : x.ty.Contents Val → y.ty.Contents Val) (hx hy) : (unary (τ := τ) x y f hx hy).fresh = ∅ := rfl
theorem binary_fresh (f : a.ty.Contents Val → b.ty.Contents Val → y.ty.Contents Val) (ha hb hy) :
    (binary (τ := τ) a b y f ha hb hy).fresh = ∅ := rfl
theorem ternary_fresh (f : c.ty.Contents Val → a.ty.Contents Val → b.ty.Contents Val → y.ty.Contents Val) (hc ha hb hy) :
    (ternary (τ := τ) c a b y f hc ha hb hy).fresh = ∅ := rfl
theorem reshape_fresh (he hn hx hy) : (reshape (τ := τ) (Val := Val) x y he hn hx hy).fresh = ∅ := rfl
theorem nary_fresh {n : Nat} (xs : Fin n → Ref sig .tc) (f : ((k : Fin n) → (xs k).ty.Contents Val) → y.ty.Contents Val)
    (hxs hy) : (nary (τ := τ) xs y f hxs hy).fresh = ∅ := rfl

/-- The operations `ops` write references of the list `W` only. -/
def WritesIn (ops : List (HloOp τ sig Val)) (W : List (Ref sig .tc)) : Prop :=
  ops.Forall fun op => op.writes ⊆ (W.map (Proc.devRef (τ := τ) .tc)).toFinset

theorem writesIn_nil : WritesIn ([] : List (HloOp τ sig Val)) [] := trivial

/-- An operation that writes `y`, before operations that write in `W`. -/
theorem writesIn_cons {op : HloOp τ sig Val} {ops : List (HloOp τ sig Val)} {y : Ref sig .tc} {W : List (Ref sig .tc)}
    (h : op.writes = {Proc.devRef .tc y}) (hs : WritesIn ops W) : WritesIn (op :: ops) (y :: W) := by
  unfold WritesIn at hs ⊢
  rw [List.forall_cons]
  refine ⟨?_, hs.imp fun o ho => ho.trans ?_⟩
  · rw [h, Finset.singleton_subset_iff, List.mem_toFinset, List.map_cons]
    exact List.mem_cons_self
  · intro d hd
    rw [List.mem_toFinset, List.map_cons] at *
    exact List.mem_cons_of_mem _ hd

theorem writesIn_append {l₁ l₂ : List (HloOp τ sig Val)} {W₁ W₂ : List (Ref sig .tc)}
    (h₁ : WritesIn l₁ W₁) (h₂ : WritesIn l₂ W₂) : WritesIn (l₁ ++ l₂) (W₁ ++ W₂) := by
  unfold WritesIn at *
  refine List.forall_append.mpr ⟨h₁.imp fun o ho => ho.trans ?_, h₂.imp fun o ho => ho.trans ?_⟩
  · intro d hd
    rw [List.mem_toFinset, List.map_append, List.mem_append] at *
    exact Or.inl hd
  · intro d hd
    rw [List.mem_toFinset, List.map_append, List.mem_append] at *
    exact Or.inr hd

end Builders

/-- Each operation of a literal list touches TensorCore references only. -/
macro "ops_sub" : tactic =>
  `(tactic| simp only [List.forall_cons, List.Forall, nullary_bufs_sub, unary_bufs_sub, binary_bufs_sub, ternary_bufs_sub,
      reshape_bufs_sub, nary_bufs_sub, and_self])
/-- Each operation of a literal list determines what it writes. -/
macro "ops_fresh" : tactic =>
  `(tactic| simp only [List.forall_cons, List.Forall, nullary_fresh, unary_fresh, binary_fresh, ternary_fresh,
      reshape_fresh, nary_fresh, and_self])
/-- A literal list of operations writes the literal list of references beside it, position by position. -/
macro "ops_writes" : tactic =>
  `(tactic| repeat (first | exact writesIn_nil | (refine writesIn_cons ?_ ?_; rfl)))

theorem seg1a_sub : (seg1a (F := F)).Forall fun op => op.bufs ⊆ tcRefs τ sig := by
  ops_sub
theorem seg1a_fresh : (seg1a (F := F)).Forall fun op => op.fresh = ∅ := by
  ops_fresh
theorem seg1a_writes : WritesIn (seg1a (F := F)) wr1a := by
  ops_writes
theorem seg1b_sub : (seg1b (F := F)).Forall fun op => op.bufs ⊆ tcRefs τ sig := by
  ops_sub
theorem seg1b_fresh : (seg1b (F := F)).Forall fun op => op.fresh = ∅ := by
  ops_fresh
theorem seg1b_writes : WritesIn (seg1b (F := F)) wr1b := by
  ops_writes
theorem seg2_sub : (seg2 (F := F)).Forall fun op => op.bufs ⊆ tcRefs τ sig := by
  ops_sub
theorem seg2_fresh : (seg2 (F := F)).Forall fun op => op.fresh = ∅ := by
  ops_fresh
theorem seg2_writes : WritesIn (seg2 (F := F)) wr2 := by
  ops_writes
theorem seg3_sub : (seg3 (F := F)).Forall fun op => op.bufs ⊆ tcRefs τ sig := by
  ops_sub
theorem seg3_fresh : (seg3 (F := F)).Forall fun op => op.fresh = ∅ := by
  ops_fresh
theorem seg3_writes : WritesIn (seg3 (F := F)) wr3 := by
  ops_writes
theorem seg4_sub : (seg4 (F := F)).Forall fun op => op.bufs ⊆ tcRefs τ sig := by
  ops_sub
theorem seg4_fresh : (seg4 (F := F)).Forall fun op => op.fresh = ∅ := by
  ops_fresh
theorem seg4_writes : WritesIn (seg4 (F := F)) wr4 := by
  ops_writes
theorem seg5_sub : (seg5 (F := F)).Forall fun op => op.bufs ⊆ tcRefs τ sig := by
  ops_sub
theorem seg5_fresh : (seg5 (F := F)).Forall fun op => op.fresh = ∅ := by
  ops_fresh
theorem seg5_writes : WritesIn (seg5 (F := F)) wr5 := by
  ops_writes
theorem seg6_sub : (seg6 (F := F)).Forall fun op => op.bufs ⊆ tcRefs τ sig := by
  ops_sub
theorem seg6_fresh : (seg6 (F := F)).Forall fun op => op.fresh = ∅ := by
  ops_fresh
theorem seg6_writes : WritesIn (seg6 (F := F)) wr6 := by
  ops_writes
theorem seg7_sub : (seg7 (F := F)).Forall fun op => op.bufs ⊆ tcRefs τ sig := by
  ops_sub
theorem seg7_fresh : (seg7 (F := F)).Forall fun op => op.fresh = ∅ := by
  ops_fresh
theorem seg7_writes : WritesIn (seg7 (F := F)) wr7 := by
  ops_writes
theorem seg8_sub : (seg8 (F := F)).Forall fun op => op.bufs ⊆ tcRefs τ sig := by
  ops_sub
theorem seg8_fresh : (seg8 (F := F)).Forall fun op => op.fresh = ∅ := by
  ops_fresh
theorem seg8_writes : WritesIn (seg8 (F := F)) wr8 := by
  ops_writes
theorem seg9_sub : (seg9 (F := F)).Forall fun op => op.bufs ⊆ tcRefs τ sig := by
  ops_sub
theorem seg9_fresh : (seg9 (F := F)).Forall fun op => op.fresh = ∅ := by
  ops_fresh
theorem seg9_writes : WritesIn (seg9 (F := F)) wr9 := by
  ops_writes
theorem seg10_sub : (seg10 (F := F)).Forall fun op => op.bufs ⊆ tcRefs τ sig := by
  ops_sub
theorem seg10_fresh : (seg10 (F := F)).Forall fun op => op.fresh = ∅ := by
  ops_fresh
theorem seg10_writes : WritesIn (seg10 (F := F)) wr10 := by
  ops_writes
theorem seg11_sub : (seg11 (F := F)).Forall fun op => op.bufs ⊆ tcRefs τ sig := by
  ops_sub
theorem seg11_fresh : (seg11 (F := F)).Forall fun op => op.fresh = ∅ := by
  ops_fresh
theorem seg11_writes : WritesIn (seg11 (F := F)) wr11 := by
  ops_writes
theorem seg12_sub : (seg12 (F := F)).Forall fun op => op.bufs ⊆ tcRefs τ sig := by
  ops_sub
theorem seg12_fresh : (seg12 (F := F)).Forall fun op => op.fresh = ∅ := by
  ops_fresh
theorem seg12_writes : WritesIn (seg12 (F := F)) wr12 := by
  ops_writes
theorem seg13_sub : (seg13 (F := F)).Forall fun op => op.bufs ⊆ tcRefs τ sig := by
  ops_sub
theorem seg13_fresh : (seg13 (F := F)).Forall fun op => op.fresh = ∅ := by
  ops_fresh
theorem seg13_writes : WritesIn (seg13 (F := F)) wr13 := by
  ops_writes

/-- Every operation touches TensorCore references only. -/
theorem refOps_sub : (refOps (F := F)).Forall fun op => op.bufs ⊆ tcRefs τ sig :=
  List.forall_append.mpr ⟨seg1a_sub, List.forall_append.mpr ⟨seg1b_sub, List.forall_append.mpr ⟨seg2_sub, List.forall_append.mpr ⟨seg3_sub, List.forall_append.mpr ⟨seg4_sub, List.forall_append.mpr ⟨seg5_sub, List.forall_append.mpr ⟨seg6_sub, List.forall_append.mpr ⟨seg7_sub, List.forall_append.mpr ⟨seg8_sub, List.forall_append.mpr ⟨seg9_sub, List.forall_append.mpr ⟨seg10_sub, List.forall_append.mpr ⟨seg11_sub, List.forall_append.mpr ⟨seg12_sub, seg13_sub⟩⟩⟩⟩⟩⟩⟩⟩⟩⟩⟩⟩⟩

theorem refOps_fresh' : (refOps (F := F)).Forall fun op => op.fresh = ∅ :=
  List.forall_append.mpr ⟨seg1a_fresh, List.forall_append.mpr ⟨seg1b_fresh, List.forall_append.mpr ⟨seg2_fresh, List.forall_append.mpr ⟨seg3_fresh, List.forall_append.mpr ⟨seg4_fresh, List.forall_append.mpr ⟨seg5_fresh, List.forall_append.mpr ⟨seg6_fresh, List.forall_append.mpr ⟨seg7_fresh, List.forall_append.mpr ⟨seg8_fresh, List.forall_append.mpr ⟨seg9_fresh, List.forall_append.mpr ⟨seg10_fresh, List.forall_append.mpr ⟨seg11_fresh, List.forall_append.mpr ⟨seg12_fresh, seg13_fresh⟩⟩⟩⟩⟩⟩⟩⟩⟩⟩⟩⟩⟩

/-- Every operation determines what it writes. -/
theorem refOps_fresh : ∀ op ∈ (refOps (F := F)), op.fresh = ∅ :=
  List.forall_iff_forall_mem.mp refOps_fresh'

/-- Every reference @main writes, in program order. -/
abbrev refWrites : List (Ref sig .tc) :=
  wr1a ++ (wr1b ++ (wr2 ++ (wr3 ++ (wr4 ++ (wr5 ++ (wr6 ++ (wr7 ++ (wr8 ++ (wr9 ++ (wr10 ++ (wr11 ++ (wr12 ++ (wr13)))))))))))))

/-- Every operation writes a reference of `refWrites`. -/
theorem refOps_writes : WritesIn (refOps (F := F)) refWrites :=
  writesIn_append seg1a_writes (writesIn_append seg1b_writes (writesIn_append seg2_writes (writesIn_append seg3_writes (writesIn_append seg4_writes (writesIn_append seg5_writes (writesIn_append seg6_writes (writesIn_append seg7_writes (writesIn_append seg8_writes (writesIn_append seg9_writes (writesIn_append seg10_writes (writesIn_append seg11_writes (writesIn_append seg12_writes (seg13_writes)))))))))))))

end Cert.ReferenceIdeal.RefRun

end
-- ==== Proof.ReferenceRun.lean ====
/-
  The reference program's run: @main is a straight line of host operations (`main_eq`), so from any memory with zero
  counters every weakly fair execution terminates with each TensorCore buffer at the fold of the operations' results
  over its launch contents (`run_raw`); no operation writes an argument (`arg_kept_K`: the argument is not among the
  references the line writes), so the arguments end as they were (`frame`).
-/
import proofs.«182125_j62079457296719_1_alg».proof.Proof.ReferenceOps

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, each TensorCore buffer at the
    fold of the operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after refOps (launchContents m d) (Proc.devRef .tc b) :=
  run_seq scopedRefs_eq scopedSems_eq defs main (fun _ => refOps) main_eq (fun _ => refOps_sub) m ρ (fun _ => refOps_fresh)

/-! No operation writes an argument: it is not in `refWrites`. -/
theorem arg_kept_0 (m : (ℓ : Loc nD τ sig) → Buf (Elt F) ℓ) (d : Dev nD) :
    after refOps (launchContents m d) (Proc.devRef .tc main_arg0) = m ((d.tc : Thread nD τ).loc main_arg0) :=
  after_of_writes_sub refOps (launchContents m d) refOps_writes (by decide)
theorem arg_kept_1 (m : (ℓ : Loc nD τ sig) → Buf (Elt F) ℓ) (d : Dev nD) :
    after refOps (launchContents m d) (Proc.devRef .tc main_arg1) = m ((d.tc : Thread nD τ).loc main_arg1) :=
  after_of_writes_sub refOps (launchContents m d) refOps_writes (by decide)
theorem arg_kept_2 (m : (ℓ : Loc nD τ sig) → Buf (Elt F) ℓ) (d : Dev nD) :
    after refOps (launchContents m d) (Proc.devRef .tc main_arg2) = m ((d.tc : Thread nD τ).loc main_arg2) :=
  after_of_writes_sub refOps (launchContents m d) refOps_writes (by decide)
theorem arg_kept_3 (m : (ℓ : Loc nD τ sig) → Buf (Elt F) ℓ) (d : Dev nD) :
    after refOps (launchContents m d) (Proc.devRef .tc main_arg3) = m ((d.tc : Thread nD τ).loc main_arg3) :=
  after_of_writes_sub refOps (launchContents m d) refOps_writes (by decide)
theorem arg_kept_4 (m : (ℓ : Loc nD τ sig) → Buf (Elt F) ℓ) (d : Dev nD) :
    after refOps (launchContents m d) (Proc.devRef .tc main_arg4) = m ((d.tc : Thread nD τ).loc main_arg4) :=
  after_of_writes_sub refOps (launchContents m d) refOps_writes (by decide)
theorem arg_kept_5 (m : (ℓ : Loc nD τ sig) → Buf (Elt F) ℓ) (d : Dev nD) :
    after refOps (launchContents m d) (Proc.devRef .tc main_arg5) = m ((d.tc : Thread nD τ).loc main_arg5) :=
  after_of_writes_sub refOps (launchContents m d) refOps_writes (by decide)
theorem arg_kept_6 (m : (ℓ : Loc nD τ sig) → Buf (Elt F) ℓ) (d : Dev nD) :
    after refOps (launchContents m d) (Proc.devRef .tc main_arg6) = m ((d.tc : Thread nD τ).loc main_arg6) :=
  after_of_writes_sub refOps (launchContents m d) refOps_writes (by decide)
theorem arg_kept_7 (m : (ℓ : Loc nD τ sig) → Buf (Elt F) ℓ) (d : Dev nD) :
    after refOps (launchContents m d) (Proc.devRef .tc main_arg7) = m ((d.tc : Thread nD τ).loc main_arg7) :=
  after_of_writes_sub refOps (launchContents m d) refOps_writes (by decide)
theorem arg_kept_8 (m : (ℓ : Loc nD τ sig) → Buf (Elt F) ℓ) (d : Dev nD) :
    after refOps (launchContents m d) (Proc.devRef .tc main_arg8) = m ((d.tc : Thread nD τ).loc main_arg8) :=
  after_of_writes_sub refOps (launchContents m d) refOps_writes (by decide)
theorem arg_kept_9 (m : (ℓ : Loc nD τ sig) → Buf (Elt F) ℓ) (d : Dev nD) :
    after refOps (launchContents m d) (Proc.devRef .tc main_arg9) = m ((d.tc : Thread nD τ).loc main_arg9) :=
  after_of_writes_sub refOps (launchContents m d) refOps_writes (by decide)
theorem arg_kept_10 (m : (ℓ : Loc nD τ sig) → Buf (Elt F) ℓ) (d : Dev nD) :
    after refOps (launchContents m d) (Proc.devRef .tc main_arg10) = m ((d.tc : Thread nD τ).loc main_arg10) :=
  after_of_writes_sub refOps (launchContents m d) refOps_writes (by decide)
theorem arg_kept_11 (m : (ℓ : Loc nD τ sig) → Buf (Elt F) ℓ) (d : Dev nD) :
    after refOps (launchContents m d) (Proc.devRef .tc main_arg11) = m ((d.tc : Thread nD τ).loc main_arg11) :=
  after_of_writes_sub refOps (launchContents m d) refOps_writes (by decide)
theorem arg_kept_12 (m : (ℓ : Loc nD τ sig) → Buf (Elt F) ℓ) (d : Dev nD) :
    after refOps (launchContents m d) (Proc.devRef .tc main_arg12) = m ((d.tc : Thread nD τ).loc main_arg12) :=
  after_of_writes_sub refOps (launchContents m d) refOps_writes (by decide)

/-- @main runs, and its arguments end as they were. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_arg0).trans (arg_kept_0 m c),
      (h c main_arg1).trans (arg_kept_1 m c),
      (h c main_arg2).trans (arg_kept_2 m c),
      (h c main_arg3).trans (arg_kept_3 m c),
      (h c main_arg4).trans (arg_kept_4 m c),
      (h c main_arg5).trans (arg_kept_5 m c),
      (h c main_arg6).trans (arg_kept_6 m c),
      (h c main_arg7).trans (arg_kept_7 m c),
      (h c main_arg8).trans (arg_kept_8 m c),
      (h c main_arg9).trans (arg_kept_9 m c),
      (h c main_arg10).trans (arg_kept_10 m c),
      (h c main_arg11).trans (arg_kept_11 m c),
      (h c main_arg12).trans (arg_kept_12 m c)⟩)
    (run_raw m ρ)

end Cert.ReferenceIdeal.RefRun

end
-- ==== Proof.MlpSpec.lean ====
/-
  The four-layer perceptron both programs apply to every row, as one scalar formula over the extended reals:
  three hidden layers `tanh (h · W + b)` of width 128 on a row of three inputs, then one affine output.
  Each contraction is a finite sum with the row on the left of every product.
-/
import Idealize.ShloMosaic.PureOps.Ideal
import Idealize.ShloMosaic.Lib.ValueIdx

noncomputable section

open scoped BigOperators

namespace Cert.MlpSpec

open Idealize.ShloMosaic Idealize.ShloMosaic.ValueIdx

/-- One affine map read at output column `c`: the row `h` against column `c` of `W`, plus the bias there. -/
def affine {n m : Nat} (W : (⟨2, ![n, m]⟩ : Shape).Idx → EReal) (b : (⟨1, ![m]⟩ : Shape).Idx → EReal)
    (h : Fin n → EReal) (c : Fin m) : EReal :=
  (∑ k : Fin n, h k * W (ix2 k c)) + b (ix1 c)

/-- One hidden layer: the affine map followed by the hyperbolic tangent, column by column. -/
def hidden {n m : Nat} (W : (⟨2, ![n, m]⟩ : Shape).Idx → EReal) (b : (⟨1, ![m]⟩ : Shape).Idx → EReal)
    (h : Fin n → EReal) : Fin m → EReal :=
  fun c => Ideal.tanh (affine W b h c)

/-- The perceptron on one row `x` of three inputs: three hidden layers of width 128, then the one output. -/
def mlpRow (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 1]⟩ : Shape).Idx → EReal) (b4 : (⟨1, ![1]⟩ : Shape).Idx → EReal)
    (x : Fin 3 → EReal) : EReal :=
  affine W4 b4 (hidden W3 b3 (hidden W2 b2 (hidden W1 b1 x))) (0 : Fin 1)

theorem mlpRow_def (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 1]⟩ : Shape).Idx → EReal) (b4 : (⟨1, ![1]⟩ : Shape).Idx → EReal)
    (x : Fin 3 → EReal) :
    mlpRow W1 b1 W2 b2 W3 b3 W4 b4 x
      = affine W4 b4 (hidden W3 b3 (hidden W2 b2 (hidden W1 b1 x))) (0 : Fin 1) := rfl

end Cert.MlpSpec

end
-- ==== Proof.MlpLayer.lean ====
/-
  One layer of a perceptron read at an index, for both spellings the two programs use. A plain matrix product (rows ×
  contraction times contraction × columns, one contracted axis, no batch axis) read at row `r` and column `c` is the finite
  sum over the contraction's one coordinate; with the bias added to every row this is the affine map of the row, and
  under the hyperbolic tangent one hidden layer.
-/
import proofs.«182125_j62079457296719_1_alg».proof.Proof.MlpSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section
open scoped BigOperators
namespace Cert.MlpLayer
open Idealize.ShloMosaic Idealize.ShloMosaic.ValueIdx
open Cert.MlpSpec (affine hidden)

variable {m k n : Nat}

/-- The dimension numbers of a plain matrix product: rows × contraction times contraction × columns. -/
structure IsPlain (d : DotDims (⟨2, ![m, k]⟩ : Shape) (⟨2, ![k, n]⟩ : Shape) (⟨2, ![m, n]⟩ : Shape)) : Prop where
  lc : d.lhsContracting = [1]
  rc : d.rhsContracting = [0]
  ln : d.lhsNonContracting = [0]
  rn : d.rhsNonContracting = [1]
  lb : d.lhsBatch = []
  rb : d.rhsBatch = []

/-- The literal record of a plain product. -/
abbrev lit (wf : DotDims.WF (⟨2, ![m, k]⟩ : Shape) (⟨2, ![k, n]⟩ : Shape) (⟨2, ![m, n]⟩ : Shape) [1] [0] [0] [1] [] []) :
    DotDims (⟨2, ![m, k]⟩ : Shape) (⟨2, ![k, n]⟩ : Shape) (⟨2, ![m, n]⟩ : Shape) :=
  DotDims.mk [1] [0] [0] [1] [] [] wf

theorem eq_lit (d : DotDims (⟨2, ![m, k]⟩ : Shape) (⟨2, ![k, n]⟩ : Shape) (⟨2, ![m, n]⟩ : Shape)) (hd : IsPlain d) :
    ∃ wf, d = lit wf := by
  obtain ⟨lc, rc, ln, rn, lb, rb, wf⟩ := d
  obtain ⟨h1, h2, h3, h4, h5, h6⟩ := hd
  dsimp only at h1 h2 h3 h4 h5 h6
  subst h1 h2 h3 h4 h5 h6
  exact ⟨wf, rfl⟩

section Lit
variable (wf : DotDims.WF (⟨2, ![m, k]⟩ : Shape) (⟨2, ![k, n]⟩ : Shape) (⟨2, ![m, n]⟩ : Shape) [1] [0] [0] [1] [] [])

theorem lhs_0 (i : (⟨2, ![m, n]⟩ : Shape).Idx) (q : (lit wf).contr.Idx) : ((lit wf).lhsIdx i q 0).val = (i 0).val := by
  unfold DotDims.lhsIdx
  rw [dif_neg (show ¬(0 : Fin (⟨2, ![m, k]⟩ : Shape).rank) ∈ (lit wf).lhsBatch from List.not_mem_nil),
    dif_pos (show (0 : Fin (⟨2, ![m, k]⟩ : Shape).rank) ∈ (lit wf).lhsNonContracting from List.mem_singleton.mpr rfl)]
  rfl

theorem lhs_1 (i : (⟨2, ![m, n]⟩ : Shape).Idx) (q : (lit wf).contr.Idx) :
    ((lit wf).lhsIdx i q 1).val = (q ⟨0, Nat.one_pos⟩).val :=
  (lit wf).lhsIdx_val_of_single rfl i q

theorem rhs_0 (i : (⟨2, ![m, n]⟩ : Shape).Idx) (q : (lit wf).contr.Idx) :
    ((lit wf).rhsIdx i q 0).val = (q ⟨0, Nat.one_pos⟩).val :=
  (lit wf).rhsIdx_val_of_single rfl i q

theorem rhs_1 (i : (⟨2, ![m, n]⟩ : Shape).Idx) (q : (lit wf).contr.Idx) : ((lit wf).rhsIdx i q 1).val = (i 1).val := by
  unfold DotDims.rhsIdx
  rw [dif_neg (show ¬(1 : Fin (⟨2, ![k, n]⟩ : Shape).rank) ∈ (lit wf).rhsBatch from List.not_mem_nil),
    dif_pos (show (1 : Fin (⟨2, ![k, n]⟩ : Shape).rank) ∈ (lit wf).rhsNonContracting from List.mem_singleton.mpr rfl)]
  rfl

theorem lit_sum (A : (⟨2, ![m, k]⟩ : Shape).Idx → EReal) (B : (⟨2, ![k, n]⟩ : Shape).Idx → EReal) (r : Fin m) (c : Fin n) :
    ∑ q : (lit wf).contr.Idx, A ((lit wf).lhsIdx (ix2 r c) q) * B ((lit wf).rhsIdx (ix2 r c) q)
      = ∑ j : Fin k, A (ix2 r j) * B (ix2 j c) := by
  rw [← Equiv.sum_comp (contrEquiv1 (lit wf) k rfl rfl).symm]
  refine Finset.sum_congr rfl fun j _ => ?_
  have hj := contrEquiv1_symm_val (lit wf) k rfl rfl j
  have el : (lit wf).lhsIdx (ix2 r c) ((contrEquiv1 (lit wf) k rfl rfl).symm j) = ix2 r j :=
    funext fun a => Fin.ext (by
      match a with
      | ⟨0, _⟩ => exact lhs_0 wf _ _
      | ⟨1, _⟩ => exact (lhs_1 wf _ _).trans hj)
  have er : (lit wf).rhsIdx (ix2 r c) ((contrEquiv1 (lit wf) k rfl rfl).symm j) = ix2 j c :=
    funext fun a => Fin.ext (by
      match a with
      | ⟨0, _⟩ => exact (rhs_0 wf _ _).trans hj
      | ⟨1, _⟩ => exact rhs_1 wf _ _)
  rw [el, er]

end Lit

theorem plain_sum (d : DotDims (⟨2, ![m, k]⟩ : Shape) (⟨2, ![k, n]⟩ : Shape) (⟨2, ![m, n]⟩ : Shape)) (hd : IsPlain d)
    (A : (⟨2, ![m, k]⟩ : Shape).Idx → EReal) (B : (⟨2, ![k, n]⟩ : Shape).Idx → EReal) (r : Fin m) (c : Fin n) :
    ∑ q : d.contr.Idx, A (d.lhsIdx (ix2 r c) q) * B (d.rhsIdx (ix2 r c) q) = ∑ j : Fin k, A (ix2 r j) * B (ix2 j c) := by
  obtain ⟨wf, rfl⟩ := eq_lit d hd
  exact lit_sum wf A B r c

/-! ## The kernel's spelling: a product into a zero accumulator, the bias cast to one row and broadcast over the rows -/

section Kernel
variable {φ₁ φ₂ : FTy}

theorem kernel_affine (d : DotDims (⟨2, ![m, k]⟩ : Shape) (⟨2, ![k, n]⟩ : Shape) (⟨2, ![m, n]⟩ : Shape)) (hd : IsPlain d)
    (prec : Option ContractPrecision) (A : FVec Ideal (⟨2, ![m, k]⟩ : Shape) φ₁) (B : FVec Ideal (⟨2, ![k, n]⟩ : Shape) φ₂)
    (b : FVec Ideal (⟨1, ![n]⟩ : Shape) .f32) (hc : (⟨1, ![n]⟩ : Shape).ShapeCasts ⟨2, ![1, n]⟩)
    (hb : (⟨2, ![1, n]⟩ : Shape).Broadcasts ⟨2, ![m, n]⟩) (r : Fin m) (c : Fin n) :
    addf (matmul d prec A B (constant (F := Ideal) (⟨2, ![m, n]⟩ : Shape) .f32 0x00000000#32))
        (broadcastTo (⟨2, ![m, n]⟩ : Shape) (shapeCast (⟨2, ![1, n]⟩ : Shape) b hc) hb) (ix2 r c)
      = affine B b (fun j => A (ix2 r j)) c := by
  show FloatOps.matmul d prec A B (constant (F := Ideal) (⟨2, ![m, n]⟩ : Shape) .f32 0x00000000#32) (ix2 r c)
      + broadcastTo (⟨2, ![m, n]⟩ : Shape) (shapeCast (⟨2, ![1, n]⟩ : Shape) b hc) hb (ix2 r c)
    = (∑ j : Fin k, A (ix2 r j) * B (ix2 j c)) + b (ix1 c)
  rw [Ideal.matmul_constant_zero_apply, plain_sum d hd, broadcastTo_1b_ab_apply, shapeCast_a_1a_apply]

theorem kernel_hidden (d : DotDims (⟨2, ![m, k]⟩ : Shape) (⟨2, ![k, n]⟩ : Shape) (⟨2, ![m, n]⟩ : Shape)) (hd : IsPlain d)
    (prec : Option ContractPrecision) (A : FVec Ideal (⟨2, ![m, k]⟩ : Shape) φ₁) (B : FVec Ideal (⟨2, ![k, n]⟩ : Shape) φ₂)
    (b : FVec Ideal (⟨1, ![n]⟩ : Shape) .f32) (hc : (⟨1, ![n]⟩ : Shape).ShapeCasts ⟨2, ![1, n]⟩)
    (hb : (⟨2, ![1, n]⟩ : Shape).Broadcasts ⟨2, ![m, n]⟩) (r : Fin m) (c : Fin n) :
    tanh (addf (matmul d prec A B (constant (F := Ideal) (⟨2, ![m, n]⟩ : Shape) .f32 0x00000000#32))
        (broadcastTo (⟨2, ![m, n]⟩ : Shape) (shapeCast (⟨2, ![1, n]⟩ : Shape) b hc) hb)) (ix2 r c)
      = hidden B b (fun j => A (ix2 r j)) c :=
  congrArg Ideal.tanh (kernel_affine d hd prec A B b hc hb r c)

end Kernel

/-! ## The reference's spelling: the host's product, the bias broadcast to one row and then to every row -/

section Reference
variable {φ₁ φ₂ : FTy}

theorem bias_apply (b : FVec Ideal (⟨1, ![n]⟩ : Shape) .f32)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (r : Fin m) (c : Fin n) :
    broadcastInDim (⟨2, ![m, n]⟩ : Shape) ![0, 1] h2 (broadcastInDim (⟨2, ![1, n]⟩ : Shape) ![1] h1 b) (ix2 r c) = b (ix1 c) := by
  refine (broadcastInDim_apply ![0, 1] h2 _ (ix2 r c) (ix2 (0 : Fin 1) c) fun a => ?_).trans
    (broadcastInDim_apply ![1] h1 b (ix2 (0 : Fin 1) c) (ix1 c) fun a => ?_)
  · match a with
    | ⟨0, _⟩ => rfl
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

theorem ref_affine (d : DotDims (⟨2, ![m, k]⟩ : Shape) (⟨2, ![k, n]⟩ : Shape) (⟨2, ![m, n]⟩ : Shape)) (hd : IsPlain d)
    (prec : Option ContractPrecision) (A : FVec Ideal (⟨2, ![m, k]⟩ : Shape) φ₁) (B : FVec Ideal (⟨2, ![k, n]⟩ : Shape) φ₂)
    (b : FVec Ideal (⟨1, ![n]⟩ : Shape) .f32)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (r : Fin m) (c : Fin n) :
    addf (Host.dotGeneral (F := Ideal) d prec A B)
        (broadcastInDim (⟨2, ![m, n]⟩ : Shape) ![0, 1] h2 (broadcastInDim (⟨2, ![1, n]⟩ : Shape) ![1] h1 b)) (ix2 r c)
      = affine B b (fun j => A (ix2 r j)) c := by
  show FloatOps.dotGeneral d prec HostSchedule.single A B (ix2 r c)
      + broadcastInDim (⟨2, ![m, n]⟩ : Shape) ![0, 1] h2 (broadcastInDim (⟨2, ![1, n]⟩ : Shape) ![1] h1 b) (ix2 r c)
    = (∑ j : Fin k, A (ix2 r j) * B (ix2 j c)) + b (ix1 c)
  rw [Ideal.dotGeneral_apply, plain_sum d hd, bias_apply]

theorem ref_hidden (d : DotDims (⟨2, ![m, k]⟩ : Shape) (⟨2, ![k, n]⟩ : Shape) (⟨2, ![m, n]⟩ : Shape)) (hd : IsPlain d)
    (prec : Option ContractPrecision) (A : FVec Ideal (⟨2, ![m, k]⟩ : Shape) φ₁) (B : FVec Ideal (⟨2, ![k, n]⟩ : Shape) φ₂)
    (b : FVec Ideal (⟨1, ![n]⟩ : Shape) .f32)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (r : Fin m) (c : Fin n) :
    Host.tanh (addf (Host.dotGeneral (F := Ideal) d prec A B)
        (broadcastInDim (⟨2, ![m, n]⟩ : Shape) ![0, 1] h2 (broadcastInDim (⟨2, ![1, n]⟩ : Shape) ![1] h1 b))) (ix2 r c)
      = hidden B b (fun j => A (ix2 r j)) c :=
  congrArg Ideal.tanh (ref_affine d hd prec A B b h1 h2 r c)

end Reference

end Cert.MlpLayer
end
-- ==== Proof.KernelMlp.lean ====
/-
  The kernel's stored value, read at one row, is the perceptron of that row.
-/
import proofs.«182125_j62079457296719_1_alg».proof.Proof.MlpSpec
import proofs.«182125_j62079457296719_1_alg».proof.Proof.MlpLayer
import proofs.«182125_j62079457296719_1_alg».proof.Proof.Gen.KernelIdeal.Skeleton

noncomputable section

open scoped BigOperators

namespace Cert.KernelIdeal.KMlp

open Idealize.ShloMosaic Idealize.ShloMosaic.ValueIdx
open Cert.KernelIdeal
open Cert.MlpSpec (affine hidden mlpRow)
open Cert.MlpLayer (IsPlain kernel_affine kernel_hidden)

/-- The three products of the kernel are plain matrix products. -/
theorem plain_3_128 : IsPlain (m := 4352) (k := 3) (n := 128) dot_S4352x3_S3x128_S4352x128_1_0_0_1_n_n :=
  ⟨rfl, rfl, rfl, rfl, rfl, rfl⟩
theorem plain_128_128 : IsPlain (m := 4352) (k := 128) (n := 128) dot_S4352x128_S128x128_S4352x128_1_0_0_1_n_n :=
  ⟨rfl, rfl, rfl, rfl, rfl, rfl⟩
theorem plain_128_1 : IsPlain (m := 4352) (k := 128) (n := 1) dot_S4352x128_S128x1_S4352x1_1_0_0_1_n_n :=
  ⟨rfl, rfl, rfl, rfl, rfl, rfl⟩

theorem pay_apply (x0 : Vec Ideal S4352x3 .f32) (x1 : Vec Ideal S3x128 .f32) (x2 : Vec Ideal S128 .f32)
    (x3 : Vec Ideal S128x128 .f32) (x4 : Vec Ideal S128 .f32) (x5 : Vec Ideal S128x128 .f32) (x6 : Vec Ideal S128 .f32)
    (x7 : Vec Ideal S128x1 .f32) (x8 : Vec Ideal S1 .f32) (r : Fin 4352) :
    Cert.KernelIdeal.Gen.k0_pay1 (F := Ideal) x0 x1 x2 x3 x4 x5 x6 x7 x8 (ix2 r (0 : Fin 1))
      = Cert.MlpSpec.mlpRow x1 x2 x3 x4 x5 x6 x7 x8 (fun k => x0 (ix2 r k)) := by
  unfold Gen.k0_pay1
  refine (kernel_affine (m := 4352) (k := 128) (n := 1) _ plain_128_1 none _ _ x8 _ _ r (0 : Fin 1)).trans ?_
  refine congrArg (fun h => affine x7 x8 h (0 : Fin 1)) (funext fun c3 => ?_)
  refine (kernel_hidden (m := 4352) (k := 128) (n := 128) _ plain_128_128 none _ _ x6 _ _ r c3).trans ?_
  refine congrArg (fun h => hidden x5 x6 h c3) (funext fun c2 => ?_)
  refine (kernel_hidden (m := 4352) (k := 128) (n := 128) _ plain_128_128 none _ _ x4 _ _ r c2).trans ?_
  refine congrArg (fun h => hidden x3 x4 h c2) (funext fun c1 => ?_)
  refine (kernel_hidden (m := 4352) (k := 3) (n := 128) _ plain_3_128 none _ _ x2 _ _ r c1).trans ?_
  refine congrArg (fun h => hidden x1 x2 h c1) (funext fun j => ?_)
  show shapeCast S4352x3 x0 _ (ix2 r j) = x0 (ix2 r j)
  rw [shapeCast_self]

end Cert.KernelIdeal.KMlp

end
-- ==== Proof.KernelOut.lean ====
import proofs.«182125_j62079457296719_1_alg».proof.Proof.KernelIdealFrame
import proofs.«182125_j62079457296719_1_alg».proof.Proof.MlpSpec
import proofs.«182125_j62079457296719_1_alg».proof.Proof.KernelMlp
import Idealize.ShloMosaic.Lib.Pipeline.Value
import Idealize.ShloMosaic.Lib.Pipeline.FrameSuffix
import Idealize.ShloMosaic.Lib.ValueIdxCoords
import Idealize.ShloMosaic.Lib.Tactic

/-! The result array of the one region, row by row, at the ideal instance: the 128 blocks of 4352 rows the
    grid's points write back tile the 557056 rows, each block is the payload of that point's rows block and the
    eight weight arrays, and the payload acts on each row alone; so row `r` of the result is the row function of the
    weight arrays and row `r` of the rows array. Then what the host operations after the region start from: the
    result array at that, every other buffer as the region found it. -/

set_option maxRecDepth 16384

noncomputable section

namespace Cert.KernelIdeal.KOut

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The arrays the region reads and the one it writes, at their literal types -/

/-- The rows array as the region finds it. -/
abbrev rowsArr (c : Dev nD) : Vec Ideal S557056x3 .f32 := Fr.V m c main_v85
/-- The eight weight arrays as the region finds them. -/
abbrev w1 (c : Dev nD) : Vec Ideal S3x128 .f32 := Fr.V m c main_arg4
abbrev w2 (c : Dev nD) : Vec Ideal S128 .f32 := Fr.V m c main_arg5
abbrev w3 (c : Dev nD) : Vec Ideal S128x128 .f32 := Fr.V m c main_arg6
abbrev w4 (c : Dev nD) : Vec Ideal S128 .f32 := Fr.V m c main_arg7
abbrev w5 (c : Dev nD) : Vec Ideal S128x128 .f32 := Fr.V m c main_arg8
abbrev w6 (c : Dev nD) : Vec Ideal S128 .f32 := Fr.V m c main_arg9
abbrev w7 (c : Dev nD) : Vec Ideal S128x1 .f32 := Fr.V m c main_arg10
abbrev w8 (c : Dev nD) : Vec Ideal S1 .f32 := Fr.V m c main_arg11
/-- The result array after the region's last point. -/
abbrev outArr (c : Dev nD) : Vec Ideal S557056x1 .f32 := (Fr.dats m 0 c).arrAt 9 cfg0.N

theorem zeros2 : (![0, 0] : Fin 2 → Nat) = fun _ => 0 := funext fun a => by fin_cases a <;> rfl
theorem zeros1 : (![0] : Fin 1 → Nat) = fun _ => 0 := funext fun a => by fin_cases a <;> rfl

/-- The one store covers the block, the nine loads read their blocks whole: the output block is the payload. -/
theorem outBlk_eq (x0 : Vec Ideal S4352x3 .f32) (x1 : Vec Ideal S3x128 .f32) (x2 : Vec Ideal S128 .f32) (x3 : Vec Ideal S128x128 .f32) (x4 : Vec Ideal S128 .f32) (x5 : Vec Ideal S128x128 .f32) (x6 : Vec Ideal S128 .f32) (x7 : Vec Ideal S128x1 .f32) (x8 : Vec Ideal S1 .f32) :
    Fr.outBlk x0 x1 x2 x3 x4 x5 x6 x7 x8 = k0_pay1 x0 x1 x2 x3 x4 x5 x6 x7 x8 := by
  unfold Fr.outBlk
  rw [View.canon_unit_zero zeros2]
  simp only [View.ld_unit_zero (S := S4352x3) zeros2, View.ld_unit_zero (S := S3x128) zeros2, View.ld_unit_zero (S := S128) zeros1,
    View.ld_unit_zero (S := S128x128) zeros2, View.ld_unit_zero (S := S128x1) zeros2, View.ld_unit_zero (S := S1) zeros1]

/-- The relation of the printed index maps to the grid point, decided over the 128 points: the rows window and the
    result window sit at block (t, 0), the eight weight windows at block 0. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The blocks the body loads, as parts of the arrays -/

theorem iblk1_eq (c : Dev nD) (t : Fin cfg0.N) : (Fr.iblk m c 1 t : Vec Ideal S3x128 .f32) = Fr.V m c main_arg4 := by
  obtain ⟨-, -, -, -, e0, e1, -⟩ := idx_facts t
  funext y
  unfold Fr.iblk
  rw [View.read_apply]
  show Fr.V m c main_arg4 (((cfg0.win 1).blk t).view.emb y) = Fr.V m c main_arg4 y
  congr 1
  funext a; apply Fin.ext
  match a with
  | ⟨0, _⟩ => show win0_1.index t (0 : Fin 2) * 3 + 1 * (y 0).val = (y 0).val; omega
  | ⟨1, _⟩ => show win0_1.index t (1 : Fin 2) * 128 + 1 * (y 1).val = (y 1).val; omega

theorem iblk2_eq (c : Dev nD) (t : Fin cfg0.N) : (Fr.iblk m c 2 t : Vec Ideal S128 .f32) = Fr.V m c main_arg5 := by
  obtain ⟨-, -, -, -, -, -, e0, -⟩ := idx_facts t
  funext y
  unfold Fr.iblk
  rw [View.read_apply]
  show Fr.V m c main_arg5 (((cfg0.win 2).blk t).view.emb y) = Fr.V m c main_arg5 y
  congr 1
  funext a; apply Fin.ext
  match a with
  | ⟨0, _⟩ => show win0_2.index t (0 : Fin 1) * 128 + 1 * (y 0).val = (y 0).val; omega

/-- Row `r` of the rows window's block at point `t` is row `4352 t + r` of the rows array. -/
theorem rows_read (c : Dev nD) (t : Fin cfg0.N) (r : Fin 4352) (k : Fin 3) (q : Fin 557056) (hq : q.val = t.val * 4352 + r.val) :
    (Fr.iblk m c 0 t : Vec Ideal S4352x3 .f32) (ix2 r k) = (Fr.V m c main_v85 : Vec Ideal S557056x3 .f32) (ix2 q k) := by
  obtain ⟨e0, e1, -⟩ := idx_facts t
  unfold Fr.iblk
  rw [View.read_apply]
  show Fr.V m c main_v85 (((cfg0.win 0).blk t).view.emb (ix2 r k)) = Fr.V m c main_v85 (ix2 q k)
  congr 1
  funext a; apply Fin.ext
  match a with
  | ⟨0, _⟩ => show win0_0.index t (0 : Fin 2) * 4352 + 1 * r.val = q.val; omega
  | ⟨1, _⟩ => show win0_0.index t (1 : Fin 2) * 3 + 1 * k.val = k.val; omega

/-- Where row `y` of the result window's block at point `t` sits in the result array. -/
theorem out_emb (t : Fin cfg0.N) (y : S4352x1.Idx) :
    ((((cfg0.win 9).blk t).view.emb y : S557056x1.Idx) 0).val = t.val * 4352 + (y 0).val := by
  obtain ⟨-, -, e0, e1, -⟩ := idx_facts t
  show win0_9.index t (0 : Fin 2) * 4352 + 1 * (y 0).val = _
  omega

theorem iblk3_eq (c : Dev nD) (t : Fin cfg0.N) : (Fr.iblk m c 3 t : Vec Ideal S128x128 .f32) = Fr.V m c main_arg6 := by
  obtain ⟨-, -, -, -, -, -, -, e0, e1, -⟩ := idx_facts t
  funext y
  unfold Fr.iblk
  rw [View.read_apply]
  show Fr.V m c main_arg6 (((cfg0.win 3).blk t).view.emb y) = Fr.V m c main_arg6 y
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk4_eq (c : Dev nD) (t : Fin cfg0.N) : (Fr.iblk m c 4 t : Vec Ideal S128 .f32) = Fr.V m c main_arg7 := by
  obtain ⟨-, -, -, -, -, -, -, -, -, e0, -⟩ := idx_facts t
  funext y
  unfold Fr.iblk
  rw [View.read_apply]
  show Fr.V m c main_arg7 (((cfg0.win 4).blk t).view.emb y) = Fr.V m c main_arg7 y
  congr 1
  funext a; apply Fin.ext
  match a with
  | ⟨0, _⟩ => show win0_4.index t (0 : Fin 1) * 128 + 1 * (y 0).val = (y 0).val; omega

theorem iblk5_eq (c : Dev nD) (t : Fin cfg0.N) : (Fr.iblk m c 5 t : Vec Ideal S128x128 .f32) = Fr.V m c main_arg8 := by
  obtain ⟨-, -, -, -, -, -, -, -, -, -, e0, e1, -⟩ := idx_facts t
  funext y
  unfold Fr.iblk
  rw [View.read_apply]
  show Fr.V m c main_arg8 (((cfg0.win 5).blk t).view.emb y) = Fr.V m c main_arg8 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem iblk6_eq (c : Dev nD) (t : Fin cfg0.N) : (Fr.iblk m c 6 t : Vec Ideal S128 .f32) = Fr.V m c main_arg9 := by
  obtain ⟨-, -, -, -, -, -, -, -, -, -, -, -, e0, -⟩ := idx_facts t
  funext y
  unfold Fr.iblk
  rw [View.read_apply]
  show Fr.V m c main_arg9 (((cfg0.win 6).blk t).view.emb y) = Fr.V m c main_arg9 y
  congr 1
  funext a; apply Fin.ext
  match a with
  | ⟨0, _⟩ => show win0_6.index t (0 : Fin 1) * 128 + 1 * (y 0).val = (y 0).val; omega

theorem iblk7_eq (c : Dev nD) (t : Fin cfg0.N) : (Fr.iblk m c 7 t : Vec Ideal S128x1 .f32) = Fr.V m c main_arg10 := by
  obtain ⟨-, -, -, -, -, -, -, -, -, -, -, -, -, e0, e1, -⟩ := idx_facts t
  funext y
  unfold Fr.iblk
  rw [View.read_apply]
  show Fr.V m c main_arg10 (((cfg0.win 7).blk t).view.emb y) = Fr.V m c main_arg10 y
  congr 1
  funext a; apply Fin.ext
  match a with
  | ⟨0, _⟩ => show win0_7.index t (0 : Fin 2) * 128 + 1 * (y 0).val = (y 0).val; omega
  | ⟨1, _⟩ => show win0_7.index t (1 : Fin 2) * 1 + 1 * (y 1).val = (y 1).val; omega

theorem iblk8_eq (c : Dev nD) (t : Fin cfg0.N) : (Fr.iblk m c 8 t : Vec Ideal S1 .f32) = Fr.V m c main_arg11 := by
  obtain ⟨-, -, -, -, -, -, -, -, -, -, -, -, -, -, -, e0⟩ := idx_facts t
  funext y
  unfold Fr.iblk
  rw [View.read_apply]
  show Fr.V m c main_arg11 (((cfg0.win 8).blk t).view.emb y) = Fr.V m c main_arg11 y
  congr 1
  funext a; apply Fin.ext
  match a with
  | ⟨0, _⟩ => show win0_8.index t (0 : Fin 1) * 1 + 1 * (y 0).val = (y 0).val; omega

/-! ## The result array, row by row -/

section rows

-- What one row of the result is, of the eight weight arrays and the row's three entries.
variable (R : Vec Ideal S3x128 .f32 → Vec Ideal S128 .f32 → Vec Ideal S128x128 .f32 → Vec Ideal S128 .f32 → Vec Ideal S128x128 .f32 → Vec Ideal S128 .f32 → Vec Ideal S128x1 .f32 → Vec Ideal S1 .f32 → (Fin 3 → EReal) → EReal)

/-- The whole result array: row `i` is `R` of the weights and row `i` of the rows array. -/
def rowsFn (a0 : Vec Ideal S557056x3 .f32) (x1 : Vec Ideal S3x128 .f32) (x2 : Vec Ideal S128 .f32) (x3 : Vec Ideal S128x128 .f32) (x4 : Vec Ideal S128 .f32) (x5 : Vec Ideal S128x128 .f32) (x6 : Vec Ideal S128 .f32) (x7 : Vec Ideal S128x1 .f32) (x8 : Vec Ideal S1 .f32) :
    Vec Ideal S557056x1 .f32 := fun i => R x1 x2 x3 x4 x5 x6 x7 x8 (fun k => a0 (ix2 (i 0) k))

/-- The payload computes `R` on each row of its block. -/
def PayRows : Prop := ∀ (x0 : Vec Ideal S4352x3 .f32) (x1 : Vec Ideal S3x128 .f32) (x2 : Vec Ideal S128 .f32) (x3 : Vec Ideal S128x128 .f32) (x4 : Vec Ideal S128 .f32) (x5 : Vec Ideal S128x128 .f32) (x6 : Vec Ideal S128 .f32) (x7 : Vec Ideal S128x1 .f32) (x8 : Vec Ideal S1 .f32) (r : Fin 4352),
    k0_pay1 (F := Ideal) x0 x1 x2 x3 x4 x5 x6 x7 x8 (ix2 r 0) = R x1 x2 x3 x4 x5 x6 x7 x8 (fun k => x0 (ix2 r k))

/-- One entry of the output block, when the weight blocks are the weight arrays and the block's row is a row of the rows array. -/
theorem outBlk_row (hpay : PayRows R) (a0 : Vec Ideal S557056x3 .f32) (x0 : Vec Ideal S4352x3 .f32)
    (x1 w1 : Vec Ideal S3x128 .f32) (x2 w2 : Vec Ideal S128 .f32) (x3 w3 : Vec Ideal S128x128 .f32) (x4 w4 : Vec Ideal S128 .f32)
    (x5 w5 : Vec Ideal S128x128 .f32) (x6 w6 : Vec Ideal S128 .f32) (x7 w7 : Vec Ideal S128x1 .f32) (x8 w8 : Vec Ideal S1 .f32)
    (h1 : x1 = w1) (h2 : x2 = w2) (h3 : x3 = w3) (h4 : x4 = w4) (h5 : x5 = w5) (h6 : x6 = w6) (h7 : x7 = w7) (h8 : x8 = w8)
    (y : S4352x1.Idx) (i : S557056x1.Idx) (h0 : ∀ k : Fin 3, x0 (ix2 (y 0) k) = a0 (ix2 (i 0) k)) :
    Fr.outBlk x0 x1 x2 x3 x4 x5 x6 x7 x8 y = rowsFn R a0 w1 w2 w3 w4 w5 w6 w7 w8 i := by
  subst h1 h2 h3 h4 h5 h6 h7 h8
  rw [outBlk_eq]
  have hy : y = ix2 (y 0 : Fin 4352) (0 : Fin 1) := (eq_ix2 y).trans (congrArg (fun b : Fin 1 => ix2 (y 0 : Fin 4352) b) (Fin.fin_one_eq_zero (y 1)))
  refine ((congrArg (k0_pay1 (F := Ideal) x0 x1 x2 x3 x4 x5 x6 x7 x8) hy).trans (hpay x0 x1 x2 x3 x4 x5 x6 x7 x8 (y 0))).trans ?_
  exact congrArg (R x1 x2 x3 x4 x5 x6 x7 x8) (funext h0)

/-- WHAT POINT `t` WRITES BACK is block `t` of the row-by-row array. -/
theorem flushed_eq (hpay : PayRows R) (c : Dev nD) (t : Fin cfg0.N) :
    (Fr.dats m 0 c).flushed 9 t = ((cfg0.win 9).blk t).view.read (Elt Ideal)
      (rowsFn R (Fr.V m c main_v85) (Fr.V m c main_arg4) (Fr.V m c main_arg5) (Fr.V m c main_arg6) (Fr.V m c main_arg7) (Fr.V m c main_arg8) (Fr.V m c main_arg9) (Fr.V m c main_arg10) (Fr.V m c main_arg11)) := by
  show (cfg0.win 9).cut (grid0.coords t) ((Fr.dats m 0 c).after 9 t) = _
  rw [Fr.after0_9]
  funext y
  rw [View.read_apply]
  show Fr.outBlk (Fr.iblk m c 0 t) (Fr.iblk m c 1 t) (Fr.iblk m c 2 t) (Fr.iblk m c 3 t) (Fr.iblk m c 4 t) (Fr.iblk m c 5 t) (Fr.iblk m c 6 t) (Fr.iblk m c 7 t) (Fr.iblk m c 8 t) y
    = rowsFn R (Fr.V m c main_v85) (Fr.V m c main_arg4) (Fr.V m c main_arg5) (Fr.V m c main_arg6) (Fr.V m c main_arg7) (Fr.V m c main_arg8) (Fr.V m c main_arg9) (Fr.V m c main_arg10) (Fr.V m c main_arg11) (((cfg0.win 9).blk t).view.emb y)
  refine outBlk_row R hpay (Fr.V m c main_v85) (Fr.iblk m c 0 t) (Fr.iblk m c 1 t) (Fr.V m c main_arg4) (Fr.iblk m c 2 t) (Fr.V m c main_arg5)
    (Fr.iblk m c 3 t) (Fr.V m c main_arg6) (Fr.iblk m c 4 t) (Fr.V m c main_arg7) (Fr.iblk m c 5 t) (Fr.V m c main_arg8)
    (Fr.iblk m c 6 t) (Fr.V m c main_arg9) (Fr.iblk m c 7 t) (Fr.V m c main_arg10) (Fr.iblk m c 8 t) (Fr.V m c main_arg11)
    (iblk1_eq m c t) (iblk2_eq m c t) (iblk3_eq m c t) (iblk4_eq m c t) (iblk5_eq m c t) (iblk6_eq m c t) (iblk7_eq m c t) (iblk8_eq m c t)
    y (((cfg0.win 9).blk t).view.emb y) (fun k => ?_)
  exact rows_read m c t (y 0) k _ (out_emb t y)

/-- An index of the result array is in point `t`'s block iff each coordinate is in the block's range on its axis. -/
theorem mem_blk (t : Fin cfg0.N) (i : S557056x1.Idx) :
    i ∈ ((cfg0.win 9).blk t).view.set ↔ ∀ a : Fin 2, win0_9.index t a * S4352x1.size a ≤ (i a).val ∧ (i a).val < win0_9.index t a * S4352x1.size a + S4352x1.size a := by
  show i ∈ ((View.whole main_v86).slice (win0_9.rect t)).set ↔ _
  rw [View.set_slice_whole, Rect.mem_set_unit]
  exact Iff.rfl

/-- Row `r` of the result array is in the block of point `r / 4352`. -/
theorem cover (i : S557056x1.Idx) : ∃ t : Fin cfg0.N, (cfg0.win 9).flush t = true ∧ i ∈ ((cfg0.win 9).blk t).view.set := by
  have hi0 : (i 0).val < 557056 := (i 0).isLt
  have hi1 : (i 1).val < 1 := (i 1).isLt
  have hN : cfg0.N = 128 := N_0
  obtain ⟨t, ht⟩ : ∃ t : Fin cfg0.N, t.val = (i 0).val / 4352 := ⟨⟨(i 0).val / 4352, by rw [hN]; omega⟩, rfl⟩
  refine ⟨t, flush0_9 t, ?_⟩
  rw [mem_blk]
  obtain ⟨-, -, e0, e1, -⟩ := idx_facts t
  intro a
  match a with
  | ⟨0, _⟩ => show win0_9.index t (0 : Fin 2) * 4352 ≤ (i 0).val ∧ (i 0).val < win0_9.index t (0 : Fin 2) * 4352 + 4352; omega
  | ⟨1, _⟩ => show win0_9.index t (1 : Fin 2) * 1 ≤ (i 1).val ∧ (i 1).val < win0_9.index t (1 : Fin 2) * 1 + 1; omega

/-- THE RESULT ARRAY after the region: row by row, `R` of the weight arrays and the row. -/
theorem out_eq (hpay : PayRows R) (c : Dev nD) :
    (Fr.dats m 0 c).arrAt 9 cfg0.N = rowsFn R (Fr.V m c main_v85) (Fr.V m c main_arg4) (Fr.V m c main_arg5) (Fr.V m c main_arg6) (Fr.V m c main_arg7) (Fr.V m c main_arg8) (Fr.V m c main_arg9) (Fr.V m c main_arg10) (Fr.V m c main_arg11) :=
  (Fr.dats m 0 c).arrAt_eq_of_cover 9 _ (fun t _ => flushed_eq m R hpay c t) cover

theorem out_apply_of (hpay : PayRows R) (c : Dev nD) (r : Fin 557056) :
    ((Fr.dats m 0 c).arrAt 9 cfg0.N : Vec Ideal S557056x1 .f32) (ix2 r 0)
      = R (Fr.V m c main_arg4) (Fr.V m c main_arg5) (Fr.V m c main_arg6) (Fr.V m c main_arg7) (Fr.V m c main_arg8) (Fr.V m c main_arg9) (Fr.V m c main_arg10) (Fr.V m c main_arg11) (fun k => (Fr.V m c main_v85 : Vec Ideal S557056x3 .f32) (ix2 r k)) := by
  rw [out_eq m R hpay c]
  rfl

end rows

/-! ## The perceptron, row by row -/

/-- ROW `r` OF THE RESULT ARRAY after the region is the perceptron of the weight arrays on row `r` of the rows array. -/
theorem out_apply (c : Dev nD) (r : Fin 557056) :
    outArr m c (ix2 r 0)
      = Cert.MlpSpec.mlpRow (Fr.V m c main_arg4) (Fr.V m c main_arg5) (Fr.V m c main_arg6) (Fr.V m c main_arg7) (Fr.V m c main_arg8) (Fr.V m c main_arg9) (Fr.V m c main_arg10) (Fr.V m c main_arg11) (fun k => (Fr.V m c main_v85 : Vec Ideal S557056x3 .f32) (ix2 r k)) :=
  out_apply_of m Cert.MlpSpec.mlpRow Cert.KernelIdeal.KMlp.pay_apply c r

/-! ## What the host operations after the region start from -/

/-- The result array, at what the region left. -/
theorem tail_start_out (c : Dev nD) :
    Pipeline.withArrays spec0 c (Fr.V0 m c) (fun w => (Fr.dats m 0 c).arrAt w cfg0.N) (Proc.devRef .tc main_v86) = (Fr.dats m 0 c).arrAt 9 cfg0.N :=
  Pipeline.withArrays_arr spec0 winFacts0.arr_inj c _ _ 9

/-- A buffer that is no window's array, as the region found it. -/
theorem tail_start_other (c : Dev nD) (b : Ref sig .tc) (hb : ∀ w, Pipeline.arrRef spec0 w ≠ b) :
    Pipeline.withArrays spec0 c (Fr.V0 m c) (fun w => (Fr.dats m 0 c).arrAt w cfg0.N) (Proc.devRef .tc b) = Fr.V0 m c (Proc.devRef .tc b) :=
  Pipeline.withArrays_of_ne spec0 c _ _ b hb

/-- An input window's array, as the region found it: the region never writes it back. -/
theorem tail_start_in (c : Dev nD) (w : Fin cfg0.W) (hin : (cfg0.win w).isOut = false) :
    Pipeline.withArrays spec0 c (Fr.V0 m c) (fun w => (Fr.dats m 0 c).arrAt w cfg0.N) (Proc.devRef .tc (Pipeline.arrRef spec0 w)) = Fr.V m c (Pipeline.arrRef spec0 w) :=
  (Pipeline.withArrays_arr spec0 winFacts0.arr_inj c _ _ w).trans (((Fr.dats m 0 c).arrAt_in w hin cfg0.N).trans (Fr.A_eq m c w))

theorem tail_start_v85 (c : Dev nD) :
    Pipeline.withArrays spec0 c (Fr.V0 m c) (fun w => (Fr.dats m 0 c).arrAt w cfg0.N) (Proc.devRef .tc main_v85) = Fr.V m c main_v85 :=
  tail_start_in m c 0 rfl
theorem tail_start_arg4 (c : Dev nD) :
    Pipeline.withArrays spec0 c (Fr.V0 m c) (fun w => (Fr.dats m 0 c).arrAt w cfg0.N) (Proc.devRef .tc main_arg4) = Fr.V m c main_arg4 :=
  tail_start_in m c 1 rfl
theorem tail_start_arg5 (c : Dev nD) :
    Pipeline.withArrays spec0 c (Fr.V0 m c) (fun w => (Fr.dats m 0 c).arrAt w cfg0.N) (Proc.devRef .tc main_arg5) = Fr.V m c main_arg5 :=
  tail_start_in m c 2 rfl
theorem tail_start_arg6 (c : Dev nD) :
    Pipeline.withArrays spec0 c (Fr.V0 m c) (fun w => (Fr.dats m 0 c).arrAt w cfg0.N) (Proc.devRef .tc main_arg6) = Fr.V m c main_arg6 :=
  tail_start_in m c 3 rfl
theorem tail_start_arg7 (c : Dev nD) :
    Pipeline.withArrays spec0 c (Fr.V0 m c) (fun w => (Fr.dats m 0 c).arrAt w cfg0.N) (Proc.devRef .tc main_arg7) = Fr.V m c main_arg7 :=
  tail_start_in m c 4 rfl
theorem tail_start_arg8 (c : Dev nD) :
    Pipeline.withArrays spec0 c (Fr.V0 m c) (fun w => (Fr.dats m 0 c).arrAt w cfg0.N) (Proc.devRef .tc main_arg8) = Fr.V m c main_arg8 :=
  tail_start_in m c 5 rfl
theorem tail_start_arg9 (c : Dev nD) :
    Pipeline.withArrays spec0 c (Fr.V0 m c) (fun w => (Fr.dats m 0 c).arrAt w cfg0.N) (Proc.devRef .tc main_arg9) = Fr.V m c main_arg9 :=
  tail_start_in m c 6 rfl
theorem tail_start_arg10 (c : Dev nD) :
    Pipeline.withArrays spec0 c (Fr.V0 m c) (fun w => (Fr.dats m 0 c).arrAt w cfg0.N) (Proc.devRef .tc main_arg10) = Fr.V m c main_arg10 :=
  tail_start_in m c 7 rfl
theorem tail_start_arg11 (c : Dev nD) :
    Pipeline.withArrays spec0 c (Fr.V0 m c) (fun w => (Fr.dats m 0 c).arrAt w cfg0.N) (Proc.devRef .tc main_arg11) = Fr.V m c main_arg11 :=
  tail_start_in m c 8 rfl

end Cert.KernelIdeal.KOut

end
-- ==== Proof.ReferencePlumb.lean ====
import proofs.«182125_j62079457296719_1_alg».proof.ReferenceIdeal
import proofs.«182125_j62079457296719_1_alg».proof.Proof.Gen.ReferenceIdeal

/-! The index arrangements of the reference program's main function, as pure functions of the arrays they
    read: the row gather at a wrapped index, the two row gathers at a 32768 × 8 array of wrapped indices
    (result flattened to 262144 rows), and the three reshapes of the network's output columns. -/

noncomputable section

namespace Cert.ReferenceIdeal.RFn

open Cert.ReferenceIdeal
open Idealize.ShloMosaic
open Cert.ReferenceIdeal.Facts₀ Cert.ReferenceIdeal.Facts

variable {F : FTy → Type} [FloatOps F]

/-- Rows a[i] of the table x, a negative index counted from the end (a[i] + 2097152), the start
    clamped by the gather. -/
def wrapGather0 (x : FVec F S2097152x3 .f32) (a : IVec S32768 32) : FVec F S32768x3 .f32 :=
  Host.gather gather_S2097152x3_S32768x1_S32768x3_1_0_n_n_0_1_13 x
    (broadcastInDim S32768x1 ![0] bcast_S32768_S32768x1_0
      (select
        (cmpi .slt a (broadcastInDim S32768 ![] bcast_S_S32768 (constantI S_ 32 0#32)))
        (addi a (broadcastInDim S32768 ![] bcast_S_S32768 (constantI S_ 32 2097152#32)))
        a))

/-- Rows s[i, j] of the table x (2048383 rows) gathered at the 32768 × 8 array of indices, the
    32768 × 8 × 3 result flattened to 262144 rows. -/
def gather3d2 (x : FVec F S2048383x3 .f32) (s : IVec S32768x8 32) : FVec F S262144x3 .f32 :=
  shapeCast S262144x3
    (Host.gather gather_S2048383x3_S32768x8x1_S32768x8x3_2_0_n_n_0_2_13 x
      (broadcastInDim S32768x8x1 ![0, 1] bcast_S32768x8_S32768x8x1_0_1
        (select
          (cmpi .slt s (broadcastInDim S32768x8 ![] bcast_S_S32768x8 (constantI S_ 32 0#32)))
          (addi s (broadcastInDim S32768x8 ![] bcast_S_S32768x8 (constantI S_ 32 2048383#32)))
          s)))
    shapeCasts_S32768x8x3_S262144x3

/-- Rows s[i, j] of the table x (2097152 rows) gathered at the 32768 × 8 array of indices, the
    32768 × 8 × 3 result flattened to 262144 rows. -/
def gather3d0 (x : FVec F S2097152x3 .f32) (s : IVec S32768x8 32) : FVec F S262144x3 .f32 :=
  shapeCast S262144x3
    (Host.gather gather_S2097152x3_S32768x8x1_S32768x8x3_2_0_n_n_0_2_13 x
      (broadcastInDim S32768x8x1 ![0, 1] bcast_S32768x8_S32768x8x1_0_1
        (select
          (cmpi .slt s (broadcastInDim S32768x8 ![] bcast_S_S32768x8 (constantI S_ 32 0#32)))
          (addi s (broadcastInDim S32768x8 ![] bcast_S_S32768x8 (constantI S_ 32 2097152#32)))
          s)))
    shapeCasts_S32768x8x3_S262144x3

/-- The 32768 × 1 output column as a vector. -/
def predOf (o : FVec F S32768x1 .f32) : FVec F S32768 .f32 :=
  shapeCast S32768 o shapeCasts_S32768x1_S32768

/-- The 262144 × 1 output column as 32768 rows of 8. -/
def psOf (o : FVec F S262144x1 .f32) : FVec F S32768x8 .f32 :=
  shapeCast S32768x8 o shapeCasts_S262144x1_S32768x8

/-- The 262144 × 1 output column as 32768 rows of 8. -/
def pnOf (o : FVec F S262144x1 .f32) : FVec F S32768x8 .f32 :=
  shapeCast S32768x8 o shapeCasts_S262144x1_S32768x8

end Cert.ReferenceIdeal.RFn

end
-- ==== Proof.PlumbEq.lean ====
import proofs.«182125_j62079457296719_1_alg».proof.Proof.KernelPlumb
import proofs.«182125_j62079457296719_1_alg».proof.Proof.ReferencePlumb
import Idealize.ShloMosaic.Lib.ValueIdx
import Idealize.ShloMosaic.Lib.Pipeline.Value

/-! The kernel program and the reference program fetch the same rows of the same tables and cut the
    same entries out of the network's output; only the arrangement differs (indices flattened before the
    gather, or the gathered block flattened after; one stacked column sliced, or three columns reshaped).
    Here the arrangements are compared index by index. -/

noncomputable section

namespace Cert.PlumbEq

open Idealize.ShloMosaic Idealize.ShloMosaic.ValueIdx

variable {F : FTy → Type} [FloatOps F]

/-! ## A gather of whole rows, read at an index -/

section RowGather
variable {α : Type}

theorem fin2_cases (a : Fin 2) : a = 0 ∨ a = 1 := by omega

/-- The dimension numbers of a gather of whole rows of an N × C table at an R × 1 array of start
    indices: the result is R × C. -/
abbrev rowDims2 (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (r, k) of the gathered block is entry k of the table's row at start index r, read signed and
    clamped into the table. -/
theorem gather_rowDims2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims2 N C R wf) x idx (ix2 r k)
      = x (ix2 (⟨min (idx (ix2 r (0 : Fin 1))).toInt.toNat (N - 1), by omega⟩ : Fin N) k) := by
  unfold Host.gather
  congr 1
  funext a
  refine Fin.ext ?_
  show (rowDims2 N C R wf).start (ix2 r k) idx a + (rowDims2 N C R wf).batchCoord (ix2 r k) a
      + (rowDims2 N C R wf).offCoord (ix2 r k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C R wf).startIndexMap from List.mem_singleton.mpr rfl)]
    have hsi : (rowDims2 N C R wf).siIdx (ix2 r k) ⟨List.idxOf (0 : Fin 2) (rowDims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowDims2 N C R wf).startIndexMap from
      fun h => absurd (List.mem_singleton.mp h) (show (1 : Fin 2) ≠ 0 by decide))]
    unfold GatherDims.offCoord
    rw [dif_pos (show (1 : Fin 2) ∈ (rowDims2 N C R wf).sKept from
      (GatherDims.mem_sKept _ _).mpr ⟨fun h => absurd (List.mem_singleton.mp h) (show (1 : Fin 2) ≠ 0 by decide), List.not_mem_nil⟩)]
    simp only [Nat.zero_add]
    rfl

end RowGather

section RowGather3
variable {α : Type}

/-- The dimension numbers of a gather of whole rows of an N × C table at an R × Q × 1 array of start
    indices: the result is R × Q × C. -/
abbrev rowDims3 (N C R Q : Nat)
    (wf : GatherDims.WF ⟨2, ![N, C]⟩ ⟨3, ![R, Q, 1]⟩ ⟨3, ![R, Q, C]⟩ [2] [0] [] [0] [] 2 ![1, C]) :
    GatherDims ⟨2, ![N, C]⟩ ⟨3, ![R, Q, 1]⟩ ⟨3, ![R, Q, C]⟩ where
  offsetDims := [2]
  collapsedSliceDims := [0]
  operandBatchingDims := []
  startIndicesBatchingDims := []
  startIndexMap := [0]
  indexVectorDim := 2
  sliceSizes := ![1, C]
  wf := wf

/-- Entry (i, j, k) of the gathered block is entry k of the table's row at start index (i, j), read
    signed and clamped into the table. -/
theorem gather_rowDims3_apply {N C R Q w : Nat} (hN : 0 < N)
    (wf : GatherDims.WF ⟨2, ![N, C]⟩ ⟨3, ![R, Q, 1]⟩ ⟨3, ![R, Q, C]⟩ [2] [0] [] [0] [] 2 ![1, C])
    (x : (⟨2, ![N, C]⟩ : Shape).Idx → α) (idx : IVec ⟨3, ![R, Q, 1]⟩ w) (i : Fin R) (j : Fin Q) (k : Fin C) :
    Host.gather (rowDims3 N C R Q wf) x idx (ix3 i j k)
      = x (ix2 (⟨min (idx (ix3 i j (0 : Fin 1))).toInt.toNat (N - 1), by omega⟩ : Fin N) k) := by
  unfold Host.gather
  congr 1
  funext a
  refine Fin.ext ?_
  show (rowDims3 N C R Q wf).start (ix3 i j k) idx a + (rowDims3 N C R Q wf).batchCoord (ix3 i j k) a
      + (rowDims3 N C R Q wf).offCoord (ix3 i j k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N C R Q wf).startIndexMap from List.mem_singleton.mpr rfl)]
    have hsi : (rowDims3 N C R Q wf).siIdx (ix3 i j k) ⟨List.idxOf (0 : Fin 2) (rowDims3 N C R Q wf).startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ (rowDims3 N C R Q wf).startIndexMap from
      fun h => absurd (List.mem_singleton.mp h) (show (1 : Fin 2) ≠ 0 by decide))]
    unfold GatherDims.offCoord
    rw [dif_pos (show (1 : Fin 2) ∈ (rowDims3 N C R Q wf).sKept from
      (GatherDims.mem_sKept _ _).mpr ⟨fun h => absurd (List.mem_singleton.mp h) (show (1 : Fin 2) ≠ 0 by decide), List.not_mem_nil⟩)]
    simp only [Nat.zero_add]
    rfl

end RowGather3

/-! ## The wrapped index, read at an index -/

/-- A negative index counted from the end, entry by entry: the compare, the add and the select are
    pointwise, the two constants the same everywhere. -/
theorem wrapSel_apply {S : Shape} (v : IVec S 32) (c : BitVec 32)
    (hz : (⟨0, ![]⟩ : Shape).BroadcastsInDim S (![] : Fin 0 → Fin S.rank)) (i : S.Idx) :
    select (cmpi .slt v (broadcastInDim S ![] hz (constantI ⟨0, ![]⟩ 32 0#32)))
        (addi v (broadcastInDim S ![] hz (constantI ⟨0, ![]⟩ 32 c))) v i
      = Scalar.select (IntOp.cmpi .slt (v i) 0#32) (IntOp.addi (v i) c) (v i) := rfl

/-! ## A start-index array with a trailing unit axis, read at an index -/

section UnitAxisIdx
variable {α : Type}

/-- A vector viewed as a column: entry (r, 0) is entry r. -/
theorem bcastCol_apply {R : Nat} (v : (⟨1, ![R]⟩ : Shape).Idx → α)
    (h : (⟨1, ![R]⟩ : Shape).BroadcastsInDim ⟨2, ![R, 1]⟩ ![0]) (r : Fin R) :
    broadcastInDim ⟨2, ![R, 1]⟩ ![0] h v (ix2 r (0 : Fin 1)) = v (ix1 r) := by
  refine broadcastInDim_apply _ h v _ (ix1 r) fun a => ?_
  match a with
  | ⟨0, _⟩ =>
    show r.val = if R = 1 then 0 else r.val
    have := r.isLt
    split <;> omega

/-- A matrix viewed with a trailing unit axis: entry (i, j, 0) is entry (i, j). -/
theorem bcastLast_apply {R Q : Nat} (v : (⟨2, ![R, Q]⟩ : Shape).Idx → α)
    (h : (⟨2, ![R, Q]⟩ : Shape).BroadcastsInDim ⟨3, ![R, Q, 1]⟩ ![0, 1]) (i : Fin R) (j : Fin Q) :
    broadcastInDim ⟨3, ![R, Q, 1]⟩ ![0, 1] h v (ix3 i j (0 : Fin 1)) = v (ix2 i j) := by
  refine broadcastInDim_apply _ h v _ (ix2 i j) fun a => ?_
  match a with
  | ⟨0, _⟩ =>
    show i.val = if R = 1 then 0 else i.val
    have := i.isLt
    split <;> omega
  | ⟨1, _⟩ =>
    show j.val = if Q = 1 then 0 else j.val
    have := j.isLt
    split <;> omega

end UnitAxisIdx

/-! ## The two programs' arrangements, compared -/

/-- The wrapped row gather is the same composition in both programs. -/
theorem wrapGather0_eq (x : FVec F KernelIdeal.S2097152x3 .f32) (a : IVec KernelIdeal.S32768 32) :
    KernelIdeal.KFn.wrapGather0 x a = ReferenceIdeal.RFn.wrapGather0 x a := rfl

/-- Flattening the indices and gathering rows is gathering at the 32768 × 8 array and flattening the
    result (table of 2048383 rows): row 8 i + j of either is the table's row at the wrapped, clamped
    index (i, j). -/
theorem gather2_eq (x : FVec F KernelIdeal.S2048383x3 .f32) (s : IVec KernelIdeal.S32768x8 32) :
    KernelIdeal.KFn.flatGather2 x s = ReferenceIdeal.RFn.gather3d2 x s := by
  funext jj
  obtain ⟨r, k, rfl⟩ : ∃ (r : Fin 262144) (k : Fin 3), jj = ix2 r k := ⟨jj 0, jj 1, eq_ix2 jj⟩
  have ha : r.val / 8 < 32768 := by omega
  have hb : r.val % 8 < 8 := by omega
  -- the flattened indices read at r are the indices at (r / 8, r % 8)
  have hs : shapeCast KernelIdeal.S262144 s KernelIdeal.Facts₀.shapeCasts_S32768x8_S262144 (ix1 r)
      = s (ix2 (⟨r.val / 8, ha⟩ : Fin 32768) (⟨r.val % 8, hb⟩ : Fin 8)) := by
    refine shapeCast_apply s _ (ix1 r) _ ?_
    rw [Shape.rowMajor_val_two, Shape.rowMajor_val_one]
    show r.val / 8 * 8 + r.val % 8 = r.val
    omega
  -- the kernel side: the row at the flattened index
  unfold KernelIdeal.KFn.flatGather2
  refine (gather_rowDims2_apply (N := 2048383) (C := 3) (R := 262144) (by decide) _ x _ r k).trans ?_
  -- the reference side: the flattened block read at (r / 8, r % 8, k)
  unfold ReferenceIdeal.RFn.gather3d2
  refine Eq.symm ((shapeCast_apply _ _ (ix2 r k) (ix3 (⟨r.val / 8, ha⟩ : Fin 32768) (⟨r.val % 8, hb⟩ : Fin 8) k) ?_).trans ?_)
  · rw [Shape.rowMajor_val_three, Shape.rowMajor_val_two]
    show (r.val / 8 * 8 + r.val % 8) * 3 + k.val = r.val * 3 + k.val
    omega
  refine (gather_rowDims3_apply (N := 2048383) (C := 3) (R := 32768) (Q := 8) (by decide) _ x _ _ _ k).trans ?_
  -- both read the table at the same wrapped, clamped start index
  refine congrArg (fun e : BitVec 32 => x (ix2 (⟨min e.toInt.toNat (2048383 - 1), by omega⟩ : Fin 2048383) k)) ?_
  refine (bcastLast_apply _ _ _ _).trans ?_
  refine Eq.symm ((bcastCol_apply _ _ _).trans ?_)
  refine (wrapSel_apply _ _ _ _).trans ?_
  refine Eq.symm ((wrapSel_apply _ _ _ _).trans ?_)
  rw [hs]

/-- The same for the table of 2097152 rows. -/
theorem gather0_eq (x : FVec F KernelIdeal.S2097152x3 .f32) (s : IVec KernelIdeal.S32768x8 32) :
    KernelIdeal.KFn.flatGather0 x s = ReferenceIdeal.RFn.gather3d0 x s := by
  funext jj
  obtain ⟨r, k, rfl⟩ : ∃ (r : Fin 262144) (k : Fin 3), jj = ix2 r k := ⟨jj 0, jj 1, eq_ix2 jj⟩
  have ha : r.val / 8 < 32768 := by omega
  have hb : r.val % 8 < 8 := by omega
  -- the flattened indices read at r are the indices at (r / 8, r % 8)
  have hs : shapeCast KernelIdeal.S262144 s KernelIdeal.Facts₀.shapeCasts_S32768x8_S262144 (ix1 r)
      = s (ix2 (⟨r.val / 8, ha⟩ : Fin 32768) (⟨r.val % 8, hb⟩ : Fin 8)) := by
    refine shapeCast_apply s _ (ix1 r) _ ?_
    rw [Shape.rowMajor_val_two, Shape.rowMajor_val_one]
    show r.val / 8 * 8 + r.val % 8 = r.val
    omega
  -- the kernel side: the row at the flattened index
  unfold KernelIdeal.KFn.flatGather0
  refine (gather_rowDims2_apply (N := 2097152) (C := 3) (R := 262144) (by decide) _ x _ r k).trans ?_
  -- the reference side: the flattened block read at (r / 8, r % 8, k)
  unfold ReferenceIdeal.RFn.gather3d0
  refine Eq.symm ((shapeCast_apply _ _ (ix2 r k) (ix3 (⟨r.val / 8, ha⟩ : Fin 32768) (⟨r.val % 8, hb⟩ : Fin 8) k) ?_).trans ?_)
  · rw [Shape.rowMajor_val_three, Shape.rowMajor_val_two]
    show (r.val / 8 * 8 + r.val % 8) * 3 + k.val = r.val * 3 + k.val
    omega
  refine (gather_rowDims3_apply (N := 2097152) (C := 3) (R := 32768) (Q := 8) (by decide) _ x _ _ _ k).trans ?_
  -- both read the table at the same wrapped, clamped start index
  refine congrArg (fun e : BitVec 32 => x (ix2 (⟨min e.toInt.toNat (2097152 - 1), by omega⟩ : Fin 2097152) k)) ?_
  refine (bcastLast_apply _ _ _ _).trans ?_
  refine Eq.symm ((bcastCol_apply _ _ _).trans ?_)
  refine (wrapSel_apply _ _ _ _).trans ?_
  refine Eq.symm ((wrapSel_apply _ _ _ _).trans ?_)
  rw [hs]

/-- Rows 0 … 32767 of the stack are the first block. -/
theorem rows_apply_lo (p : FVec F KernelIdeal.S32768x3 .f32) (q r : FVec F KernelIdeal.S262144x3 .f32)
    (i : Fin 32768) (k : Fin 3) :
    KernelIdeal.KFn.rows p q r (ix2 (⟨i.val, by omega⟩ : Fin 557056) k) = p (ix2 i k) := by
  unfold KernelIdeal.KFn.rows
  refine concatenate_apply_piece (t := KernelIdeal.S557056x3) (0 : Fin 2) [⟨KernelIdeal.S32768x3, p⟩, ⟨KernelIdeal.S262144x3, q⟩, ⟨KernelIdeal.S262144x3, r⟩] _ _ 0 (show 0 < 3 by decide) KernelIdeal.S32768x3 p rfl rfl 0 rfl (ix2 i k)
    (fun b hb => ?_) ?_
  · rcases fin2_cases b with rfl | rfl
    · exact absurd rfl hb
    · rfl
  · show 0 + i.val = i.val
    omega

/-- Rows 32768 … 294911 of the stack are the second block. -/
theorem rows_apply_mid (p : FVec F KernelIdeal.S32768x3 .f32) (q r : FVec F KernelIdeal.S262144x3 .f32)
    (i : Fin 262144) (k : Fin 3) :
    KernelIdeal.KFn.rows p q r (ix2 (⟨32768 + i.val, by omega⟩ : Fin 557056) k) = q (ix2 i k) := by
  unfold KernelIdeal.KFn.rows
  refine concatenate_apply_piece (t := KernelIdeal.S557056x3) (0 : Fin 2) [⟨KernelIdeal.S32768x3, p⟩, ⟨KernelIdeal.S262144x3, q⟩, ⟨KernelIdeal.S262144x3, r⟩] _ _ 1 (show 1 < 3 by decide) KernelIdeal.S262144x3 q rfl rfl 32768 (by simp) (ix2 i k)
    (fun b hb => ?_) ?_
  · rcases fin2_cases b with rfl | rfl
    · exact absurd rfl hb
    · rfl
  · rfl

/-- Rows 294912 … 557055 of the stack are the third block. -/
theorem rows_apply_hi (p : FVec F KernelIdeal.S32768x3 .f32) (q r : FVec F KernelIdeal.S262144x3 .f32)
    (i : Fin 262144) (k : Fin 3) :
    KernelIdeal.KFn.rows p q r (ix2 (⟨294912 + i.val, by omega⟩ : Fin 557056) k) = r (ix2 i k) := by
  unfold KernelIdeal.KFn.rows
  refine concatenate_apply_piece (t := KernelIdeal.S557056x3) (0 : Fin 2) [⟨KernelIdeal.S32768x3, p⟩, ⟨KernelIdeal.S262144x3, q⟩, ⟨KernelIdeal.S262144x3, r⟩] _ _ 2 (show 2 < 3 by decide) KernelIdeal.S262144x3 r rfl rfl 294912 (by simp) (ix2 i k)
    (fun b hb => ?_) ?_
  · rcases fin2_cases b with rfl | rfl
    · exact absurd rfl hb
    · rfl
  · rfl

/-- The first slice of the stacked output column, entry by entry. -/
theorem predOf_apply (o : FVec F KernelIdeal.S557056x1 .f32) (i : Fin 32768) :
    KernelIdeal.KFn.predOf o (ix1 i) = o (ix2 (⟨i.val, by omega⟩ : Fin 557056) (0 : Fin 1)) := by
  unfold KernelIdeal.KFn.predOf
  refine (extractStridedSlice_apply _ _ _ (ix1 i) (ix1 (⟨i.val, by omega⟩ : Fin 557056)) fun a => ?_).trans ?_
  · match a with
    | ⟨0, _⟩ =>
      show i.val = 0 + i.val
      omega
  · refine shapeCast_apply o _ _ _ ?_
    rw [Shape.rowMajor_val_two, Shape.rowMajor_val_one]
    show i.val * 1 + 0 = i.val
    omega

/-- The second slice, as rows of 8: entry (i, j) is entry 32768 + 8 i + j of the column. -/
theorem psOf_apply (o : FVec F KernelIdeal.S557056x1 .f32) (i : Fin 32768) (j : Fin 8) :
    KernelIdeal.KFn.psOf o (ix2 i j)
      = o (ix2 (⟨32768 + 8 * i.val + j.val, by omega⟩ : Fin 557056) (0 : Fin 1)) := by
  unfold KernelIdeal.KFn.psOf
  refine (shapeCast_apply _ _ (ix2 i j) (ix1 (⟨8 * i.val + j.val, by omega⟩ : Fin 262144)) ?_).trans ?_
  · rw [Shape.rowMajor_val_two, Shape.rowMajor_val_one]
    show 8 * i.val + j.val = i.val * 8 + j.val
    omega
  refine (extractStridedSlice_apply _ _ _ _ (ix1 (⟨32768 + (8 * i.val + j.val), by omega⟩ : Fin 557056)) fun a => ?_).trans ?_
  · match a with
    | ⟨0, _⟩ => rfl
  · refine shapeCast_apply o _ _ _ ?_
    rw [Shape.rowMajor_val_two, Shape.rowMajor_val_one]
    show (32768 + 8 * i.val + j.val) * 1 + 0 = 32768 + (8 * i.val + j.val)
    omega

/-- The third slice, as rows of 8: entry (i, j) is entry 294912 + 8 i + j of the column. -/
theorem pnOf_apply (o : FVec F KernelIdeal.S557056x1 .f32) (i : Fin 32768) (j : Fin 8) :
    KernelIdeal.KFn.pnOf o (ix2 i j)
      = o (ix2 (⟨294912 + 8 * i.val + j.val, by omega⟩ : Fin 557056) (0 : Fin 1)) := by
  unfold KernelIdeal.KFn.pnOf
  refine (shapeCast_apply _ _ (ix2 i j) (ix1 (⟨8 * i.val + j.val, by omega⟩ : Fin 262144)) ?_).trans ?_
  · rw [Shape.rowMajor_val_two, Shape.rowMajor_val_one]
    show 8 * i.val + j.val = i.val * 8 + j.val
    omega
  refine (extractStridedSlice_apply _ _ _ _ (ix1 (⟨294912 + (8 * i.val + j.val), by omega⟩ : Fin 557056)) fun a => ?_).trans ?_
  · match a with
    | ⟨0, _⟩ => rfl
  · refine shapeCast_apply o _ _ _ ?_
    rw [Shape.rowMajor_val_two, Shape.rowMajor_val_one]
    show (294912 + 8 * i.val + j.val) * 1 + 0 = 294912 + (8 * i.val + j.val)
    omega

/-- The reference's 32768 × 1 column as a vector, entry by entry. -/
theorem predOfR_apply (o : FVec F ReferenceIdeal.S32768x1 .f32) (i : Fin 32768) :
    ReferenceIdeal.RFn.predOf o (ix1 i) = o (ix2 i (0 : Fin 1)) := by
  unfold ReferenceIdeal.RFn.predOf
  refine shapeCast_apply o _ _ _ ?_
  rw [Shape.rowMajor_val_two, Shape.rowMajor_val_one]
  show i.val * 1 + 0 = i.val
  omega

/-- The reference's 262144 × 1 column as rows of 8: entry (i, j) is entry 8 i + j. -/
theorem psOfR_apply (o : FVec F ReferenceIdeal.S262144x1 .f32) (i : Fin 32768) (j : Fin 8) :
    ReferenceIdeal.RFn.psOf o (ix2 i j) = o (ix2 (⟨8 * i.val + j.val, by omega⟩ : Fin 262144) (0 : Fin 1)) := by
  unfold ReferenceIdeal.RFn.psOf
  refine shapeCast_apply o _ _ _ ?_
  rw [Shape.rowMajor_val_two, Shape.rowMajor_val_two]
  show (8 * i.val + j.val) * 1 + 0 = i.val * 8 + j.val
  omega

/-- The same for the second 262144 × 1 column. -/
theorem pnOfR_apply (o : FVec F ReferenceIdeal.S262144x1 .f32) (i : Fin 32768) (j : Fin 8) :
    ReferenceIdeal.RFn.pnOf o (ix2 i j) = o (ix2 (⟨8 * i.val + j.val, by omega⟩ : Fin 262144) (0 : Fin 1)) := by
  unfold ReferenceIdeal.RFn.pnOf
  refine shapeCast_apply o _ _ _ ?_
  rw [Shape.rowMajor_val_two, Shape.rowMajor_val_two]
  show (8 * i.val + j.val) * 1 + 0 = i.val * 8 + j.val
  omega

end Cert.PlumbEq

end
-- ==== Proof.ReferenceMlp.lean ====
/-
  The reference's perceptron stages, composed as @main composes them, read at one row: the perceptron of that row.
-/
import proofs.«182125_j62079457296719_1_alg».proof.Proof.MlpSpec
import proofs.«182125_j62079457296719_1_alg».proof.Proof.MlpLayer
import proofs.«182125_j62079457296719_1_alg».proof.ReferenceIdeal
import proofs.«182125_j62079457296719_1_alg».proof.Proof.Gen.ReferenceIdeal

noncomputable section

open scoped BigOperators

namespace Cert.ReferenceIdeal.RMlp

open Idealize.ShloMosaic Idealize.ShloMosaic.ValueIdx
open Cert.ReferenceIdeal
open Cert.ReferenceIdeal.Facts₀ Cert.ReferenceIdeal.Facts
open Cert.MlpSpec (affine hidden mlpRow)
open Cert.MlpLayer (IsPlain ref_affine ref_hidden)

section Defs
variable {F : FTy → Type} [FloatOps F]

/-- The composition of statements %29 … %47 of @main: three hidden layers (product, bias broadcast to one row and then
    to every row, sum, hyperbolic tangent) and the affine output, on 32768 rows. -/
def mlpA (X : FVec F S32768x3 .f32) (W1 : FVec F S3x128 .f32) (b1 : FVec F S128 .f32) (W2 : FVec F S128x128 .f32)
    (b2 : FVec F S128 .f32) (W3 : FVec F S128x128 .f32) (b3 : FVec F S128 .f32) (W4 : FVec F S128x1 .f32)
    (b4 : FVec F S1 .f32) : FVec F S32768x1 .f32 :=
  addf
    (Host.dotGeneral dot_S32768x128_S128x1_S32768x1_1_0_0_1_n_n none
      (Host.tanh
        (addf
          (Host.dotGeneral dot_S32768x128_S128x128_S32768x128_1_0_0_1_n_n none
            (Host.tanh
              (addf
                (Host.dotGeneral dot_S32768x128_S128x128_S32768x128_1_0_0_1_n_n none
                  (Host.tanh
                    (addf
                      (Host.dotGeneral dot_S32768x3_S3x128_S32768x128_1_0_0_1_n_n none X W1)
                      (broadcastInDim S32768x128 ![0, 1] bcast_S1x128_S32768x128_0_1
                        (broadcastInDim S1x128 ![1] bcast_S128_S1x128_1 b1))))
                  W2)
                (broadcastInDim S32768x128 ![0, 1] bcast_S1x128_S32768x128_0_1
                  (broadcastInDim S1x128 ![1] bcast_S128_S1x128_1 b2))))
            W3)
          (broadcastInDim S32768x128 ![0, 1] bcast_S1x128_S32768x128_0_1
            (broadcastInDim S1x128 ![1] bcast_S128_S1x128_1 b3))))
      W4)
    (broadcastInDim S32768x1 ![0, 1] bcast_S1x1_S32768x1_0_1
      (broadcastInDim S1x1 ![1] bcast_S1_S1x1_1 b4))

/-- The composition of statements %109 … %127 of @main: three hidden layers (product, bias broadcast to one row and then
    to every row, sum, hyperbolic tangent) and the affine output, on 262144 rows. -/
def mlpB (X : FVec F S262144x3 .f32) (W1 : FVec F S3x128 .f32) (b1 : FVec F S128 .f32) (W2 : FVec F S128x128 .f32)
    (b2 : FVec F S128 .f32) (W3 : FVec F S128x128 .f32) (b3 : FVec F S128 .f32) (W4 : FVec F S128x1 .f32)
    (b4 : FVec F S1 .f32) : FVec F S262144x1 .f32 :=
  addf
    (Host.dotGeneral dot_S262144x128_S128x1_S262144x1_1_0_0_1_n_n none
      (Host.tanh
        (addf
          (Host.dotGeneral dot_S262144x128_S128x128_S262144x128_1_0_0_1_n_n none
            (Host.tanh
              (addf
                (Host.dotGeneral dot_S262144x128_S128x128_S262144x128_1_0_0_1_n_n none
                  (Host.tanh
                    (addf
                      (Host.dotGeneral dot_S262144x3_S3x128_S262144x128_1_0_0_1_n_n none X W1)
                      (broadcastInDim S262144x128 ![0, 1] bcast_S1x128_S262144x128_0_1
                        (broadcastInDim S1x128 ![1] bcast_S128_S1x128_1 b1))))
                  W2)
                (broadcastInDim S262144x128 ![0, 1] bcast_S1x128_S262144x128_0_1
                  (broadcastInDim S1x128 ![1] bcast_S128_S1x128_1 b2))))
            W3)
          (broadcastInDim S262144x128 ![0, 1] bcast_S1x128_S262144x128_0_1
            (broadcastInDim S1x128 ![1] bcast_S128_S1x128_1 b3))))
      W4)
    (broadcastInDim S262144x1 ![0, 1] bcast_S1x1_S262144x1_0_1
      (broadcastInDim S1x1 ![1] bcast_S1_S1x1_1 b4))

end Defs

/-- The reference's six products are plain matrix products. -/
theorem plainA_3_128 : IsPlain (m := 32768) (k := 3) (n := 128) dot_S32768x3_S3x128_S32768x128_1_0_0_1_n_n :=
  ⟨rfl, rfl, rfl, rfl, rfl, rfl⟩
theorem plainA_128_128 : IsPlain (m := 32768) (k := 128) (n := 128) dot_S32768x128_S128x128_S32768x128_1_0_0_1_n_n :=
  ⟨rfl, rfl, rfl, rfl, rfl, rfl⟩
theorem plainA_128_1 : IsPlain (m := 32768) (k := 128) (n := 1) dot_S32768x128_S128x1_S32768x1_1_0_0_1_n_n :=
  ⟨rfl, rfl, rfl, rfl, rfl, rfl⟩
theorem plainB_3_128 : IsPlain (m := 262144) (k := 3) (n := 128) dot_S262144x3_S3x128_S262144x128_1_0_0_1_n_n :=
  ⟨rfl, rfl, rfl, rfl, rfl, rfl⟩
theorem plainB_128_128 : IsPlain (m := 262144) (k := 128) (n := 128) dot_S262144x128_S128x128_S262144x128_1_0_0_1_n_n :=
  ⟨rfl, rfl, rfl, rfl, rfl, rfl⟩
theorem plainB_128_1 : IsPlain (m := 262144) (k := 128) (n := 1) dot_S262144x128_S128x1_S262144x1_1_0_0_1_n_n :=
  ⟨rfl, rfl, rfl, rfl, rfl, rfl⟩

theorem mlpA_apply (X : FVec Ideal S32768x3 .f32) (W1 : FVec Ideal S3x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x1 .f32) (b4 : FVec Ideal S1 .f32) (i : Fin 32768) :
    mlpA (F := Ideal) X W1 b1 W2 b2 W3 b3 W4 b4 (ix2 i (0 : Fin 1))
      = Cert.MlpSpec.mlpRow W1 b1 W2 b2 W3 b3 W4 b4 (fun k => X (ix2 i k)) := by
  unfold mlpA
  refine (ref_affine (m := 32768) (k := 128) (n := 1) _ plainA_128_1 none _ W4 b4 _ _ i (0 : Fin 1)).trans ?_
  refine congrArg (fun h => affine W4 b4 h (0 : Fin 1)) (funext fun c3 => ?_)
  refine (ref_hidden (m := 32768) (k := 128) (n := 128) _ plainA_128_128 none _ W3 b3 _ _ i c3).trans ?_
  refine congrArg (fun h => hidden W3 b3 h c3) (funext fun c2 => ?_)
  refine (ref_hidden (m := 32768) (k := 128) (n := 128) _ plainA_128_128 none _ W2 b2 _ _ i c2).trans ?_
  refine congrArg (fun h => hidden W2 b2 h c2) (funext fun c1 => ?_)
  exact ref_hidden (m := 32768) (k := 3) (n := 128) _ plainA_3_128 none X W1 b1 _ _ i c1

theorem mlpB_apply (X : FVec Ideal S262144x3 .f32) (W1 : FVec Ideal S3x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x1 .f32) (b4 : FVec Ideal S1 .f32) (i : Fin 262144) :
    mlpB (F := Ideal) X W1 b1 W2 b2 W3 b3 W4 b4 (ix2 i (0 : Fin 1))
      = Cert.MlpSpec.mlpRow W1 b1 W2 b2 W3 b3 W4 b4 (fun k => X (ix2 i k)) := by
  unfold mlpB
  refine (ref_affine (m := 262144) (k := 128) (n := 1) _ plainB_128_1 none _ W4 b4 _ _ i (0 : Fin 1)).trans ?_
  refine congrArg (fun h => affine W4 b4 h (0 : Fin 1)) (funext fun c3 => ?_)
  refine (ref_hidden (m := 262144) (k := 128) (n := 128) _ plainB_128_128 none _ W3 b3 _ _ i c3).trans ?_
  refine congrArg (fun h => hidden W3 b3 h c3) (funext fun c2 => ?_)
  refine (ref_hidden (m := 262144) (k := 128) (n := 128) _ plainB_128_128 none _ W2 b2 _ _ i c2).trans ?_
  refine congrArg (fun h => hidden W2 b2 h c2) (funext fun c1 => ?_)
  exact ref_hidden (m := 262144) (k := 3) (n := 128) _ plainB_3_128 none X W1 b1 _ _ i c1

end Cert.ReferenceIdeal.RMlp

end
-- ==== Proof.ReferenceValue.lean ====
/-
  The value the reference program's @main leaves in its result buffer, read off its operations stretch by stretch:
  each stretch's result buffer as a named function of the buffers the stretch reads, what each stretch leaves
  untouched, and the chained value of the whole line in terms of the arguments at launch and of the three
  integer-index buffers (the clipped staggered indices, the clipped neighbour indices, the interior mask).
-/
import proofs.«182125_j62079457296719_1_alg».proof.Proof.ReferenceOps
import proofs.«182125_j62079457296719_1_alg».proof.Proof.ReferencePlumb
import proofs.«182125_j62079457296719_1_alg».proof.Proof.ReferenceMlp
import proofs.«182125_j62079457296719_1_alg».proof.Proof.KernelTail
import Idealize.ShloMosaic.Lib.Pipeline.Frame

set_option maxRecDepth 8192

noncomputable section

namespace Cert.ReferenceIdeal.RVal

open Cert.ReferenceIdeal Cert.ReferenceIdeal.RefRun Idealize.ShloMosaic Idealize.ShloMosaic.TcCoe Idealize.SL.Sem Idealize.ShloMosaic.StableHlo

variable {F : FTy → Type} [FloatOps F]

/-! ## What each stretch leaves untouched -/

/-- A reference that stretch 1a does not write holds after the stretch what it held before. -/
theorem keep1a (W : Valuation τ sig (Elt F)) {r : Ref sig .tc} (hr : r ∉ (wr1a : List (Ref sig .tc))) :
    after (seg1a (F := F)) W (Proc.devRef .tc r) = W (Proc.devRef .tc r) :=
  after_of_writes_sub seg1a W seg1a_writes hr

/-- A reference that stretch 1b does not write holds after the stretch what it held before. -/
theorem keep1b (W : Valuation τ sig (Elt F)) {r : Ref sig .tc} (hr : r ∉ (wr1b : List (Ref sig .tc))) :
    after (seg1b (F := F)) W (Proc.devRef .tc r) = W (Proc.devRef .tc r) :=
  after_of_writes_sub seg1b W seg1b_writes hr

/-- A reference that stretch 2 does not write holds after the stretch what it held before. -/
theorem keep2 (W : Valuation τ sig (Elt F)) {r : Ref sig .tc} (hr : r ∉ (wr2 : List (Ref sig .tc))) :
    after (seg2 (F := F)) W (Proc.devRef .tc r) = W (Proc.devRef .tc r) :=
  after_of_writes_sub seg2 W seg2_writes hr

/-- A reference that stretch 3 does not write holds after the stretch what it held before. -/
theorem keep3 (W : Valuation τ sig (Elt F)) {r : Ref sig .tc} (hr : r ∉ (wr3 : List (Ref sig .tc))) :
    after (seg3 (F := F)) W (Proc.devRef .tc r) = W (Proc.devRef .tc r) :=
  after_of_writes_sub seg3 W seg3_writes hr

/-- A reference that stretch 4 does not write holds after the stretch what it held before. -/
theorem keep4 (W : Valuation τ sig (Elt F)) {r : Ref sig .tc} (hr : r ∉ (wr4 : List (Ref sig .tc))) :
    after (seg4 (F := F)) W (Proc.devRef .tc r) = W (Proc.devRef .tc r) :=
  after_of_writes_sub seg4 W seg4_writes hr

/-- A reference that stretch 5 does not write holds after the stretch what it held before. -/
theorem keep5 (W : Valuation τ sig (Elt F)) {r : Ref sig .tc} (hr : r ∉ (wr5 : List (Ref sig .tc))) :
    after (seg5 (F := F)) W (Proc.devRef .tc r) = W (Proc.devRef .tc r) :=
  after_of_writes_sub seg5 W seg5_writes hr

/-- A reference that stretch 6 does not write holds after the stretch what it held before. -/
theorem keep6 (W : Valuation τ sig (Elt F)) {r : Ref sig .tc} (hr : r ∉ (wr6 : List (Ref sig .tc))) :
    after (seg6 (F := F)) W (Proc.devRef .tc r) = W (Proc.devRef .tc r) :=
  after_of_writes_sub seg6 W seg6_writes hr

/-- A reference that stretch 7 does not write holds after the stretch what it held before. -/
theorem keep7 (W : Valuation τ sig (Elt F)) {r : Ref sig .tc} (hr : r ∉ (wr7 : List (Ref sig .tc))) :
    after (seg7 (F := F)) W (Proc.devRef .tc r) = W (Proc.devRef .tc r) :=
  after_of_writes_sub seg7 W seg7_writes hr

/-- A reference that stretch 8 does not write holds after the stretch what it held before. -/
theorem keep8 (W : Valuation τ sig (Elt F)) {r : Ref sig .tc} (hr : r ∉ (wr8 : List (Ref sig .tc))) :
    after (seg8 (F := F)) W (Proc.devRef .tc r) = W (Proc.devRef .tc r) :=
  after_of_writes_sub seg8 W seg8_writes hr

/-- A reference that stretch 9 does not write holds after the stretch what it held before. -/
theorem keep9 (W : Valuation τ sig (Elt F)) {r : Ref sig .tc} (hr : r ∉ (wr9 : List (Ref sig .tc))) :
    after (seg9 (F := F)) W (Proc.devRef .tc r) = W (Proc.devRef .tc r) :=
  after_of_writes_sub seg9 W seg9_writes hr

/-- A reference that stretch 10 does not write holds after the stretch what it held before. -/
theorem keep10 (W : Valuation τ sig (Elt F)) {r : Ref sig .tc} (hr : r ∉ (wr10 : List (Ref sig .tc))) :
    after (seg10 (F := F)) W (Proc.devRef .tc r) = W (Proc.devRef .tc r) :=
  after_of_writes_sub seg10 W seg10_writes hr

/-- A reference that stretch 11 does not write holds after the stretch what it held before. -/
theorem keep11 (W : Valuation τ sig (Elt F)) {r : Ref sig .tc} (hr : r ∉ (wr11 : List (Ref sig .tc))) :
    after (seg11 (F := F)) W (Proc.devRef .tc r) = W (Proc.devRef .tc r) :=
  after_of_writes_sub seg11 W seg11_writes hr

/-- A reference that stretch 12 does not write holds after the stretch what it held before. -/
theorem keep12 (W : Valuation τ sig (Elt F)) {r : Ref sig .tc} (hr : r ∉ (wr12 : List (Ref sig .tc))) :
    after (seg12 (F := F)) W (Proc.devRef .tc r) = W (Proc.devRef .tc r) :=
  after_of_writes_sub seg12 W seg12_writes hr

/-- A reference that stretch 13 does not write holds after the stretch what it held before. -/
theorem keep13 (W : Valuation τ sig (Elt F)) {r : Ref sig .tc} (hr : r ∉ (wr13 : List (Ref sig .tc))) :
    after (seg13 (F := F)) W (Proc.devRef .tc r) = W (Proc.devRef .tc r) :=
  after_of_writes_sub seg13 W seg13_writes hr

/-! ## Each stretch's result -/

set_option maxHeartbeats 8000000 in
/-- The centre rows: the table's rows at the wrapped centre indices. -/
theorem seg2_v28 (W : Valuation τ sig (Elt F)) :
    after (seg2 (F := F)) W (Proc.devRef .tc main_v28)
      = RFn.wrapGather0 (W (Proc.devRef .tc main_arg0)) (W (Proc.devRef .tc main_arg12)) := by
  after_results_simp
  rfl

set_option maxHeartbeats 8000000 in
/-- The network at the centre rows, as a vector. -/
theorem seg3_v48 (W : Valuation τ sig (Elt F)) :
    after (seg3 (F := F)) W (Proc.devRef .tc main_v48)
      = RFn.predOf (RMlp.mlpA (W (Proc.devRef .tc main_v28)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11))) := by
  after_results_simp
  rfl

set_option maxHeartbeats 8000000 in
/-- The data table's entries at the centres. -/
theorem seg4_v56 (W : Valuation τ sig (Elt F)) :
    after (seg4 (F := F)) W (Proc.devRef .tc main_v56)
      = Cert.KernelIdeal.KTail.fcOf (W (Proc.devRef .tc main_arg1)) (W (Proc.devRef .tc main_arg12)) := by
  after_results_simp
  rfl

set_option maxHeartbeats 8000000 in
/-- The data-fit term. -/
theorem seg5_v60 (W : Valuation τ sig (Elt F)) :
    after (seg5 (F := F)) W (Proc.devRef .tc main_v60)
      = Cert.KernelIdeal.KTail.lossE (W (Proc.devRef .tc main_v48)) (W (Proc.devRef .tc main_v56)) := by
  after_results_simp
  rfl

set_option maxHeartbeats 8000000 in
/-- The staggered neighbours' rows, flattened. -/
theorem seg7_v108 (W : Valuation τ sig (Elt F)) :
    after (seg7 (F := F)) W (Proc.devRef .tc main_v108)
      = RFn.gather3d2 (W (Proc.devRef .tc main_arg2)) (W (Proc.devRef .tc main_v87)) := by
  after_results_simp
  rfl

set_option maxHeartbeats 8000000 in
/-- The network at the staggered neighbours, eight per centre. -/
theorem seg8_v128 (W : Valuation τ sig (Elt F)) :
    after (seg8 (F := F)) W (Proc.devRef .tc main_v128)
      = RFn.psOf (RMlp.mlpB (W (Proc.devRef .tc main_v108)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11))) := by
  after_results_simp
  rfl

set_option maxHeartbeats 8000000 in
/-- The full-mesh neighbours' rows, flattened. -/
theorem seg9_v136 (W : Valuation τ sig (Elt F)) :
    after (seg9 (F := F)) W (Proc.devRef .tc main_v136)
      = RFn.gather3d0 (W (Proc.devRef .tc main_arg0)) (W (Proc.devRef .tc main_v100)) := by
  after_results_simp
  rfl

set_option maxHeartbeats 8000000 in
/-- The network at the full-mesh neighbours, eight per centre. -/
theorem seg10_v156 (W : Valuation τ sig (Elt F)) :
    after (seg10 (F := F)) W (Proc.devRef .tc main_v156)
      = RFn.pnOf (RMlp.mlpB (W (Proc.devRef .tc main_v136)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11))) := by
  after_results_simp
  rfl

set_option maxHeartbeats 8000000 in
/-- The returned scalar from the data-fit term, the two groups of neighbour outputs, the mask, the Laplacian table and the centre indices. -/
theorem seg11_13_v227 (W : Valuation τ sig (Elt F)) :
    after (seg11 ++ (seg12 ++ seg13) : List (HloOp τ sig (Elt F))) W (Proc.devRef .tc main_v227)
      = addf (W (Proc.devRef .tc main_v60)) (Cert.KernelIdeal.KTail.lossM (Cert.KernelIdeal.KTail.laplOf (W (Proc.devRef .tc main_arg3)) (W (Proc.devRef .tc main_arg12))) (Cert.KernelIdeal.KTail.lapPred (W (Proc.devRef .tc main_v128)) (W (Proc.devRef .tc main_v156))) (W (Proc.devRef .tc main_v21))) := by
  rw [StableHlo.after_append, StableHlo.after_append]
  after_results_simp
  rfl

/-! ## The contents stretch by stretch

`stK M` is what the line's first stretches, through stretch K, leave from launch contents `M`. -/

/-- The contents after stretch 1a. -/
def st1a (M : Valuation τ sig (Elt F)) : Valuation τ sig (Elt F) := after (seg1a (F := F)) (M)
theorem st1a_keep (M : Valuation τ sig (Elt F)) {r : Ref sig .tc} (hr : r ∉ (wr1a : List (Ref sig .tc))) :
    st1a M (Proc.devRef .tc r) = M (Proc.devRef .tc r) :=
  keep1a (M) hr
/-- The contents after stretch 1b. -/
def st1b (M : Valuation τ sig (Elt F)) : Valuation τ sig (Elt F) := after (seg1b (F := F)) (st1a M)
theorem st1b_keep (M : Valuation τ sig (Elt F)) {r : Ref sig .tc} (hr : r ∉ (wr1b : List (Ref sig .tc))) :
    st1b M (Proc.devRef .tc r) = st1a M (Proc.devRef .tc r) :=
  keep1b (st1a M) hr
/-- The contents after stretch 2. -/
def st2 (M : Valuation τ sig (Elt F)) : Valuation τ sig (Elt F) := after (seg2 (F := F)) (st1b M)
theorem st2_keep (M : Valuation τ sig (Elt F)) {r : Ref sig .tc} (hr : r ∉ (wr2 : List (Ref sig .tc))) :
    st2 M (Proc.devRef .tc r) = st1b M (Proc.devRef .tc r) :=
  keep2 (st1b M) hr
/-- The contents after stretch 3. -/
def st3 (M : Valuation τ sig (Elt F)) : Valuation τ sig (Elt F) := after (seg3 (F := F)) (st2 M)
theorem st3_keep (M : Valuation τ sig (Elt F)) {r : Ref sig .tc} (hr : r ∉ (wr3 : List (Ref sig .tc))) :
    st3 M (Proc.devRef .tc r) = st2 M (Proc.devRef .tc r) :=
  keep3 (st2 M) hr
/-- The contents after stretch 4. -/
def st4 (M : Valuation τ sig (Elt F)) : Valuation τ sig (Elt F) := after (seg4 (F := F)) (st3 M)
theorem st4_keep (M : Valuation τ sig (Elt F)) {r : Ref sig .tc} (hr : r ∉ (wr4 : List (Ref sig .tc))) :
    st4 M (Proc.devRef .tc r) = st3 M (Proc.devRef .tc r) :=
  keep4 (st3 M) hr
/-- The contents after stretch 5. -/
def st5 (M : Valuation τ sig (Elt F)) : Valuation τ sig (Elt F) := after (seg5 (F := F)) (st4 M)
theorem st5_keep (M : Valuation τ sig (Elt F)) {r : Ref sig .tc} (hr : r ∉ (wr5 : List (Ref sig .tc))) :
    st5 M (Proc.devRef .tc r) = st4 M (Proc.devRef .tc r) :=
  keep5 (st4 M) hr
/-- The contents after stretch 6. -/
def st6 (M : Valuation τ sig (Elt F)) : Valuation τ sig (Elt F) := after (seg6 (F := F)) (st5 M)
theorem st6_keep (M : Valuation τ sig (Elt F)) {r : Ref sig .tc} (hr : r ∉ (wr6 : List (Ref sig .tc))) :
    st6 M (Proc.devRef .tc r) = st5 M (Proc.devRef .tc r) :=
  keep6 (st5 M) hr
/-- The contents after stretch 7. -/
def st7 (M : Valuation τ sig (Elt F)) : Valuation τ sig (Elt F) := after (seg7 (F := F)) (st6 M)
theorem st7_keep (M : Valuation τ sig (Elt F)) {r : Ref sig .tc} (hr : r ∉ (wr7 : List (Ref sig .tc))) :
    st7 M (Proc.devRef .tc r) = st6 M (Proc.devRef .tc r) :=
  keep7 (st6 M) hr
/-- The contents after stretch 8. -/
def st8 (M : Valuation τ sig (Elt F)) : Valuation τ sig (Elt F) := after (seg8 (F := F)) (st7 M)
theorem st8_keep (M : Valuation τ sig (Elt F)) {r : Ref sig .tc} (hr : r ∉ (wr8 : List (Ref sig .tc))) :
    st8 M (Proc.devRef .tc r) = st7 M (Proc.devRef .tc r) :=
  keep8 (st7 M) hr
/-- The contents after stretch 9. -/
def st9 (M : Valuation τ sig (Elt F)) : Valuation τ sig (Elt F) := after (seg9 (F := F)) (st8 M)
theorem st9_keep (M : Valuation τ sig (Elt F)) {r : Ref sig .tc} (hr : r ∉ (wr9 : List (Ref sig .tc))) :
    st9 M (Proc.devRef .tc r) = st8 M (Proc.devRef .tc r) :=
  keep9 (st8 M) hr
/-- The contents after stretch 10. -/
def st10 (M : Valuation τ sig (Elt F)) : Valuation τ sig (Elt F) := after (seg10 (F := F)) (st9 M)
theorem st10_keep (M : Valuation τ sig (Elt F)) {r : Ref sig .tc} (hr : r ∉ (wr10 : List (Ref sig .tc))) :
    st10 M (Proc.devRef .tc r) = st9 M (Proc.devRef .tc r) :=
  keep10 (st9 M) hr

/-- The whole line is its first eleven stretches, then the last three. -/
theorem refOps_run (M : Valuation τ sig (Elt F)) :
    after (refOps (F := F)) M = after (seg11 ++ (seg12 ++ seg13) : List (HloOp τ sig (Elt F))) (st10 M) := by
  unfold refOps st10 st9 st8 st7 st6 st5 st4 st3 st2 st1b st1a
  simp only [StableHlo.after_append]

/-- A reference none of the last three stretches writes keeps its contents through them. -/
theorem keepTail (W : Valuation τ sig (Elt F)) {r : Ref sig .tc} (h11 : r ∉ (wr11 : List (Ref sig .tc)))
    (h12 : r ∉ (wr12 : List (Ref sig .tc))) (h13 : r ∉ (wr13 : List (Ref sig .tc))) :
    after (seg11 ++ (seg12 ++ seg13) : List (HloOp τ sig (Elt F))) W (Proc.devRef .tc r) = W (Proc.devRef .tc r) := by
  rw [StableHlo.after_append, StableHlo.after_append, keep13 _ h13, keep12 _ h12, keep11 _ h11]

/-! ## The arguments

No stretch writes an argument, so every stage reads an argument as launch left it. -/

/-- The thirteen arguments. -/
abbrev argRefs : List (Ref sig .tc) := [main_arg0, main_arg1, main_arg2, main_arg3, main_arg4, main_arg5, main_arg6, main_arg7, main_arg8, main_arg9, main_arg10, main_arg11, main_arg12]

theorem argRefs_unwritten : ∀ r ∈ (argRefs : List (Ref sig .tc)),
    r ∉ (wr1a : List (Ref sig .tc)) ∧ r ∉ (wr1b : List (Ref sig .tc)) ∧ r ∉ (wr2 : List (Ref sig .tc)) ∧ r ∉ (wr3 : List (Ref sig .tc)) ∧ r ∉ (wr4 : List (Ref sig .tc)) ∧ r ∉ (wr5 : List (Ref sig .tc)) ∧ r ∉ (wr6 : List (Ref sig .tc)) ∧ r ∉ (wr7 : List (Ref sig .tc)) ∧ r ∉ (wr8 : List (Ref sig .tc)) ∧ r ∉ (wr9 : List (Ref sig .tc)) ∧ r ∉ (wr10 : List (Ref sig .tc)) := by
  decide
theorem st1a_arg (M : Valuation τ sig (Elt F)) {r : Ref sig .tc} (hr : r ∈ (argRefs : List (Ref sig .tc))) :
    st1a M (Proc.devRef .tc r) = M (Proc.devRef .tc r) :=
  st1a_keep M (argRefs_unwritten r hr).1
theorem st1b_arg (M : Valuation τ sig (Elt F)) {r : Ref sig .tc} (hr : r ∈ (argRefs : List (Ref sig .tc))) :
    st1b M (Proc.devRef .tc r) = M (Proc.devRef .tc r) :=
  (st1b_keep M (argRefs_unwritten r hr).2.1).trans (st1a_arg M hr)
theorem st2_arg (M : Valuation τ sig (Elt F)) {r : Ref sig .tc} (hr : r ∈ (argRefs : List (Ref sig .tc))) :
    st2 M (Proc.devRef .tc r) = M (Proc.devRef .tc r) :=
  (st2_keep M (argRefs_unwritten r hr).2.2.1).trans (st1b_arg M hr)
theorem st3_arg (M : Valuation τ sig (Elt F)) {r : Ref sig .tc} (hr : r ∈ (argRefs : List (Ref sig .tc))) :
    st3 M (Proc.devRef .tc r) = M (Proc.devRef .tc r) :=
  (st3_keep M (argRefs_unwritten r hr).2.2.2.1).trans (st2_arg M hr)
theorem st4_arg (M : Valuation τ sig (Elt F)) {r : Ref sig .tc} (hr : r ∈ (argRefs : List (Ref sig .tc))) :
    st4 M (Proc.devRef .tc r) = M (Proc.devRef .tc r) :=
  (st4_keep M (argRefs_unwritten r hr).2.2.2.2.1).trans (st3_arg M hr)
theorem st5_arg (M : Valuation τ sig (Elt F)) {r : Ref sig .tc} (hr : r ∈ (argRefs : List (Ref sig .tc))) :
    st5 M (Proc.devRef .tc r) = M (Proc.devRef .tc r) :=
  (st5_keep M (argRefs_unwritten r hr).2.2.2.2.2.1).trans (st4_arg M hr)
theorem st6_arg (M : Valuation τ sig (Elt F)) {r : Ref sig .tc} (hr : r ∈ (argRefs : List (Ref sig .tc))) :
    st6 M (Proc.devRef .tc r) = M (Proc.devRef .tc r) :=
  (st6_keep M (argRefs_unwritten r hr).2.2.2.2.2.2.1).trans (st5_arg M hr)
theorem st7_arg (M : Valuation τ sig (Elt F)) {r : Ref sig .tc} (hr : r ∈ (argRefs : List (Ref sig .tc))) :
    st7 M (Proc.devRef .tc r) = M (Proc.devRef .tc r) :=
  (st7_keep M (argRefs_unwritten r hr).2.2.2.2.2.2.2.1).trans (st6_arg M hr)
theorem st8_arg (M : Valuation τ sig (Elt F)) {r : Ref sig .tc} (hr : r ∈ (argRefs : List (Ref sig .tc))) :
    st8 M (Proc.devRef .tc r) = M (Proc.devRef .tc r) :=
  (st8_keep M (argRefs_unwritten r hr).2.2.2.2.2.2.2.2.1).trans (st7_arg M hr)
theorem st9_arg (M : Valuation τ sig (Elt F)) {r : Ref sig .tc} (hr : r ∈ (argRefs : List (Ref sig .tc))) :
    st9 M (Proc.devRef .tc r) = M (Proc.devRef .tc r) :=
  (st9_keep M (argRefs_unwritten r hr).2.2.2.2.2.2.2.2.2.1).trans (st8_arg M hr)
theorem st10_arg (M : Valuation τ sig (Elt F)) {r : Ref sig .tc} (hr : r ∈ (argRefs : List (Ref sig .tc))) :
    st10 M (Proc.devRef .tc r) = M (Proc.devRef .tc r) :=
  (st10_keep M (argRefs_unwritten r hr).2.2.2.2.2.2.2.2.2.2).trans (st9_arg M hr)

/-! ## Each stage's result, from the arguments -/

/-- The centre rows. -/
theorem st2_v28 (M : Valuation τ sig (Elt F)) :
    st2 M (Proc.devRef .tc main_v28) = RFn.wrapGather0 (M (Proc.devRef .tc main_arg0)) (M (Proc.devRef .tc main_arg12)) := by
  rw [show st2 M (Proc.devRef .tc main_v28) = _ from seg2_v28 (st1b M), st1b_arg M (r := main_arg0) (by decide), st1b_arg M (r := main_arg12) (by decide)]

/-- The network at the centres. -/
theorem st3_v48 (M : Valuation τ sig (Elt F)) :
    st3 M (Proc.devRef .tc main_v48)
      = RFn.predOf (RMlp.mlpA (RFn.wrapGather0 (M (Proc.devRef .tc main_arg0)) (M (Proc.devRef .tc main_arg12))) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11))) := by
  rw [show st3 M (Proc.devRef .tc main_v48) = _ from seg3_v48 (st2 M), st2_v28, st2_arg M (r := main_arg4) (by decide), st2_arg M (r := main_arg5) (by decide), st2_arg M (r := main_arg6) (by decide), st2_arg M (r := main_arg7) (by decide), st2_arg M (r := main_arg8) (by decide), st2_arg M (r := main_arg9) (by decide), st2_arg M (r := main_arg10) (by decide), st2_arg M (r := main_arg11) (by decide)]

/-- The data table at the centres. -/
theorem st4_v56 (M : Valuation τ sig (Elt F)) :
    st4 M (Proc.devRef .tc main_v56) = Cert.KernelIdeal.KTail.fcOf (M (Proc.devRef .tc main_arg1)) (M (Proc.devRef .tc main_arg12)) := by
  rw [show st4 M (Proc.devRef .tc main_v56) = _ from seg4_v56 (st3 M), st3_arg M (r := main_arg1) (by decide), st3_arg M (r := main_arg12) (by decide)]

/-- The data-fit term. -/
theorem st5_v60 (M : Valuation τ sig (Elt F)) :
    st5 M (Proc.devRef .tc main_v60)
      = Cert.KernelIdeal.KTail.lossE
          (RFn.predOf (RMlp.mlpA (RFn.wrapGather0 (M (Proc.devRef .tc main_arg0)) (M (Proc.devRef .tc main_arg12))) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11))))
          (Cert.KernelIdeal.KTail.fcOf (M (Proc.devRef .tc main_arg1)) (M (Proc.devRef .tc main_arg12))) := by
  rw [show st5 M (Proc.devRef .tc main_v60) = _ from seg5_v60 (st4 M), st4_v56, st4_keep M (r := main_v48) (by decide), st3_v48]

/-- The staggered neighbours' rows, from the clipped staggered indices stretch 6 leaves. -/
theorem st7_v108 (M : Valuation τ sig (Elt F)) :
    st7 M (Proc.devRef .tc main_v108) = RFn.gather3d2 (M (Proc.devRef .tc main_arg2)) (st6 M (Proc.devRef .tc main_v87)) := by
  rw [show st7 M (Proc.devRef .tc main_v108) = _ from seg7_v108 (st6 M), st6_arg M (r := main_arg2) (by decide)]

/-- The network at the staggered neighbours. -/
theorem st8_v128 (M : Valuation τ sig (Elt F)) :
    st8 M (Proc.devRef .tc main_v128)
      = RFn.psOf (RMlp.mlpB (RFn.gather3d2 (M (Proc.devRef .tc main_arg2)) (st6 M (Proc.devRef .tc main_v87))) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11))) := by
  rw [show st8 M (Proc.devRef .tc main_v128) = _ from seg8_v128 (st7 M), st7_v108, st7_arg M (r := main_arg4) (by decide), st7_arg M (r := main_arg5) (by decide), st7_arg M (r := main_arg6) (by decide), st7_arg M (r := main_arg7) (by decide), st7_arg M (r := main_arg8) (by decide), st7_arg M (r := main_arg9) (by decide), st7_arg M (r := main_arg10) (by decide), st7_arg M (r := main_arg11) (by decide)]

/-- The full-mesh neighbours' rows, from the clipped neighbour indices stretch 6 leaves. -/
theorem st9_v136 (M : Valuation τ sig (Elt F)) :
    st9 M (Proc.devRef .tc main_v136) = RFn.gather3d0 (M (Proc.devRef .tc main_arg0)) (st6 M (Proc.devRef .tc main_v100)) := by
  rw [show st9 M (Proc.devRef .tc main_v136) = _ from seg9_v136 (st8 M), st8_arg M (r := main_arg0) (by decide), st8_keep M (r := main_v100) (by decide), st7_keep M (r := main_v100) (by decide)]

/-- The network at the full-mesh neighbours. -/
theorem st10_v156 (M : Valuation τ sig (Elt F)) :
    st10 M (Proc.devRef .tc main_v156)
      = RFn.pnOf (RMlp.mlpB (RFn.gather3d0 (M (Proc.devRef .tc main_arg0)) (st6 M (Proc.devRef .tc main_v100))) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11))) := by
  rw [show st10 M (Proc.devRef .tc main_v156) = _ from seg10_v156 (st9 M), st9_v136, st9_arg M (r := main_arg4) (by decide), st9_arg M (r := main_arg5) (by decide), st9_arg M (r := main_arg6) (by decide), st9_arg M (r := main_arg7) (by decide), st9_arg M (r := main_arg8) (by decide), st9_arg M (r := main_arg9) (by decide), st9_arg M (r := main_arg10) (by decide), st9_arg M (r := main_arg11) (by decide)]

/-! ## The whole line -/

/-- The returned scalar of the whole line, in terms of the arguments at launch and of the three integer-index
    buffers (clipped staggered indices, clipped neighbour indices, interior mask) as the line leaves them. -/
theorem ref_value (M : Valuation τ sig (Elt F)) :
    after (refOps (F := F)) M (Proc.devRef .tc main_v227)
      = addf
          (Cert.KernelIdeal.KTail.lossE
            (RFn.predOf (RMlp.mlpA (RFn.wrapGather0 (M (Proc.devRef .tc main_arg0)) (M (Proc.devRef .tc main_arg12))) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11))))
            (Cert.KernelIdeal.KTail.fcOf (M (Proc.devRef .tc main_arg1)) (M (Proc.devRef .tc main_arg12))))
          (Cert.KernelIdeal.KTail.lossM
            (Cert.KernelIdeal.KTail.laplOf (M (Proc.devRef .tc main_arg3)) (M (Proc.devRef .tc main_arg12)))
            (Cert.KernelIdeal.KTail.lapPred
              (RFn.psOf (RMlp.mlpB (RFn.gather3d2 (M (Proc.devRef .tc main_arg2)) (after (refOps (F := F)) M (Proc.devRef .tc main_v87))) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11))))
              (RFn.pnOf (RMlp.mlpB (RFn.gather3d0 (M (Proc.devRef .tc main_arg0)) (after (refOps (F := F)) M (Proc.devRef .tc main_v100))) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11)))))
            (after (refOps (F := F)) M (Proc.devRef .tc main_v21))) := by
  -- the three integer-index buffers as the line leaves them are as the stretch that wrote them left them
  have hv21 : after (refOps (F := F)) M (Proc.devRef .tc main_v21) = st1b M (Proc.devRef .tc main_v21) := by
    rw [refOps_run, keepTail _ (r := main_v21) (by decide) (by decide) (by decide), st10_keep M (r := main_v21) (by decide), st9_keep M (r := main_v21) (by decide), st8_keep M (r := main_v21) (by decide), st7_keep M (r := main_v21) (by decide), st6_keep M (r := main_v21) (by decide), st5_keep M (r := main_v21) (by decide), st4_keep M (r := main_v21) (by decide), st3_keep M (r := main_v21) (by decide), st2_keep M (r := main_v21) (by decide)]
  have hv87 : after (refOps (F := F)) M (Proc.devRef .tc main_v87) = st6 M (Proc.devRef .tc main_v87) := by
    rw [refOps_run, keepTail _ (r := main_v87) (by decide) (by decide) (by decide), st10_keep M (r := main_v87) (by decide), st9_keep M (r := main_v87) (by decide), st8_keep M (r := main_v87) (by decide), st7_keep M (r := main_v87) (by decide)]
  have hv100 : after (refOps (F := F)) M (Proc.devRef .tc main_v100) = st6 M (Proc.devRef .tc main_v100) := by
    rw [refOps_run, keepTail _ (r := main_v100) (by decide) (by decide) (by decide), st10_keep M (r := main_v100) (by decide), st9_keep M (r := main_v100) (by decide), st8_keep M (r := main_v100) (by decide), st7_keep M (r := main_v100) (by decide)]
  -- the last three stretches' result, then each buffer they read moved back to the stage that wrote it
  rw [hv21, hv87, hv100, refOps_run, seg11_13_v227,
    st10_keep M (r := main_v60) (by decide), st9_keep M (r := main_v60) (by decide), st8_keep M (r := main_v60) (by decide), st7_keep M (r := main_v60) (by decide), st6_keep M (r := main_v60) (by decide), st5_v60,
    st10_keep M (r := main_v128) (by decide), st9_keep M (r := main_v128) (by decide), st8_v128, st10_v156,
    st10_keep M (r := main_v21) (by decide), st9_keep M (r := main_v21) (by decide), st8_keep M (r := main_v21) (by decide), st7_keep M (r := main_v21) (by decide), st6_keep M (r := main_v21) (by decide), st5_keep M (r := main_v21) (by decide), st4_keep M (r := main_v21) (by decide), st3_keep M (r := main_v21) (by decide), st2_keep M (r := main_v21) (by decide),
    st10_arg M (r := main_arg3) (by decide), st10_arg M (r := main_arg12) (by decide)]

end Cert.ReferenceIdeal.RVal

end
-- ==== Proof.IntChain.lean ====
import proofs.«182125_j62079457296719_1_alg».proof.Proof.Gen.KernelIdeal.Launch
import proofs.«182125_j62079457296719_1_alg».proof.Proof.KernelIdealFrame
import proofs.«182125_j62079457296719_1_alg».proof.Proof.ReferenceOps
import Idealize.ShloMosaic.Lib.StableHlo.Run
import Idealize.ShloMosaic.Lib.Pipeline.Frame

/-! The integer index chain. Both programs derive, from the one index argument, the same three grid
    coordinates, the same in-range mask, and the same two clipped flat indices (of the staggered points and of the
    neighbour points), by the same operations in the same order: read at corresponding buffers, the two runs
    agree. -/

set_option maxRecDepth 16384

noncomputable section

namespace Cert.IntChain

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

/-! ## What a stretch leaves alone

Every host operation writes exactly one buffer, its own result, and in both programs the results' indices grow with
the program text: a stretch whose operations all write indices from `lo` on leaves every reference below `lo` as it
found it. -/

/-- The operation writes exactly one buffer: a TensorCore reference whose index in its space is at least `lo`. -/
def From {τ : Topo} {sig : RefSig} (lo : ℕ) (op : HloOp τ sig (Elt F)) : Prop :=
  ∃ y : Ref sig .tc, op.writes = {Proc.devRef .tc y} ∧ lo ≤ y.idx.val

/-- A stretch writing from `lo` on keeps a reference below `lo`. -/
theorem keep {τ : Topo} {sig : RefSig} {lo : ℕ} {ops : List (HloOp τ sig (Elt F))} (h : ops.Forall (From lo))
    (W : Valuation τ sig (Elt F)) (r : Ref sig .tc) (hr : r.idx.val < lo) :
    StableHlo.after ops W (Proc.devRef .tc r) = W (Proc.devRef .tc r) :=
  StableHlo.after_of_forall_not_mem ops W fun op hop => by
    obtain ⟨y, hy, hlo⟩ := List.forall_iff_forall_mem.mp h op hop
    rw [hy, Finset.mem_singleton]
    intro e
    have hry : r = y := Proc.devRef_injective _ e
    subst hry
    omega

theorem k_hostOps0_9_from : (Cert.KernelIdeal.Gen.hostOps0_9 : List (HloOp Cert.KernelIdeal.τ Cert.KernelIdeal.sig (Elt F))).Forall (From 149) :=
  ⟨⟨_, rfl, by decide⟩, ⟨_, rfl, by decide⟩, ⟨_, rfl, by decide⟩, ⟨_, rfl, by decide⟩, ⟨_, rfl, by decide⟩, ⟨_, rfl, by decide⟩⟩
theorem k_hostOps0_10_from : (Cert.KernelIdeal.Gen.hostOps0_10 : List (HloOp Cert.KernelIdeal.τ Cert.KernelIdeal.sig (Elt F))).Forall (From 155) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem k_hostOps0_11_from : (Cert.KernelIdeal.Gen.hostOps0_11 : List (HloOp Cert.KernelIdeal.τ Cert.KernelIdeal.sig (Elt F))).Forall (From 171) :=
  ⟨⟨_, rfl, by decide⟩, ⟨_, rfl, by decide⟩, ⟨_, rfl, by decide⟩, ⟨_, rfl, by decide⟩, ⟨_, rfl, by decide⟩, ⟨_, rfl, by decide⟩⟩
theorem k_hostOps0_12_from : (Cert.KernelIdeal.Gen.hostOps0_12 : List (HloOp Cert.KernelIdeal.τ Cert.KernelIdeal.sig (Elt F))).Forall (From 177) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg1b_from : (Cert.ReferenceIdeal.RefRun.seg1b : List (HloOp Cert.ReferenceIdeal.τ Cert.ReferenceIdeal.sig (Elt F))).Forall (From 95) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg2_from : (Cert.ReferenceIdeal.RefRun.seg2 : List (HloOp Cert.ReferenceIdeal.τ Cert.ReferenceIdeal.sig (Elt F))).Forall (From 119) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg3_from : (Cert.ReferenceIdeal.RefRun.seg3 : List (HloOp Cert.ReferenceIdeal.τ Cert.ReferenceIdeal.sig (Elt F))).Forall (From 128) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg4_from : (Cert.ReferenceIdeal.RefRun.seg4 : List (HloOp Cert.ReferenceIdeal.τ Cert.ReferenceIdeal.sig (Elt F))).Forall (From 148) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg5_from : (Cert.ReferenceIdeal.RefRun.seg5 : List (HloOp Cert.ReferenceIdeal.τ Cert.ReferenceIdeal.sig (Elt F))).Forall (From 158) :=
  ⟨⟨_, rfl, by decide⟩, ⟨_, rfl, by decide⟩, ⟨_, rfl, by decide⟩, ⟨_, rfl, by decide⟩, ⟨_, rfl, by decide⟩, ⟨_, rfl, by decide⟩⟩
theorem r_seg7_from : (Cert.ReferenceIdeal.RefRun.seg7 : List (HloOp Cert.ReferenceIdeal.τ Cert.ReferenceIdeal.sig (Elt F))).Forall (From 222) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg8_from : (Cert.ReferenceIdeal.RefRun.seg8 : List (HloOp Cert.ReferenceIdeal.τ Cert.ReferenceIdeal.sig (Elt F))).Forall (From 232) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg9_from : (Cert.ReferenceIdeal.RefRun.seg9 : List (HloOp Cert.ReferenceIdeal.τ Cert.ReferenceIdeal.sig (Elt F))).Forall (From 252) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg10_from : (Cert.ReferenceIdeal.RefRun.seg10 : List (HloOp Cert.ReferenceIdeal.τ Cert.ReferenceIdeal.sig (Elt F))).Forall (From 262) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg11_from : (Cert.ReferenceIdeal.RefRun.seg11 : List (HloOp Cert.ReferenceIdeal.τ Cert.ReferenceIdeal.sig (Elt F))).Forall (From 282) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg12_from : (Cert.ReferenceIdeal.RefRun.seg12 : List (HloOp Cert.ReferenceIdeal.τ Cert.ReferenceIdeal.sig (Elt F))).Forall (From 341) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg13_from : (Cert.ReferenceIdeal.RefRun.seg13 : List (HloOp Cert.ReferenceIdeal.τ Cert.ReferenceIdeal.sig (Elt F))).Forall (From 350) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem r_seg6_from : (Cert.ReferenceIdeal.RefRun.seg6 : List (HloOp Cert.ReferenceIdeal.τ Cert.ReferenceIdeal.sig (Elt F))).Forall (From 164) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-! ## Reading the results of a stretch

The library's one-pass rules give a three-operand operation's result with its operands' contents under a binder,
where no further rule reaches them. Here each operand's contents is read at its own reference, as an argument. -/

/-- Three values of three types as one dependent function on `Fin 3`. -/
def tri {α : Fin 3 → Sort _} (x : α 0) (y : α 1) (z : α 2) : (k : Fin 3) → α k
  | 0 => x
  | 1 => y
  | 2 => z

/-- A function of a three-reference family's contents, applied to the three contents given one by one. -/
def at3 {sig : RefSig} {Val : EltTy → Type} {x a b y : Ref sig .tc}
    (f : ((k : Fin 3) → ((![x, a, b] : Fin 3 → Ref sig .tc) k).ty.Contents Val) → y.ty.Contents Val)
    (X : x.ty.Contents Val) (Y : a.ty.Contents Val) (Z : b.ty.Contents Val) : y.ty.Contents Val :=
  f (tri (α := fun k => ((![x, a, b] : Fin 3 → Ref sig .tc) k).ty.Contents Val) X Y Z)

/-- A three-operand operation's result, each operand's contents read at its own reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (no_index (Proc.devRef .tc y))
      = at3 f (V (Proc.devRef .tc x)) (V (Proc.devRef .tc a)) (V (Proc.devRef .tc b)) := by
  unfold at3
  rw [StableHlo.nary_result]; congr 1; funext k; fin_cases k <;> rfl

/-- The results of a literal list of operations at a literal reference, in one pass; a three-operand operation's
    operands each read at its own reference. -/
macro "chain_results" : tactic =>
  `(tactic| (simp (disch := decide) only [StableHlo.after_cons, StableHlo.after_nil,
      StableHlo.nullary_result', StableHlo.unary_result', StableHlo.binary_result', StableHlo.ternary_result', StableHlo.reshape_result', nary3_result',
      StableHlo.nullary_result_ne', StableHlo.unary_result_ne', StableHlo.binary_result_ne', StableHlo.ternary_result_ne', StableHlo.reshape_result_ne',
      StableHlo.nary_result_ne']))

/-! ## The three pieces of the chain -/

set_option maxHeartbeats 16000000 in
/-- The stretches through the four coordinate calls: the three coordinates and the two offset tables. -/
theorem chainA (h12 : WK (Proc.devRef .tc Cert.KernelIdeal.main_arg12) = WR (Proc.devRef .tc Cert.ReferenceIdeal.main_arg12)) :
    (StableHlo.after (Cert.KernelIdeal.Gen.hostOps0 ++ (Cert.KernelIdeal.Gen.hostOps0_1 ++ (Cert.KernelIdeal.Gen.hostOps0_2 ++ (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7)))))))) WK (Proc.devRef .tc Cert.KernelIdeal.main_v0) = StableHlo.after Cert.ReferenceIdeal.RefRun.seg1a WR (Proc.devRef .tc Cert.ReferenceIdeal.main_v0))
    ∧ (StableHlo.after (Cert.KernelIdeal.Gen.hostOps0 ++ (Cert.KernelIdeal.Gen.hostOps0_1 ++ (Cert.KernelIdeal.Gen.hostOps0_2 ++ (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7)))))))) WK (Proc.devRef .tc Cert.KernelIdeal.main_v2) = StableHlo.after Cert.ReferenceIdeal.RefRun.seg1a WR (Proc.devRef .tc Cert.ReferenceIdeal.main_v2))
    ∧ (StableHlo.after (Cert.KernelIdeal.Gen.hostOps0 ++ (Cert.KernelIdeal.Gen.hostOps0_1 ++ (Cert.KernelIdeal.Gen.hostOps0_2 ++ (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7)))))))) WK (Proc.devRef .tc Cert.KernelIdeal.main_v3) = StableHlo.after Cert.ReferenceIdeal.RefRun.seg1a WR (Proc.devRef .tc Cert.ReferenceIdeal.main_v3))
    ∧ (StableHlo.after (Cert.KernelIdeal.Gen.hostOps0 ++ (Cert.KernelIdeal.Gen.hostOps0_1 ++ (Cert.KernelIdeal.Gen.hostOps0_2 ++ (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7)))))))) WK (Proc.devRef .tc Cert.KernelIdeal.main_c) = StableHlo.after Cert.ReferenceIdeal.RefRun.seg1a WR (Proc.devRef .tc Cert.ReferenceIdeal.main_c))
    ∧ (StableHlo.after (Cert.KernelIdeal.Gen.hostOps0 ++ (Cert.KernelIdeal.Gen.hostOps0_1 ++ (Cert.KernelIdeal.Gen.hostOps0_2 ++ (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7)))))))) WK (Proc.devRef .tc Cert.KernelIdeal.main_c_0) = StableHlo.after Cert.ReferenceIdeal.RefRun.seg1a WR (Proc.devRef .tc Cert.ReferenceIdeal.main_c_0)) := by
  simp only [StableHlo.after_append]
  refine ⟨?_, ?_, ?_, ?_, ?_⟩
  · after_results_simp
    all_goals try simp only [StableHlo.TRef.ofBuf, StableHlo.TRef.toBuf, cast_eq]
    all_goals try rw [h12]
    all_goals try rfl
  · after_results_simp
    all_goals try simp only [StableHlo.TRef.ofBuf, StableHlo.TRef.toBuf, cast_eq]
    all_goals try rw [h12]
    all_goals try rfl
  · after_results_simp
    all_goals try simp only [StableHlo.TRef.ofBuf, StableHlo.TRef.toBuf, cast_eq]
    all_goals try rw [h12]
    all_goals try rfl
  · after_results_simp
    all_goals try rfl
  · after_results_simp
    all_goals try rfl

set_option maxHeartbeats 8000000 in
/-- The in-range mask, from equal coordinates. -/
theorem chainMask (h0 : WK (Proc.devRef .tc Cert.KernelIdeal.main_v0) = WR (Proc.devRef .tc Cert.ReferenceIdeal.main_v0)) (h2 : WK (Proc.devRef .tc Cert.KernelIdeal.main_v2) = WR (Proc.devRef .tc Cert.ReferenceIdeal.main_v2))
    (h3 : WK (Proc.devRef .tc Cert.KernelIdeal.main_v3) = WR (Proc.devRef .tc Cert.ReferenceIdeal.main_v3)) :
    StableHlo.after Cert.KernelIdeal.Gen.hostOps0_8 WK (Proc.devRef .tc Cert.KernelIdeal.main_v21) = StableHlo.after Cert.ReferenceIdeal.RefRun.seg1b WR (Proc.devRef .tc Cert.ReferenceIdeal.main_v21) := by
  after_results_simp
  all_goals try rw [h0, h2, h3]
  all_goals try rfl

set_option maxHeartbeats 16000000 in
/-- The two clipped flat indices, from equal coordinates and offset tables. -/
theorem chainIdx (h0 : WK (Proc.devRef .tc Cert.KernelIdeal.main_v0) = WR (Proc.devRef .tc Cert.ReferenceIdeal.main_v0)) (h2 : WK (Proc.devRef .tc Cert.KernelIdeal.main_v2) = WR (Proc.devRef .tc Cert.ReferenceIdeal.main_v2))
    (h3 : WK (Proc.devRef .tc Cert.KernelIdeal.main_v3) = WR (Proc.devRef .tc Cert.ReferenceIdeal.main_v3)) (hc : WK (Proc.devRef .tc Cert.KernelIdeal.main_c) = WR (Proc.devRef .tc Cert.ReferenceIdeal.main_c))
    (hc0 : WK (Proc.devRef .tc Cert.KernelIdeal.main_c_0) = WR (Proc.devRef .tc Cert.ReferenceIdeal.main_c_0)) :
    (StableHlo.after (Cert.KernelIdeal.Gen.hostOps0_8 ++ (Cert.KernelIdeal.Gen.hostOps0_9 ++ (Cert.KernelIdeal.Gen.hostOps0_10 ++ (Cert.KernelIdeal.Gen.hostOps0_11)))) WK (Proc.devRef .tc Cert.KernelIdeal.main_v48) = StableHlo.after Cert.ReferenceIdeal.RefRun.seg6 WR (Proc.devRef .tc Cert.ReferenceIdeal.main_v87))
    ∧ (StableHlo.after (Cert.KernelIdeal.Gen.hostOps0_8 ++ (Cert.KernelIdeal.Gen.hostOps0_9 ++ (Cert.KernelIdeal.Gen.hostOps0_10 ++ (Cert.KernelIdeal.Gen.hostOps0_11)))) WK (Proc.devRef .tc Cert.KernelIdeal.main_v61) = StableHlo.after Cert.ReferenceIdeal.RefRun.seg6 WR (Proc.devRef .tc Cert.ReferenceIdeal.main_v100)) := by
  simp only [StableHlo.after_append]
  refine ⟨?_, ?_⟩
  · chain_results
    all_goals try simp only [StableHlo.TRef.ofBuf, StableHlo.TRef.toBuf, cast_eq]
    all_goals try rw [h0, h2, h3, hc]
    all_goals try rfl
  · chain_results
    all_goals try simp only [StableHlo.TRef.ofBuf, StableHlo.TRef.toBuf, cast_eq]
    all_goals try rw [h0, h2, h3, hc0]
    all_goals try rfl

/-! ## The chain at the programs' own valuations -/

/-- The reference run's stretches between the coordinate calls and the index computation leave the coordinates and
    the offset tables alone. -/
theorem r_keep_low (MR : Valuation Cert.ReferenceIdeal.τ Cert.ReferenceIdeal.sig (Elt F)) (r : Ref Cert.ReferenceIdeal.sig .tc) (hr : r.idx.val < 95) :
    StableHlo.after Cert.ReferenceIdeal.RefRun.seg5 (StableHlo.after Cert.ReferenceIdeal.RefRun.seg4 (StableHlo.after Cert.ReferenceIdeal.RefRun.seg3 (StableHlo.after Cert.ReferenceIdeal.RefRun.seg2 (StableHlo.after Cert.ReferenceIdeal.RefRun.seg1b (StableHlo.after Cert.ReferenceIdeal.RefRun.seg1a MR))))) (Proc.devRef .tc r) = StableHlo.after Cert.ReferenceIdeal.RefRun.seg1a MR (Proc.devRef .tc r) := by
  rw [keep r_seg5_from _ r (by omega), keep r_seg4_from _ r (by omega), keep r_seg3_from _ r (by omega),
    keep r_seg2_from _ r (by omega), keep r_seg1b_from _ r (by omega)]

/-- At the programs' own valuations: the region-entry contents of the kernel program's index buffers are the
    reference run's. -/
theorem int_chain (mK : (ℓ : Loc Cert.KernelIdeal.nD Cert.KernelIdeal.τ Cert.KernelIdeal.sig) → Buf (Elt F) ℓ) (c : Dev Cert.KernelIdeal.nD)
    (MR : Valuation Cert.ReferenceIdeal.τ Cert.ReferenceIdeal.sig (Elt F))
    (h12 : mK ((c : Thread Cert.KernelIdeal.nD Cert.KernelIdeal.τ).loc Cert.KernelIdeal.main_arg12) = MR (Proc.devRef .tc Cert.ReferenceIdeal.main_arg12)) :
    (Cert.KernelIdeal.Fr.V mK c Cert.KernelIdeal.main_v48 = StableHlo.after Cert.ReferenceIdeal.RefRun.refOps MR (Proc.devRef .tc Cert.ReferenceIdeal.main_v87))
    ∧ (Cert.KernelIdeal.Fr.V mK c Cert.KernelIdeal.main_v61 = StableHlo.after Cert.ReferenceIdeal.RefRun.refOps MR (Proc.devRef .tc Cert.ReferenceIdeal.main_v100))
    ∧ (Cert.KernelIdeal.Fr.V mK c Cert.KernelIdeal.main_v21 = StableHlo.after Cert.ReferenceIdeal.RefRun.refOps MR (Proc.devRef .tc Cert.ReferenceIdeal.main_v21)) := by
  obtain ⟨e0, e2, e3, ec, ec0⟩ := chainA (fun b => mK (c, b)) MR h12
  have hM := chainMask _ _ e0 e2 e3
  obtain ⟨hI1, hI2⟩ := chainIdx _ (StableHlo.after Cert.ReferenceIdeal.RefRun.seg5 (StableHlo.after Cert.ReferenceIdeal.RefRun.seg4 (StableHlo.after Cert.ReferenceIdeal.RefRun.seg3 (StableHlo.after Cert.ReferenceIdeal.RefRun.seg2 (StableHlo.after Cert.ReferenceIdeal.RefRun.seg1b (StableHlo.after Cert.ReferenceIdeal.RefRun.seg1a MR))))))
    (e0.trans (r_keep_low MR Cert.ReferenceIdeal.main_v0 (by decide)).symm) (e2.trans (r_keep_low MR Cert.ReferenceIdeal.main_v2 (by decide)).symm)
    (e3.trans (r_keep_low MR Cert.ReferenceIdeal.main_v3 (by decide)).symm) (ec.trans (r_keep_low MR Cert.ReferenceIdeal.main_c (by decide)).symm)
    (ec0.trans (r_keep_low MR Cert.ReferenceIdeal.main_c_0 (by decide)).symm)
  simp only [StableHlo.after_append] at hM hI1 hI2
  refine ⟨?_, ?_, ?_⟩
  · simp only [Cert.KernelIdeal.Fr.V, Cert.KernelIdeal.Fr.V0, Cert.ReferenceIdeal.RefRun.refOps, List.flatten_cons, List.flatten_nil, List.append_nil, StableHlo.after_append]
    rw [keep k_hostOps0_12_from _ Cert.KernelIdeal.main_v48 (by decide),
      keep r_seg13_from _ Cert.ReferenceIdeal.main_v87 (by decide), keep r_seg12_from _ Cert.ReferenceIdeal.main_v87 (by decide), keep r_seg11_from _ Cert.ReferenceIdeal.main_v87 (by decide), keep r_seg10_from _ Cert.ReferenceIdeal.main_v87 (by decide), keep r_seg9_from _ Cert.ReferenceIdeal.main_v87 (by decide), keep r_seg8_from _ Cert.ReferenceIdeal.main_v87 (by decide), keep r_seg7_from _ Cert.ReferenceIdeal.main_v87 (by decide)]
    exact hI1
  · simp only [Cert.KernelIdeal.Fr.V, Cert.KernelIdeal.Fr.V0, Cert.ReferenceIdeal.RefRun.refOps, List.flatten_cons, List.flatten_nil, List.append_nil, StableHlo.after_append]
    rw [keep k_hostOps0_12_from _ Cert.KernelIdeal.main_v61 (by decide),
      keep r_seg13_from _ Cert.ReferenceIdeal.main_v100 (by decide), keep r_seg12_from _ Cert.ReferenceIdeal.main_v100 (by decide), keep r_seg11_from _ Cert.ReferenceIdeal.main_v100 (by decide), keep r_seg10_from _ Cert.ReferenceIdeal.main_v100 (by decide), keep r_seg9_from _ Cert.ReferenceIdeal.main_v100 (by decide), keep r_seg8_from _ Cert.ReferenceIdeal.main_v100 (by decide), keep r_seg7_from _ Cert.ReferenceIdeal.main_v100 (by decide)]
    exact hI2
  · simp only [Cert.KernelIdeal.Fr.V, Cert.KernelIdeal.Fr.V0, Cert.ReferenceIdeal.RefRun.refOps, List.flatten_cons, List.flatten_nil, List.append_nil, StableHlo.after_append]
    rw [keep k_hostOps0_12_from _ Cert.KernelIdeal.main_v21 (by decide), keep k_hostOps0_11_from _ Cert.KernelIdeal.main_v21 (by decide), keep k_hostOps0_10_from _ Cert.KernelIdeal.main_v21 (by decide), keep k_hostOps0_9_from _ Cert.KernelIdeal.main_v21 (by decide),
      keep r_seg13_from _ Cert.ReferenceIdeal.main_v21 (by decide), keep r_seg12_from _ Cert.ReferenceIdeal.main_v21 (by decide), keep r_seg11_from _ Cert.ReferenceIdeal.main_v21 (by decide), keep r_seg10_from _ Cert.ReferenceIdeal.main_v21 (by decide), keep r_seg9_from _ Cert.ReferenceIdeal.main_v21 (by decide), keep r_seg8_from _ Cert.ReferenceIdeal.main_v21 (by decide), keep r_seg7_from _ Cert.ReferenceIdeal.main_v21 (by decide),
      keep (r_seg6_from) _ Cert.ReferenceIdeal.main_v21 (by decide),
      keep r_seg5_from _ Cert.ReferenceIdeal.main_v21 (by decide), keep r_seg4_from _ Cert.ReferenceIdeal.main_v21 (by decide), keep r_seg3_from _ Cert.ReferenceIdeal.main_v21 (by decide), keep r_seg2_from _ Cert.ReferenceIdeal.main_v21 (by decide)]
    exact hM

end Cert.IntChain

end
-- ==== Proof.Bridge.lean ====
import proofs.«182125_j62079457296719_1_alg».proof.Proof.KernelValue
import proofs.«182125_j62079457296719_1_alg».proof.Proof.KernelOut
import proofs.«182125_j62079457296719_1_alg».proof.Proof.PlumbEq
import proofs.«182125_j62079457296719_1_alg».proof.Proof.ReferenceMlp
import proofs.«182125_j62079457296719_1_alg».proof.Proof.ReferenceValue
import proofs.«182125_j62079457296719_1_alg».proof.Proof.IntChain

/-! The two programs return the same scalar.

The kernel program runs the network once on 557056 gathered rows and cuts the output into the centres' values and the
two groups of eight neighbours' values; the reference runs the network three times, once per group. Row by row the
network is one function (`MlpSpec.mlpRow`) of the row and the weights, the kernel's rows are the reference's rows
(the same table entries, fetched through a flattened index list on one side and a two-dimensional one on the other),
and the index arithmetic and the loss formula are the same operations on both sides. So the three groups of values
agree entry by entry, and with them the returned loss. -/

noncomputable section

namespace Cert.Bridge

open Cert Idealize.ShloMosaic Idealize.ShloMosaic.TcCoe Idealize.SL.Sem Idealize.ShloMosaic.StableHlo Idealize.ShloMosaic.ValueIdx

variable (m : (ℓ : Loc KernelIdeal.nD KernelIdeal.τ KernelIdeal.sig) → Buf (Elt Ideal) ℓ)
variable (M : Valuation ReferenceIdeal.τ ReferenceIdeal.sig (Elt Ideal))
variable (c : Dev KernelIdeal.nD)

/-- The reference's arguments at launch are the kernel program's. -/
structure Agree : Prop where
  a0 : M (Proc.devRef .tc ReferenceIdeal.main_arg0) = m ((c : Thread KernelIdeal.nD KernelIdeal.τ).loc KernelIdeal.main_arg0)
  a1 : M (Proc.devRef .tc ReferenceIdeal.main_arg1) = m ((c : Thread KernelIdeal.nD KernelIdeal.τ).loc KernelIdeal.main_arg1)
  a2 : M (Proc.devRef .tc ReferenceIdeal.main_arg2) = m ((c : Thread KernelIdeal.nD KernelIdeal.τ).loc KernelIdeal.main_arg2)
  a3 : M (Proc.devRef .tc ReferenceIdeal.main_arg3) = m ((c : Thread KernelIdeal.nD KernelIdeal.τ).loc KernelIdeal.main_arg3)
  a4 : M (Proc.devRef .tc ReferenceIdeal.main_arg4) = m ((c : Thread KernelIdeal.nD KernelIdeal.τ).loc KernelIdeal.main_arg4)
  a5 : M (Proc.devRef .tc ReferenceIdeal.main_arg5) = m ((c : Thread KernelIdeal.nD KernelIdeal.τ).loc KernelIdeal.main_arg5)
  a6 : M (Proc.devRef .tc ReferenceIdeal.main_arg6) = m ((c : Thread KernelIdeal.nD KernelIdeal.τ).loc KernelIdeal.main_arg6)
  a7 : M (Proc.devRef .tc ReferenceIdeal.main_arg7) = m ((c : Thread KernelIdeal.nD KernelIdeal.τ).loc KernelIdeal.main_arg7)
  a8 : M (Proc.devRef .tc ReferenceIdeal.main_arg8) = m ((c : Thread KernelIdeal.nD KernelIdeal.τ).loc KernelIdeal.main_arg8)
  a9 : M (Proc.devRef .tc ReferenceIdeal.main_arg9) = m ((c : Thread KernelIdeal.nD KernelIdeal.τ).loc KernelIdeal.main_arg9)
  a10 : M (Proc.devRef .tc ReferenceIdeal.main_arg10) = m ((c : Thread KernelIdeal.nD KernelIdeal.τ).loc KernelIdeal.main_arg10)
  a11 : M (Proc.devRef .tc ReferenceIdeal.main_arg11) = m ((c : Thread KernelIdeal.nD KernelIdeal.τ).loc KernelIdeal.main_arg11)
  a12 : M (Proc.devRef .tc ReferenceIdeal.main_arg12) = m ((c : Thread KernelIdeal.nD KernelIdeal.τ).loc KernelIdeal.main_arg12)

variable {m M c}

/-- The centres' values: entry `a` of the kernel's output is the network on the centre's row, which is the reference's
    first gather's row `a`. -/
theorem pred_eq (ha : Agree m M c) :
    KernelIdeal.KTail.predOf (KernelIdeal.KVal.outArr m c)
      = ReferenceIdeal.RFn.predOf (F := Ideal) (ReferenceIdeal.RMlp.mlpA (F := Ideal) (ReferenceIdeal.RFn.wrapGather0 (F := Ideal) (M (Proc.devRef .tc ReferenceIdeal.main_arg0)) (M (Proc.devRef .tc ReferenceIdeal.main_arg12))) (M (Proc.devRef .tc ReferenceIdeal.main_arg4)) (M (Proc.devRef .tc ReferenceIdeal.main_arg5)) (M (Proc.devRef .tc ReferenceIdeal.main_arg6)) (M (Proc.devRef .tc ReferenceIdeal.main_arg7)) (M (Proc.devRef .tc ReferenceIdeal.main_arg8)) (M (Proc.devRef .tc ReferenceIdeal.main_arg9)) (M (Proc.devRef .tc ReferenceIdeal.main_arg10)) (M (Proc.devRef .tc ReferenceIdeal.main_arg11))) := by
  funext i
  obtain ⟨a, rfl⟩ : ∃ a : Fin 32768, i = ix1 a := ⟨i 0, eq_ix1 i⟩
  show KernelIdeal.KFn.predOf (F := Ideal) (KernelIdeal.KOut.outArr m c) (ix1 a) = _
  rw [PlumbEq.predOf_apply, KernelIdeal.KOut.out_apply, PlumbEq.predOfR_apply, ReferenceIdeal.RMlp.mlpA_apply,
    KernelIdeal.Fr.V_main_arg4, KernelIdeal.Fr.V_main_arg5, KernelIdeal.Fr.V_main_arg6, KernelIdeal.Fr.V_main_arg7,
    KernelIdeal.Fr.V_main_arg8, KernelIdeal.Fr.V_main_arg9, KernelIdeal.Fr.V_main_arg10, KernelIdeal.Fr.V_main_arg11,
    ha.a4, ha.a5, ha.a6, ha.a7, ha.a8, ha.a9, ha.a10, ha.a11]
  refine congrArg (MlpSpec.mlpRow _ _ _ _ _ _ _ _) (funext fun k => ?_)
  rw [KernelIdeal.KVal.rows_eq, PlumbEq.rows_apply_lo, PlumbEq.wrapGather0_eq, ha.a0, ha.a12]

/-- The staggered neighbours' values: entry (a, j) is row 32768 + 8a + j of the kernel's rows, which is row 8a + j of the
    reference's second gather. -/
theorem ps_eq (ha : Agree m M c)
    (hS : KernelIdeal.Fr.V m c KernelIdeal.main_v48 = after ReferenceIdeal.RefRun.refOps M (Proc.devRef .tc ReferenceIdeal.main_v87)) :
    KernelIdeal.KTail.psOf (KernelIdeal.KVal.outArr m c)
      = ReferenceIdeal.RFn.psOf (F := Ideal) (ReferenceIdeal.RMlp.mlpB (F := Ideal) (ReferenceIdeal.RFn.gather3d2 (F := Ideal) (M (Proc.devRef .tc ReferenceIdeal.main_arg2))
          (after ReferenceIdeal.RefRun.refOps M (Proc.devRef .tc ReferenceIdeal.main_v87))) (M (Proc.devRef .tc ReferenceIdeal.main_arg4)) (M (Proc.devRef .tc ReferenceIdeal.main_arg5)) (M (Proc.devRef .tc ReferenceIdeal.main_arg6)) (M (Proc.devRef .tc ReferenceIdeal.main_arg7)) (M (Proc.devRef .tc ReferenceIdeal.main_arg8)) (M (Proc.devRef .tc ReferenceIdeal.main_arg9)) (M (Proc.devRef .tc ReferenceIdeal.main_arg10)) (M (Proc.devRef .tc ReferenceIdeal.main_arg11))) := by
  funext i
  obtain ⟨a, j, rfl⟩ : ∃ (a : Fin 32768) (j : Fin 8), i = ix2 a j := ⟨i 0, i 1, eq_ix2 i⟩
  show KernelIdeal.KFn.psOf (F := Ideal) (KernelIdeal.KOut.outArr m c) (ix2 a j) = _
  rw [PlumbEq.psOf_apply, KernelIdeal.KOut.out_apply, PlumbEq.psOfR_apply, ReferenceIdeal.RMlp.mlpB_apply,
    KernelIdeal.Fr.V_main_arg4, KernelIdeal.Fr.V_main_arg5, KernelIdeal.Fr.V_main_arg6, KernelIdeal.Fr.V_main_arg7,
    KernelIdeal.Fr.V_main_arg8, KernelIdeal.Fr.V_main_arg9, KernelIdeal.Fr.V_main_arg10, KernelIdeal.Fr.V_main_arg11,
    ha.a4, ha.a5, ha.a6, ha.a7, ha.a8, ha.a9, ha.a10, ha.a11]
  refine congrArg (MlpSpec.mlpRow _ _ _ _ _ _ _ _) (funext fun k => ?_)
  rw [KernelIdeal.KVal.rows_eq]
  have hidx : (⟨32768 + 8 * a.val + j.val, by omega⟩ : Fin 557056)
      = ⟨32768 + (⟨8 * a.val + j.val, by omega⟩ : Fin 262144).val, by omega⟩ := Fin.ext (Nat.add_assoc 32768 (8 * a.val) j.val)
  refine (congrArg (fun t : Fin 557056 => KernelIdeal.KFn.rows (F := Ideal) _ _ _ (ix2 t k)) hidx).trans ?_
  refine (PlumbEq.rows_apply_mid _ _ _ (⟨8 * a.val + j.val, by omega⟩ : Fin 262144) k).trans ?_
  rw [PlumbEq.gather2_eq, hS, ha.a2]

/-- The full-mesh neighbours' values: entry (a, j) is row 294912 + 8a + j of the kernel's rows, row 8a + j of the
    reference's third gather. -/
theorem pn_eq (ha : Agree m M c)
    (hN : KernelIdeal.Fr.V m c KernelIdeal.main_v61 = after ReferenceIdeal.RefRun.refOps M (Proc.devRef .tc ReferenceIdeal.main_v100)) :
    KernelIdeal.KTail.pnOf (KernelIdeal.KVal.outArr m c)
      = ReferenceIdeal.RFn.pnOf (F := Ideal) (ReferenceIdeal.RMlp.mlpB (F := Ideal) (ReferenceIdeal.RFn.gather3d0 (F := Ideal) (M (Proc.devRef .tc ReferenceIdeal.main_arg0))
          (after ReferenceIdeal.RefRun.refOps M (Proc.devRef .tc ReferenceIdeal.main_v100))) (M (Proc.devRef .tc ReferenceIdeal.main_arg4)) (M (Proc.devRef .tc ReferenceIdeal.main_arg5)) (M (Proc.devRef .tc ReferenceIdeal.main_arg6)) (M (Proc.devRef .tc ReferenceIdeal.main_arg7)) (M (Proc.devRef .tc ReferenceIdeal.main_arg8)) (M (Proc.devRef .tc ReferenceIdeal.main_arg9)) (M (Proc.devRef .tc ReferenceIdeal.main_arg10)) (M (Proc.devRef .tc ReferenceIdeal.main_arg11))) := by
  funext i
  obtain ⟨a, j, rfl⟩ : ∃ (a : Fin 32768) (j : Fin 8), i = ix2 a j := ⟨i 0, i 1, eq_ix2 i⟩
  show KernelIdeal.KFn.pnOf (F := Ideal) (KernelIdeal.KOut.outArr m c) (ix2 a j) = _
  rw [PlumbEq.pnOf_apply, KernelIdeal.KOut.out_apply, PlumbEq.pnOfR_apply, ReferenceIdeal.RMlp.mlpB_apply,
    KernelIdeal.Fr.V_main_arg4, KernelIdeal.Fr.V_main_arg5, KernelIdeal.Fr.V_main_arg6, KernelIdeal.Fr.V_main_arg7,
    KernelIdeal.Fr.V_main_arg8, KernelIdeal.Fr.V_main_arg9, KernelIdeal.Fr.V_main_arg10, KernelIdeal.Fr.V_main_arg11,
    ha.a4, ha.a5, ha.a6, ha.a7, ha.a8, ha.a9, ha.a10, ha.a11]
  refine congrArg (MlpSpec.mlpRow _ _ _ _ _ _ _ _) (funext fun k => ?_)
  rw [KernelIdeal.KVal.rows_eq]
  have hidx : (⟨294912 + 8 * a.val + j.val, by omega⟩ : Fin 557056)
      = ⟨294912 + (⟨8 * a.val + j.val, by omega⟩ : Fin 262144).val, by omega⟩ := Fin.ext (Nat.add_assoc 294912 (8 * a.val) j.val)
  refine (congrArg (fun t : Fin 557056 => KernelIdeal.KFn.rows (F := Ideal) _ _ _ (ix2 t k)) hidx).trans ?_
  refine (PlumbEq.rows_apply_hi _ _ _ (⟨8 * a.val + j.val, by omega⟩ : Fin 262144) k).trans ?_
  rw [PlumbEq.gather0_eq, hN, ha.a0]

/-- The reference's returned scalar is the kernel program's. -/
theorem value_eq (ha : Agree m M c) :
    after ReferenceIdeal.RefRun.refOps M (Proc.devRef .tc ReferenceIdeal.main_v227)
      = KernelIdeal.KTail.total (KernelIdeal.KTail.predOf (KernelIdeal.KVal.outArr m c)) (KernelIdeal.KTail.psOf (KernelIdeal.KVal.outArr m c))
          (KernelIdeal.KTail.pnOf (KernelIdeal.KVal.outArr m c)) (KernelIdeal.Fr.V m c KernelIdeal.main_v21)
          (m ((c : Thread KernelIdeal.nD KernelIdeal.τ).loc KernelIdeal.main_arg1)) (m ((c : Thread KernelIdeal.nD KernelIdeal.τ).loc KernelIdeal.main_arg3)) (m ((c : Thread KernelIdeal.nD KernelIdeal.τ).loc KernelIdeal.main_arg12)) := by
  obtain ⟨hS, hN, hK⟩ := IntChain.int_chain m c M ha.a12.symm
  rw [ReferenceIdeal.RVal.ref_value, pred_eq ha, ps_eq ha hS, pn_eq ha hN, hK]
  unfold KernelIdeal.KTail.total
  rw [ha.a1, ha.a3, ha.a12]

end Cert.Bridge

end
-- ==== Proof.lean ====
/- The certificate of `Cert.Claim`: the kernel program (at the word-level instance and idealized) and the reference each run
   to the end, fault nowhere and leave their thirteen arguments unchanged; the idealization rewrote nothing; and at the
   ideal instance the kernel program and the reference, from memories that agree on the arguments, return the same scalar.

   The mathematics. Both programs compute, from 32768 centre indices into a 128³ mesh, the loss
     mean_i |u(x_i) - f_i| + Σ_i mask_i (lapl_i - lap_i)² / max(Σ_i mask_i, 1),
   where u is a four-layer perceptron (3 → 128 → 128 → 128 → 1, tanh), x_i the centre's coordinates, and lap_i a
   finite-difference expression in u at the centre's 8 staggered and 8 full-mesh neighbours. The kernel program gathers
   all 17·32768 rows into one array and evaluates u on it in one blocked call; the reference evaluates u on the three
   groups separately with plain matrix products. At the ideal instance a row's value is the same function of the row and
   the weights on both sides (sums of products over the reals extended by ±∞, where addition is commutative and
   associative, so no finiteness is used), the rows are the same table entries, and the index arithmetic and the loss
   formula are the same operations; hence the results agree. -/
import proofs.«182125_j62079457296719_1_alg».proof.Defs
import proofs.«182125_j62079457296719_1_alg».proof.Proof.Gen.Kernel
import proofs.«182125_j62079457296719_1_alg».proof.Proof.Gen.KernelIdeal
import proofs.«182125_j62079457296719_1_alg».proof.Proof.Gen.ReferenceIdeal
import proofs.«182125_j62079457296719_1_alg».proof.Proof.Gen.Pre_finite_inputs
import proofs.«182125_j62079457296719_1_alg».proof.Proof.KernelFrame
import proofs.«182125_j62079457296719_1_alg».proof.Proof.KernelIdealFrame
import proofs.«182125_j62079457296719_1_alg».proof.Proof.KernelValue
import proofs.«182125_j62079457296719_1_alg».proof.Proof.ReferenceRun
import proofs.«182125_j62079457296719_1_alg».proof.Proof.Bridge
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Fr.frame m ρ
theorem frame_kernelIdeal : Cert.frame_KernelIdeal := fun m ρ _ => Cert.KernelIdeal.Fr.frame m ρ
theorem frame_referenceIdeal : Cert.frame_ReferenceIdeal := fun m ρ _ => Cert.ReferenceIdeal.RefRun.frame m ρ

/-- The ideal pass rewrote no operation. -/
theorem preserves : Cert.preserves_Kernel_KernelIdeal := trivial

/-- Both idealized programs end with the same returned scalar: the kernel program's run names it as the loss of its
    output array's three parts, the reference's run as the fold of its operations, and the two are equal whenever the
    launch memories agree on the arguments. -/
theorem algebraic : Cert.algebraic_KernelIdeal_ReferenceIdeal := by
  intro m ρ m' ρ' _ hagree
  refine ⟨_, Cert.KernelIdeal.KVal.kernel_run (F := Ideal) m ρ, ?_⟩
  refine (θ_run Cert.ReferenceIdeal.defs _ _).mono (fun r h c => ⟨?_, ?_⟩)
    (Cert.ReferenceIdeal.RefRun.run_raw (F := Ideal) m' ρ')
  · exact (h c Cert.ReferenceIdeal.main_v227).trans
      (Cert.Bridge.value_eq (m := m) (M := launchContents m' c) (c := c)
        ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2⟩)
  · exact ⟨(h c Cert.ReferenceIdeal.main_arg0).trans (Cert.ReferenceIdeal.RefRun.arg_kept_0 m' c),
      (h c Cert.ReferenceIdeal.main_arg1).trans (Cert.ReferenceIdeal.RefRun.arg_kept_1 m' c),
      (h c Cert.ReferenceIdeal.main_arg2).trans (Cert.ReferenceIdeal.RefRun.arg_kept_2 m' c),
      (h c Cert.ReferenceIdeal.main_arg3).trans (Cert.ReferenceIdeal.RefRun.arg_kept_3 m' c),
      (h c Cert.ReferenceIdeal.main_arg4).trans (Cert.ReferenceIdeal.RefRun.arg_kept_4 m' c),
      (h c Cert.ReferenceIdeal.main_arg5).trans (Cert.ReferenceIdeal.RefRun.arg_kept_5 m' c),
      (h c Cert.ReferenceIdeal.main_arg6).trans (Cert.ReferenceIdeal.RefRun.arg_kept_6 m' c),
      (h c Cert.ReferenceIdeal.main_arg7).trans (Cert.ReferenceIdeal.RefRun.arg_kept_7 m' c),
      (h c Cert.ReferenceIdeal.main_arg8).trans (Cert.ReferenceIdeal.RefRun.arg_kept_8 m' c),
      (h c Cert.ReferenceIdeal.main_arg9).trans (Cert.ReferenceIdeal.RefRun.arg_kept_9 m' c),
      (h c Cert.ReferenceIdeal.main_arg10).trans (Cert.ReferenceIdeal.RefRun.arg_kept_10 m' c),
      (h c Cert.ReferenceIdeal.main_arg11).trans (Cert.ReferenceIdeal.RefRun.arg_kept_11 m' c),
      (h c Cert.ReferenceIdeal.main_arg12).trans (Cert.ReferenceIdeal.RefRun.arg_kept_12 m' c)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
